-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v423)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v423) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v374) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x6x4 : Shape := ⟨3, ![8192, 6, 4]⟩
abbrev S200001x64 : Shape := ⟨2, ![200001, 64]⟩
abbrev S100001x64 : Shape := ⟨2, ![100001, 64]⟩
abbrev S2x64x64 : Shape := ⟨3, ![2, 64, 64]⟩
abbrev S3x1000000 : Shape := ⟨2, ![3, 1000000]⟩
abbrev S_ : Shape := ⟨0, ![]⟩

class Facts : Prop where
  bcast_S_S200001x64 : S_.BroadcastsInDim S200001x64 (![] : Fin 0 → Fin S200001x64.rank)
  reducesTo_S200001x64_S_d0_1 : S200001x64.ReducesTo [0, 1] S_
  h_S_ : 0 < S_.numel
  bcast_S_S100001x64 : S_.BroadcastsInDim S100001x64 (![] : Fin 0 → Fin S100001x64.rank)
  reducesTo_S100001x64_S_d0_1 : S100001x64.ReducesTo [0, 1] S_
  bcast_S_S2x64x64 : S_.BroadcastsInDim S2x64x64 (![] : Fin 0 → Fin S2x64x64.rank)
  reducesTo_S2x64x64_S_d0_1_2 : S2x64x64.ReducesTo [0, 1, 2] S_

variable [Facts]

def fn_part1 {F : FTy → Type} [FloatOps F] (main_v13 : IVec S_ 1) (main_v16 : IVec S2x64x64 1) : IVec S_ 1 :=
  let main_c_5 : IVec S_ 1 := constantI S_ 1 1#1
  let main_v17 : IVec S_ 1 := (fun x v => Host.reduce IntOp.andi x v reducesTo_S2x64x64_S_d0_1_2 h_S_) main_v16 main_c_5
  let main_v18 : IVec S_ 1 := andi main_v13 main_v17
  main_v18

def fn {F : FTy → Type} [FloatOps F] (main_arg0 : IVec S8192x6x4 32) (main_arg1 : FVec F S200001x64 .f32) (main_arg2 : FVec F S100001x64 .f32) (main_arg3 : FVec F S2x64x64 .f32) (main_arg4 : FVec F S2x64x64 .f32) (main_arg5 : IVec S3x1000000 32) (main_arg6 : IVec S3x1000000 32) : IVec S_ 1 :=
  let main_v0 : FVec F S200001x64 .f32 := Host.absf main_arg1
  let main_cst : FVec F S_ .f32 := constant S_ .f32 0x7F800000#32
  let main_v1 : FVec F S200001x64 .f32 := broadcastInDim S200001x64 ![] bcast_S_S200001x64 main_cst
  let main_v2 : IVec S200001x64 1 := cmpf .olt main_v0 main_v1
  let main_c : IVec S_ 1 := constantI S_ 1 1#1
  let main_v3 : IVec S_ 1 := (fun x v => Host.reduce IntOp.andi x v reducesTo_S200001x64_S_d0_1 h_S_) main_v2 main_c
  let main_v4 : FVec F S100001x64 .f32 := Host.absf main_arg2
  let main_cst_0 : FVec F S_ .f32 := constant S_ .f32 0x7F800000#32
  let main_v5 : FVec F S100001x64 .f32 := broadcastInDim S100001x64 ![] bcast_S_S100001x64 main_cst_0
  let main_v6 : IVec S100001x64 1 := cmpf .olt main_v4 main_v5
  let main_c_1 : IVec S_ 1 := constantI S_ 1 1#1
  let main_v7 : IVec S_ 1 := (fun x v => Host.reduce IntOp.andi x v reducesTo_S100001x64_S_d0_1 h_S_) main_v6 main_c_1
  let main_v8 : IVec S_ 1 := andi main_v3 main_v7
  let main_v9 : FVec F S2x64x64 .f32 := Host.absf main_arg3
  let main_cst_2 : FVec F S_ .f32 := constant S_ .f32 0x7F800000#32
  let main_v10 : FVec F S2x64x64 .f32 := broadcastInDim S2x64x64 ![] bcast_S_S2x64x64 main_cst_2
  let main_v11 : IVec S2x64x64 1 := cmpf .olt main_v9 main_v10
  let main_c_3 : IVec S_ 1 := constantI S_ 1 1#1
  let main_v12 : IVec S_ 1 := (fun x v => Host.reduce IntOp.andi x v reducesTo_S2x64x64_S_d0_1_2 h_S_) main_v11 main_c_3
  let main_v13 : IVec S_ 1 := andi main_v8 main_v12
  let main_v14 : FVec F S2x64x64 .f32 := Host.absf main_arg4
  let main_cst_4 : FVec F S_ .f32 := constant S_ .f32 0x7F800000#32
  let main_v15 : FVec F S2x64x64 .f32 := broadcastInDim S2x64x64 ![] bcast_S_S2x64x64 main_cst_4
  let main_v16 : IVec S2x64x64 1 := cmpf .olt main_v14 main_v15
  fn_part1 (F := F) main_v13 main_v16
-- ==== Kernel.lean ====
abbrev S8192x6x4 : Shape := ⟨3, ![8192, 6, 4]⟩
abbrev S200001x64 : Shape := ⟨2, ![200001, 64]⟩
abbrev S100001x64 : Shape := ⟨2, ![100001, 64]⟩
abbrev S2x64x64 : Shape := ⟨3, ![2, 64, 64]⟩
abbrev S3x1000000 : Shape := ⟨2, ![3, 1000000]⟩
abbrev S_ : Shape := ⟨0, ![]⟩
abbrev S1x1000000 : Shape := ⟨2, ![1, 1000000]⟩
abbrev S1000000 : Shape := ⟨1, ![1000000]⟩
abbrev S200001 : Shape := ⟨1, ![200001]⟩
abbrev S1000000x1 : Shape := ⟨2, ![1000000, 1]⟩
abbrev S100001 : Shape := ⟨1, ![100001]⟩
abbrev S1000000x64 : Shape := ⟨2, ![1000000, 64]⟩
abbrev S1x64x64 : Shape := ⟨3, ![1, 64, 64]⟩
abbrev S64x64 : Shape := ⟨2, ![64, 64]⟩
abbrev S128x128 : Shape := ⟨2, ![128, 128]⟩
abbrev S1 : Shape := ⟨1, ![1]⟩
abbrev S2 : Shape := ⟨1, ![2]⟩
abbrev S204800x64 : Shape := ⟨2, ![204800, 64]⟩
abbrev S102400x128 : Shape := ⟨2, ![102400, 128]⟩
abbrev S4096x128 : Shape := ⟨2, ![4096, 128]⟩
abbrev S106496x64 : Shape := ⟨2, ![106496, 64]⟩
abbrev S53248x128 : Shape := ⟨2, ![53248, 128]⟩
abbrev S8192x1x4 : Shape := ⟨3, ![8192, 1, 4]⟩
abbrev S8192x4 : Shape := ⟨2, ![8192, 4]⟩
abbrev S8192x4x4 : Shape := ⟨3, ![8192, 4, 4]⟩
abbrev S32768x4 : Shape := ⟨2, ![32768, 4]⟩
abbrev S8192x1 : Shape := ⟨2, ![8192, 1]⟩
abbrev S8192 : Shape := ⟨1, ![8192]⟩
abbrev S32768x1 : Shape := ⟨2, ![32768, 1]⟩
abbrev S32768 : Shape := ⟨1, ![32768]⟩
abbrev S8192x64 : Shape := ⟨2, ![8192, 64]⟩
abbrev S32768x64 : Shape := ⟨2, ![32768, 64]⟩

abbrev nBuf : Space → Nat
  | .hbm => 560
  | .vmem => 36
  | .smem => 0
  | _ => 0

abbrev hbmTy0_0 (i : Nat) : BufTy := match i % 128 with
  | 0 => ⟨S8192x6x4, .i32⟩
  | 1 => ⟨S200001x64, .f32⟩
  | 2 => ⟨S100001x64, .f32⟩
  | 3 => ⟨S2x64x64, .f32⟩
  | 4 => ⟨S2x64x64, .f32⟩
  | 5 => ⟨S3x1000000, .i32⟩
  | 6 => ⟨S3x1000000, .i32⟩
  | 7 => ⟨S_, .f32⟩
  | 8 => ⟨S200001x64, .f32⟩
  | 9 => ⟨S_, .f32⟩
  | 10 => ⟨S100001x64, .f32⟩
  | 11 => ⟨S1x1000000, .i32⟩
  | 12 => ⟨S1000000, .i32⟩
  | 13 => ⟨S1x1000000, .i32⟩
  | 14 => ⟨S1000000, .i32⟩
  | 15 => ⟨S_, .f32⟩
  | 16 => ⟨S1000000, .f32⟩
  | 17 => ⟨S_, .f32⟩
  | 18 => ⟨S200001, .f32⟩
  | 19 => ⟨S1000000x1, .i32⟩
  | 20 => ⟨S200001, .f32⟩
  | 21 => ⟨S_, .f32⟩
  | 22 => ⟨S1000000, .f32⟩
  | 23 => ⟨S_, .f32⟩
  | 24 => ⟨S100001, .f32⟩
  | 25 => ⟨S1000000x1, .i32⟩
  | 26 => ⟨S100001, .f32⟩
  | 27 => ⟨S_, .i32⟩
  | 28 => ⟨S1000000, .i32⟩
  | 29 => ⟨S1000000, .i1⟩
  | 30 => ⟨S_, .i32⟩
  | 31 => ⟨S1000000, .i32⟩
  | 32 => ⟨S1000000, .i32⟩
  | 33 => ⟨S1000000, .i32⟩
  | 34 => ⟨S1000000x1, .i32⟩
  | 35 => ⟨S1000000, .f32⟩
  | 36 => ⟨S_, .f32⟩
  | 37 => ⟨S1000000, .f32⟩
  | 38 => ⟨S1000000, .f32⟩
  | 39 => ⟨S_, .i32⟩
  | 40 => ⟨S1000000, .i32⟩
  | 41 => ⟨S1000000, .i1⟩
  | 42 => ⟨S_, .i32⟩
  | 43 => ⟨S1000000, .i32⟩
  | 44 => ⟨S1000000, .i32⟩
  | 45 => ⟨S1000000, .i32⟩
  | 46 => ⟨S1000000x1, .i32⟩
  | 47 => ⟨S1000000, .f32⟩
  | 48 => ⟨S_, .f32⟩
  | 49 => ⟨S1000000, .f32⟩
  | 50 => ⟨S1000000, .f32⟩
  | 51 => ⟨S1000000, .f32⟩
  | 52 => ⟨S1000000, .f32⟩
  | 53 => ⟨S1000000x1, .f32⟩
  | 54 => ⟨S_, .i32⟩
  | 55 => ⟨S1000000, .i32⟩
  | 56 => ⟨S1000000, .i1⟩
  | 57 => ⟨S_, .i32⟩
  | 58 => ⟨S1000000, .i32⟩
  | 59 => ⟨S1000000, .i32⟩
  | 60 => ⟨S1000000, .i32⟩
  | 61 => ⟨S1000000x1, .i32⟩
  | 62 => ⟨S1000000x64, .f32⟩
  | 63 => ⟨S1000000x64, .f32⟩
  | 64 => ⟨S1000000x64, .f32⟩
  | 65 => ⟨S_, .f32⟩
  | 66 => ⟨S200001x64, .f32⟩
  | 67 => ⟨S1000000x1, .i32⟩
  | 68 => ⟨S200001x64, .f32⟩
  | 69 => ⟨S1000000x1, .f32⟩
  | 70 => ⟨S_, .i32⟩
  | 71 => ⟨S1000000, .i32⟩
  | 72 => ⟨S1000000, .i1⟩
  | 73 => ⟨S_, .i32⟩
  | 74 => ⟨S1000000, .i32⟩
  | 75 => ⟨S1000000, .i32⟩
  | 76 => ⟨S1000000, .i32⟩
  | 77 => ⟨S1000000x1, .i32⟩
  | 78 => ⟨S1000000x64, .f32⟩
  | 79 => ⟨S1000000x64, .f32⟩
  | 80 => ⟨S1000000x64, .f32⟩
  | 81 => ⟨S_, .f32⟩
  | 82 => ⟨S100001x64, .f32⟩
  | 83 => ⟨S1000000x1, .i32⟩
  | 84 => ⟨S100001x64, .f32⟩
  | 85 => ⟨S200001x64, .f32⟩
  | 86 => ⟨S100001x64, .f32⟩
  | 87 => ⟨S1000000x1, .f32⟩
  | 88 => ⟨S_, .i32⟩
  | 89 => ⟨S1000000, .i32⟩
  | 90 => ⟨S1000000, .i1⟩
  | 91 => ⟨S_, .i32⟩
  | 92 => ⟨S1000000, .i32⟩
  | 93 => ⟨S1000000, .i32⟩
  | 94 => ⟨S1000000, .i32⟩
  | 95 => ⟨S1000000x1, .i32⟩
  | 96 => ⟨S1000000x64, .f32⟩
  | 97 => ⟨S1000000x64, .f32⟩
  | 98 => ⟨S1000000x64, .f32⟩
  | 99 => ⟨S_, .f32⟩
  | 100 => ⟨S200001x64, .f32⟩
  | 101 => ⟨S1000000x1, .i32⟩
  | 102 => ⟨S200001x64, .f32⟩
  | 103 => ⟨S1000000x1, .f32⟩
  | 104 => ⟨S_, .i32⟩
  | 105 => ⟨S1000000, .i32⟩
  | 106 => ⟨S1000000, .i1⟩
  | 107 => ⟨S_, .i32⟩
  | 108 => ⟨S1000000, .i32⟩
  | 109 => ⟨S1000000, .i32⟩
  | 110 => ⟨S1000000, .i32⟩
  | 111 => ⟨S1000000x1, .i32⟩
  | 112 => ⟨S1000000x64, .f32⟩
  | 113 => ⟨S1000000x64, .f32⟩
  | 114 => ⟨S1000000x64, .f32⟩
  | 115 => ⟨S_, .f32⟩
  | 116 => ⟨S100001x64, .f32⟩
  | 117 => ⟨S1000000x1, .i32⟩
  | 118 => ⟨S100001x64, .f32⟩
  | 119 => ⟨S200001x64, .f32⟩
  | 120 => ⟨S100001x64, .f32⟩
  | 121 => ⟨S_, .f32⟩
  | 122 => ⟨S200001x64, .f32⟩
  | 123 => ⟨S200001x64, .f32⟩
  | 124 => ⟨S_, .f32⟩
  | 125 => ⟨S100001x64, .f32⟩
  | 126 => ⟨S100001x64, .f32⟩
  | 127 => ⟨S1x64x64, .f32⟩
  | _ => ⟨S8192x6x4, .i32⟩

abbrev hbmTy0_1 (i : Nat) : BufTy := match i % 128 with
  | 0 => ⟨S64x64, .f32⟩
  | 1 => ⟨S64x64, .f32⟩
  | 2 => ⟨S_, .f32⟩
  | 3 => ⟨S128x128, .f32⟩
  | 4 => ⟨S_, .i32⟩
  | 5 => ⟨S1, .i32⟩
  | 6 => ⟨S_, .i32⟩
  | 7 => ⟨S1, .i32⟩
  | 8 => ⟨S2, .i32⟩
  | 9 => ⟨S128x128, .f32⟩
  | 10 => ⟨S_, .i32⟩
  | 11 => ⟨S1, .i32⟩
  | 12 => ⟨S_, .i32⟩
  | 13 => ⟨S1, .i32⟩
  | 14 => ⟨S2, .i32⟩
  | 15 => ⟨S128x128, .f32⟩
  | 16 => ⟨S_, .i32⟩
  | 17 => ⟨S_, .f32⟩
  | 18 => ⟨S204800x64, .f32⟩
  | 19 => ⟨S_, .i32⟩
  | 20 => ⟨S_, .f32⟩
  | 21 => ⟨S204800x64, .f32⟩
  | 22 => ⟨S102400x128, .f32⟩
  | 23 => ⟨S102400x128, .f32⟩
  | 24 => ⟨S102400x128, .f32⟩
  | 25 => ⟨S102400x128, .f32⟩
  | 26 => ⟨S204800x64, .f32⟩
  | 27 => ⟨S200001x64, .f32⟩
  | 28 => ⟨S204800x64, .f32⟩
  | 29 => ⟨S200001x64, .f32⟩
  | 30 => ⟨S1x64x64, .f32⟩
  | 31 => ⟨S64x64, .f32⟩
  | 32 => ⟨S64x64, .f32⟩
  | 33 => ⟨S_, .f32⟩
  | 34 => ⟨S128x128, .f32⟩
  | 35 => ⟨S_, .i32⟩
  | 36 => ⟨S1, .i32⟩
  | 37 => ⟨S_, .i32⟩
  | 38 => ⟨S1, .i32⟩
  | 39 => ⟨S2, .i32⟩
  | 40 => ⟨S128x128, .f32⟩
  | 41 => ⟨S_, .i32⟩
  | 42 => ⟨S1, .i32⟩
  | 43 => ⟨S_, .i32⟩
  | 44 => ⟨S1, .i32⟩
  | 45 => ⟨S2, .i32⟩
  | 46 => ⟨S128x128, .f32⟩
  | 47 => ⟨S_, .i32⟩
  | 48 => ⟨S_, .f32⟩
  | 49 => ⟨S106496x64, .f32⟩
  | 50 => ⟨S_, .i32⟩
  | 51 => ⟨S_, .f32⟩
  | 52 => ⟨S106496x64, .f32⟩
  | 53 => ⟨S53248x128, .f32⟩
  | 54 => ⟨S53248x128, .f32⟩
  | 55 => ⟨S53248x128, .f32⟩
  | 56 => ⟨S53248x128, .f32⟩
  | 57 => ⟨S106496x64, .f32⟩
  | 58 => ⟨S100001x64, .f32⟩
  | 59 => ⟨S106496x64, .f32⟩
  | 60 => ⟨S100001x64, .f32⟩
  | 61 => ⟨S1x1000000, .i32⟩
  | 62 => ⟨S1000000, .i32⟩
  | 63 => ⟨S1x1000000, .i32⟩
  | 64 => ⟨S1000000, .i32⟩
  | 65 => ⟨S_, .f32⟩
  | 66 => ⟨S1000000, .f32⟩
  | 67 => ⟨S_, .f32⟩
  | 68 => ⟨S200001, .f32⟩
  | 69 => ⟨S1000000x1, .i32⟩
  | 70 => ⟨S200001, .f32⟩
  | 71 => ⟨S_, .f32⟩
  | 72 => ⟨S1000000, .f32⟩
  | 73 => ⟨S_, .f32⟩
  | 74 => ⟨S100001, .f32⟩
  | 75 => ⟨S1000000x1, .i32⟩
  | 76 => ⟨S100001, .f32⟩
  | 77 => ⟨S_, .i32⟩
  | 78 => ⟨S1000000, .i32⟩
  | 79 => ⟨S1000000, .i1⟩
  | 80 => ⟨S_, .i32⟩
  | 81 => ⟨S1000000, .i32⟩
  | 82 => ⟨S1000000, .i32⟩
  | 83 => ⟨S1000000, .i32⟩
  | 84 => ⟨S1000000x1, .i32⟩
  | 85 => ⟨S1000000, .f32⟩
  | 86 => ⟨S_, .f32⟩
  | 87 => ⟨S1000000, .f32⟩
  | 88 => ⟨S1000000, .f32⟩
  | 89 => ⟨S_, .i32⟩
  | 90 => ⟨S1000000, .i32⟩
  | 91 => ⟨S1000000, .i1⟩
  | 92 => ⟨S_, .i32⟩
  | 93 => ⟨S1000000, .i32⟩
  | 94 => ⟨S1000000, .i32⟩
  | 95 => ⟨S1000000, .i32⟩
  | 96 => ⟨S1000000x1, .i32⟩
  | 97 => ⟨S1000000, .f32⟩
  | 98 => ⟨S_, .f32⟩
  | 99 => ⟨S1000000, .f32⟩
  | 100 => ⟨S1000000, .f32⟩
  | 101 => ⟨S1000000, .f32⟩
  | 102 => ⟨S1000000, .f32⟩
  | 103 => ⟨S1000000x1, .f32⟩
  | 104 => ⟨S_, .i32⟩
  | 105 => ⟨S1000000, .i32⟩
  | 106 => ⟨S1000000, .i1⟩
  | 107 => ⟨S_, .i32⟩
  | 108 => ⟨S1000000, .i32⟩
  | 109 => ⟨S1000000, .i32⟩
  | 110 => ⟨S1000000, .i32⟩
  | 111 => ⟨S1000000x1, .i32⟩
  | 112 => ⟨S1000000x64, .f32⟩
  | 113 => ⟨S1000000x64, .f32⟩
  | 114 => ⟨S1000000x64, .f32⟩
  | 115 => ⟨S_, .f32⟩
  | 116 => ⟨S200001x64, .f32⟩
  | 117 => ⟨S1000000x1, .i32⟩
  | 118 => ⟨S200001x64, .f32⟩
  | 119 => ⟨S1000000x1, .f32⟩
  | 120 => ⟨S_, .i32⟩
  | 121 => ⟨S1000000, .i32⟩
  | 122 => ⟨S1000000, .i1⟩
  | 123 => ⟨S_, .i32⟩
  | 124 => ⟨S1000000, .i32⟩
  | 125 => ⟨S1000000, .i32⟩
  | 126 => ⟨S1000000, .i32⟩
  | 127 => ⟨S1000000x1, .i32⟩
  | _ => ⟨S8192x6x4, .i32⟩

abbrev hbmTy0_2 (i : Nat) : BufTy := match i % 128 with
  | 0 => ⟨S1000000x64, .f32⟩
  | 1 => ⟨S1000000x64, .f32⟩
  | 2 => ⟨S1000000x64, .f32⟩
  | 3 => ⟨S_, .f32⟩
  | 4 => ⟨S100001x64, .f32⟩
  | 5 => ⟨S1000000x1, .i32⟩
  | 6 => ⟨S100001x64, .f32⟩
  | 7 => ⟨S200001x64, .f32⟩
  | 8 => ⟨S100001x64, .f32⟩
  | 9 => ⟨S1000000x1, .f32⟩
  | 10 => ⟨S_, .i32⟩
  | 11 => ⟨S1000000, .i32⟩
  | 12 => ⟨S1000000, .i1⟩
  | 13 => ⟨S_, .i32⟩
  | 14 => ⟨S1000000, .i32⟩
  | 15 => ⟨S1000000, .i32⟩
  | 16 => ⟨S1000000, .i32⟩
  | 17 => ⟨S1000000x1, .i32⟩
  | 18 => ⟨S1000000x64, .f32⟩
  | 19 => ⟨S1000000x64, .f32⟩
  | 20 => ⟨S1000000x64, .f32⟩
  | 21 => ⟨S_, .f32⟩
  | 22 => ⟨S200001x64, .f32⟩
  | 23 => ⟨S1000000x1, .i32⟩
  | 24 => ⟨S200001x64, .f32⟩
  | 25 => ⟨S1000000x1, .f32⟩
  | 26 => ⟨S_, .i32⟩
  | 27 => ⟨S1000000, .i32⟩
  | 28 => ⟨S1000000, .i1⟩
  | 29 => ⟨S_, .i32⟩
  | 30 => ⟨S1000000, .i32⟩
  | 31 => ⟨S1000000, .i32⟩
  | 32 => ⟨S1000000, .i32⟩
  | 33 => ⟨S1000000x1, .i32⟩
  | 34 => ⟨S1000000x64, .f32⟩
  | 35 => ⟨S1000000x64, .f32⟩
  | 36 => ⟨S1000000x64, .f32⟩
  | 37 => ⟨S_, .f32⟩
  | 38 => ⟨S100001x64, .f32⟩
  | 39 => ⟨S1000000x1, .i32⟩
  | 40 => ⟨S100001x64, .f32⟩
  | 41 => ⟨S200001x64, .f32⟩
  | 42 => ⟨S100001x64, .f32⟩
  | 43 => ⟨S_, .f32⟩
  | 44 => ⟨S200001x64, .f32⟩
  | 45 => ⟨S200001x64, .f32⟩
  | 46 => ⟨S_, .f32⟩
  | 47 => ⟨S100001x64, .f32⟩
  | 48 => ⟨S100001x64, .f32⟩
  | 49 => ⟨S1x64x64, .f32⟩
  | 50 => ⟨S64x64, .f32⟩
  | 51 => ⟨S64x64, .f32⟩
  | 52 => ⟨S_, .f32⟩
  | 53 => ⟨S128x128, .f32⟩
  | 54 => ⟨S_, .i32⟩
  | 55 => ⟨S1, .i32⟩
  | 56 => ⟨S_, .i32⟩
  | 57 => ⟨S1, .i32⟩
  | 58 => ⟨S2, .i32⟩
  | 59 => ⟨S128x128, .f32⟩
  | 60 => ⟨S_, .i32⟩
  | 61 => ⟨S1, .i32⟩
  | 62 => ⟨S_, .i32⟩
  | 63 => ⟨S1, .i32⟩
  | 64 => ⟨S2, .i32⟩
  | 65 => ⟨S128x128, .f32⟩
  | 66 => ⟨S_, .i32⟩
  | 67 => ⟨S_, .f32⟩
  | 68 => ⟨S204800x64, .f32⟩
  | 69 => ⟨S_, .i32⟩
  | 70 => ⟨S_, .f32⟩
  | 71 => ⟨S204800x64, .f32⟩
  | 72 => ⟨S102400x128, .f32⟩
  | 73 => ⟨S102400x128, .f32⟩
  | 74 => ⟨S102400x128, .f32⟩
  | 75 => ⟨S102400x128, .f32⟩
  | 76 => ⟨S204800x64, .f32⟩
  | 77 => ⟨S200001x64, .f32⟩
  | 78 => ⟨S204800x64, .f32⟩
  | 79 => ⟨S200001x64, .f32⟩
  | 80 => ⟨S1x64x64, .f32⟩
  | 81 => ⟨S64x64, .f32⟩
  | 82 => ⟨S64x64, .f32⟩
  | 83 => ⟨S_, .f32⟩
  | 84 => ⟨S128x128, .f32⟩
  | 85 => ⟨S_, .i32⟩
  | 86 => ⟨S1, .i32⟩
  | 87 => ⟨S_, .i32⟩
  | 88 => ⟨S1, .i32⟩
  | 89 => ⟨S2, .i32⟩
  | 90 => ⟨S128x128, .f32⟩
  | 91 => ⟨S_, .i32⟩
  | 92 => ⟨S1, .i32⟩
  | 93 => ⟨S_, .i32⟩
  | 94 => ⟨S1, .i32⟩
  | 95 => ⟨S2, .i32⟩
  | 96 => ⟨S128x128, .f32⟩
  | 97 => ⟨S_, .i32⟩
  | 98 => ⟨S_, .f32⟩
  | 99 => ⟨S106496x64, .f32⟩
  | 100 => ⟨S_, .i32⟩
  | 101 => ⟨S_, .f32⟩
  | 102 => ⟨S106496x64, .f32⟩
  | 103 => ⟨S53248x128, .f32⟩
  | 104 => ⟨S53248x128, .f32⟩
  | 105 => ⟨S53248x128, .f32⟩
  | 106 => ⟨S53248x128, .f32⟩
  | 107 => ⟨S106496x64, .f32⟩
  | 108 => ⟨S100001x64, .f32⟩
  | 109 => ⟨S106496x64, .f32⟩
  | 110 => ⟨S100001x64, .f32⟩
  | 111 => ⟨S1x1000000, .i32⟩
  | 112 => ⟨S1000000, .i32⟩
  | 113 => ⟨S1x1000000, .i32⟩
  | 114 => ⟨S1000000, .i32⟩
  | 115 => ⟨S_, .f32⟩
  | 116 => ⟨S1000000, .f32⟩
  | 117 => ⟨S_, .f32⟩
  | 118 => ⟨S200001, .f32⟩
  | 119 => ⟨S1000000x1, .i32⟩
  | 120 => ⟨S200001, .f32⟩
  | 121 => ⟨S_, .f32⟩
  | 122 => ⟨S1000000, .f32⟩
  | 123 => ⟨S_, .f32⟩
  | 124 => ⟨S100001, .f32⟩
  | 125 => ⟨S1000000x1, .i32⟩
  | 126 => ⟨S100001, .f32⟩
  | 127 => ⟨S_, .i32⟩
  | _ => ⟨S8192x6x4, .i32⟩

abbrev hbmTy0_3 (i : Nat) : BufTy := match i % 128 with
  | 0 => ⟨S1000000, .i32⟩
  | 1 => ⟨S1000000, .i1⟩
  | 2 => ⟨S_, .i32⟩
  | 3 => ⟨S1000000, .i32⟩
  | 4 => ⟨S1000000, .i32⟩
  | 5 => ⟨S1000000, .i32⟩
  | 6 => ⟨S1000000x1, .i32⟩
  | 7 => ⟨S1000000, .f32⟩
  | 8 => ⟨S_, .f32⟩
  | 9 => ⟨S1000000, .f32⟩
  | 10 => ⟨S1000000, .f32⟩
  | 11 => ⟨S_, .i32⟩
  | 12 => ⟨S1000000, .i32⟩
  | 13 => ⟨S1000000, .i1⟩
  | 14 => ⟨S_, .i32⟩
  | 15 => ⟨S1000000, .i32⟩
  | 16 => ⟨S1000000, .i32⟩
  | 17 => ⟨S1000000, .i32⟩
  | 18 => ⟨S1000000x1, .i32⟩
  | 19 => ⟨S1000000, .f32⟩
  | 20 => ⟨S_, .f32⟩
  | 21 => ⟨S1000000, .f32⟩
  | 22 => ⟨S1000000, .f32⟩
  | 23 => ⟨S1000000, .f32⟩
  | 24 => ⟨S1000000, .f32⟩
  | 25 => ⟨S1000000x1, .f32⟩
  | 26 => ⟨S_, .i32⟩
  | 27 => ⟨S1000000, .i32⟩
  | 28 => ⟨S1000000, .i1⟩
  | 29 => ⟨S_, .i32⟩
  | 30 => ⟨S1000000, .i32⟩
  | 31 => ⟨S1000000, .i32⟩
  | 32 => ⟨S1000000, .i32⟩
  | 33 => ⟨S1000000x1, .i32⟩
  | 34 => ⟨S1000000x64, .f32⟩
  | 35 => ⟨S1000000x64, .f32⟩
  | 36 => ⟨S1000000x64, .f32⟩
  | 37 => ⟨S_, .f32⟩
  | 38 => ⟨S200001x64, .f32⟩
  | 39 => ⟨S1000000x1, .i32⟩
  | 40 => ⟨S200001x64, .f32⟩
  | 41 => ⟨S1000000x1, .f32⟩
  | 42 => ⟨S_, .i32⟩
  | 43 => ⟨S1000000, .i32⟩
  | 44 => ⟨S1000000, .i1⟩
  | 45 => ⟨S_, .i32⟩
  | 46 => ⟨S1000000, .i32⟩
  | 47 => ⟨S1000000, .i32⟩
  | 48 => ⟨S1000000, .i32⟩
  | 49 => ⟨S1000000x1, .i32⟩
  | 50 => ⟨S1000000x64, .f32⟩
  | 51 => ⟨S1000000x64, .f32⟩
  | 52 => ⟨S1000000x64, .f32⟩
  | 53 => ⟨S_, .f32⟩
  | 54 => ⟨S100001x64, .f32⟩
  | 55 => ⟨S1000000x1, .i32⟩
  | 56 => ⟨S100001x64, .f32⟩
  | 57 => ⟨S200001x64, .f32⟩
  | 58 => ⟨S100001x64, .f32⟩
  | 59 => ⟨S1000000x1, .f32⟩
  | 60 => ⟨S_, .i32⟩
  | 61 => ⟨S1000000, .i32⟩
  | 62 => ⟨S1000000, .i1⟩
  | 63 => ⟨S_, .i32⟩
  | 64 => ⟨S1000000, .i32⟩
  | 65 => ⟨S1000000, .i32⟩
  | 66 => ⟨S1000000, .i32⟩
  | 67 => ⟨S1000000x1, .i32⟩
  | 68 => ⟨S1000000x64, .f32⟩
  | 69 => ⟨S1000000x64, .f32⟩
  | 70 => ⟨S1000000x64, .f32⟩
  | 71 => ⟨S_, .f32⟩
  | 72 => ⟨S200001x64, .f32⟩
  | 73 => ⟨S1000000x1, .i32⟩
  | 74 => ⟨S200001x64, .f32⟩
  | 75 => ⟨S1000000x1, .f32⟩
  | 76 => ⟨S_, .i32⟩
  | 77 => ⟨S1000000, .i32⟩
  | 78 => ⟨S1000000, .i1⟩
  | 79 => ⟨S_, .i32⟩
  | 80 => ⟨S1000000, .i32⟩
  | 81 => ⟨S1000000, .i32⟩
  | 82 => ⟨S1000000, .i32⟩
  | 83 => ⟨S1000000x1, .i32⟩
  | 84 => ⟨S1000000x64, .f32⟩
  | 85 => ⟨S1000000x64, .f32⟩
  | 86 => ⟨S1000000x64, .f32⟩
  | 87 => ⟨S_, .f32⟩
  | 88 => ⟨S100001x64, .f32⟩
  | 89 => ⟨S1000000x1, .i32⟩
  | 90 => ⟨S100001x64, .f32⟩
  | 91 => ⟨S200001x64, .f32⟩
  | 92 => ⟨S100001x64, .f32⟩
  | 93 => ⟨S_, .f32⟩
  | 94 => ⟨S200001x64, .f32⟩
  | 95 => ⟨S200001x64, .f32⟩
  | 96 => ⟨S_, .f32⟩
  | 97 => ⟨S100001x64, .f32⟩
  | 98 => ⟨S100001x64, .f32⟩
  | 99 => ⟨S200001x64, .f32⟩
  | 100 => ⟨S100001x64, .f32⟩
  | 101 => ⟨S8192x1x4, .i32⟩
  | 102 => ⟨S8192x4, .i32⟩
  | 103 => ⟨S8192x4x4, .i32⟩
  | 104 => ⟨S32768x4, .i32⟩
  | 105 => ⟨S8192x1, .i32⟩
  | 106 => ⟨S8192, .i32⟩
  | 107 => ⟨S8192x1, .i32⟩
  | 108 => ⟨S8192, .i32⟩
  | 109 => ⟨S32768x1, .i32⟩
  | 110 => ⟨S32768, .i32⟩
  | 111 => ⟨S32768x1, .i32⟩
  | 112 => ⟨S32768, .i32⟩
  | 113 => ⟨S_, .i32⟩
  | 114 => ⟨S8192, .i32⟩
  | 115 => ⟨S8192, .i1⟩
  | 116 => ⟨S_, .i32⟩
  | 117 => ⟨S8192, .i32⟩
  | 118 => ⟨S8192, .i32⟩
  | 119 => ⟨S8192, .i32⟩
  | 120 => ⟨S8192x1, .i32⟩
  | 121 => ⟨S8192x64, .f32⟩
  | 122 => ⟨S_, .i32⟩
  | 123 => ⟨S8192, .i32⟩
  | 124 => ⟨S8192, .i1⟩
  | 125 => ⟨S_, .i32⟩
  | 126 => ⟨S8192, .i32⟩
  | 127 => ⟨S8192, .i32⟩
  | _ => ⟨S8192x6x4, .i32⟩

abbrev hbmTy0_4 (i : Nat) : BufTy := match i % 128 with
  | 0 => ⟨S8192, .i32⟩
  | 1 => ⟨S8192x1, .i32⟩
  | 2 => ⟨S8192x64, .f32⟩
  | 3 => ⟨S8192x64, .f32⟩
  | 4 => ⟨S_, .f32⟩
  | 5 => ⟨S8192, .f32⟩
  | 6 => ⟨S_, .i32⟩
  | 7 => ⟨S32768, .i32⟩
  | 8 => ⟨S32768, .i1⟩
  | 9 => ⟨S_, .i32⟩
  | 10 => ⟨S32768, .i32⟩
  | 11 => ⟨S32768, .i32⟩
  | 12 => ⟨S32768, .i32⟩
  | 13 => ⟨S32768x1, .i32⟩
  | 14 => ⟨S32768x64, .f32⟩
  | 15 => ⟨S_, .i32⟩
  | 16 => ⟨S32768, .i32⟩
  | 17 => ⟨S32768, .i1⟩
  | 18 => ⟨S_, .i32⟩
  | 19 => ⟨S32768, .i32⟩
  | 20 => ⟨S32768, .i32⟩
  | 21 => ⟨S32768, .i32⟩
  | 22 => ⟨S32768x1, .i32⟩
  | 23 => ⟨S32768x64, .f32⟩
  | 24 => ⟨S32768x64, .f32⟩
  | 25 => ⟨S_, .f32⟩
  | 26 => ⟨S32768, .f32⟩
  | 27 => ⟨S8192x1, .f32⟩
  | 28 => ⟨S8192x4, .f32⟩
  | 29 => ⟨S32768, .f32⟩
  | 30 => ⟨S32768, .f32⟩
  | 31 => ⟨S32768, .f32⟩
  | 32 => ⟨S32768, .f32⟩
  | 33 => ⟨S_, .f32⟩
  | 34 => ⟨S32768, .f32⟩
  | 35 => ⟨S32768, .f32⟩
  | 36 => ⟨S_, .f32⟩
  | 37 => ⟨S32768, .f32⟩
  | 38 => ⟨S32768, .f32⟩
  | 39 => ⟨S_, .f32⟩
  | 40 => ⟨S32768, .f32⟩
  | 41 => ⟨S32768, .f32⟩
  | 42 => ⟨S32768, .f32⟩
  | 43 => ⟨S32768, .f32⟩
  | 44 => ⟨S_, .f32⟩
  | 45 => ⟨S_, .f32⟩
  | 46 => ⟨S_, .f32⟩
  | 47 => ⟨S_, .f32⟩
  | _ => ⟨S8192x6x4, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8192x6x4, .i32⟩

abbrev bufTy : (tb : Table) → Fin (tcTables nBuf tb) → BufTy
  | .hbm, ⟨i, _⟩ => hbmTy i
  | .local _ .vmem, ⟨0, _⟩ => ⟨S4096x128, .f32⟩
  | .local _ .vmem, ⟨1, _⟩ => ⟨S4096x128, .f32⟩
  | .local _ .vmem, ⟨2, _⟩ => ⟨S128x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S128x128, .f32⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | .local _ .vmem, ⟨16, _⟩ => ⟨S4096x128, .f32⟩
  | .local _ .vmem, ⟨17, _⟩ => ⟨S4096x128, .f32⟩
  | .local _ .vmem, ⟨18, _⟩ => ⟨S4096x128, .f32⟩
  | .local _ .vmem, ⟨19, _⟩ => ⟨S4096x128, .f32⟩
  | .local _ .vmem, ⟨20, _⟩ => ⟨S128x128, .f32⟩
  | .local _ .vmem, ⟨21, _⟩ => ⟨S4096x128, .f32⟩
  | .local _ .vmem, ⟨22, _⟩ => ⟨S4096x128, .f32⟩
  | .local _ .vmem, ⟨23, _⟩ => ⟨S4096x128, .f32⟩
  | .local _ .vmem, ⟨24, _⟩ => ⟨S4096x128, .f32⟩
  | .local _ .vmem, ⟨25, _⟩ => ⟨S4096x128, .f32⟩
  | .local _ .vmem, ⟨26, _⟩ => ⟨S4096x128, .f32⟩
  | .local _ .vmem, ⟨27, _⟩ => ⟨S4096x128, .f32⟩
  | .local _ .vmem, ⟨28, _⟩ => ⟨S4096x128, .f32⟩
  | .local _ .vmem, ⟨29, _⟩ => ⟨S128x128, .f32⟩
  | .local _ .vmem, ⟨30, _⟩ => ⟨S4096x128, .f32⟩
  | .local _ .vmem, ⟨31, _⟩ => ⟨S4096x128, .f32⟩
  | .local _ .vmem, ⟨32, _⟩ => ⟨S4096x128, .f32⟩
  | .local _ .vmem, ⟨33, _⟩ => ⟨S4096x128, .f32⟩
  | .local _ .vmem, ⟨34, _⟩ => ⟨S4096x128, .f32⟩
  | .local _ .vmem, ⟨35, _⟩ => ⟨S4096x128, .f32⟩
  | _, _ => ⟨S8192x6x4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_6 : Ref sig .tc := ⟨.hbm, 36, rfl⟩
abbrev main_v21 : Ref sig .tc := ⟨.hbm, 37, rfl⟩
abbrev main_v22 : Ref sig .tc := ⟨.hbm, 38, rfl⟩
abbrev main_c_7 : Ref sig .tc := ⟨.hbm, 39, rfl⟩
abbrev main_v23 : Ref sig .tc := ⟨.hbm, 40, rfl⟩
abbrev main_v24 : Ref sig .tc := ⟨.hbm, 41, rfl⟩
abbrev main_c_8 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_9 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_10 : Ref sig .tc := ⟨.hbm, 54, rfl⟩
abbrev main_v35 : Ref sig .tc := ⟨.hbm, 55, rfl⟩
abbrev main_v36 : Ref sig .tc := ⟨.hbm, 56, rfl⟩
abbrev main_c_11 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_12 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_13 : Ref sig .tc := ⟨.hbm, 70, rfl⟩
abbrev main_v48 : Ref sig .tc := ⟨.hbm, 71, rfl⟩
abbrev main_v49 : Ref sig .tc := ⟨.hbm, 72, rfl⟩
abbrev main_c_14 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_15 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_c_16 : Ref sig .tc := ⟨.hbm, 88, rfl⟩
abbrev main_v63 : Ref sig .tc := ⟨.hbm, 89, rfl⟩
abbrev main_v64 : Ref sig .tc := ⟨.hbm, 90, rfl⟩
abbrev main_c_17 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_18 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_c_19 : Ref sig .tc := ⟨.hbm, 104, rfl⟩
abbrev main_v76 : Ref sig .tc := ⟨.hbm, 105, rfl⟩
abbrev main_v77 : Ref sig .tc := ⟨.hbm, 106, rfl⟩
abbrev main_c_20 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_cst_21 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_cst_22 : Ref sig .tc := ⟨.hbm, 121, rfl⟩
abbrev main_v90 : Ref sig .tc := ⟨.hbm, 122, rfl⟩
abbrev main_v91 : Ref sig .tc := ⟨.hbm, 123, rfl⟩
abbrev main_cst_23 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_cst_24 : Ref sig .tc := ⟨.hbm, 130, rfl⟩
abbrev main_v97 : Ref sig .tc := ⟨.hbm, 131, rfl⟩
abbrev main_c_25 : Ref sig .tc := ⟨.hbm, 132, rfl⟩
abbrev main_v98 : Ref sig .tc := ⟨.hbm, 133, rfl⟩
abbrev main_c_26 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_c_27 : Ref sig .tc := ⟨.hbm, 138, rfl⟩
abbrev main_v102 : Ref sig .tc := ⟨.hbm, 139, rfl⟩
abbrev main_c_28 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_c_29 : Ref sig .tc := ⟨.hbm, 144, rfl⟩
abbrev main_call0_v0 : Ref sig .tc := ⟨.hbm, 145, rfl⟩
abbrev main_v106 : Ref sig .tc := ⟨.hbm, 146, rfl⟩
abbrev main_c_30 : Ref sig .tc := ⟨.hbm, 147, rfl⟩
abbrev main_call1_v0 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110_0 : Ref sig .tc := ⟨.hbm, 152, rfl⟩
abbrev main_v110_1 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_cst_31 : Ref sig .tc := ⟨.hbm, 161, rfl⟩
abbrev main_v118 : Ref sig .tc := ⟨.hbm, 162, rfl⟩
abbrev main_c_32 : Ref sig .tc := ⟨.hbm, 163, rfl⟩
abbrev main_v119 : Ref sig .tc := ⟨.hbm, 164, rfl⟩
abbrev main_c_33 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_c_34 : Ref sig .tc := ⟨.hbm, 169, rfl⟩
abbrev main_v123 : Ref sig .tc := ⟨.hbm, 170, rfl⟩
abbrev main_c_35 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_c_36 : Ref sig .tc := ⟨.hbm, 175, rfl⟩
abbrev main_call2_v0 : Ref sig .tc := ⟨.hbm, 176, rfl⟩
abbrev main_v127 : Ref sig .tc := ⟨.hbm, 177, rfl⟩
abbrev main_c_37 : Ref sig .tc := ⟨.hbm, 178, rfl⟩
abbrev main_call3_v0 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131_0 : Ref sig .tc := ⟨.hbm, 183, rfl⟩
abbrev main_v131_1 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_cst_38 : Ref sig .tc := ⟨.hbm, 193, rfl⟩
abbrev main_v140 : Ref sig .tc := ⟨.hbm, 194, rfl⟩
abbrev main_cst_39 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_cst_40 : Ref sig .tc := ⟨.hbm, 199, rfl⟩
abbrev main_v144 : Ref sig .tc := ⟨.hbm, 200, rfl⟩
abbrev main_cst_41 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_c_42 : Ref sig .tc := ⟨.hbm, 205, rfl⟩
abbrev main_v148 : Ref sig .tc := ⟨.hbm, 206, rfl⟩
abbrev main_v149 : Ref sig .tc := ⟨.hbm, 207, rfl⟩
abbrev main_c_43 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_cst_44 : Ref sig .tc := ⟨.hbm, 214, rfl⟩
abbrev main_v155 : Ref sig .tc := ⟨.hbm, 215, rfl⟩
abbrev main_v156 : Ref sig .tc := ⟨.hbm, 216, rfl⟩
abbrev main_c_45 : Ref sig .tc := ⟨.hbm, 217, rfl⟩
abbrev main_v157 : Ref sig .tc := ⟨.hbm, 218, rfl⟩
abbrev main_v158 : Ref sig .tc := ⟨.hbm, 219, rfl⟩
abbrev main_c_46 : Ref sig .tc := ⟨.hbm, 220, rfl⟩
abbrev main_v159 : Ref sig .tc := ⟨.hbm, 221, rfl⟩
abbrev main_v160 : Ref sig .tc := ⟨.hbm, 222, rfl⟩
abbrev main_v161 : Ref sig .tc := ⟨.hbm, 223, rfl⟩
abbrev main_v162 : Ref sig .tc := ⟨.hbm, 224, rfl⟩
abbrev main_v163 : Ref sig .tc := ⟨.hbm, 225, rfl⟩
abbrev main_cst_47 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_c_48 : Ref sig .tc := ⟨.hbm, 232, rfl⟩
abbrev main_v169 : Ref sig .tc := ⟨.hbm, 233, rfl⟩
abbrev main_v170 : Ref sig .tc := ⟨.hbm, 234, rfl⟩
abbrev main_c_49 : Ref sig .tc := ⟨.hbm, 235, rfl⟩
abbrev main_v171 : Ref sig .tc := ⟨.hbm, 236, rfl⟩
abbrev main_v172 : Ref sig .tc := ⟨.hbm, 237, rfl⟩
abbrev main_v173 : Ref sig .tc := ⟨.hbm, 238, rfl⟩
abbrev main_v174 : Ref sig .tc := ⟨.hbm, 239, rfl⟩
abbrev main_v175 : Ref sig .tc := ⟨.hbm, 240, rfl⟩
abbrev main_v176 : Ref sig .tc := ⟨.hbm, 241, rfl⟩
abbrev main_v177 : Ref sig .tc := ⟨.hbm, 242, rfl⟩
abbrev main_cst_50 : Ref sig .tc := ⟨.hbm, 243, rfl⟩
abbrev main_v178 : Ref sig .tc := ⟨.hbm, 244, rfl⟩
abbrev main_v179 : Ref sig .tc := ⟨.hbm, 245, rfl⟩
abbrev main_v180 : Ref sig .tc := ⟨.hbm, 246, rfl⟩
abbrev main_v181 : Ref sig .tc := ⟨.hbm, 247, rfl⟩
abbrev main_c_51 : Ref sig .tc := ⟨.hbm, 248, rfl⟩
abbrev main_v182 : Ref sig .tc := ⟨.hbm, 249, rfl⟩
abbrev main_v183 : Ref sig .tc := ⟨.hbm, 250, rfl⟩
abbrev main_c_52 : Ref sig .tc := ⟨.hbm, 251, rfl⟩
abbrev main_v184 : Ref sig .tc := ⟨.hbm, 252, rfl⟩
abbrev main_v185 : Ref sig .tc := ⟨.hbm, 253, rfl⟩
abbrev main_v186 : Ref sig .tc := ⟨.hbm, 254, rfl⟩
abbrev main_v187 : Ref sig .tc := ⟨.hbm, 255, rfl⟩
abbrev main_v188 : Ref sig .tc := ⟨.hbm, 256, rfl⟩
abbrev main_v189 : Ref sig .tc := ⟨.hbm, 257, rfl⟩
abbrev main_v190 : Ref sig .tc := ⟨.hbm, 258, rfl⟩
abbrev main_cst_53 : Ref sig .tc := ⟨.hbm, 259, rfl⟩
abbrev main_v191 : Ref sig .tc := ⟨.hbm, 260, rfl⟩
abbrev main_v192 : Ref sig .tc := ⟨.hbm, 261, rfl⟩
abbrev main_v193 : Ref sig .tc := ⟨.hbm, 262, rfl⟩
abbrev main_v194 : Ref sig .tc := ⟨.hbm, 263, rfl⟩
abbrev main_v195 : Ref sig .tc := ⟨.hbm, 264, rfl⟩
abbrev main_v196 : Ref sig .tc := ⟨.hbm, 265, rfl⟩
abbrev main_c_54 : Ref sig .tc := ⟨.hbm, 266, rfl⟩
abbrev main_v197 : Ref sig .tc := ⟨.hbm, 267, rfl⟩
abbrev main_v198 : Ref sig .tc := ⟨.hbm, 268, rfl⟩
abbrev main_c_55 : Ref sig .tc := ⟨.hbm, 269, rfl⟩
abbrev main_v199 : Ref sig .tc := ⟨.hbm, 270, rfl⟩
abbrev main_v200 : Ref sig .tc := ⟨.hbm, 271, rfl⟩
abbrev main_v201 : Ref sig .tc := ⟨.hbm, 272, rfl⟩
abbrev main_v202 : Ref sig .tc := ⟨.hbm, 273, rfl⟩
abbrev main_v203 : Ref sig .tc := ⟨.hbm, 274, rfl⟩
abbrev main_v204 : Ref sig .tc := ⟨.hbm, 275, rfl⟩
abbrev main_v205 : Ref sig .tc := ⟨.hbm, 276, rfl⟩
abbrev main_cst_56 : Ref sig .tc := ⟨.hbm, 277, rfl⟩
abbrev main_v206 : Ref sig .tc := ⟨.hbm, 278, rfl⟩
abbrev main_v207 : Ref sig .tc := ⟨.hbm, 279, rfl⟩
abbrev main_v208 : Ref sig .tc := ⟨.hbm, 280, rfl⟩
abbrev main_v209 : Ref sig .tc := ⟨.hbm, 281, rfl⟩
abbrev main_c_57 : Ref sig .tc := ⟨.hbm, 282, rfl⟩
abbrev main_v210 : Ref sig .tc := ⟨.hbm, 283, rfl⟩
abbrev main_v211 : Ref sig .tc := ⟨.hbm, 284, rfl⟩
abbrev main_c_58 : Ref sig .tc := ⟨.hbm, 285, rfl⟩
abbrev main_v212 : Ref sig .tc := ⟨.hbm, 286, rfl⟩
abbrev main_v213 : Ref sig .tc := ⟨.hbm, 287, rfl⟩
abbrev main_v214 : Ref sig .tc := ⟨.hbm, 288, rfl⟩
abbrev main_v215 : Ref sig .tc := ⟨.hbm, 289, rfl⟩
abbrev main_v216 : Ref sig .tc := ⟨.hbm, 290, rfl⟩
abbrev main_v217 : Ref sig .tc := ⟨.hbm, 291, rfl⟩
abbrev main_v218 : Ref sig .tc := ⟨.hbm, 292, rfl⟩
abbrev main_cst_59 : Ref sig .tc := ⟨.hbm, 293, rfl⟩
abbrev main_v219 : Ref sig .tc := ⟨.hbm, 294, rfl⟩
abbrev main_v220 : Ref sig .tc := ⟨.hbm, 295, rfl⟩
abbrev main_v221 : Ref sig .tc := ⟨.hbm, 296, rfl⟩
abbrev main_v222 : Ref sig .tc := ⟨.hbm, 297, rfl⟩
abbrev main_v223 : Ref sig .tc := ⟨.hbm, 298, rfl⟩
abbrev main_cst_60 : Ref sig .tc := ⟨.hbm, 299, rfl⟩
abbrev main_v224 : Ref sig .tc := ⟨.hbm, 300, rfl⟩
abbrev main_v225 : Ref sig .tc := ⟨.hbm, 301, rfl⟩
abbrev main_cst_61 : Ref sig .tc := ⟨.hbm, 302, rfl⟩
abbrev main_v226 : Ref sig .tc := ⟨.hbm, 303, rfl⟩
abbrev main_v227 : Ref sig .tc := ⟨.hbm, 304, rfl⟩
abbrev main_v228 : Ref sig .tc := ⟨.hbm, 305, rfl⟩
abbrev main_v229 : Ref sig .tc := ⟨.hbm, 306, rfl⟩
abbrev main_v230 : Ref sig .tc := ⟨.hbm, 307, rfl⟩
abbrev main_cst_62 : Ref sig .tc := ⟨.hbm, 308, rfl⟩
abbrev main_v231 : Ref sig .tc := ⟨.hbm, 309, rfl⟩
abbrev main_c_63 : Ref sig .tc := ⟨.hbm, 310, rfl⟩
abbrev main_v232 : Ref sig .tc := ⟨.hbm, 311, rfl⟩
abbrev main_c_64 : Ref sig .tc := ⟨.hbm, 312, rfl⟩
abbrev main_v233 : Ref sig .tc := ⟨.hbm, 313, rfl⟩
abbrev main_v234 : Ref sig .tc := ⟨.hbm, 314, rfl⟩
abbrev main_v235 : Ref sig .tc := ⟨.hbm, 315, rfl⟩
abbrev main_c_65 : Ref sig .tc := ⟨.hbm, 316, rfl⟩
abbrev main_v236 : Ref sig .tc := ⟨.hbm, 317, rfl⟩
abbrev main_c_66 : Ref sig .tc := ⟨.hbm, 318, rfl⟩
abbrev main_v237 : Ref sig .tc := ⟨.hbm, 319, rfl⟩
abbrev main_v238 : Ref sig .tc := ⟨.hbm, 320, rfl⟩
abbrev main_v239 : Ref sig .tc := ⟨.hbm, 321, rfl⟩
abbrev main_c_67 : Ref sig .tc := ⟨.hbm, 322, rfl⟩
abbrev main_call4_v0 : Ref sig .tc := ⟨.hbm, 323, rfl⟩
abbrev main_v240 : Ref sig .tc := ⟨.hbm, 324, rfl⟩
abbrev main_c_68 : Ref sig .tc := ⟨.hbm, 325, rfl⟩
abbrev main_call5_v0 : Ref sig .tc := ⟨.hbm, 326, rfl⟩
abbrev main_v241 : Ref sig .tc := ⟨.hbm, 327, rfl⟩
abbrev main_v242 : Ref sig .tc := ⟨.hbm, 328, rfl⟩
abbrev main_v243 : Ref sig .tc := ⟨.hbm, 329, rfl⟩
abbrev main_v244_0 : Ref sig .tc := ⟨.hbm, 330, rfl⟩
abbrev main_v244_1 : Ref sig .tc := ⟨.hbm, 331, rfl⟩
abbrev main_v245 : Ref sig .tc := ⟨.hbm, 332, rfl⟩
abbrev main_v246 : Ref sig .tc := ⟨.hbm, 333, rfl⟩
abbrev main_v247 : Ref sig .tc := ⟨.hbm, 334, rfl⟩
abbrev main_v248 : Ref sig .tc := ⟨.hbm, 335, rfl⟩
abbrev main_v249 : Ref sig .tc := ⟨.hbm, 336, rfl⟩
abbrev main_v250 : Ref sig .tc := ⟨.hbm, 337, rfl⟩
abbrev main_v251 : Ref sig .tc := ⟨.hbm, 338, rfl⟩
abbrev main_cst_69 : Ref sig .tc := ⟨.hbm, 339, rfl⟩
abbrev main_v252 : Ref sig .tc := ⟨.hbm, 340, rfl⟩
abbrev main_c_70 : Ref sig .tc := ⟨.hbm, 341, rfl⟩
abbrev main_v253 : Ref sig .tc := ⟨.hbm, 342, rfl⟩
abbrev main_c_71 : Ref sig .tc := ⟨.hbm, 343, rfl⟩
abbrev main_v254 : Ref sig .tc := ⟨.hbm, 344, rfl⟩
abbrev main_v255 : Ref sig .tc := ⟨.hbm, 345, rfl⟩
abbrev main_v256 : Ref sig .tc := ⟨.hbm, 346, rfl⟩
abbrev main_c_72 : Ref sig .tc := ⟨.hbm, 347, rfl⟩
abbrev main_v257 : Ref sig .tc := ⟨.hbm, 348, rfl⟩
abbrev main_c_73 : Ref sig .tc := ⟨.hbm, 349, rfl⟩
abbrev main_v258 : Ref sig .tc := ⟨.hbm, 350, rfl⟩
abbrev main_v259 : Ref sig .tc := ⟨.hbm, 351, rfl⟩
abbrev main_v260 : Ref sig .tc := ⟨.hbm, 352, rfl⟩
abbrev main_c_74 : Ref sig .tc := ⟨.hbm, 353, rfl⟩
abbrev main_call6_v0 : Ref sig .tc := ⟨.hbm, 354, rfl⟩
abbrev main_v261 : Ref sig .tc := ⟨.hbm, 355, rfl⟩
abbrev main_c_75 : Ref sig .tc := ⟨.hbm, 356, rfl⟩
abbrev main_call7_v0 : Ref sig .tc := ⟨.hbm, 357, rfl⟩
abbrev main_v262 : Ref sig .tc := ⟨.hbm, 358, rfl⟩
abbrev main_v263 : Ref sig .tc := ⟨.hbm, 359, rfl⟩
abbrev main_v264 : Ref sig .tc := ⟨.hbm, 360, rfl⟩
abbrev main_v265_0 : Ref sig .tc := ⟨.hbm, 361, rfl⟩
abbrev main_v265_1 : Ref sig .tc := ⟨.hbm, 362, rfl⟩
abbrev main_v266 : Ref sig .tc := ⟨.hbm, 363, rfl⟩
abbrev main_v267 : Ref sig .tc := ⟨.hbm, 364, rfl⟩
abbrev main_v268 : Ref sig .tc := ⟨.hbm, 365, rfl⟩
abbrev main_v269 : Ref sig .tc := ⟨.hbm, 366, rfl⟩
abbrev main_v270 : Ref sig .tc := ⟨.hbm, 367, rfl⟩
abbrev main_v271 : Ref sig .tc := ⟨.hbm, 368, rfl⟩
abbrev main_v272 : Ref sig .tc := ⟨.hbm, 369, rfl⟩
abbrev main_v273 : Ref sig .tc := ⟨.hbm, 370, rfl⟩
abbrev main_cst_76 : Ref sig .tc := ⟨.hbm, 371, rfl⟩
abbrev main_v274 : Ref sig .tc := ⟨.hbm, 372, rfl⟩
abbrev main_cst_77 : Ref sig .tc := ⟨.hbm, 373, rfl⟩
abbrev main_v275 : Ref sig .tc := ⟨.hbm, 374, rfl⟩
abbrev main_v276 : Ref sig .tc := ⟨.hbm, 375, rfl⟩
abbrev main_v277 : Ref sig .tc := ⟨.hbm, 376, rfl⟩
abbrev main_cst_78 : Ref sig .tc := ⟨.hbm, 377, rfl⟩
abbrev main_v278 : Ref sig .tc := ⟨.hbm, 378, rfl⟩
abbrev main_cst_79 : Ref sig .tc := ⟨.hbm, 379, rfl⟩
abbrev main_v279 : Ref sig .tc := ⟨.hbm, 380, rfl⟩
abbrev main_v280 : Ref sig .tc := ⟨.hbm, 381, rfl⟩
abbrev main_v281 : Ref sig .tc := ⟨.hbm, 382, rfl⟩
abbrev main_c_80 : Ref sig .tc := ⟨.hbm, 383, rfl⟩
abbrev main_v282 : Ref sig .tc := ⟨.hbm, 384, rfl⟩
abbrev main_v283 : Ref sig .tc := ⟨.hbm, 385, rfl⟩
abbrev main_c_81 : Ref sig .tc := ⟨.hbm, 386, rfl⟩
abbrev main_v284 : Ref sig .tc := ⟨.hbm, 387, rfl⟩
abbrev main_v285 : Ref sig .tc := ⟨.hbm, 388, rfl⟩
abbrev main_v286 : Ref sig .tc := ⟨.hbm, 389, rfl⟩
abbrev main_v287 : Ref sig .tc := ⟨.hbm, 390, rfl⟩
abbrev main_v288 : Ref sig .tc := ⟨.hbm, 391, rfl⟩
abbrev main_cst_82 : Ref sig .tc := ⟨.hbm, 392, rfl⟩
abbrev main_v289 : Ref sig .tc := ⟨.hbm, 393, rfl⟩
abbrev main_v290 : Ref sig .tc := ⟨.hbm, 394, rfl⟩
abbrev main_c_83 : Ref sig .tc := ⟨.hbm, 395, rfl⟩
abbrev main_v291 : Ref sig .tc := ⟨.hbm, 396, rfl⟩
abbrev main_v292 : Ref sig .tc := ⟨.hbm, 397, rfl⟩
abbrev main_c_84 : Ref sig .tc := ⟨.hbm, 398, rfl⟩
abbrev main_v293 : Ref sig .tc := ⟨.hbm, 399, rfl⟩
abbrev main_v294 : Ref sig .tc := ⟨.hbm, 400, rfl⟩
abbrev main_v295 : Ref sig .tc := ⟨.hbm, 401, rfl⟩
abbrev main_v296 : Ref sig .tc := ⟨.hbm, 402, rfl⟩
abbrev main_v297 : Ref sig .tc := ⟨.hbm, 403, rfl⟩
abbrev main_cst_85 : Ref sig .tc := ⟨.hbm, 404, rfl⟩
abbrev main_v298 : Ref sig .tc := ⟨.hbm, 405, rfl⟩
abbrev main_v299 : Ref sig .tc := ⟨.hbm, 406, rfl⟩
abbrev main_v300 : Ref sig .tc := ⟨.hbm, 407, rfl⟩
abbrev main_v301 : Ref sig .tc := ⟨.hbm, 408, rfl⟩
abbrev main_v302 : Ref sig .tc := ⟨.hbm, 409, rfl⟩
abbrev main_c_86 : Ref sig .tc := ⟨.hbm, 410, rfl⟩
abbrev main_v303 : Ref sig .tc := ⟨.hbm, 411, rfl⟩
abbrev main_v304 : Ref sig .tc := ⟨.hbm, 412, rfl⟩
abbrev main_c_87 : Ref sig .tc := ⟨.hbm, 413, rfl⟩
abbrev main_v305 : Ref sig .tc := ⟨.hbm, 414, rfl⟩
abbrev main_v306 : Ref sig .tc := ⟨.hbm, 415, rfl⟩
abbrev main_v307 : Ref sig .tc := ⟨.hbm, 416, rfl⟩
abbrev main_v308 : Ref sig .tc := ⟨.hbm, 417, rfl⟩
abbrev main_v309 : Ref sig .tc := ⟨.hbm, 418, rfl⟩
abbrev main_v310 : Ref sig .tc := ⟨.hbm, 419, rfl⟩
abbrev main_v311 : Ref sig .tc := ⟨.hbm, 420, rfl⟩
abbrev main_cst_88 : Ref sig .tc := ⟨.hbm, 421, rfl⟩
abbrev main_v312 : Ref sig .tc := ⟨.hbm, 422, rfl⟩
abbrev main_v313 : Ref sig .tc := ⟨.hbm, 423, rfl⟩
abbrev main_v314 : Ref sig .tc := ⟨.hbm, 424, rfl⟩
abbrev main_v315 : Ref sig .tc := ⟨.hbm, 425, rfl⟩
abbrev main_c_89 : Ref sig .tc := ⟨.hbm, 426, rfl⟩
abbrev main_v316 : Ref sig .tc := ⟨.hbm, 427, rfl⟩
abbrev main_v317 : Ref sig .tc := ⟨.hbm, 428, rfl⟩
abbrev main_c_90 : Ref sig .tc := ⟨.hbm, 429, rfl⟩
abbrev main_v318 : Ref sig .tc := ⟨.hbm, 430, rfl⟩
abbrev main_v319 : Ref sig .tc := ⟨.hbm, 431, rfl⟩
abbrev main_v320 : Ref sig .tc := ⟨.hbm, 432, rfl⟩
abbrev main_v321 : Ref sig .tc := ⟨.hbm, 433, rfl⟩
abbrev main_v322 : Ref sig .tc := ⟨.hbm, 434, rfl⟩
abbrev main_v323 : Ref sig .tc := ⟨.hbm, 435, rfl⟩
abbrev main_v324 : Ref sig .tc := ⟨.hbm, 436, rfl⟩
abbrev main_cst_91 : Ref sig .tc := ⟨.hbm, 437, rfl⟩
abbrev main_v325 : Ref sig .tc := ⟨.hbm, 438, rfl⟩
abbrev main_v326 : Ref sig .tc := ⟨.hbm, 439, rfl⟩
abbrev main_v327 : Ref sig .tc := ⟨.hbm, 440, rfl⟩
abbrev main_v328 : Ref sig .tc := ⟨.hbm, 441, rfl⟩
abbrev main_v329 : Ref sig .tc := ⟨.hbm, 442, rfl⟩
abbrev main_v330 : Ref sig .tc := ⟨.hbm, 443, rfl⟩
abbrev main_c_92 : Ref sig .tc := ⟨.hbm, 444, rfl⟩
abbrev main_v331 : Ref sig .tc := ⟨.hbm, 445, rfl⟩
abbrev main_v332 : Ref sig .tc := ⟨.hbm, 446, rfl⟩
abbrev main_c_93 : Ref sig .tc := ⟨.hbm, 447, rfl⟩
abbrev main_v333 : Ref sig .tc := ⟨.hbm, 448, rfl⟩
abbrev main_v334 : Ref sig .tc := ⟨.hbm, 449, rfl⟩
abbrev main_v335 : Ref sig .tc := ⟨.hbm, 450, rfl⟩
abbrev main_v336 : Ref sig .tc := ⟨.hbm, 451, rfl⟩
abbrev main_v337 : Ref sig .tc := ⟨.hbm, 452, rfl⟩
abbrev main_v338 : Ref sig .tc := ⟨.hbm, 453, rfl⟩
abbrev main_v339 : Ref sig .tc := ⟨.hbm, 454, rfl⟩
abbrev main_cst_94 : Ref sig .tc := ⟨.hbm, 455, rfl⟩
abbrev main_v340 : Ref sig .tc := ⟨.hbm, 456, rfl⟩
abbrev main_v341 : Ref sig .tc := ⟨.hbm, 457, rfl⟩
abbrev main_v342 : Ref sig .tc := ⟨.hbm, 458, rfl⟩
abbrev main_v343 : Ref sig .tc := ⟨.hbm, 459, rfl⟩
abbrev main_c_95 : Ref sig .tc := ⟨.hbm, 460, rfl⟩
abbrev main_v344 : Ref sig .tc := ⟨.hbm, 461, rfl⟩
abbrev main_v345 : Ref sig .tc := ⟨.hbm, 462, rfl⟩
abbrev main_c_96 : Ref sig .tc := ⟨.hbm, 463, rfl⟩
abbrev main_v346 : Ref sig .tc := ⟨.hbm, 464, rfl⟩
abbrev main_v347 : Ref sig .tc := ⟨.hbm, 465, rfl⟩
abbrev main_v348 : Ref sig .tc := ⟨.hbm, 466, rfl⟩
abbrev main_v349 : Ref sig .tc := ⟨.hbm, 467, rfl⟩
abbrev main_v350 : Ref sig .tc := ⟨.hbm, 468, rfl⟩
abbrev main_v351 : Ref sig .tc := ⟨.hbm, 469, rfl⟩
abbrev main_v352 : Ref sig .tc := ⟨.hbm, 470, rfl⟩
abbrev main_cst_97 : Ref sig .tc := ⟨.hbm, 471, rfl⟩
abbrev main_v353 : Ref sig .tc := ⟨.hbm, 472, rfl⟩
abbrev main_v354 : Ref sig .tc := ⟨.hbm, 473, rfl⟩
abbrev main_v355 : Ref sig .tc := ⟨.hbm, 474, rfl⟩
abbrev main_v356 : Ref sig .tc := ⟨.hbm, 475, rfl⟩
abbrev main_v357 : Ref sig .tc := ⟨.hbm, 476, rfl⟩
abbrev main_cst_98 : Ref sig .tc := ⟨.hbm, 477, rfl⟩
abbrev main_v358 : Ref sig .tc := ⟨.hbm, 478, rfl⟩
abbrev main_v359 : Ref sig .tc := ⟨.hbm, 479, rfl⟩
abbrev main_cst_99 : Ref sig .tc := ⟨.hbm, 480, rfl⟩
abbrev main_v360 : Ref sig .tc := ⟨.hbm, 481, rfl⟩
abbrev main_v361 : Ref sig .tc := ⟨.hbm, 482, rfl⟩
abbrev main_v362 : Ref sig .tc := ⟨.hbm, 483, rfl⟩
abbrev main_v363 : Ref sig .tc := ⟨.hbm, 484, rfl⟩
abbrev main_v364 : Ref sig .tc := ⟨.hbm, 485, rfl⟩
abbrev main_v365 : Ref sig .tc := ⟨.hbm, 486, rfl⟩
abbrev main_v366 : Ref sig .tc := ⟨.hbm, 487, rfl⟩
abbrev main_v367 : Ref sig .tc := ⟨.hbm, 488, rfl⟩
abbrev main_v368 : Ref sig .tc := ⟨.hbm, 489, rfl⟩
abbrev main_v369 : Ref sig .tc := ⟨.hbm, 490, rfl⟩
abbrev main_v370 : Ref sig .tc := ⟨.hbm, 491, rfl⟩
abbrev main_v371 : Ref sig .tc := ⟨.hbm, 492, rfl⟩
abbrev main_v372 : Ref sig .tc := ⟨.hbm, 493, rfl⟩
abbrev main_v373 : Ref sig .tc := ⟨.hbm, 494, rfl⟩
abbrev main_v374 : Ref sig .tc := ⟨.hbm, 495, rfl⟩
abbrev main_v375 : Ref sig .tc := ⟨.hbm, 496, rfl⟩
abbrev main_c_100 : Ref sig .tc := ⟨.hbm, 497, rfl⟩
abbrev main_v376 : Ref sig .tc := ⟨.hbm, 498, rfl⟩
abbrev main_v377 : Ref sig .tc := ⟨.hbm, 499, rfl⟩
abbrev main_c_101 : Ref sig .tc := ⟨.hbm, 500, rfl⟩
abbrev main_v378 : Ref sig .tc := ⟨.hbm, 501, rfl⟩
abbrev main_v379 : Ref sig .tc := ⟨.hbm, 502, rfl⟩
abbrev main_v380 : Ref sig .tc := ⟨.hbm, 503, rfl⟩
abbrev main_v381 : Ref sig .tc := ⟨.hbm, 504, rfl⟩
abbrev main_v382 : Ref sig .tc := ⟨.hbm, 505, rfl⟩
abbrev main_c_102 : Ref sig .tc := ⟨.hbm, 506, rfl⟩
abbrev main_v383 : Ref sig .tc := ⟨.hbm, 507, rfl⟩
abbrev main_v384 : Ref sig .tc := ⟨.hbm, 508, rfl⟩
abbrev main_c_103 : Ref sig .tc := ⟨.hbm, 509, rfl⟩
abbrev main_v385 : Ref sig .tc := ⟨.hbm, 510, rfl⟩
abbrev main_v386 : Ref sig .tc := ⟨.hbm, 511, rfl⟩
abbrev main_v387 : Ref sig .tc := ⟨.hbm, 512, rfl⟩
abbrev main_v388 : Ref sig .tc := ⟨.hbm, 513, rfl⟩
abbrev main_v389 : Ref sig .tc := ⟨.hbm, 514, rfl⟩
abbrev main_v390 : Ref sig .tc := ⟨.hbm, 515, rfl⟩
abbrev main_cst_104 : Ref sig .tc := ⟨.hbm, 516, rfl⟩
abbrev main_v391 : Ref sig .tc := ⟨.hbm, 517, rfl⟩
abbrev main_c_105 : Ref sig .tc := ⟨.hbm, 518, rfl⟩
abbrev main_v392 : Ref sig .tc := ⟨.hbm, 519, rfl⟩
abbrev main_v393 : Ref sig .tc := ⟨.hbm, 520, rfl⟩
abbrev main_c_106 : Ref sig .tc := ⟨.hbm, 521, rfl⟩
abbrev main_v394 : Ref sig .tc := ⟨.hbm, 522, rfl⟩
abbrev main_v395 : Ref sig .tc := ⟨.hbm, 523, rfl⟩
abbrev main_v396 : Ref sig .tc := ⟨.hbm, 524, rfl⟩
abbrev main_v397 : Ref sig .tc := ⟨.hbm, 525, rfl⟩
abbrev main_v398 : Ref sig .tc := ⟨.hbm, 526, rfl⟩
abbrev main_c_107 : Ref sig .tc := ⟨.hbm, 527, rfl⟩
abbrev main_v399 : Ref sig .tc := ⟨.hbm, 528, rfl⟩
abbrev main_v400 : Ref sig .tc := ⟨.hbm, 529, rfl⟩
abbrev main_c_108 : Ref sig .tc := ⟨.hbm, 530, rfl⟩
abbrev main_v401 : Ref sig .tc := ⟨.hbm, 531, rfl⟩
abbrev main_v402 : Ref sig .tc := ⟨.hbm, 532, rfl⟩
abbrev main_v403 : Ref sig .tc := ⟨.hbm, 533, rfl⟩
abbrev main_v404 : Ref sig .tc := ⟨.hbm, 534, rfl⟩
abbrev main_v405 : Ref sig .tc := ⟨.hbm, 535, rfl⟩
abbrev main_v406 : Ref sig .tc := ⟨.hbm, 536, rfl⟩
abbrev main_cst_109 : Ref sig .tc := ⟨.hbm, 537, rfl⟩
abbrev main_v407 : Ref sig .tc := ⟨.hbm, 538, rfl⟩
abbrev main_v408 : Ref sig .tc := ⟨.hbm, 539, rfl⟩
abbrev main_v409 : Ref sig .tc := ⟨.hbm, 540, rfl⟩
abbrev main_v410 : Ref sig .tc := ⟨.hbm, 541, rfl⟩
abbrev main_v411 : Ref sig .tc := ⟨.hbm, 542, rfl⟩
abbrev main_v412 : Ref sig .tc := ⟨.hbm, 543, rfl⟩
abbrev main_v413 : Ref sig .tc := ⟨.hbm, 544, rfl⟩
abbrev main_cst_110 : Ref sig .tc := ⟨.hbm, 545, rfl⟩
abbrev main_v414 : Ref sig .tc := ⟨.hbm, 546, rfl⟩
abbrev main_v415 : Ref sig .tc := ⟨.hbm, 547, rfl⟩
abbrev main_cst_111 : Ref sig .tc := ⟨.hbm, 548, rfl⟩
abbrev main_v416 : Ref sig .tc := ⟨.hbm, 549, rfl⟩
abbrev main_v417 : Ref sig .tc := ⟨.hbm, 550, rfl⟩
abbrev main_cst_112 : Ref sig .tc := ⟨.hbm, 551, rfl⟩
abbrev main_v418 : Ref sig .tc := ⟨.hbm, 552, rfl⟩
abbrev main_v419 : Ref sig .tc := ⟨.hbm, 553, rfl⟩
abbrev main_v420 : Ref sig .tc := ⟨.hbm, 554, rfl⟩
abbrev main_v421 : Ref sig .tc := ⟨.hbm, 555, rfl⟩
abbrev main_cst_113 : Ref sig .tc := ⟨.hbm, 556, rfl⟩
abbrev main_v422 : Ref sig .tc := ⟨.hbm, 557, rfl⟩
abbrev main_cst_114 : Ref sig .tc := ⟨.hbm, 558, rfl⟩
abbrev main_v423 : Ref sig .tc := ⟨.hbm, 559, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg4_0 : Ref sig .tc := ⟨.vmem, 25, rfl⟩
abbrev cc2_stg4_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg2_1 : Ref sig .tc := ⟨.vmem, 31, rfl⟩
abbrev cc3_stg3_0 : Ref sig .tc := ⟨.vmem, 32, rfl⟩
abbrev cc3_stg3_1 : Ref sig .tc := ⟨.vmem, 33, rfl⟩
abbrev cc3_stg4_0 : Ref sig .tc := ⟨.vmem, 34, rfl⟩
abbrev cc3_stg4_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc2_sem3_0 : DmaSem sig := 23
abbrev cc2_sem3_1 : DmaSem sig := 24
abbrev cc2_sem4_0 : DmaSem sig := 25
abbrev cc2_sem4_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem2_1 : DmaSem sig := 31
abbrev cc3_sem3_0 : DmaSem sig := 32
abbrev cc3_sem3_1 : DmaSem sig := 33
abbrev cc3_sem4_0 : DmaSem sig := 34
abbrev cc3_sem4_1 : DmaSem sig := 35

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![13], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4096x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4096x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4096x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4096x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4096x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S4096x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![13], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4096x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S4096x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S4096x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  bcast_S_S200001x64 : S_.BroadcastsInDim S200001x64 (![] : Fin 0 → Fin S200001x64.rank)
  bcast_S_S100001x64 : S_.BroadcastsInDim S100001x64 (![] : Fin 0 → Fin S100001x64.rank)
  slices_S3x1000000_S1x1000000_0_0 : S3x1000000.Slices ![0, 0] S1x1000000
  shapeCasts_S1x1000000_S1000000 : S1x1000000.ShapeCasts S1000000
  bcast_S_S1000000 : S_.BroadcastsInDim S1000000 (![] : Fin 0 → Fin S1000000.rank)
  bcast_S_S200001 : S_.BroadcastsInDim S200001 (![] : Fin 0 → Fin S200001.rank)
  bcast_S1000000_S1000000x1_0 : S1000000.BroadcastsInDim S1000000x1 (![0] : Fin 1 → Fin S1000000x1.rank)
  bcast_S_S100001 : S_.BroadcastsInDim S100001 (![] : Fin 0 → Fin S100001.rank)
  bcast_S1000000x1_S1000000x64_0_1 : S1000000x1.BroadcastsInDim S1000000x64 (![0, 1] : Fin 2 → Fin S1000000x64.rank)
  slices_S2x64x64_S1x64x64_0_0_0 : S2x64x64.Slices ![0, 0, 0] S1x64x64
  shapeCasts_S1x64x64_S64x64 : S1x64x64.ShapeCasts S64x64
  transposes_S64x64_S64x64_1_0 : S64x64.Transposes [1, 0] S64x64
  bcast_S_S128x128 : S_.BroadcastsInDim S128x128 (![] : Fin 0 → Fin S128x128.rank)
  bcast_S_S1 : S_.BroadcastsInDim S1 (![] : Fin 0 → Fin S1.rank)
  concatenates_S1_S1_S2_d0 : Shape.Concatenates [S1, S1] S2 0
  pads_S200001x64_S204800x64_047990_000 : S200001x64.Pads (![0, 0] : Fin 2 → Nat) ![4799, 0] ![0, 0] S204800x64
  h_S_ : 0 < S_.numel
  shapeCasts_S204800x64_S102400x128 : S204800x64.ShapeCasts S102400x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S102400x128_S204800x64 : S102400x128.ShapeCasts S204800x64
  slices_S204800x64_S200001x64_0_0 : S204800x64.Slices ![0, 0] S200001x64
  pads_S100001x64_S106496x64_064950_000 : S100001x64.Pads (![0, 0] : Fin 2 → Nat) ![6495, 0] ![0, 0] S106496x64
  shapeCasts_S106496x64_S53248x128 : S106496x64.ShapeCasts S53248x128
  shapeCasts_S53248x128_S106496x64 : S53248x128.ShapeCasts S106496x64
  slices_S106496x64_S100001x64_0_0 : S106496x64.Slices ![0, 0] S100001x64
  slices_S3x1000000_S1x1000000_1_0 : S3x1000000.Slices ![1, 0] S1x1000000
  slices_S2x64x64_S1x64x64_1_0_0 : S2x64x64.Slices ![1, 0, 0] S1x64x64
  slices_S3x1000000_S1x1000000_2_0 : S3x1000000.Slices ![2, 0] S1x1000000
  slices_S8192x6x4_S8192x1x4_0_0_0 : S8192x6x4.Slices ![0, 0, 0] S8192x1x4
  shapeCasts_S8192x1x4_S8192x4 : S8192x1x4.ShapeCasts S8192x4
  slices_S8192x6x4_S8192x4x4_0_1_0 : S8192x6x4.Slices ![0, 1, 0] S8192x4x4
  shapeCasts_S8192x4x4_S32768x4 : S8192x4x4.ShapeCasts S32768x4
  slices_S8192x4_S8192x1_0_0 : S8192x4.Slices ![0, 0] S8192x1
  shapeCasts_S8192x1_S8192 : S8192x1.ShapeCasts S8192
  slices_S8192x4_S8192x1_0_1 : S8192x4.Slices ![0, 1] S8192x1
  slices_S32768x4_S32768x1_0_0 : S32768x4.Slices ![0, 0] S32768x1
  shapeCasts_S32768x1_S32768 : S32768x1.ShapeCasts S32768
  slices_S32768x4_S32768x1_0_1 : S32768x4.Slices ![0, 1] S32768x1
  bcast_S_S8192 : S_.BroadcastsInDim S8192 (![] : Fin 0 → Fin S8192.rank)
  bcast_S8192_S8192x1_0 : S8192.BroadcastsInDim S8192x1 (![0] : Fin 1 → Fin S8192x1.rank)
  reducesTo_S8192x64_S8192_d1 : S8192x64.ReducesTo [1] S8192
  bcast_S_S32768 : S_.BroadcastsInDim S32768 (![] : Fin 0 → Fin S32768.rank)
  bcast_S32768_S32768x1_0 : S32768.BroadcastsInDim S32768x1 (![0] : Fin 1 → Fin S32768x1.rank)
  reducesTo_S32768x64_S32768_d1 : S32768x64.ReducesTo [1] S32768
  bcast_S8192x1_S8192x4_0_1 : S8192x1.BroadcastsInDim S8192x4 (![0, 1] : Fin 2 → Fin S8192x4.rank)
  shapeCasts_S8192x4_S32768 : S8192x4.ShapeCasts S32768
  reducesTo_S32768_S_d0 : S32768.ReducesTo [0] S_
  scatter_S200001_S1000000x1_S1000000_n_0_0_1_wf : ScatterDims.WF S200001 S1000000x1 S1000000 [] [0] [0] 1
  scatter_S100001_S1000000x1_S1000000_n_0_0_1_wf : ScatterDims.WF S100001 S1000000x1 S1000000 [] [0] [0] 1
  gather_S200001_S1000000x1_S1000000_n_0_n_n_0_1_1_wf : GatherDims.WF S200001 S1000000x1 S1000000 [] [0] [] [0] [] 1 ![1]
  gather_S100001_S1000000x1_S1000000_n_0_n_n_0_1_1_wf : GatherDims.WF S100001 S1000000x1 S1000000 [] [0] [] [0] [] 1 ![1]
  gather_S100001x64_S1000000x1_S1000000x64_1_0_n_n_0_1_164_wf : GatherDims.WF S100001x64 S1000000x1 S1000000x64 [1] [0] [] [0] [] 1 ![1, 64]
  scatter_S200001x64_S1000000x1_S1000000x64_1_0_0_1_wf : ScatterDims.WF S200001x64 S1000000x1 S1000000x64 [1] [0] [0] 1
  gather_S200001x64_S1000000x1_S1000000x64_1_0_n_n_0_1_164_wf : GatherDims.WF S200001x64 S1000000x1 S1000000x64 [1] [0] [] [0] [] 1 ![1, 64]
  scatter_S100001x64_S1000000x1_S1000000x64_1_0_0_1_wf : ScatterDims.WF S100001x64 S1000000x1 S1000000x64 [1] [0] [0] 1
  scatter_S128x128_S2_S64x64_01_n_01_0_wf : ScatterDims.WF S128x128 S2 S64x64 [0, 1] [] [0, 1] 0
  dot_S4096x128_S128x128_S4096x128_1_0_0_1_n_n_wf : DotDims.WF S4096x128 S128x128 S4096x128 [1] [0] [0] [1] [] []
  gather_S200001x64_S8192x1_S8192x64_1_0_n_n_0_1_164_wf : GatherDims.WF S200001x64 S8192x1 S8192x64 [1] [0] [] [0] [] 1 ![1, 64]
  gather_S100001x64_S8192x1_S8192x64_1_0_n_n_0_1_164_wf : GatherDims.WF S100001x64 S8192x1 S8192x64 [1] [0] [] [0] [] 1 ![1, 64]
  gather_S200001x64_S32768x1_S32768x64_1_0_n_n_0_1_164_wf : GatherDims.WF S200001x64 S32768x1 S32768x64 [1] [0] [] [0] [] 1 ![1, 64]
  gather_S100001x64_S32768x1_S32768x64_1_0_n_n_0_1_164_wf : GatherDims.WF S100001x64 S32768x1 S32768x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S102400x128.size a
  hwx0_0 : ∀ i : grid0.Coords, EltTy.bits .f32 = 32 ∨ (Rect.block (s := S102400x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S102400x128.size a
  hwx0_2 : ∀ i : grid0.Coords, EltTy.bits .f32 = 32 ∨ (Rect.block (s := S102400x128) S4096x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S102400x128.size a
  hwx0_3 : ∀ i : grid0.Coords, EltTy.bits .f32 = 32 ∨ (Rect.block (s := S102400x128) S4096x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x128.size a ≤ S102400x128.size a
  hwx0_4 : ∀ i : grid0.Coords, EltTy.bits .f32 = 32 ∨ (Rect.block (s := S102400x128) S4096x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S53248x128.size a
  hwx1_0 : ∀ i : grid1.Coords, EltTy.bits .f32 = 32 ∨ (Rect.block (s := S53248x128) S4096x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x128.size a ≤ S53248x128.size a
  hwx1_2 : ∀ i : grid1.Coords, EltTy.bits .f32 = 32 ∨ (Rect.block (s := S53248x128) S4096x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x128.size a ≤ S53248x128.size a
  hwx1_3 : ∀ i : grid1.Coords, EltTy.bits .f32 = 32 ∨ (Rect.block (s := S53248x128) S4096x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4096x128.size a ≤ S53248x128.size a
  hwx1_4 : ∀ i : grid1.Coords, EltTy.bits .f32 = 32 ∨ (Rect.block (s := S53248x128) S4096x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x128.size a ≤ S102400x128.size a
  hwx2_0 : ∀ i : grid2.Coords, EltTy.bits .f32 = 32 ∨ (Rect.block (s := S102400x128) S4096x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4096x128.size a ≤ S102400x128.size a
  hwx2_2 : ∀ i : grid2.Coords, EltTy.bits .f32 = 32 ∨ (Rect.block (s := S102400x128) S4096x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4096x128.size a ≤ S102400x128.size a
  hwx2_3 : ∀ i : grid2.Coords, EltTy.bits .f32 = 32 ∨ (Rect.block (s := S102400x128) S4096x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4096x128.size a ≤ S102400x128.size a
  hwx2_4 : ∀ i : grid2.Coords, EltTy.bits .f32 = 32 ∨ (Rect.block (s := S102400x128) S4096x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x128.size a ≤ S53248x128.size a
  hwx3_0 : ∀ i : grid3.Coords, EltTy.bits .f32 = 32 ∨ (Rect.block (s := S53248x128) S4096x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4096x128.size a ≤ S53248x128.size a
  hwx3_2 : ∀ i : grid3.Coords, EltTy.bits .f32 = 32 ∨ (Rect.block (s := S53248x128) S4096x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4096x128.size a ≤ S53248x128.size a
  hwx3_3 : ∀ i : grid3.Coords, EltTy.bits .f32 = 32 ∨ (Rect.block (s := S53248x128) S4096x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4096x128.size a ≤ S53248x128.size a
  hwx3_4 : ∀ i : grid3.Coords, EltTy.bits .f32 = 32 ∨ (Rect.block (s := S53248x128) S4096x128.size (cc3_transform_4 i) (hinb3_4 i)).WholeWords (EltTy.packing .f32)

variable [Facts₀]

def scatter_S200001_S1000000x1_S1000000_n_0_0_1 : ScatterDims S200001 S1000000x1 S1000000 where
  updateWindowDims := []
  insertedWindowDims := [0]
  scatterDimsToOperandDims := [0]
  indexVectorDim := 1
  wf := scatter_S200001_S1000000x1_S1000000_n_0_0_1_wf
def scatter_S100001_S1000000x1_S1000000_n_0_0_1 : ScatterDims S100001 S1000000x1 S1000000 where
  updateWindowDims := []
  insertedWindowDims := [0]
  scatterDimsToOperandDims := [0]
  indexVectorDim := 1
  wf := scatter_S100001_S1000000x1_S1000000_n_0_0_1_wf
def gather_S200001_S1000000x1_S1000000_n_0_n_n_0_1_1 : GatherDims S200001 S1000000x1 S1000000 where
  offsetDims := []
  collapsedSliceDims := [0]
  operandBatchingDims := []
  startIndicesBatchingDims := []
  startIndexMap := [0]
  indexVectorDim := 1
  sliceSizes := ![1]
  wf := gather_S200001_S1000000x1_S1000000_n_0_n_n_0_1_1_wf
def gather_S100001_S1000000x1_S1000000_n_0_n_n_0_1_1 : GatherDims S100001 S1000000x1 S1000000 where
  offsetDims := []
  collapsedSliceDims := [0]
  operandBatchingDims := []
  startIndicesBatchingDims := []
  startIndexMap := [0]
  indexVectorDim := 1
  sliceSizes := ![1]
  wf := gather_S100001_S1000000x1_S1000000_n_0_n_n_0_1_1_wf
def gather_S100001x64_S1000000x1_S1000000x64_1_0_n_n_0_1_164 : GatherDims S100001x64 S1000000x1 S1000000x64 where
  offsetDims := [1]
  collapsedSliceDims := [0]
  operandBatchingDims := []
  startIndicesBatchingDims := []
  startIndexMap := [0]
  indexVectorDim := 1
  sliceSizes := ![1, 64]
  wf := gather_S100001x64_S1000000x1_S1000000x64_1_0_n_n_0_1_164_wf
def scatter_S200001x64_S1000000x1_S1000000x64_1_0_0_1 : ScatterDims S200001x64 S1000000x1 S1000000x64 where
  updateWindowDims := [1]
  insertedWindowDims := [0]
  scatterDimsToOperandDims := [0]
  indexVectorDim := 1
  wf := scatter_S200001x64_S1000000x1_S1000000x64_1_0_0_1_wf
def gather_S200001x64_S1000000x1_S1000000x64_1_0_n_n_0_1_164 : GatherDims S200001x64 S1000000x1 S1000000x64 where
  offsetDims := [1]
  collapsedSliceDims := [0]
  operandBatchingDims := []
  startIndicesBatchingDims := []
  startIndexMap := [0]
  indexVectorDim := 1
  sliceSizes := ![1, 64]
  wf := gather_S200001x64_S1000000x1_S1000000x64_1_0_n_n_0_1_164_wf
def scatter_S100001x64_S1000000x1_S1000000x64_1_0_0_1 : ScatterDims S100001x64 S1000000x1 S1000000x64 where
  updateWindowDims := [1]
  insertedWindowDims := [0]
  scatterDimsToOperandDims := [0]
  indexVectorDim := 1
  wf := scatter_S100001x64_S1000000x1_S1000000x64_1_0_0_1_wf
def scatter_S128x128_S2_S64x64_01_n_01_0 : ScatterDims S128x128 S2 S64x64 where
  updateWindowDims := [0, 1]
  insertedWindowDims := []
  scatterDimsToOperandDims := [0, 1]
  indexVectorDim := 0
  wf := scatter_S128x128_S2_S64x64_01_n_01_0_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def gather_S200001x64_S8192x1_S8192x64_1_0_n_n_0_1_164 : GatherDims S200001x64 S8192x1 S8192x64 where
  offsetDims := [1]
  collapsedSliceDims := [0]
  operandBatchingDims := []
  startIndicesBatchingDims := []
  startIndexMap := [0]
  indexVectorDim := 1
  sliceSizes := ![1, 64]
  wf := gather_S200001x64_S8192x1_S8192x64_1_0_n_n_0_1_164_wf
def gather_S100001x64_S8192x1_S8192x64_1_0_n_n_0_1_164 : GatherDims S100001x64 S8192x1 S8192x64 where
  offsetDims := [1]
  collapsedSliceDims := [0]
  operandBatchingDims := []
  startIndicesBatchingDims := []
  startIndexMap := [0]
  indexVectorDim := 1
  sliceSizes := ![1, 64]
  wf := gather_S100001x64_S8192x1_S8192x64_1_0_n_n_0_1_164_wf
def gather_S200001x64_S32768x1_S32768x64_1_0_n_n_0_1_164 : GatherDims S200001x64 S32768x1 S32768x64 where
  offsetDims := [1]
  collapsedSliceDims := [0]
  operandBatchingDims := []
  startIndicesBatchingDims := []
  startIndexMap := [0]
  indexVectorDim := 1
  sliceSizes := ![1, 64]
  wf := gather_S200001x64_S32768x1_S32768x64_1_0_n_n_0_1_164_wf
def gather_S100001x64_S32768x1_S32768x64_1_0_n_n_0_1_164 : GatherDims S100001x64 S32768x1 S32768x64 where
  offsetDims := [1]
  collapsedSliceDims := [0]
  operandBatchingDims := []
  startIndicesBatchingDims := []
  startIndexMap := [0]
  indexVectorDim := 1
  sliceSizes := ![1, 64]
  wf := gather_S100001x64_S32768x1_S32768x64_1_0_n_n_0_1_164_wf

abbrev win0_0 : Pipeline.Window sig grid0 :=
  Pipeline.Window.ofSpec (Memref.whole main_v108) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v105) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v109) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v110_0) S4096x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v110_1) S4096x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v129) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v126) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v130) S4096x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v131_0) S4096x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v131_1) S4096x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v242) S4096x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v239) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v243) S4096x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v244_0) S4096x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v244_1) S4096x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v263) S4096x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v260) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v264) S4096x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v265_0) S4096x128.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v265_1) S4096x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S8192x6x4 : Shape := ⟨3, ![8192, 6, 4]⟩
abbrev S200001x64 : Shape := ⟨2, ![200001, 64]⟩
abbrev S100001x64 : Shape := ⟨2, ![100001, 64]⟩
abbrev S2x64x64 : Shape := ⟨3, ![2, 64, 64]⟩
abbrev S3x1000000 : Shape := ⟨2, ![3, 1000000]⟩
abbrev S300002x64 : Shape := ⟨2, ![300002, 64]⟩
abbrev S_ : Shape := ⟨0, ![]⟩
abbrev S1x1000000 : Shape := ⟨2, ![1, 1000000]⟩
abbrev S1000000 : Shape := ⟨1, ![1000000]⟩
abbrev S200001 : Shape := ⟨1, ![200001]⟩
abbrev S1000000x1 : Shape := ⟨2, ![1000000, 1]⟩
abbrev S100001 : Shape := ⟨1, ![100001]⟩
abbrev S1000000x64 : Shape := ⟨2, ![1000000, 64]⟩
abbrev S1x64x64 : Shape := ⟨3, ![1, 64, 64]⟩
abbrev S64x64 : Shape := ⟨2, ![64, 64]⟩
abbrev S8192x1x4 : Shape := ⟨3, ![8192, 1, 4]⟩
abbrev S8192x4 : Shape := ⟨2, ![8192, 4]⟩
abbrev S8192x4x4 : Shape := ⟨3, ![8192, 4, 4]⟩
abbrev S32768x4 : Shape := ⟨2, ![32768, 4]⟩
abbrev S8192x1 : Shape := ⟨2, ![8192, 1]⟩
abbrev S8192 : Shape := ⟨1, ![8192]⟩
abbrev S32768x1 : Shape := ⟨2, ![32768, 1]⟩
abbrev S32768 : Shape := ⟨1, ![32768]⟩
abbrev S8192x64 : Shape := ⟨2, ![8192, 64]⟩
abbrev S32768x64 : Shape := ⟨2, ![32768, 64]⟩

abbrev nBuf : Space → Nat
  | .hbm => 468
  | .vmem => 0
  | .smem => 0
  | _ => 0

abbrev hbmTy0_0 (i : Nat) : BufTy := match i % 128 with
  | 0 => ⟨S8192x6x4, .i32⟩
  | 1 => ⟨S200001x64, .f32⟩
  | 2 => ⟨S100001x64, .f32⟩
  | 3 => ⟨S2x64x64, .f32⟩
  | 4 => ⟨S2x64x64, .f32⟩
  | 5 => ⟨S3x1000000, .i32⟩
  | 6 => ⟨S3x1000000, .i32⟩
  | 7 => ⟨S300002x64, .f32⟩
  | 8 => ⟨S_, .f32⟩
  | 9 => ⟨S200001x64, .f32⟩
  | 10 => ⟨S_, .f32⟩
  | 11 => ⟨S100001x64, .f32⟩
  | 12 => ⟨S1x1000000, .i32⟩
  | 13 => ⟨S1000000, .i32⟩
  | 14 => ⟨S1x1000000, .i32⟩
  | 15 => ⟨S1000000, .i32⟩
  | 16 => ⟨S_, .f32⟩
  | 17 => ⟨S1000000, .f32⟩
  | 18 => ⟨S_, .f32⟩
  | 19 => ⟨S200001, .f32⟩
  | 20 => ⟨S1000000x1, .i32⟩
  | 21 => ⟨S200001, .f32⟩
  | 22 => ⟨S_, .f32⟩
  | 23 => ⟨S1000000, .f32⟩
  | 24 => ⟨S_, .f32⟩
  | 25 => ⟨S100001, .f32⟩
  | 26 => ⟨S1000000x1, .i32⟩
  | 27 => ⟨S100001, .f32⟩
  | 28 => ⟨S_, .i32⟩
  | 29 => ⟨S1000000, .i32⟩
  | 30 => ⟨S1000000, .i1⟩
  | 31 => ⟨S_, .i32⟩
  | 32 => ⟨S1000000, .i32⟩
  | 33 => ⟨S1000000, .i32⟩
  | 34 => ⟨S1000000, .i32⟩
  | 35 => ⟨S1000000x1, .i32⟩
  | 36 => ⟨S1000000, .f32⟩
  | 37 => ⟨S_, .f32⟩
  | 38 => ⟨S1000000, .f32⟩
  | 39 => ⟨S1000000, .f32⟩
  | 40 => ⟨S_, .i32⟩
  | 41 => ⟨S1000000, .i32⟩
  | 42 => ⟨S1000000, .i1⟩
  | 43 => ⟨S_, .i32⟩
  | 44 => ⟨S1000000, .i32⟩
  | 45 => ⟨S1000000, .i32⟩
  | 46 => ⟨S1000000, .i32⟩
  | 47 => ⟨S1000000x1, .i32⟩
  | 48 => ⟨S1000000, .f32⟩
  | 49 => ⟨S_, .f32⟩
  | 50 => ⟨S1000000, .f32⟩
  | 51 => ⟨S1000000, .f32⟩
  | 52 => ⟨S1000000, .f32⟩
  | 53 => ⟨S1000000, .f32⟩
  | 54 => ⟨S200001x64, .f32⟩
  | 55 => ⟨S100001x64, .f32⟩
  | 56 => ⟨S1000000x1, .f32⟩
  | 57 => ⟨S_, .i32⟩
  | 58 => ⟨S1000000, .i32⟩
  | 59 => ⟨S1000000, .i1⟩
  | 60 => ⟨S_, .i32⟩
  | 61 => ⟨S1000000, .i32⟩
  | 62 => ⟨S1000000, .i32⟩
  | 63 => ⟨S1000000, .i32⟩
  | 64 => ⟨S1000000x1, .i32⟩
  | 65 => ⟨S1000000x64, .f32⟩
  | 66 => ⟨S1000000x64, .f32⟩
  | 67 => ⟨S1000000x64, .f32⟩
  | 68 => ⟨S_, .f32⟩
  | 69 => ⟨S200001x64, .f32⟩
  | 70 => ⟨S1000000x1, .i32⟩
  | 71 => ⟨S200001x64, .f32⟩
  | 72 => ⟨S1000000x1, .f32⟩
  | 73 => ⟨S_, .i32⟩
  | 74 => ⟨S1000000, .i32⟩
  | 75 => ⟨S1000000, .i1⟩
  | 76 => ⟨S_, .i32⟩
  | 77 => ⟨S1000000, .i32⟩
  | 78 => ⟨S1000000, .i32⟩
  | 79 => ⟨S1000000, .i32⟩
  | 80 => ⟨S1000000x1, .i32⟩
  | 81 => ⟨S1000000x64, .f32⟩
  | 82 => ⟨S1000000x64, .f32⟩
  | 83 => ⟨S1000000x64, .f32⟩
  | 84 => ⟨S_, .f32⟩
  | 85 => ⟨S100001x64, .f32⟩
  | 86 => ⟨S1000000x1, .i32⟩
  | 87 => ⟨S100001x64, .f32⟩
  | 88 => ⟨S300002x64, .f32⟩
  | 89 => ⟨S300002x64, .f32⟩
  | 90 => ⟨S200001x64, .f32⟩
  | 91 => ⟨S100001x64, .f32⟩
  | 92 => ⟨S1000000x1, .f32⟩
  | 93 => ⟨S_, .i32⟩
  | 94 => ⟨S1000000, .i32⟩
  | 95 => ⟨S1000000, .i1⟩
  | 96 => ⟨S_, .i32⟩
  | 97 => ⟨S1000000, .i32⟩
  | 98 => ⟨S1000000, .i32⟩
  | 99 => ⟨S1000000, .i32⟩
  | 100 => ⟨S1000000x1, .i32⟩
  | 101 => ⟨S1000000x64, .f32⟩
  | 102 => ⟨S1000000x64, .f32⟩
  | 103 => ⟨S1000000x64, .f32⟩
  | 104 => ⟨S_, .f32⟩
  | 105 => ⟨S200001x64, .f32⟩
  | 106 => ⟨S1000000x1, .i32⟩
  | 107 => ⟨S200001x64, .f32⟩
  | 108 => ⟨S1000000x1, .f32⟩
  | 109 => ⟨S_, .i32⟩
  | 110 => ⟨S1000000, .i32⟩
  | 111 => ⟨S1000000, .i1⟩
  | 112 => ⟨S_, .i32⟩
  | 113 => ⟨S1000000, .i32⟩
  | 114 => ⟨S1000000, .i32⟩
  | 115 => ⟨S1000000, .i32⟩
  | 116 => ⟨S1000000x1, .i32⟩
  | 117 => ⟨S1000000x64, .f32⟩
  | 118 => ⟨S1000000x64, .f32⟩
  | 119 => ⟨S1000000x64, .f32⟩
  | 120 => ⟨S_, .f32⟩
  | 121 => ⟨S100001x64, .f32⟩
  | 122 => ⟨S1000000x1, .i32⟩
  | 123 => ⟨S100001x64, .f32⟩
  | 124 => ⟨S300002x64, .f32⟩
  | 125 => ⟨S300002x64, .f32⟩
  | 126 => ⟨S_, .f32⟩
  | 127 => ⟨S300002x64, .f32⟩
  | _ => ⟨S8192x6x4, .i32⟩

abbrev hbmTy0_1 (i : Nat) : BufTy := match i % 128 with
  | 0 => ⟨S300002x64, .f32⟩
  | 1 => ⟨S200001x64, .f32⟩
  | 2 => ⟨S100001x64, .f32⟩
  | 3 => ⟨S200001x64, .f32⟩
  | 4 => ⟨S100001x64, .f32⟩
  | 5 => ⟨S1x64x64, .f32⟩
  | 6 => ⟨S64x64, .f32⟩
  | 7 => ⟨S64x64, .f32⟩
  | 8 => ⟨S200001x64, .f32⟩
  | 9 => ⟨S1x64x64, .f32⟩
  | 10 => ⟨S64x64, .f32⟩
  | 11 => ⟨S64x64, .f32⟩
  | 12 => ⟨S100001x64, .f32⟩
  | 13 => ⟨S300002x64, .f32⟩
  | 14 => ⟨S1x1000000, .i32⟩
  | 15 => ⟨S1000000, .i32⟩
  | 16 => ⟨S1x1000000, .i32⟩
  | 17 => ⟨S1000000, .i32⟩
  | 18 => ⟨S_, .f32⟩
  | 19 => ⟨S1000000, .f32⟩
  | 20 => ⟨S_, .f32⟩
  | 21 => ⟨S200001, .f32⟩
  | 22 => ⟨S1000000x1, .i32⟩
  | 23 => ⟨S200001, .f32⟩
  | 24 => ⟨S_, .f32⟩
  | 25 => ⟨S1000000, .f32⟩
  | 26 => ⟨S_, .f32⟩
  | 27 => ⟨S100001, .f32⟩
  | 28 => ⟨S1000000x1, .i32⟩
  | 29 => ⟨S100001, .f32⟩
  | 30 => ⟨S_, .i32⟩
  | 31 => ⟨S1000000, .i32⟩
  | 32 => ⟨S1000000, .i1⟩
  | 33 => ⟨S_, .i32⟩
  | 34 => ⟨S1000000, .i32⟩
  | 35 => ⟨S1000000, .i32⟩
  | 36 => ⟨S1000000, .i32⟩
  | 37 => ⟨S1000000x1, .i32⟩
  | 38 => ⟨S1000000, .f32⟩
  | 39 => ⟨S_, .f32⟩
  | 40 => ⟨S1000000, .f32⟩
  | 41 => ⟨S1000000, .f32⟩
  | 42 => ⟨S_, .i32⟩
  | 43 => ⟨S1000000, .i32⟩
  | 44 => ⟨S1000000, .i1⟩
  | 45 => ⟨S_, .i32⟩
  | 46 => ⟨S1000000, .i32⟩
  | 47 => ⟨S1000000, .i32⟩
  | 48 => ⟨S1000000, .i32⟩
  | 49 => ⟨S1000000x1, .i32⟩
  | 50 => ⟨S1000000, .f32⟩
  | 51 => ⟨S_, .f32⟩
  | 52 => ⟨S1000000, .f32⟩
  | 53 => ⟨S1000000, .f32⟩
  | 54 => ⟨S1000000, .f32⟩
  | 55 => ⟨S1000000, .f32⟩
  | 56 => ⟨S200001x64, .f32⟩
  | 57 => ⟨S100001x64, .f32⟩
  | 58 => ⟨S1000000x1, .f32⟩
  | 59 => ⟨S_, .i32⟩
  | 60 => ⟨S1000000, .i32⟩
  | 61 => ⟨S1000000, .i1⟩
  | 62 => ⟨S_, .i32⟩
  | 63 => ⟨S1000000, .i32⟩
  | 64 => ⟨S1000000, .i32⟩
  | 65 => ⟨S1000000, .i32⟩
  | 66 => ⟨S1000000x1, .i32⟩
  | 67 => ⟨S1000000x64, .f32⟩
  | 68 => ⟨S1000000x64, .f32⟩
  | 69 => ⟨S1000000x64, .f32⟩
  | 70 => ⟨S_, .f32⟩
  | 71 => ⟨S200001x64, .f32⟩
  | 72 => ⟨S1000000x1, .i32⟩
  | 73 => ⟨S200001x64, .f32⟩
  | 74 => ⟨S1000000x1, .f32⟩
  | 75 => ⟨S_, .i32⟩
  | 76 => ⟨S1000000, .i32⟩
  | 77 => ⟨S1000000, .i1⟩
  | 78 => ⟨S_, .i32⟩
  | 79 => ⟨S1000000, .i32⟩
  | 80 => ⟨S1000000, .i32⟩
  | 81 => ⟨S1000000, .i32⟩
  | 82 => ⟨S1000000x1, .i32⟩
  | 83 => ⟨S1000000x64, .f32⟩
  | 84 => ⟨S1000000x64, .f32⟩
  | 85 => ⟨S1000000x64, .f32⟩
  | 86 => ⟨S_, .f32⟩
  | 87 => ⟨S100001x64, .f32⟩
  | 88 => ⟨S1000000x1, .i32⟩
  | 89 => ⟨S100001x64, .f32⟩
  | 90 => ⟨S300002x64, .f32⟩
  | 91 => ⟨S300002x64, .f32⟩
  | 92 => ⟨S200001x64, .f32⟩
  | 93 => ⟨S100001x64, .f32⟩
  | 94 => ⟨S1000000x1, .f32⟩
  | 95 => ⟨S_, .i32⟩
  | 96 => ⟨S1000000, .i32⟩
  | 97 => ⟨S1000000, .i1⟩
  | 98 => ⟨S_, .i32⟩
  | 99 => ⟨S1000000, .i32⟩
  | 100 => ⟨S1000000, .i32⟩
  | 101 => ⟨S1000000, .i32⟩
  | 102 => ⟨S1000000x1, .i32⟩
  | 103 => ⟨S1000000x64, .f32⟩
  | 104 => ⟨S1000000x64, .f32⟩
  | 105 => ⟨S1000000x64, .f32⟩
  | 106 => ⟨S_, .f32⟩
  | 107 => ⟨S200001x64, .f32⟩
  | 108 => ⟨S1000000x1, .i32⟩
  | 109 => ⟨S200001x64, .f32⟩
  | 110 => ⟨S1000000x1, .f32⟩
  | 111 => ⟨S_, .i32⟩
  | 112 => ⟨S1000000, .i32⟩
  | 113 => ⟨S1000000, .i1⟩
  | 114 => ⟨S_, .i32⟩
  | 115 => ⟨S1000000, .i32⟩
  | 116 => ⟨S1000000, .i32⟩
  | 117 => ⟨S1000000, .i32⟩
  | 118 => ⟨S1000000x1, .i32⟩
  | 119 => ⟨S1000000x64, .f32⟩
  | 120 => ⟨S1000000x64, .f32⟩
  | 121 => ⟨S1000000x64, .f32⟩
  | 122 => ⟨S_, .f32⟩
  | 123 => ⟨S100001x64, .f32⟩
  | 124 => ⟨S1000000x1, .i32⟩
  | 125 => ⟨S100001x64, .f32⟩
  | 126 => ⟨S300002x64, .f32⟩
  | 127 => ⟨S300002x64, .f32⟩
  | _ => ⟨S8192x6x4, .i32⟩

abbrev hbmTy0_2 (i : Nat) : BufTy := match i % 128 with
  | 0 => ⟨S_, .f32⟩
  | 1 => ⟨S300002x64, .f32⟩
  | 2 => ⟨S300002x64, .f32⟩
  | 3 => ⟨S200001x64, .f32⟩
  | 4 => ⟨S100001x64, .f32⟩
  | 5 => ⟨S200001x64, .f32⟩
  | 6 => ⟨S100001x64, .f32⟩
  | 7 => ⟨S1x64x64, .f32⟩
  | 8 => ⟨S64x64, .f32⟩
  | 9 => ⟨S64x64, .f32⟩
  | 10 => ⟨S200001x64, .f32⟩
  | 11 => ⟨S1x64x64, .f32⟩
  | 12 => ⟨S64x64, .f32⟩
  | 13 => ⟨S64x64, .f32⟩
  | 14 => ⟨S100001x64, .f32⟩
  | 15 => ⟨S300002x64, .f32⟩
  | 16 => ⟨S1x1000000, .i32⟩
  | 17 => ⟨S1000000, .i32⟩
  | 18 => ⟨S1x1000000, .i32⟩
  | 19 => ⟨S1000000, .i32⟩
  | 20 => ⟨S_, .f32⟩
  | 21 => ⟨S1000000, .f32⟩
  | 22 => ⟨S_, .f32⟩
  | 23 => ⟨S200001, .f32⟩
  | 24 => ⟨S1000000x1, .i32⟩
  | 25 => ⟨S200001, .f32⟩
  | 26 => ⟨S_, .f32⟩
  | 27 => ⟨S1000000, .f32⟩
  | 28 => ⟨S_, .f32⟩
  | 29 => ⟨S100001, .f32⟩
  | 30 => ⟨S1000000x1, .i32⟩
  | 31 => ⟨S100001, .f32⟩
  | 32 => ⟨S_, .i32⟩
  | 33 => ⟨S1000000, .i32⟩
  | 34 => ⟨S1000000, .i1⟩
  | 35 => ⟨S_, .i32⟩
  | 36 => ⟨S1000000, .i32⟩
  | 37 => ⟨S1000000, .i32⟩
  | 38 => ⟨S1000000, .i32⟩
  | 39 => ⟨S1000000x1, .i32⟩
  | 40 => ⟨S1000000, .f32⟩
  | 41 => ⟨S_, .f32⟩
  | 42 => ⟨S1000000, .f32⟩
  | 43 => ⟨S1000000, .f32⟩
  | 44 => ⟨S_, .i32⟩
  | 45 => ⟨S1000000, .i32⟩
  | 46 => ⟨S1000000, .i1⟩
  | 47 => ⟨S_, .i32⟩
  | 48 => ⟨S1000000, .i32⟩
  | 49 => ⟨S1000000, .i32⟩
  | 50 => ⟨S1000000, .i32⟩
  | 51 => ⟨S1000000x1, .i32⟩
  | 52 => ⟨S1000000, .f32⟩
  | 53 => ⟨S_, .f32⟩
  | 54 => ⟨S1000000, .f32⟩
  | 55 => ⟨S1000000, .f32⟩
  | 56 => ⟨S1000000, .f32⟩
  | 57 => ⟨S1000000, .f32⟩
  | 58 => ⟨S200001x64, .f32⟩
  | 59 => ⟨S100001x64, .f32⟩
  | 60 => ⟨S1000000x1, .f32⟩
  | 61 => ⟨S_, .i32⟩
  | 62 => ⟨S1000000, .i32⟩
  | 63 => ⟨S1000000, .i1⟩
  | 64 => ⟨S_, .i32⟩
  | 65 => ⟨S1000000, .i32⟩
  | 66 => ⟨S1000000, .i32⟩
  | 67 => ⟨S1000000, .i32⟩
  | 68 => ⟨S1000000x1, .i32⟩
  | 69 => ⟨S1000000x64, .f32⟩
  | 70 => ⟨S1000000x64, .f32⟩
  | 71 => ⟨S1000000x64, .f32⟩
  | 72 => ⟨S_, .f32⟩
  | 73 => ⟨S200001x64, .f32⟩
  | 74 => ⟨S1000000x1, .i32⟩
  | 75 => ⟨S200001x64, .f32⟩
  | 76 => ⟨S1000000x1, .f32⟩
  | 77 => ⟨S_, .i32⟩
  | 78 => ⟨S1000000, .i32⟩
  | 79 => ⟨S1000000, .i1⟩
  | 80 => ⟨S_, .i32⟩
  | 81 => ⟨S1000000, .i32⟩
  | 82 => ⟨S1000000, .i32⟩
  | 83 => ⟨S1000000, .i32⟩
  | 84 => ⟨S1000000x1, .i32⟩
  | 85 => ⟨S1000000x64, .f32⟩
  | 86 => ⟨S1000000x64, .f32⟩
  | 87 => ⟨S1000000x64, .f32⟩
  | 88 => ⟨S_, .f32⟩
  | 89 => ⟨S100001x64, .f32⟩
  | 90 => ⟨S1000000x1, .i32⟩
  | 91 => ⟨S100001x64, .f32⟩
  | 92 => ⟨S300002x64, .f32⟩
  | 93 => ⟨S300002x64, .f32⟩
  | 94 => ⟨S200001x64, .f32⟩
  | 95 => ⟨S100001x64, .f32⟩
  | 96 => ⟨S1000000x1, .f32⟩
  | 97 => ⟨S_, .i32⟩
  | 98 => ⟨S1000000, .i32⟩
  | 99 => ⟨S1000000, .i1⟩
  | 100 => ⟨S_, .i32⟩
  | 101 => ⟨S1000000, .i32⟩
  | 102 => ⟨S1000000, .i32⟩
  | 103 => ⟨S1000000, .i32⟩
  | 104 => ⟨S1000000x1, .i32⟩
  | 105 => ⟨S1000000x64, .f32⟩
  | 106 => ⟨S1000000x64, .f32⟩
  | 107 => ⟨S1000000x64, .f32⟩
  | 108 => ⟨S_, .f32⟩
  | 109 => ⟨S200001x64, .f32⟩
  | 110 => ⟨S1000000x1, .i32⟩
  | 111 => ⟨S200001x64, .f32⟩
  | 112 => ⟨S1000000x1, .f32⟩
  | 113 => ⟨S_, .i32⟩
  | 114 => ⟨S1000000, .i32⟩
  | 115 => ⟨S1000000, .i1⟩
  | 116 => ⟨S_, .i32⟩
  | 117 => ⟨S1000000, .i32⟩
  | 118 => ⟨S1000000, .i32⟩
  | 119 => ⟨S1000000, .i32⟩
  | 120 => ⟨S1000000x1, .i32⟩
  | 121 => ⟨S1000000x64, .f32⟩
  | 122 => ⟨S1000000x64, .f32⟩
  | 123 => ⟨S1000000x64, .f32⟩
  | 124 => ⟨S_, .f32⟩
  | 125 => ⟨S100001x64, .f32⟩
  | 126 => ⟨S1000000x1, .i32⟩
  | 127 => ⟨S100001x64, .f32⟩
  | _ => ⟨S8192x6x4, .i32⟩

abbrev hbmTy0_3 (i : Nat) : BufTy := match i % 128 with
  | 0 => ⟨S300002x64, .f32⟩
  | 1 => ⟨S300002x64, .f32⟩
  | 2 => ⟨S_, .f32⟩
  | 3 => ⟨S300002x64, .f32⟩
  | 4 => ⟨S300002x64, .f32⟩
  | 5 => ⟨S200001x64, .f32⟩
  | 6 => ⟨S100001x64, .f32⟩
  | 7 => ⟨S200001x64, .f32⟩
  | 8 => ⟨S100001x64, .f32⟩
  | 9 => ⟨S8192x1x4, .i32⟩
  | 10 => ⟨S8192x4, .i32⟩
  | 11 => ⟨S8192x4x4, .i32⟩
  | 12 => ⟨S32768x4, .i32⟩
  | 13 => ⟨S8192x1, .i32⟩
  | 14 => ⟨S8192, .i32⟩
  | 15 => ⟨S8192x1, .i32⟩
  | 16 => ⟨S8192, .i32⟩
  | 17 => ⟨S32768x1, .i32⟩
  | 18 => ⟨S32768, .i32⟩
  | 19 => ⟨S32768x1, .i32⟩
  | 20 => ⟨S32768, .i32⟩
  | 21 => ⟨S_, .i32⟩
  | 22 => ⟨S8192, .i32⟩
  | 23 => ⟨S8192, .i1⟩
  | 24 => ⟨S_, .i32⟩
  | 25 => ⟨S8192, .i32⟩
  | 26 => ⟨S8192, .i32⟩
  | 27 => ⟨S8192, .i32⟩
  | 28 => ⟨S8192x1, .i32⟩
  | 29 => ⟨S8192x64, .f32⟩
  | 30 => ⟨S_, .i32⟩
  | 31 => ⟨S8192, .i32⟩
  | 32 => ⟨S8192, .i1⟩
  | 33 => ⟨S_, .i32⟩
  | 34 => ⟨S8192, .i32⟩
  | 35 => ⟨S8192, .i32⟩
  | 36 => ⟨S8192, .i32⟩
  | 37 => ⟨S8192x1, .i32⟩
  | 38 => ⟨S8192x64, .f32⟩
  | 39 => ⟨S8192x64, .f32⟩
  | 40 => ⟨S_, .f32⟩
  | 41 => ⟨S8192, .f32⟩
  | 42 => ⟨S_, .i32⟩
  | 43 => ⟨S32768, .i32⟩
  | 44 => ⟨S32768, .i1⟩
  | 45 => ⟨S_, .i32⟩
  | 46 => ⟨S32768, .i32⟩
  | 47 => ⟨S32768, .i32⟩
  | 48 => ⟨S32768, .i32⟩
  | 49 => ⟨S32768x1, .i32⟩
  | 50 => ⟨S32768x64, .f32⟩
  | 51 => ⟨S_, .i32⟩
  | 52 => ⟨S32768, .i32⟩
  | 53 => ⟨S32768, .i1⟩
  | 54 => ⟨S_, .i32⟩
  | 55 => ⟨S32768, .i32⟩
  | 56 => ⟨S32768, .i32⟩
  | 57 => ⟨S32768, .i32⟩
  | 58 => ⟨S32768x1, .i32⟩
  | 59 => ⟨S32768x64, .f32⟩
  | 60 => ⟨S32768x64, .f32⟩
  | 61 => ⟨S_, .f32⟩
  | 62 => ⟨S32768, .f32⟩
  | 63 => ⟨S8192x1, .f32⟩
  | 64 => ⟨S8192x4, .f32⟩
  | 65 => ⟨S32768, .f32⟩
  | 66 => ⟨S32768, .f32⟩
  | 67 => ⟨S32768, .f32⟩
  | 68 => ⟨S32768, .f32⟩
  | 69 => ⟨S_, .f32⟩
  | 70 => ⟨S32768, .f32⟩
  | 71 => ⟨S32768, .f32⟩
  | 72 => ⟨S_, .f32⟩
  | 73 => ⟨S32768, .f32⟩
  | 74 => ⟨S32768, .f32⟩
  | 75 => ⟨S_, .f32⟩
  | 76 => ⟨S32768, .f32⟩
  | 77 => ⟨S32768, .f32⟩
  | 78 => ⟨S32768, .f32⟩
  | 79 => ⟨S32768, .f32⟩
  | 80 => ⟨S_, .f32⟩
  | 81 => ⟨S_, .f32⟩
  | 82 => ⟨S_, .f32⟩
  | 83 => ⟨S_, .f32⟩
  | _ => ⟨S8192x6x4, .i32⟩

abbrev hbmTy (i : Nat) : BufTy := match i / 128 with
  | 0 => hbmTy0_0 i
  | 1 => hbmTy0_1 i
  | 2 => hbmTy0_2 i
  | 3 => hbmTy0_3 i
  | _ => ⟨S8192x6x4, .i32⟩

abbrev bufTy : (tb : Table) → Fin (tcTables nBuf tb) → BufTy
  | .hbm, ⟨i, _⟩ => hbmTy i
  | _, _ => ⟨S8192x6x4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_cst_4 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_c_7 : Ref sig .tc := ⟨.hbm, 40, rfl⟩
abbrev main_v24 : Ref sig .tc := ⟨.hbm, 41, rfl⟩
abbrev main_v25 : Ref sig .tc := ⟨.hbm, 42, rfl⟩
abbrev main_c_8 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_9 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_10 : Ref sig .tc := ⟨.hbm, 57, rfl⟩
abbrev main_v38 : Ref sig .tc := ⟨.hbm, 58, rfl⟩
abbrev main_v39 : Ref sig .tc := ⟨.hbm, 59, rfl⟩
abbrev main_c_11 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_12 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_13 : Ref sig .tc := ⟨.hbm, 73, rfl⟩
abbrev main_v51 : Ref sig .tc := ⟨.hbm, 74, rfl⟩
abbrev main_v52 : Ref sig .tc := ⟨.hbm, 75, rfl⟩
abbrev main_c_14 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_15 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_c_16 : Ref sig .tc := ⟨.hbm, 93, rfl⟩
abbrev main_v68 : Ref sig .tc := ⟨.hbm, 94, rfl⟩
abbrev main_v69 : Ref sig .tc := ⟨.hbm, 95, rfl⟩
abbrev main_c_17 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_18 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_c_19 : Ref sig .tc := ⟨.hbm, 109, rfl⟩
abbrev main_v81 : Ref sig .tc := ⟨.hbm, 110, rfl⟩
abbrev main_v82 : Ref sig .tc := ⟨.hbm, 111, rfl⟩
abbrev main_c_20 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_21 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_cst_22 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_cst_23 : Ref sig .tc := ⟨.hbm, 146, rfl⟩
abbrev main_v114 : Ref sig .tc := ⟨.hbm, 147, rfl⟩
abbrev main_cst_24 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_cst_25 : Ref sig .tc := ⟨.hbm, 152, rfl⟩
abbrev main_v118 : Ref sig .tc := ⟨.hbm, 153, rfl⟩
abbrev main_cst_26 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_c_27 : Ref sig .tc := ⟨.hbm, 158, rfl⟩
abbrev main_v122 : Ref sig .tc := ⟨.hbm, 159, rfl⟩
abbrev main_v123 : Ref sig .tc := ⟨.hbm, 160, rfl⟩
abbrev main_c_28 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_cst_29 : Ref sig .tc := ⟨.hbm, 167, rfl⟩
abbrev main_v129 : Ref sig .tc := ⟨.hbm, 168, rfl⟩
abbrev main_v130 : Ref sig .tc := ⟨.hbm, 169, rfl⟩
abbrev main_c_30 : Ref sig .tc := ⟨.hbm, 170, rfl⟩
abbrev main_v131 : Ref sig .tc := ⟨.hbm, 171, rfl⟩
abbrev main_v132 : Ref sig .tc := ⟨.hbm, 172, rfl⟩
abbrev main_c_31 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_cst_32 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_c_33 : Ref sig .tc := ⟨.hbm, 187, rfl⟩
abbrev main_v145 : Ref sig .tc := ⟨.hbm, 188, rfl⟩
abbrev main_v146 : Ref sig .tc := ⟨.hbm, 189, rfl⟩
abbrev main_c_34 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_cst_35 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_c_36 : Ref sig .tc := ⟨.hbm, 203, rfl⟩
abbrev main_v158 : Ref sig .tc := ⟨.hbm, 204, rfl⟩
abbrev main_v159 : Ref sig .tc := ⟨.hbm, 205, rfl⟩
abbrev main_c_37 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_cst_38 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_c_39 : Ref sig .tc := ⟨.hbm, 223, rfl⟩
abbrev main_v175 : Ref sig .tc := ⟨.hbm, 224, rfl⟩
abbrev main_v176 : Ref sig .tc := ⟨.hbm, 225, rfl⟩
abbrev main_c_40 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_cst_41 : Ref sig .tc := ⟨.hbm, 234, rfl⟩
abbrev main_v184 : Ref sig .tc := ⟨.hbm, 235, rfl⟩
abbrev main_v185 : Ref sig .tc := ⟨.hbm, 236, rfl⟩
abbrev main_v186 : Ref sig .tc := ⟨.hbm, 237, rfl⟩
abbrev main_v187 : Ref sig .tc := ⟨.hbm, 238, rfl⟩
abbrev main_c_42 : Ref sig .tc := ⟨.hbm, 239, rfl⟩
abbrev main_v188 : Ref sig .tc := ⟨.hbm, 240, rfl⟩
abbrev main_v189 : Ref sig .tc := ⟨.hbm, 241, rfl⟩
abbrev main_c_43 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_cst_44 : Ref sig .tc := ⟨.hbm, 250, rfl⟩
abbrev main_v197 : Ref sig .tc := ⟨.hbm, 251, rfl⟩
abbrev main_v198 : Ref sig .tc := ⟨.hbm, 252, rfl⟩
abbrev main_v199 : Ref sig .tc := ⟨.hbm, 253, rfl⟩
abbrev main_v200 : Ref sig .tc := ⟨.hbm, 254, rfl⟩
abbrev main_v201 : Ref sig .tc := ⟨.hbm, 255, rfl⟩
abbrev main_cst_45 : Ref sig .tc := ⟨.hbm, 256, rfl⟩
abbrev main_v202 : Ref sig .tc := ⟨.hbm, 257, rfl⟩
abbrev main_v203 : Ref sig .tc := ⟨.hbm, 258, rfl⟩
abbrev main_v204 : Ref sig .tc := ⟨.hbm, 259, rfl⟩
abbrev main_v205 : Ref sig .tc := ⟨.hbm, 260, rfl⟩
abbrev main_v206 : Ref sig .tc := ⟨.hbm, 261, rfl⟩
abbrev main_v207 : Ref sig .tc := ⟨.hbm, 262, rfl⟩
abbrev main_v208 : Ref sig .tc := ⟨.hbm, 263, rfl⟩
abbrev main_v209 : Ref sig .tc := ⟨.hbm, 264, rfl⟩
abbrev main_v210 : Ref sig .tc := ⟨.hbm, 265, rfl⟩
abbrev main_v211 : Ref sig .tc := ⟨.hbm, 266, rfl⟩
abbrev main_v212 : Ref sig .tc := ⟨.hbm, 267, rfl⟩
abbrev main_v213 : Ref sig .tc := ⟨.hbm, 268, rfl⟩
abbrev main_v214 : Ref sig .tc := ⟨.hbm, 269, rfl⟩
abbrev main_v215 : Ref sig .tc := ⟨.hbm, 270, rfl⟩
abbrev main_v216 : Ref sig .tc := ⟨.hbm, 271, rfl⟩
abbrev main_v217 : Ref sig .tc := ⟨.hbm, 272, rfl⟩
abbrev main_v218 : Ref sig .tc := ⟨.hbm, 273, rfl⟩
abbrev main_v219 : Ref sig .tc := ⟨.hbm, 274, rfl⟩
abbrev main_v220 : Ref sig .tc := ⟨.hbm, 275, rfl⟩
abbrev main_cst_46 : Ref sig .tc := ⟨.hbm, 276, rfl⟩
abbrev main_v221 : Ref sig .tc := ⟨.hbm, 277, rfl⟩
abbrev main_cst_47 : Ref sig .tc := ⟨.hbm, 278, rfl⟩
abbrev main_v222 : Ref sig .tc := ⟨.hbm, 279, rfl⟩
abbrev main_v223 : Ref sig .tc := ⟨.hbm, 280, rfl⟩
abbrev main_v224 : Ref sig .tc := ⟨.hbm, 281, rfl⟩
abbrev main_cst_48 : Ref sig .tc := ⟨.hbm, 282, rfl⟩
abbrev main_v225 : Ref sig .tc := ⟨.hbm, 283, rfl⟩
abbrev main_cst_49 : Ref sig .tc := ⟨.hbm, 284, rfl⟩
abbrev main_v226 : Ref sig .tc := ⟨.hbm, 285, rfl⟩
abbrev main_v227 : Ref sig .tc := ⟨.hbm, 286, rfl⟩
abbrev main_v228 : Ref sig .tc := ⟨.hbm, 287, rfl⟩
abbrev main_c_50 : Ref sig .tc := ⟨.hbm, 288, rfl⟩
abbrev main_v229 : Ref sig .tc := ⟨.hbm, 289, rfl⟩
abbrev main_v230 : Ref sig .tc := ⟨.hbm, 290, rfl⟩
abbrev main_c_51 : Ref sig .tc := ⟨.hbm, 291, rfl⟩
abbrev main_v231 : Ref sig .tc := ⟨.hbm, 292, rfl⟩
abbrev main_v232 : Ref sig .tc := ⟨.hbm, 293, rfl⟩
abbrev main_v233 : Ref sig .tc := ⟨.hbm, 294, rfl⟩
abbrev main_v234 : Ref sig .tc := ⟨.hbm, 295, rfl⟩
abbrev main_v235 : Ref sig .tc := ⟨.hbm, 296, rfl⟩
abbrev main_cst_52 : Ref sig .tc := ⟨.hbm, 297, rfl⟩
abbrev main_v236 : Ref sig .tc := ⟨.hbm, 298, rfl⟩
abbrev main_v237 : Ref sig .tc := ⟨.hbm, 299, rfl⟩
abbrev main_c_53 : Ref sig .tc := ⟨.hbm, 300, rfl⟩
abbrev main_v238 : Ref sig .tc := ⟨.hbm, 301, rfl⟩
abbrev main_v239 : Ref sig .tc := ⟨.hbm, 302, rfl⟩
abbrev main_c_54 : Ref sig .tc := ⟨.hbm, 303, rfl⟩
abbrev main_v240 : Ref sig .tc := ⟨.hbm, 304, rfl⟩
abbrev main_v241 : Ref sig .tc := ⟨.hbm, 305, rfl⟩
abbrev main_v242 : Ref sig .tc := ⟨.hbm, 306, rfl⟩
abbrev main_v243 : Ref sig .tc := ⟨.hbm, 307, rfl⟩
abbrev main_v244 : Ref sig .tc := ⟨.hbm, 308, rfl⟩
abbrev main_cst_55 : Ref sig .tc := ⟨.hbm, 309, rfl⟩
abbrev main_v245 : Ref sig .tc := ⟨.hbm, 310, rfl⟩
abbrev main_v246 : Ref sig .tc := ⟨.hbm, 311, rfl⟩
abbrev main_v247 : Ref sig .tc := ⟨.hbm, 312, rfl⟩
abbrev main_v248 : Ref sig .tc := ⟨.hbm, 313, rfl⟩
abbrev main_v249 : Ref sig .tc := ⟨.hbm, 314, rfl⟩
abbrev main_v250 : Ref sig .tc := ⟨.hbm, 315, rfl⟩
abbrev main_v251 : Ref sig .tc := ⟨.hbm, 316, rfl⟩
abbrev main_c_56 : Ref sig .tc := ⟨.hbm, 317, rfl⟩
abbrev main_v252 : Ref sig .tc := ⟨.hbm, 318, rfl⟩
abbrev main_v253 : Ref sig .tc := ⟨.hbm, 319, rfl⟩
abbrev main_c_57 : Ref sig .tc := ⟨.hbm, 320, rfl⟩
abbrev main_v254 : Ref sig .tc := ⟨.hbm, 321, rfl⟩
abbrev main_v255 : Ref sig .tc := ⟨.hbm, 322, rfl⟩
abbrev main_v256 : Ref sig .tc := ⟨.hbm, 323, rfl⟩
abbrev main_v257 : Ref sig .tc := ⟨.hbm, 324, rfl⟩
abbrev main_v258 : Ref sig .tc := ⟨.hbm, 325, rfl⟩
abbrev main_v259 : Ref sig .tc := ⟨.hbm, 326, rfl⟩
abbrev main_v260 : Ref sig .tc := ⟨.hbm, 327, rfl⟩
abbrev main_cst_58 : Ref sig .tc := ⟨.hbm, 328, rfl⟩
abbrev main_v261 : Ref sig .tc := ⟨.hbm, 329, rfl⟩
abbrev main_v262 : Ref sig .tc := ⟨.hbm, 330, rfl⟩
abbrev main_v263 : Ref sig .tc := ⟨.hbm, 331, rfl⟩
abbrev main_v264 : Ref sig .tc := ⟨.hbm, 332, rfl⟩
abbrev main_c_59 : Ref sig .tc := ⟨.hbm, 333, rfl⟩
abbrev main_v265 : Ref sig .tc := ⟨.hbm, 334, rfl⟩
abbrev main_v266 : Ref sig .tc := ⟨.hbm, 335, rfl⟩
abbrev main_c_60 : Ref sig .tc := ⟨.hbm, 336, rfl⟩
abbrev main_v267 : Ref sig .tc := ⟨.hbm, 337, rfl⟩
abbrev main_v268 : Ref sig .tc := ⟨.hbm, 338, rfl⟩
abbrev main_v269 : Ref sig .tc := ⟨.hbm, 339, rfl⟩
abbrev main_v270 : Ref sig .tc := ⟨.hbm, 340, rfl⟩
abbrev main_v271 : Ref sig .tc := ⟨.hbm, 341, rfl⟩
abbrev main_v272 : Ref sig .tc := ⟨.hbm, 342, rfl⟩
abbrev main_v273 : Ref sig .tc := ⟨.hbm, 343, rfl⟩
abbrev main_cst_61 : Ref sig .tc := ⟨.hbm, 344, rfl⟩
abbrev main_v274 : Ref sig .tc := ⟨.hbm, 345, rfl⟩
abbrev main_v275 : Ref sig .tc := ⟨.hbm, 346, rfl⟩
abbrev main_v276 : Ref sig .tc := ⟨.hbm, 347, rfl⟩
abbrev main_v277 : Ref sig .tc := ⟨.hbm, 348, rfl⟩
abbrev main_v278 : Ref sig .tc := ⟨.hbm, 349, rfl⟩
abbrev main_v279 : Ref sig .tc := ⟨.hbm, 350, rfl⟩
abbrev main_v280 : Ref sig .tc := ⟨.hbm, 351, rfl⟩
abbrev main_v281 : Ref sig .tc := ⟨.hbm, 352, rfl⟩
abbrev main_c_62 : Ref sig .tc := ⟨.hbm, 353, rfl⟩
abbrev main_v282 : Ref sig .tc := ⟨.hbm, 354, rfl⟩
abbrev main_v283 : Ref sig .tc := ⟨.hbm, 355, rfl⟩
abbrev main_c_63 : Ref sig .tc := ⟨.hbm, 356, rfl⟩
abbrev main_v284 : Ref sig .tc := ⟨.hbm, 357, rfl⟩
abbrev main_v285 : Ref sig .tc := ⟨.hbm, 358, rfl⟩
abbrev main_v286 : Ref sig .tc := ⟨.hbm, 359, rfl⟩
abbrev main_v287 : Ref sig .tc := ⟨.hbm, 360, rfl⟩
abbrev main_v288 : Ref sig .tc := ⟨.hbm, 361, rfl⟩
abbrev main_v289 : Ref sig .tc := ⟨.hbm, 362, rfl⟩
abbrev main_v290 : Ref sig .tc := ⟨.hbm, 363, rfl⟩
abbrev main_cst_64 : Ref sig .tc := ⟨.hbm, 364, rfl⟩
abbrev main_v291 : Ref sig .tc := ⟨.hbm, 365, rfl⟩
abbrev main_v292 : Ref sig .tc := ⟨.hbm, 366, rfl⟩
abbrev main_v293 : Ref sig .tc := ⟨.hbm, 367, rfl⟩
abbrev main_v294 : Ref sig .tc := ⟨.hbm, 368, rfl⟩
abbrev main_c_65 : Ref sig .tc := ⟨.hbm, 369, rfl⟩
abbrev main_v295 : Ref sig .tc := ⟨.hbm, 370, rfl⟩
abbrev main_v296 : Ref sig .tc := ⟨.hbm, 371, rfl⟩
abbrev main_c_66 : Ref sig .tc := ⟨.hbm, 372, rfl⟩
abbrev main_v297 : Ref sig .tc := ⟨.hbm, 373, rfl⟩
abbrev main_v298 : Ref sig .tc := ⟨.hbm, 374, rfl⟩
abbrev main_v299 : Ref sig .tc := ⟨.hbm, 375, rfl⟩
abbrev main_v300 : Ref sig .tc := ⟨.hbm, 376, rfl⟩
abbrev main_v301 : Ref sig .tc := ⟨.hbm, 377, rfl⟩
abbrev main_v302 : Ref sig .tc := ⟨.hbm, 378, rfl⟩
abbrev main_v303 : Ref sig .tc := ⟨.hbm, 379, rfl⟩
abbrev main_cst_67 : Ref sig .tc := ⟨.hbm, 380, rfl⟩
abbrev main_v304 : Ref sig .tc := ⟨.hbm, 381, rfl⟩
abbrev main_v305 : Ref sig .tc := ⟨.hbm, 382, rfl⟩
abbrev main_v306 : Ref sig .tc := ⟨.hbm, 383, rfl⟩
abbrev main_v307 : Ref sig .tc := ⟨.hbm, 384, rfl⟩
abbrev main_v308 : Ref sig .tc := ⟨.hbm, 385, rfl⟩
abbrev main_cst_68 : Ref sig .tc := ⟨.hbm, 386, rfl⟩
abbrev main_v309 : Ref sig .tc := ⟨.hbm, 387, rfl⟩
abbrev main_v310 : Ref sig .tc := ⟨.hbm, 388, rfl⟩
abbrev main_v311 : Ref sig .tc := ⟨.hbm, 389, rfl⟩
abbrev main_v312 : Ref sig .tc := ⟨.hbm, 390, rfl⟩
abbrev main_v313 : Ref sig .tc := ⟨.hbm, 391, rfl⟩
abbrev main_v314 : Ref sig .tc := ⟨.hbm, 392, rfl⟩
abbrev main_v315 : Ref sig .tc := ⟨.hbm, 393, rfl⟩
abbrev main_v316 : Ref sig .tc := ⟨.hbm, 394, rfl⟩
abbrev main_v317 : Ref sig .tc := ⟨.hbm, 395, rfl⟩
abbrev main_v318 : Ref sig .tc := ⟨.hbm, 396, rfl⟩
abbrev main_v319 : Ref sig .tc := ⟨.hbm, 397, rfl⟩
abbrev main_v320 : Ref sig .tc := ⟨.hbm, 398, rfl⟩
abbrev main_v321 : Ref sig .tc := ⟨.hbm, 399, rfl⟩
abbrev main_v322 : Ref sig .tc := ⟨.hbm, 400, rfl⟩
abbrev main_v323 : Ref sig .tc := ⟨.hbm, 401, rfl⟩
abbrev main_v324 : Ref sig .tc := ⟨.hbm, 402, rfl⟩
abbrev main_v325 : Ref sig .tc := ⟨.hbm, 403, rfl⟩
abbrev main_v326 : Ref sig .tc := ⟨.hbm, 404, rfl⟩
abbrev main_c_69 : Ref sig .tc := ⟨.hbm, 405, rfl⟩
abbrev main_v327 : Ref sig .tc := ⟨.hbm, 406, rfl⟩
abbrev main_v328 : Ref sig .tc := ⟨.hbm, 407, rfl⟩
abbrev main_c_70 : Ref sig .tc := ⟨.hbm, 408, rfl⟩
abbrev main_v329 : Ref sig .tc := ⟨.hbm, 409, rfl⟩
abbrev main_v330 : Ref sig .tc := ⟨.hbm, 410, rfl⟩
abbrev main_v331 : Ref sig .tc := ⟨.hbm, 411, rfl⟩
abbrev main_v332 : Ref sig .tc := ⟨.hbm, 412, rfl⟩
abbrev main_v333 : Ref sig .tc := ⟨.hbm, 413, rfl⟩
abbrev main_c_71 : Ref sig .tc := ⟨.hbm, 414, rfl⟩
abbrev main_v334 : Ref sig .tc := ⟨.hbm, 415, rfl⟩
abbrev main_v335 : Ref sig .tc := ⟨.hbm, 416, rfl⟩
abbrev main_c_72 : Ref sig .tc := ⟨.hbm, 417, rfl⟩
abbrev main_v336 : Ref sig .tc := ⟨.hbm, 418, rfl⟩
abbrev main_v337 : Ref sig .tc := ⟨.hbm, 419, rfl⟩
abbrev main_v338 : Ref sig .tc := ⟨.hbm, 420, rfl⟩
abbrev main_v339 : Ref sig .tc := ⟨.hbm, 421, rfl⟩
abbrev main_v340 : Ref sig .tc := ⟨.hbm, 422, rfl⟩
abbrev main_v341 : Ref sig .tc := ⟨.hbm, 423, rfl⟩
abbrev main_cst_73 : Ref sig .tc := ⟨.hbm, 424, rfl⟩
abbrev main_v342 : Ref sig .tc := ⟨.hbm, 425, rfl⟩
abbrev main_c_74 : Ref sig .tc := ⟨.hbm, 426, rfl⟩
abbrev main_v343 : Ref sig .tc := ⟨.hbm, 427, rfl⟩
abbrev main_v344 : Ref sig .tc := ⟨.hbm, 428, rfl⟩
abbrev main_c_75 : Ref sig .tc := ⟨.hbm, 429, rfl⟩
abbrev main_v345 : Ref sig .tc := ⟨.hbm, 430, rfl⟩
abbrev main_v346 : Ref sig .tc := ⟨.hbm, 431, rfl⟩
abbrev main_v347 : Ref sig .tc := ⟨.hbm, 432, rfl⟩
abbrev main_v348 : Ref sig .tc := ⟨.hbm, 433, rfl⟩
abbrev main_v349 : Ref sig .tc := ⟨.hbm, 434, rfl⟩
abbrev main_c_76 : Ref sig .tc := ⟨.hbm, 435, rfl⟩
abbrev main_v350 : Ref sig .tc := ⟨.hbm, 436, rfl⟩
abbrev main_v351 : Ref sig .tc := ⟨.hbm, 437, rfl⟩
abbrev main_c_77 : Ref sig .tc := ⟨.hbm, 438, rfl⟩
abbrev main_v352 : Ref sig .tc := ⟨.hbm, 439, rfl⟩
abbrev main_v353 : Ref sig .tc := ⟨.hbm, 440, rfl⟩
abbrev main_v354 : Ref sig .tc := ⟨.hbm, 441, rfl⟩
abbrev main_v355 : Ref sig .tc := ⟨.hbm, 442, rfl⟩
abbrev main_v356 : Ref sig .tc := ⟨.hbm, 443, rfl⟩
abbrev main_v357 : Ref sig .tc := ⟨.hbm, 444, rfl⟩
abbrev main_cst_78 : Ref sig .tc := ⟨.hbm, 445, rfl⟩
abbrev main_v358 : Ref sig .tc := ⟨.hbm, 446, rfl⟩
abbrev main_v359 : Ref sig .tc := ⟨.hbm, 447, rfl⟩
abbrev main_v360 : Ref sig .tc := ⟨.hbm, 448, rfl⟩
abbrev main_v361 : Ref sig .tc := ⟨.hbm, 449, rfl⟩
abbrev main_v362 : Ref sig .tc := ⟨.hbm, 450, rfl⟩
abbrev main_v363 : Ref sig .tc := ⟨.hbm, 451, rfl⟩
abbrev main_v364 : Ref sig .tc := ⟨.hbm, 452, rfl⟩
abbrev main_cst_79 : Ref sig .tc := ⟨.hbm, 453, rfl⟩
abbrev main_v365 : Ref sig .tc := ⟨.hbm, 454, rfl⟩
abbrev main_v366 : Ref sig .tc := ⟨.hbm, 455, rfl⟩
abbrev main_cst_80 : Ref sig .tc := ⟨.hbm, 456, rfl⟩
abbrev main_v367 : Ref sig .tc := ⟨.hbm, 457, rfl⟩
abbrev main_v368 : Ref sig .tc := ⟨.hbm, 458, rfl⟩
abbrev main_cst_81 : Ref sig .tc := ⟨.hbm, 459, rfl⟩
abbrev main_v369 : Ref sig .tc := ⟨.hbm, 460, rfl⟩
abbrev main_v370 : Ref sig .tc := ⟨.hbm, 461, rfl⟩
abbrev main_v371 : Ref sig .tc := ⟨.hbm, 462, rfl⟩
abbrev main_v372 : Ref sig .tc := ⟨.hbm, 463, rfl⟩
abbrev main_cst_82 : Ref sig .tc := ⟨.hbm, 464, rfl⟩
abbrev main_v373 : Ref sig .tc := ⟨.hbm, 465, rfl⟩
abbrev main_cst_83 : Ref sig .tc := ⟨.hbm, 466, rfl⟩
abbrev main_v374 : Ref sig .tc := ⟨.hbm, 467, rfl⟩

abbrev nD : Nat := 1
abbrev τ : Topo := Topo.v7x

variable {F : FTy → Type} [FloatOps F]

class Facts₀ : Prop where
  concatenates_S200001x64_S100001x64_S300002x64_d0 : Shape.Concatenates [S200001x64, S100001x64] S300002x64 0
  bcast_S_S200001x64 : S_.BroadcastsInDim S200001x64 (![] : Fin 0 → Fin S200001x64.rank)
  bcast_S_S100001x64 : S_.BroadcastsInDim S100001x64 (![] : Fin 0 → Fin S100001x64.rank)
  slices_S3x1000000_S1x1000000_0_0 : S3x1000000.Slices ![0, 0] S1x1000000
  shapeCasts_S1x1000000_S1000000 : S1x1000000.ShapeCasts S1000000
  bcast_S_S1000000 : S_.BroadcastsInDim S1000000 (![] : Fin 0 → Fin S1000000.rank)
  bcast_S_S200001 : S_.BroadcastsInDim S200001 (![] : Fin 0 → Fin S200001.rank)
  bcast_S1000000_S1000000x1_0 : S1000000.BroadcastsInDim S1000000x1 (![0] : Fin 1 → Fin S1000000x1.rank)
  bcast_S_S100001 : S_.BroadcastsInDim S100001 (![] : Fin 0 → Fin S100001.rank)
  slices_S300002x64_S200001x64_0_0 : S300002x64.Slices ![0, 0] S200001x64
  slices_S300002x64_S100001x64_200001_0 : S300002x64.Slices ![200001, 0] S100001x64
  bcast_S1000000x1_S1000000x64_0_1 : S1000000x1.BroadcastsInDim S1000000x64 (![0, 1] : Fin 2 → Fin S1000000x64.rank)
  bcast_S_S300002x64 : S_.BroadcastsInDim S300002x64 (![] : Fin 0 → Fin S300002x64.rank)
  slices_S2x64x64_S1x64x64_0_0_0 : S2x64x64.Slices ![0, 0, 0] S1x64x64
  shapeCasts_S1x64x64_S64x64 : S1x64x64.ShapeCasts S64x64
  transposes_S64x64_S64x64_1_0 : S64x64.Transposes [1, 0] S64x64
  slices_S3x1000000_S1x1000000_1_0 : S3x1000000.Slices ![1, 0] S1x1000000
  slices_S2x64x64_S1x64x64_1_0_0 : S2x64x64.Slices ![1, 0, 0] S1x64x64
  slices_S3x1000000_S1x1000000_2_0 : S3x1000000.Slices ![2, 0] S1x1000000
  slices_S8192x6x4_S8192x1x4_0_0_0 : S8192x6x4.Slices ![0, 0, 0] S8192x1x4
  shapeCasts_S8192x1x4_S8192x4 : S8192x1x4.ShapeCasts S8192x4
  slices_S8192x6x4_S8192x4x4_0_1_0 : S8192x6x4.Slices ![0, 1, 0] S8192x4x4
  shapeCasts_S8192x4x4_S32768x4 : S8192x4x4.ShapeCasts S32768x4
  slices_S8192x4_S8192x1_0_0 : S8192x4.Slices ![0, 0] S8192x1
  shapeCasts_S8192x1_S8192 : S8192x1.ShapeCasts S8192
  slices_S8192x4_S8192x1_0_1 : S8192x4.Slices ![0, 1] S8192x1
  slices_S32768x4_S32768x1_0_0 : S32768x4.Slices ![0, 0] S32768x1
  shapeCasts_S32768x1_S32768 : S32768x1.ShapeCasts S32768
  slices_S32768x4_S32768x1_0_1 : S32768x4.Slices ![0, 1] S32768x1
  bcast_S_S8192 : S_.BroadcastsInDim S8192 (![] : Fin 0 → Fin S8192.rank)
  bcast_S8192_S8192x1_0 : S8192.BroadcastsInDim S8192x1 (![0] : Fin 1 → Fin S8192x1.rank)
  reducesTo_S8192x64_S8192_d1 : S8192x64.ReducesTo [1] S8192
  h_S_ : 0 < S_.numel
  bcast_S_S32768 : S_.BroadcastsInDim S32768 (![] : Fin 0 → Fin S32768.rank)
  bcast_S32768_S32768x1_0 : S32768.BroadcastsInDim S32768x1 (![0] : Fin 1 → Fin S32768x1.rank)
  reducesTo_S32768x64_S32768_d1 : S32768x64.ReducesTo [1] S32768
  bcast_S8192x1_S8192x4_0_1 : S8192x1.BroadcastsInDim S8192x4 (![0, 1] : Fin 2 → Fin S8192x4.rank)
  shapeCasts_S8192x4_S32768 : S8192x4.ShapeCasts S32768
  reducesTo_S32768_S_d0 : S32768.ReducesTo [0] S_
  scatter_S200001_S1000000x1_S1000000_n_0_0_1_wf : ScatterDims.WF S200001 S1000000x1 S1000000 [] [0] [0] 1
  scatter_S100001_S1000000x1_S1000000_n_0_0_1_wf : ScatterDims.WF S100001 S1000000x1 S1000000 [] [0] [0] 1
  gather_S200001_S1000000x1_S1000000_n_0_n_n_0_1_1_wf : GatherDims.WF S200001 S1000000x1 S1000000 [] [0] [] [0] [] 1 ![1]
  gather_S100001_S1000000x1_S1000000_n_0_n_n_0_1_1_wf : GatherDims.WF S100001 S1000000x1 S1000000 [] [0] [] [0] [] 1 ![1]
  gather_S100001x64_S1000000x1_S1000000x64_1_0_n_n_0_1_164_wf : GatherDims.WF S100001x64 S1000000x1 S1000000x64 [1] [0] [] [0] [] 1 ![1, 64]
  scatter_S200001x64_S1000000x1_S1000000x64_1_0_0_1_wf : ScatterDims.WF S200001x64 S1000000x1 S1000000x64 [1] [0] [0] 1
  gather_S200001x64_S1000000x1_S1000000x64_1_0_n_n_0_1_164_wf : GatherDims.WF S200001x64 S1000000x1 S1000000x64 [1] [0] [] [0] [] 1 ![1, 64]
  scatter_S100001x64_S1000000x1_S1000000x64_1_0_0_1_wf : ScatterDims.WF S100001x64 S1000000x1 S1000000x64 [1] [0] [0] 1
  dot_S200001x64_S64x64_S200001x64_1_0_0_1_n_n_wf : DotDims.WF S200001x64 S64x64 S200001x64 [1] [0] [0] [1] [] []
  dot_S100001x64_S64x64_S100001x64_1_0_0_1_n_n_wf : DotDims.WF S100001x64 S64x64 S100001x64 [1] [0] [0] [1] [] []
  gather_S200001x64_S8192x1_S8192x64_1_0_n_n_0_1_164_wf : GatherDims.WF S200001x64 S8192x1 S8192x64 [1] [0] [] [0] [] 1 ![1, 64]
  gather_S100001x64_S8192x1_S8192x64_1_0_n_n_0_1_164_wf : GatherDims.WF S100001x64 S8192x1 S8192x64 [1] [0] [] [0] [] 1 ![1, 64]
  gather_S200001x64_S32768x1_S32768x64_1_0_n_n_0_1_164_wf : GatherDims.WF S200001x64 S32768x1 S32768x64 [1] [0] [] [0] [] 1 ![1, 64]
  gather_S100001x64_S32768x1_S32768x64_1_0_n_n_0_1_164_wf : GatherDims.WF S100001x64 S32768x1 S32768x64 [1] [0] [] [0] [] 1 ![1, 64]

variable [Facts₀]

def scatter_S200001_S1000000x1_S1000000_n_0_0_1 : ScatterDims S200001 S1000000x1 S1000000 where
  updateWindowDims := []
  insertedWindowDims := [0]
  scatterDimsToOperandDims := [0]
  indexVectorDim := 1
  wf := scatter_S200001_S1000000x1_S1000000_n_0_0_1_wf
def scatter_S100001_S1000000x1_S1000000_n_0_0_1 : ScatterDims S100001 S1000000x1 S1000000 where
  updateWindowDims := []
  insertedWindowDims := [0]
  scatterDimsToOperandDims := [0]
  indexVectorDim := 1
  wf := scatter_S100001_S1000000x1_S1000000_n_0_0_1_wf
def gather_S200001_S1000000x1_S1000000_n_0_n_n_0_1_1 : GatherDims S200001 S1000000x1 S1000000 where
  offsetDims := []
  collapsedSliceDims := [0]
  operandBatchingDims := []
  startIndicesBatchingDims := []
  startIndexMap := [0]
  indexVectorDim := 1
  sliceSizes := ![1]
  wf := gather_S200001_S1000000x1_S1000000_n_0_n_n_0_1_1_wf
def gather_S100001_S1000000x1_S1000000_n_0_n_n_0_1_1 : GatherDims S100001 S1000000x1 S1000000 where
  offsetDims := []
  collapsedSliceDims := [0]
  operandBatchingDims := []
  startIndicesBatchingDims := []
  startIndexMap := [0]
  indexVectorDim := 1
  sliceSizes := ![1]
  wf := gather_S100001_S1000000x1_S1000000_n_0_n_n_0_1_1_wf
def gather_S100001x64_S1000000x1_S1000000x64_1_0_n_n_0_1_164 : GatherDims S100001x64 S1000000x1 S1000000x64 where
  offsetDims := [1]
  collapsedSliceDims := [0]
  operandBatchingDims := []
  startIndicesBatchingDims := []
  startIndexMap := [0]
  indexVectorDim := 1
  sliceSizes := ![1, 64]
  wf := gather_S100001x64_S1000000x1_S1000000x64_1_0_n_n_0_1_164_wf
def scatter_S200001x64_S1000000x1_S1000000x64_1_0_0_1 : ScatterDims S200001x64 S1000000x1 S1000000x64 where
  updateWindowDims := [1]
  insertedWindowDims := [0]
  scatterDimsToOperandDims := [0]
  indexVectorDim := 1
  wf := scatter_S200001x64_S1000000x1_S1000000x64_1_0_0_1_wf
def gather_S200001x64_S1000000x1_S1000000x64_1_0_n_n_0_1_164 : GatherDims S200001x64 S1000000x1 S1000000x64 where
  offsetDims := [1]
  collapsedSliceDims := [0]
  operandBatchingDims := []
  startIndicesBatchingDims := []
  startIndexMap := [0]
  indexVectorDim := 1
  sliceSizes := ![1, 64]
  wf := gather_S200001x64_S1000000x1_S1000000x64_1_0_n_n_0_1_164_wf
def scatter_S100001x64_S1000000x1_S1000000x64_1_0_0_1 : ScatterDims S100001x64 S1000000x1 S1000000x64 where
  updateWindowDims := [1]
  insertedWindowDims := [0]
  scatterDimsToOperandDims := [0]
  indexVectorDim := 1
  wf := scatter_S100001x64_S1000000x1_S1000000x64_1_0_0_1_wf
def dot_S200001x64_S64x64_S200001x64_1_0_0_1_n_n : DotDims S200001x64 S64x64 S200001x64 where
  lhsContracting := [1]
  rhsContracting := [0]
  lhsNonContracting := [0]
  rhsNonContracting := [1]
  lhsBatch := []
  rhsBatch := []
  wf := dot_S200001x64_S64x64_S200001x64_1_0_0_1_n_n_wf
def dot_S100001x64_S64x64_S100001x64_1_0_0_1_n_n : DotDims S100001x64 S64x64 S100001x64 where
  lhsContracting := [1]
  rhsContracting := [0]
  lhsNonContracting := [0]
  rhsNonContracting := [1]
  lhsBatch := []
  rhsBatch := []
  wf := dot_S100001x64_S64x64_S100001x64_1_0_0_1_n_n_wf
def gather_S200001x64_S8192x1_S8192x64_1_0_n_n_0_1_164 : GatherDims S200001x64 S8192x1 S8192x64 where
  offsetDims := [1]
  collapsedSliceDims := [0]
  operandBatchingDims := []
  startIndicesBatchingDims := []
  startIndexMap := [0]
  indexVectorDim := 1
  sliceSizes := ![1, 64]
  wf := gather_S200001x64_S8192x1_S8192x64_1_0_n_n_0_1_164_wf
def gather_S100001x64_S8192x1_S8192x64_1_0_n_n_0_1_164 : GatherDims S100001x64 S8192x1 S8192x64 where
  offsetDims := [1]
  collapsedSliceDims := [0]
  operandBatchingDims := []
  startIndicesBatchingDims := []
  startIndexMap := [0]
  indexVectorDim := 1
  sliceSizes := ![1, 64]
  wf := gather_S100001x64_S8192x1_S8192x64_1_0_n_n_0_1_164_wf
def gather_S200001x64_S32768x1_S32768x64_1_0_n_n_0_1_164 : GatherDims S200001x64 S32768x1 S32768x64 where
  offsetDims := [1]
  collapsedSliceDims := [0]
  operandBatchingDims := []
  startIndicesBatchingDims := []
  startIndexMap := [0]
  indexVectorDim := 1
  sliceSizes := ![1, 64]
  wf := gather_S200001x64_S32768x1_S32768x64_1_0_n_n_0_1_164_wf
def gather_S100001x64_S32768x1_S32768x64_1_0_n_n_0_1_164 : GatherDims S100001x64 S32768x1 S32768x64 where
  offsetDims := [1]
  collapsedSliceDims := [0]
  operandBatchingDims := []
  startIndicesBatchingDims := []
  startIndexMap := [0]
  indexVectorDim := 1
  sliceSizes := ![1, 64]
  wf := gather_S100001x64_S32768x1_S32768x64_1_0_n_n_0_1_164_wf

class Facts : Prop extends Facts₀ where

variable [Facts]
-- ==== Proof.KBounds.lean ====
/-
  The kernel program's buffer contents at the boundaries that matter for its value: after each long stretch of host
  operations, at each fused call's entry and exit, and at the end. Each is the frame's boundary contents under a name
  that does not unfold by itself, so that a stretch's operations can be read back over the previous boundary's contents
  without opening the stretches before it.
-/
import proofs.«403624_j12223476924780_3_alg».proof.Proof.KernelIdealFrameP
import Idealize.ShloMosaic.Lib.StableHlo.Run

noncomputable section

namespace Cert.KernelIdeal.KB

open Idealize.ShloMosaic Idealize.ShloMosaic.TcCoe Idealize.SL.Sem Idealize.ShloMosaic.StableHlo
open Cert.KernelIdeal Cert.KernelIdeal.Gen Cert.KernelIdeal.GenP

variable {F : FTy → Type} [FloatOps F]
variable (m : (ℓ : Loc nD τ sig) → Buf (Elt F) ℓ) (ρ : Dev nD → PrngReg) (c : Dev nD)

/-- At launch. -/
def U0 : Valuation τ sig (Elt F) := W0 m ρ c
/-- After the first stretch (the first propagation, the first user weight laid out). -/
def U1 : Valuation τ sig (Elt F) := StableHlo.after hostOps0 (U0 m ρ c)
/-- At the first call's entry (the two pads and the two reshapes done). -/
def U5 : Valuation τ sig (Elt F) :=
  StableHlo.after hostOps0_4 (StableHlo.after hostOps0_3 (StableHlo.after hostOps0_2 (StableHlo.after hostOps0_1 (U1 m ρ c))))
/-- At the first call's exit. -/
def U6 : Valuation τ sig (Elt F) := W6 m ρ c
/-- After the stretch that follows the first call. -/
def U7 : Valuation τ sig (Elt F) := StableHlo.after hostOps1 (U6 m ρ c)
/-- At the second call's entry. -/
def U11 : Valuation τ sig (Elt F) :=
  StableHlo.after hostOps1_4 (StableHlo.after hostOps1_3 (StableHlo.after hostOps1_2 (StableHlo.after hostOps1_1 (U7 m ρ c))))
/-- At the second call's exit. -/
def U12 : Valuation τ sig (Elt F) := W12 m ρ c
/-- After the stretch that follows the second call (the second propagation). -/
def U13 : Valuation τ sig (Elt F) := StableHlo.after hostOps2 (U12 m ρ c)
/-- At the third call's entry. -/
def U17 : Valuation τ sig (Elt F) :=
  StableHlo.after hostOps2_4 (StableHlo.after hostOps2_3 (StableHlo.after hostOps2_2 (StableHlo.after hostOps2_1 (U13 m ρ c))))
/-- At the third call's exit. -/
def U18 : Valuation τ sig (Elt F) := W18 m ρ c
/-- After the stretch that follows the third call. -/
def U19 : Valuation τ sig (Elt F) := StableHlo.after hostOps3 (U18 m ρ c)
/-- At the fourth call's entry. -/
def U23 : Valuation τ sig (Elt F) :=
  StableHlo.after hostOps3_4 (StableHlo.after hostOps3_3 (StableHlo.after hostOps3_2 (StableHlo.after hostOps3_1 (U19 m ρ c))))
/-- At the fourth call's exit. -/
def U24 : Valuation τ sig (Elt F) := W24 m ρ c
/-- At the end. -/
def U25 : Valuation τ sig (Elt F) := StableHlo.after hostOps4 (U24 m ρ c)

theorem U5_eq : U5 m ρ c = W5 m ρ c := rfl
theorem U11_eq : U11 m ρ c = W11 m ρ c := rfl
theorem U17_eq : U17 m ρ c = W17 m ρ c := rfl
theorem U23_eq : U23 m ρ c = W23 m ρ c := rfl
theorem U25_eq : U25 m ρ c = W25 m ρ c := rfl

end Cert.KernelIdeal.KB

end
-- ==== Proof.LibSliceConcat.lean ====
/-
  A unit-stride slice of a two-piece concatenation that cuts out exactly one of the pieces is that piece, and a
  unit-stride slice commutes with the host's elementwise quotient and with the broadcast of a scalar.

  With Lib/LayoutPointwise.lean's slices of sums these move "the first rows of" / "the last rows of" through an
  elementwise term over arrays stored one above the other, down to the pieces themselves.
-/
import Idealize.ShloMosaic.PureOps
import Idealize.ShloMosaic.Lib.Pipeline.Value

namespace Idealize.ShloMosaic

variable {α : Type}

/-- The slice that starts at the origin and has the FIRST piece's shape is the first piece. -/
theorem extractStridedSlice_concatenate_pair_left {t s₁ s₂ : Shape} (a : Fin t.rank) (x₁ : s₁.Idx → α) (x₂ : s₂.Idx → α)
    (hc : Shape.Concatenates [s₁, s₂] t a) (off : Fin t.rank → Nat) (hs : t.Slices off s₁) (hoff : ∀ b, off b = 0) :
    extractStridedSlice s₁ off (concatenate t a [⟨s₁, x₁⟩, ⟨s₂, x₂⟩] hc) hs = x₁ := by
  funext j
  unfold extractStridedSlice
  refine concatenate_pair_apply_left a x₁ x₂ hc _ hs.1 j (fun b => ?_)
  show (j b).val = off (b.cast hs.1) + (j ((b.cast hs.1).cast hs.1.symm)).val
  rw [hoff, Nat.zero_add]
  rfl

/-- The slice that starts where the first piece ends on the concatenated axis, at the origin on every other axis,
    and has the SECOND piece's shape is the second piece. -/
theorem extractStridedSlice_concatenate_pair_right {t s₁ s₂ : Shape} (a : Fin t.rank) (x₁ : s₁.Idx → α) (x₂ : s₂.Idx → α)
    (hc : Shape.Concatenates [s₁, s₂] t a) (off : Fin t.rank → Nat) (hs : t.Slices off s₂) (hr : s₁.rank = t.rank)
    (hoffa : off a = s₁.size (a.cast hr.symm)) (hoff : ∀ b, b ≠ a → off b = 0) :
    extractStridedSlice s₂ off (concatenate t a [⟨s₁, x₁⟩, ⟨s₂, x₂⟩] hc) hs = x₂ := by
  funext j
  unfold extractStridedSlice
  refine concatenate_pair_apply_right a x₁ x₂ hc _ hr hs.1 j (fun b hb => ?_) ?_
  · show (j b).val = off (b.cast hs.1) + (j ((b.cast hs.1).cast hs.1.symm)).val
    rw [hoff _ hb, Nat.zero_add]
    rfl
  · show (j (a.cast hs.1.symm)).val + s₁.size (a.cast hr.symm) = off a + (j (a.cast hs.1.symm)).val
    rw [hoffa, Nat.add_comm]

variable {F : FTy → Type} [FloatOps F] {φ : FTy} {s t : Shape}

/-- A slice of the host's elementwise quotient is the quotient of the slices. -/
theorem extractStridedSlice_hostDivf (off : Fin s.rank → Nat) (h : s.Slices off t) (a b : FVec F s φ) :
    extractStridedSlice t off (Host.divf a b) h = Host.divf (extractStridedSlice t off a h) (extractStridedSlice t off b h) := rfl

/-- A slice of a scalar broadcast to a shape is the scalar broadcast to the slice's shape. -/
theorem extractStridedSlice_broadcastInDim_scalar (off : Fin s.rank → Nat) (h : s.Slices off t)
    (dims : Fin (⟨0, ![]⟩ : Shape).rank → Fin s.rank) (hb : (⟨0, ![]⟩ : Shape).BroadcastsInDim s dims)
    (dims' : Fin (⟨0, ![]⟩ : Shape).rank → Fin t.rank) (hb' : (⟨0, ![]⟩ : Shape).BroadcastsInDim t dims')
    (c : (⟨0, ![]⟩ : Shape).Idx → α) :
    extractStridedSlice t off (broadcastInDim s dims hb c) h = broadcastInDim t dims' hb' c := by
  funext j
  unfold extractStridedSlice broadcastInDim
  exact congrArg c (funext fun a => a.elim0)

end Idealize.ShloMosaic
-- ==== Proof.BridgeLemmas.lean ====
/-
  Small facts used to bring the two programs' host terms to one spelling.

  The reference keeps the user rows and the item rows in ONE array of 300002 rows (users first) and takes them apart with
  slices; the kernel keeps two arrays. The first group says what those slices of a concatenation are; the second that a
  slice of the constant-three divisor is the constant-three divisor of the smaller shape. The last group says that the
  shape records both programs print for their shared gathers and scatters are the same records.
-/
import proofs.«403624_j12223476924780_3_alg».proof.KernelIdeal
import proofs.«403624_j12223476924780_3_alg».proof.ReferenceIdeal
import proofs.«403624_j12223476924780_3_alg».proof.Proof.LibSliceConcat
import Idealize.ShloMosaic.Lib.LayoutPointwise

noncomputable section

namespace Cert.Bridge

open Idealize.ShloMosaic

variable [Cert.KernelIdeal.Facts] [Cert.ReferenceIdeal.Facts]

section Slices
open Cert.ReferenceIdeal Cert.ReferenceIdeal.Facts₀ Cert.ReferenceIdeal.Facts

/-- The first 200001 rows of users-over-items are the users. -/
theorem sliceU_cat {α : Type} (a : S200001x64.Idx → α) (b : S100001x64.Idx → α)
    (hc : Shape.Concatenates [S200001x64, S100001x64] S300002x64 0) (hs : S300002x64.Slices ![0, 0] S200001x64) :
    extractStridedSlice S200001x64 ![0, 0] (concatenate S300002x64 0 [⟨S200001x64, a⟩, ⟨S100001x64, b⟩] hc) hs = a :=
  extractStridedSlice_concatenate_pair_left 0 a b hc _ hs (by decide)

/-- The last 100001 rows of users-over-items are the items. -/
theorem sliceI_cat {α : Type} (a : S200001x64.Idx → α) (b : S100001x64.Idx → α)
    (hc : Shape.Concatenates [S200001x64, S100001x64] S300002x64 0) (hs : S300002x64.Slices ![200001, 0] S100001x64) :
    extractStridedSlice S100001x64 ![200001, 0] (concatenate S300002x64 0 [⟨S200001x64, a⟩, ⟨S100001x64, b⟩] hc) hs = b :=
  extractStridedSlice_concatenate_pair_right 0 a b hc _ hs rfl rfl (by decide)

/-- The first 200001 rows of a scalar broadcast over 300002 rows are the scalar broadcast over 200001 rows. -/
theorem sliceU_bcast {α : Type} (hs : S300002x64.Slices ![0, 0] S200001x64) (c : S_.Idx → α) :
    extractStridedSlice S200001x64 ![0, 0] (broadcastInDim S300002x64 ![] bcast_S_S300002x64 c) hs
      = broadcastInDim S200001x64 ![] bcast_S_S200001x64 c :=
  extractStridedSlice_broadcastInDim_scalar _ hs _ _ _ _ c

/-- The last 100001 rows of a scalar broadcast over 300002 rows are the scalar broadcast over 100001 rows. -/
theorem sliceI_bcast {α : Type} (hs : S300002x64.Slices ![200001, 0] S100001x64) (c : S_.Idx → α) :
    extractStridedSlice S100001x64 ![200001, 0] (broadcastInDim S300002x64 ![] bcast_S_S300002x64 c) hs
      = broadcastInDim S100001x64 ![] bcast_S_S100001x64 c :=
  extractStridedSlice_broadcastInDim_scalar _ hs _ _ _ _ c

end Slices

/-! ## The shared shape records -/

theorem scatter_S200001_S1000000x1_S1000000_n_0_0_1_eq : Cert.KernelIdeal.scatter_S200001_S1000000x1_S1000000_n_0_0_1 = Cert.ReferenceIdeal.scatter_S200001_S1000000x1_S1000000_n_0_0_1 := rfl
theorem scatter_S100001_S1000000x1_S1000000_n_0_0_1_eq : Cert.KernelIdeal.scatter_S100001_S1000000x1_S1000000_n_0_0_1 = Cert.ReferenceIdeal.scatter_S100001_S1000000x1_S1000000_n_0_0_1 := rfl
theorem gather_S200001_S1000000x1_S1000000_n_0_n_n_0_1_1_eq : Cert.KernelIdeal.gather_S200001_S1000000x1_S1000000_n_0_n_n_0_1_1 = Cert.ReferenceIdeal.gather_S200001_S1000000x1_S1000000_n_0_n_n_0_1_1 := rfl
theorem gather_S100001_S1000000x1_S1000000_n_0_n_n_0_1_1_eq : Cert.KernelIdeal.gather_S100001_S1000000x1_S1000000_n_0_n_n_0_1_1 = Cert.ReferenceIdeal.gather_S100001_S1000000x1_S1000000_n_0_n_n_0_1_1 := rfl
theorem gather_S100001x64_S1000000x1_S1000000x64_1_0_n_n_0_1_164_eq : Cert.KernelIdeal.gather_S100001x64_S1000000x1_S1000000x64_1_0_n_n_0_1_164 = Cert.ReferenceIdeal.gather_S100001x64_S1000000x1_S1000000x64_1_0_n_n_0_1_164 := rfl
theorem scatter_S200001x64_S1000000x1_S1000000x64_1_0_0_1_eq : Cert.KernelIdeal.scatter_S200001x64_S1000000x1_S1000000x64_1_0_0_1 = Cert.ReferenceIdeal.scatter_S200001x64_S1000000x1_S1000000x64_1_0_0_1 := rfl
theorem gather_S200001x64_S1000000x1_S1000000x64_1_0_n_n_0_1_164_eq : Cert.KernelIdeal.gather_S200001x64_S1000000x1_S1000000x64_1_0_n_n_0_1_164 = Cert.ReferenceIdeal.gather_S200001x64_S1000000x1_S1000000x64_1_0_n_n_0_1_164 := rfl
theorem scatter_S100001x64_S1000000x1_S1000000x64_1_0_0_1_eq : Cert.KernelIdeal.scatter_S100001x64_S1000000x1_S1000000x64_1_0_0_1 = Cert.ReferenceIdeal.scatter_S100001x64_S1000000x1_S1000000x64_1_0_0_1 := rfl
theorem gather_S200001x64_S8192x1_S8192x64_1_0_n_n_0_1_164_eq : Cert.KernelIdeal.gather_S200001x64_S8192x1_S8192x64_1_0_n_n_0_1_164 = Cert.ReferenceIdeal.gather_S200001x64_S8192x1_S8192x64_1_0_n_n_0_1_164 := rfl
theorem gather_S100001x64_S8192x1_S8192x64_1_0_n_n_0_1_164_eq : Cert.KernelIdeal.gather_S100001x64_S8192x1_S8192x64_1_0_n_n_0_1_164 = Cert.ReferenceIdeal.gather_S100001x64_S8192x1_S8192x64_1_0_n_n_0_1_164 := rfl
theorem gather_S200001x64_S32768x1_S32768x64_1_0_n_n_0_1_164_eq : Cert.KernelIdeal.gather_S200001x64_S32768x1_S32768x64_1_0_n_n_0_1_164 = Cert.ReferenceIdeal.gather_S200001x64_S32768x1_S32768x64_1_0_n_n_0_1_164 := rfl
theorem gather_S100001x64_S32768x1_S32768x64_1_0_n_n_0_1_164_eq : Cert.KernelIdeal.gather_S100001x64_S32768x1_S32768x64_1_0_n_n_0_1_164 = Cert.ReferenceIdeal.gather_S100001x64_S32768x1_S32768x64_1_0_n_n_0_1_164 := rfl

end Cert.Bridge

end
-- ==== Proof.Bridge0.lean ====
/-
  The first propagation. Both programs compute it from the launch contents with the same gathers, scatters and
  elementwise operations; the reference runs them on users-over-items in one array and cuts the two halves out at the
  end, the kernel on the two halves. Pushing the reference's slices through its sums, its quotient and its
  concatenations leaves the kernel's term.
-/
import proofs.«403624_j12223476924780_3_alg».proof.Proof.KBounds
import proofs.«403624_j12223476924780_3_alg».proof.Proof.Gen.ReferenceIdeal.Run
import proofs.«403624_j12223476924780_3_alg».proof.Proof.BridgeLemmas

set_option maxRecDepth 16384

noncomputable section

namespace Cert.Bridge

open Idealize.ShloMosaic Idealize.ShloMosaic.TcCoe Idealize.SL.Sem Idealize.ShloMosaic.StableHlo
open Cert.KernelIdeal.KB

/-- The read-back of a stretch of host operations (Lib/StableHlo/Run.lean's one-pass form) applied to a hypothesis. -/
macro "after_results_simp_at " h:ident : tactic =>
  `(tactic| simp (disch := decide) only [StableHlo.after_cons, StableHlo.after_nil,
      StableHlo.nullary_result', StableHlo.unary_result', StableHlo.binary_result', StableHlo.ternary_result',
      StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne',
      StableHlo.quaternary_result_ne', StableHlo.reshape_result_ne',
      StableHlo.nary_result_ne', StableHlo.unaryIndexed_result_ne', StableHlo.binaryIndexed_result_ne'] at $h:ident)

variable {F : FTy → Type} [FloatOps F]
variable (m : (ℓ : Loc Cert.KernelIdeal.nD Cert.KernelIdeal.τ Cert.KernelIdeal.sig) → Buf (Elt F) ℓ)
  (ρ : Dev Cert.KernelIdeal.nD → PrngReg) (c : Dev Cert.KernelIdeal.nD)
variable (V' : Valuation Cert.ReferenceIdeal.τ Cert.ReferenceIdeal.sig (Elt F))

/-- The reference's launch contents are the kernel's on each of the seven arguments. -/
structure Agree : Prop where
  a0 : V' (no_index (Proc.devRef .tc Cert.ReferenceIdeal.main_arg0)) = U0 m ρ c (Proc.devRef .tc Cert.KernelIdeal.main_arg0)
  a1 : V' (no_index (Proc.devRef .tc Cert.ReferenceIdeal.main_arg1)) = U0 m ρ c (Proc.devRef .tc Cert.KernelIdeal.main_arg1)
  a2 : V' (no_index (Proc.devRef .tc Cert.ReferenceIdeal.main_arg2)) = U0 m ρ c (Proc.devRef .tc Cert.KernelIdeal.main_arg2)
  a3 : V' (no_index (Proc.devRef .tc Cert.ReferenceIdeal.main_arg3)) = U0 m ρ c (Proc.devRef .tc Cert.KernelIdeal.main_arg3)
  a4 : V' (no_index (Proc.devRef .tc Cert.ReferenceIdeal.main_arg4)) = U0 m ρ c (Proc.devRef .tc Cert.KernelIdeal.main_arg4)
  a5 : V' (no_index (Proc.devRef .tc Cert.ReferenceIdeal.main_arg5)) = U0 m ρ c (Proc.devRef .tc Cert.KernelIdeal.main_arg5)
  a6 : V' (no_index (Proc.devRef .tc Cert.ReferenceIdeal.main_arg6)) = U0 m ρ c (Proc.devRef .tc Cert.KernelIdeal.main_arg6)

variable {m ρ c V'}

set_option maxHeartbeats 8000000 in
/-- The user half of the first propagation. -/
theorem b0_u (hA : Agree m ρ c V') :
    U1 m ρ c (Proc.devRef .tc Cert.KernelIdeal.main_v91) = Cert.ReferenceIdeal.Value.res_main_v97 V' := by
  unfold U1
  simp only [Cert.KernelIdeal.Gen.hostOps0]
  after_results_simp
  simp only [Cert.ReferenceIdeal.Value.res_main_v97, Cert.ReferenceIdeal.Value.res_main_v96, Cert.ReferenceIdeal.Value.res_main_v63,
    Cert.ReferenceIdeal.Value.res_main_v34, Cert.ReferenceIdeal.Value.res_main_v6, Cert.ReferenceIdeal.Value.res_main_v4,
    Cert.ReferenceIdeal.Value.res_main_v0, hA.a1, hA.a2, hA.a5, hA.a6]
  simp only [extractStridedSlice_hostDivf, extractStridedSlice_addf, sliceU_cat, sliceI_cat]
  first | rw [sliceU_bcast] | rw [sliceI_bcast]
  simp only [hA.a1, hA.a2, hA.a5, hA.a6]
  simp only [scatter_S200001_S1000000x1_S1000000_n_0_0_1_eq, scatter_S100001_S1000000x1_S1000000_n_0_0_1_eq,
    gather_S200001_S1000000x1_S1000000_n_0_n_n_0_1_1_eq, gather_S100001_S1000000x1_S1000000_n_0_n_n_0_1_1_eq,
    gather_S100001x64_S1000000x1_S1000000x64_1_0_n_n_0_1_164_eq, scatter_S200001x64_S1000000x1_S1000000x64_1_0_0_1_eq,
    gather_S200001x64_S1000000x1_S1000000x64_1_0_n_n_0_1_164_eq, scatter_S100001x64_S1000000x1_S1000000x64_1_0_0_1_eq]
  rfl

set_option maxHeartbeats 8000000 in
/-- The item half of the first propagation. -/
theorem b0_i (hA : Agree m ρ c V') :
    U1 m ρ c (Proc.devRef .tc Cert.KernelIdeal.main_v93) = Cert.ReferenceIdeal.Value.res_main_v98 V' := by
  unfold U1
  simp only [Cert.KernelIdeal.Gen.hostOps0]
  after_results_simp
  simp only [Cert.ReferenceIdeal.Value.res_main_v98, Cert.ReferenceIdeal.Value.res_main_v96, Cert.ReferenceIdeal.Value.res_main_v63,
    Cert.ReferenceIdeal.Value.res_main_v34, Cert.ReferenceIdeal.Value.res_main_v6, Cert.ReferenceIdeal.Value.res_main_v4,
    Cert.ReferenceIdeal.Value.res_main_v0, hA.a1, hA.a2, hA.a5, hA.a6]
  simp only [extractStridedSlice_hostDivf, extractStridedSlice_addf, sliceU_cat, sliceI_cat]
  first | rw [sliceU_bcast] | rw [sliceI_bcast]
  simp only [hA.a1, hA.a2, hA.a5, hA.a6]
  simp only [scatter_S200001_S1000000x1_S1000000_n_0_0_1_eq, scatter_S100001_S1000000x1_S1000000_n_0_0_1_eq,
    gather_S200001_S1000000x1_S1000000_n_0_n_n_0_1_1_eq, gather_S100001_S1000000x1_S1000000_n_0_n_n_0_1_1_eq,
    gather_S100001x64_S1000000x1_S1000000x64_1_0_n_n_0_1_164_eq, scatter_S200001x64_S1000000x1_S1000000x64_1_0_0_1_eq,
    gather_S200001x64_S1000000x1_S1000000x64_1_0_n_n_0_1_164_eq, scatter_S100001x64_S1000000x1_S1000000x64_1_0_0_1_eq]
  rfl

section Weights
open Cert.ReferenceIdeal Cert.ReferenceIdeal.Facts₀ Cert.ReferenceIdeal.Facts

/-- The transposed first user weight, as the reference spells it. -/
def rWtU0 (V' : Valuation τ sig (Elt F)) : FVec F S64x64 .f32 :=
  transpose S64x64 [1, 0] (shapeCast _ (extractStridedSlice S1x64x64 ![0, 0, 0] (V' (Proc.devRef .tc main_arg3)) slices_S2x64x64_S1x64x64_0_0_0) shapeCasts_S1x64x64_S64x64) transposes_S64x64_S64x64_1_0
/-- The transposed second user weight, as the reference spells it. -/
def rWtU1 (V' : Valuation τ sig (Elt F)) : FVec F S64x64 .f32 :=
  transpose S64x64 [1, 0] (shapeCast _ (extractStridedSlice S1x64x64 ![1, 0, 0] (V' (Proc.devRef .tc main_arg3)) slices_S2x64x64_S1x64x64_1_0_0) shapeCasts_S1x64x64_S64x64) transposes_S64x64_S64x64_1_0
/-- The transposed first item weight, as the reference spells it. -/
def rWtI0 (V' : Valuation τ sig (Elt F)) : FVec F S64x64 .f32 :=
  transpose S64x64 [1, 0] (shapeCast _ (extractStridedSlice S1x64x64 ![0, 0, 0] (V' (Proc.devRef .tc main_arg4)) slices_S2x64x64_S1x64x64_0_0_0) shapeCasts_S1x64x64_S64x64) transposes_S64x64_S64x64_1_0
/-- The transposed second item weight, as the reference spells it. -/
def rWtI1 (V' : Valuation τ sig (Elt F)) : FVec F S64x64 .f32 :=
  transpose S64x64 [1, 0] (shapeCast _ (extractStridedSlice S1x64x64 ![1, 0, 0] (V' (Proc.devRef .tc main_arg4)) slices_S2x64x64_S1x64x64_1_0_0) shapeCasts_S1x64x64_S64x64) transposes_S64x64_S64x64_1_0
/-- The zero user array and the zero item array, as the reference spells them. -/
def rZeroU : FVec F S200001x64 .f32 := broadcastInDim S200001x64 ![] bcast_S_S200001x64 (constant S_ .f32 0x00000000#32)
def rZeroI : FVec F S100001x64 .f32 := broadcastInDim S100001x64 ![] bcast_S_S100001x64 (constant S_ .f32 0x00000000#32)
end Weights

set_option maxHeartbeats 4000000 in
/-- The kernel's transposed first user weight is the reference's. -/
theorem b0_wtU (hA : Agree m ρ c V') :
    U1 m ρ c (Proc.devRef .tc Cert.KernelIdeal.main_v96) = rWtU0 V' := by
  unfold U1
  simp only [Cert.KernelIdeal.Gen.hostOps0]
  after_results_simp
  simp only [rWtU0, hA.a3]
  rfl

set_option maxHeartbeats 4000000 in
/-- The kernel's zero running sums are the reference's zero arrays. -/
theorem b0_zU : U1 m ρ c (Proc.devRef .tc Cert.KernelIdeal.main_v0) = (rZeroU : FVec F _ .f32) := by
  unfold U1
  simp only [Cert.KernelIdeal.Gen.hostOps0]
  after_results_simp
  rfl
set_option maxHeartbeats 4000000 in
theorem b0_zI : U1 m ρ c (Proc.devRef .tc Cert.KernelIdeal.main_v1) = (rZeroI : FVec F _ .f32) := by
  unfold U1
  simp only [Cert.KernelIdeal.Gen.hostOps0]
  after_results_simp
  rfl

end Cert.Bridge

end
-- ==== Proof.KKeep.lean ====
/-
  Buffers that a stretch of host operations or a fused call does not write keep their contents: the arguments read late
  in the program are still the launch contents where they are read, and the rows a call's output was cut to are still
  there when a later stretch reads them.
-/
import proofs.«403624_j12223476924780_3_alg».proof.Proof.KBounds

set_option maxRecDepth 16384

noncomputable section

namespace Cert.KernelIdeal.KB

open Idealize.ShloMosaic Idealize.ShloMosaic.TcCoe Idealize.SL.Sem Idealize.ShloMosaic.StableHlo
open Cert.KernelIdeal Cert.KernelIdeal.Gen Cert.KernelIdeal.GenP

variable {F : FTy → Type} [FloatOps F]
variable (m : (ℓ : Loc nD τ sig) → Buf (Elt F) ℓ) (ρ : Dev nD → PrngReg) (c : Dev nD)

/-! ## What each stretch of host operations writes

For each stretch, the list of the buffers its operations write (each operation writes its result buffer), the fact that
every operation of the stretch writes inside that list, and so: a buffer outside the list keeps its contents through
the stretch. The four short stretches between a long stretch and a call (two pads, two reshapes) share one list. -/

/-- The buffers the long stretch `hostOps0` writes. -/
abbrev hostOps0_W : List (Ref sig .tc) := [main_cst, main_v0, main_cst_0, main_v1, main_v2, main_v3, main_v4, main_v5, main_cst_1, main_v6, main_cst_2, main_v7, main_v8, main_v9, main_cst_3, main_v10, main_cst_4, main_v11, main_v12, main_v13, main_c, main_v14, main_v15, main_c_5, main_v16, main_v17, main_v18, main_v19, main_v20, main_cst_6, main_v21, main_v22, main_c_7, main_v23, main_v24, main_c_8, main_v25, main_v26, main_v27, main_v28, main_v29, main_cst_9, main_v30, main_v31, main_v32, main_v33, main_v34, main_c_10, main_v35, main_v36, main_c_11, main_v37, main_v38, main_v39, main_v40, main_v41, main_v42, main_v43, main_cst_12, main_v44, main_v45, main_v46, main_v47, main_c_13, main_v48, main_v49, main_c_14, main_v50, main_v51, main_v52, main_v53, main_v54, main_v55, main_v56, main_cst_15, main_v57, main_v58, main_v59, main_v60, main_v61, main_v62, main_c_16, main_v63, main_v64, main_c_17, main_v65, main_v66, main_v67, main_v68, main_v69, main_v70, main_v71, main_cst_18, main_v72, main_v73, main_v74, main_v75, main_c_19, main_v76, main_v77, main_c_20, main_v78, main_v79, main_v80, main_v81, main_v82, main_v83, main_v84, main_cst_21, main_v85, main_v86, main_v87, main_v88, main_v89, main_cst_22, main_v90, main_v91, main_cst_23, main_v92, main_v93, main_v94, main_v95, main_v96, main_cst_24, main_v97, main_c_25, main_v98, main_c_26, main_v99, main_v100, main_v101, main_c_27, main_v102, main_c_28, main_v103, main_v104, main_v105, main_c_29]
set_option maxHeartbeats 4000000 in
theorem hostOps0_writes : (hostOps0 : List (HloOp τ sig (Elt F))).Forall fun op => op.writes ⊆ (hostOps0_W.map (Proc.devRef (τ := τ) .tc)).toFinset := by
  simp only [hostOps0, List.Forall, nullary_writes, unary_writes, binary_writes, ternary_writes, quaternary_writes, reshape_writes, binaryIndexed_writes, Finset.singleton_subset_iff, List.mem_toFinset]
  repeat' apply And.intro
  all_goals exact List.mem_map_of_mem (by decide)

/-- The buffers the four short stretches before call 0 write. -/
abbrev entry0_W : List (Ref sig .tc) := [main_call0_v0, main_v106, main_c_30, main_call1_v0, main_v107, main_v108, main_v109]
theorem hostOps0_1_writes : (hostOps0_1 : List (HloOp τ sig (Elt F))).Forall fun op => op.writes ⊆ (entry0_W.map (Proc.devRef (τ := τ) .tc)).toFinset := by
  simp only [hostOps0_1, List.Forall, nullary_writes, unary_writes, binary_writes, ternary_writes, quaternary_writes, reshape_writes, binaryIndexed_writes, Finset.singleton_subset_iff, List.mem_toFinset]
  repeat' apply And.intro
  all_goals exact List.mem_map_of_mem (by decide)
theorem hostOps0_2_writes : (hostOps0_2 : List (HloOp τ sig (Elt F))).Forall fun op => op.writes ⊆ (entry0_W.map (Proc.devRef (τ := τ) .tc)).toFinset := by
  simp only [hostOps0_2, List.Forall, nullary_writes, unary_writes, binary_writes, ternary_writes, quaternary_writes, reshape_writes, binaryIndexed_writes, Finset.singleton_subset_iff, List.mem_toFinset]
  repeat' apply And.intro
  all_goals exact List.mem_map_of_mem (by decide)
theorem hostOps0_3_writes : (hostOps0_3 : List (HloOp τ sig (Elt F))).Forall fun op => op.writes ⊆ (entry0_W.map (Proc.devRef (τ := τ) .tc)).toFinset := by
  simp only [hostOps0_3, List.Forall, nullary_writes, unary_writes, binary_writes, ternary_writes, quaternary_writes, reshape_writes, binaryIndexed_writes, Finset.singleton_subset_iff, List.mem_toFinset]
  repeat' apply And.intro
  all_goals exact List.mem_map_of_mem (by decide)
theorem hostOps0_4_writes : (hostOps0_4 : List (HloOp τ sig (Elt F))).Forall fun op => op.writes ⊆ (entry0_W.map (Proc.devRef (τ := τ) .tc)).toFinset := by
  simp only [hostOps0_4, List.Forall, nullary_writes, unary_writes, binary_writes, ternary_writes, quaternary_writes, reshape_writes, binaryIndexed_writes, Finset.singleton_subset_iff, List.mem_toFinset]
  repeat' apply And.intro
  all_goals exact List.mem_map_of_mem (by decide)

/-- The buffers the long stretch `hostOps1` writes. -/
abbrev hostOps1_W : List (Ref sig .tc) := [main_v111, main_v112, main_v113, main_v114, main_v115, main_v116, main_v117, main_cst_31, main_v118, main_c_32, main_v119, main_c_33, main_v120, main_v121, main_v122, main_c_34, main_v123, main_c_35, main_v124, main_v125, main_v126, main_c_36]
set_option maxHeartbeats 4000000 in
theorem hostOps1_writes : (hostOps1 : List (HloOp τ sig (Elt F))).Forall fun op => op.writes ⊆ (hostOps1_W.map (Proc.devRef (τ := τ) .tc)).toFinset := by
  simp only [hostOps1, List.Forall, nullary_writes, unary_writes, binary_writes, ternary_writes, quaternary_writes, reshape_writes, binaryIndexed_writes, Finset.singleton_subset_iff, List.mem_toFinset]
  repeat' apply And.intro
  all_goals exact List.mem_map_of_mem (by decide)

/-- The buffers the four short stretches before call 1 write. -/
abbrev entry1_W : List (Ref sig .tc) := [main_call2_v0, main_v127, main_c_37, main_call3_v0, main_v128, main_v129, main_v130]
theorem hostOps1_1_writes : (hostOps1_1 : List (HloOp τ sig (Elt F))).Forall fun op => op.writes ⊆ (entry1_W.map (Proc.devRef (τ := τ) .tc)).toFinset := by
  simp only [hostOps1_1, List.Forall, nullary_writes, unary_writes, binary_writes, ternary_writes, quaternary_writes, reshape_writes, binaryIndexed_writes, Finset.singleton_subset_iff, List.mem_toFinset]
  repeat' apply And.intro
  all_goals exact List.mem_map_of_mem (by decide)
theorem hostOps1_2_writes : (hostOps1_2 : List (HloOp τ sig (Elt F))).Forall fun op => op.writes ⊆ (entry1_W.map (Proc.devRef (τ := τ) .tc)).toFinset := by
  simp only [hostOps1_2, List.Forall, nullary_writes, unary_writes, binary_writes, ternary_writes, quaternary_writes, reshape_writes, binaryIndexed_writes, Finset.singleton_subset_iff, List.mem_toFinset]
  repeat' apply And.intro
  all_goals exact List.mem_map_of_mem (by decide)
theorem hostOps1_3_writes : (hostOps1_3 : List (HloOp τ sig (Elt F))).Forall fun op => op.writes ⊆ (entry1_W.map (Proc.devRef (τ := τ) .tc)).toFinset := by
  simp only [hostOps1_3, List.Forall, nullary_writes, unary_writes, binary_writes, ternary_writes, quaternary_writes, reshape_writes, binaryIndexed_writes, Finset.singleton_subset_iff, List.mem_toFinset]
  repeat' apply And.intro
  all_goals exact List.mem_map_of_mem (by decide)
theorem hostOps1_4_writes : (hostOps1_4 : List (HloOp τ sig (Elt F))).Forall fun op => op.writes ⊆ (entry1_W.map (Proc.devRef (τ := τ) .tc)).toFinset := by
  simp only [hostOps1_4, List.Forall, nullary_writes, unary_writes, binary_writes, ternary_writes, quaternary_writes, reshape_writes, binaryIndexed_writes, Finset.singleton_subset_iff, List.mem_toFinset]
  repeat' apply And.intro
  all_goals exact List.mem_map_of_mem (by decide)

/-- The buffers the long stretch `hostOps2` writes. -/
abbrev hostOps2_W : List (Ref sig .tc) := [main_v132, main_v133, main_v134, main_v135, main_v136, main_v137, main_v138, main_v139, main_cst_38, main_v140, main_cst_39, main_v141, main_v142, main_v143, main_cst_40, main_v144, main_cst_41, main_v145, main_v146, main_v147, main_c_42, main_v148, main_v149, main_c_43, main_v150, main_v151, main_v152, main_v153, main_v154, main_cst_44, main_v155, main_v156, main_c_45, main_v157, main_v158, main_c_46, main_v159, main_v160, main_v161, main_v162, main_v163, main_cst_47, main_v164, main_v165, main_v166, main_v167, main_v168, main_c_48, main_v169, main_v170, main_c_49, main_v171, main_v172, main_v173, main_v174, main_v175, main_v176, main_v177, main_cst_50, main_v178, main_v179, main_v180, main_v181, main_c_51, main_v182, main_v183, main_c_52, main_v184, main_v185, main_v186, main_v187, main_v188, main_v189, main_v190, main_cst_53, main_v191, main_v192, main_v193, main_v194, main_v195, main_v196, main_c_54, main_v197, main_v198, main_c_55, main_v199, main_v200, main_v201, main_v202, main_v203, main_v204, main_v205, main_cst_56, main_v206, main_v207, main_v208, main_v209, main_c_57, main_v210, main_v211, main_c_58, main_v212, main_v213, main_v214, main_v215, main_v216, main_v217, main_v218, main_cst_59, main_v219, main_v220, main_v221, main_v222, main_v223, main_cst_60, main_v224, main_v225, main_cst_61, main_v226, main_v227, main_v228, main_v229, main_v230, main_cst_62, main_v231, main_c_63, main_v232, main_c_64, main_v233, main_v234, main_v235, main_c_65, main_v236, main_c_66, main_v237, main_v238, main_v239, main_c_67]
set_option maxHeartbeats 4000000 in
theorem hostOps2_writes : (hostOps2 : List (HloOp τ sig (Elt F))).Forall fun op => op.writes ⊆ (hostOps2_W.map (Proc.devRef (τ := τ) .tc)).toFinset := by
  simp only [hostOps2, List.Forall, nullary_writes, unary_writes, binary_writes, ternary_writes, quaternary_writes, reshape_writes, binaryIndexed_writes, Finset.singleton_subset_iff, List.mem_toFinset]
  repeat' apply And.intro
  all_goals exact List.mem_map_of_mem (by decide)

/-- The buffers the four short stretches before call 2 write. -/
abbrev entry2_W : List (Ref sig .tc) := [main_call4_v0, main_v240, main_c_68, main_call5_v0, main_v241, main_v242, main_v243]
theorem hostOps2_1_writes : (hostOps2_1 : List (HloOp τ sig (Elt F))).Forall fun op => op.writes ⊆ (entry2_W.map (Proc.devRef (τ := τ) .tc)).toFinset := by
  simp only [hostOps2_1, List.Forall, nullary_writes, unary_writes, binary_writes, ternary_writes, quaternary_writes, reshape_writes, binaryIndexed_writes, Finset.singleton_subset_iff, List.mem_toFinset]
  repeat' apply And.intro
  all_goals exact List.mem_map_of_mem (by decide)
theorem hostOps2_2_writes : (hostOps2_2 : List (HloOp τ sig (Elt F))).Forall fun op => op.writes ⊆ (entry2_W.map (Proc.devRef (τ := τ) .tc)).toFinset := by
  simp only [hostOps2_2, List.Forall, nullary_writes, unary_writes, binary_writes, ternary_writes, quaternary_writes, reshape_writes, binaryIndexed_writes, Finset.singleton_subset_iff, List.mem_toFinset]
  repeat' apply And.intro
  all_goals exact List.mem_map_of_mem (by decide)
theorem hostOps2_3_writes : (hostOps2_3 : List (HloOp τ sig (Elt F))).Forall fun op => op.writes ⊆ (entry2_W.map (Proc.devRef (τ := τ) .tc)).toFinset := by
  simp only [hostOps2_3, List.Forall, nullary_writes, unary_writes, binary_writes, ternary_writes, quaternary_writes, reshape_writes, binaryIndexed_writes, Finset.singleton_subset_iff, List.mem_toFinset]
  repeat' apply And.intro
  all_goals exact List.mem_map_of_mem (by decide)
theorem hostOps2_4_writes : (hostOps2_4 : List (HloOp τ sig (Elt F))).Forall fun op => op.writes ⊆ (entry2_W.map (Proc.devRef (τ := τ) .tc)).toFinset := by
  simp only [hostOps2_4, List.Forall, nullary_writes, unary_writes, binary_writes, ternary_writes, quaternary_writes, reshape_writes, binaryIndexed_writes, Finset.singleton_subset_iff, List.mem_toFinset]
  repeat' apply And.intro
  all_goals exact List.mem_map_of_mem (by decide)

/-- The buffers the long stretch `hostOps3` writes. -/
abbrev hostOps3_W : List (Ref sig .tc) := [main_v245, main_v246, main_v247, main_v248, main_v249, main_v250, main_v251, main_cst_69, main_v252, main_c_70, main_v253, main_c_71, main_v254, main_v255, main_v256, main_c_72, main_v257, main_c_73, main_v258, main_v259, main_v260, main_c_74]
set_option maxHeartbeats 4000000 in
theorem hostOps3_writes : (hostOps3 : List (HloOp τ sig (Elt F))).Forall fun op => op.writes ⊆ (hostOps3_W.map (Proc.devRef (τ := τ) .tc)).toFinset := by
  simp only [hostOps3, List.Forall, nullary_writes, unary_writes, binary_writes, ternary_writes, quaternary_writes, reshape_writes, binaryIndexed_writes, Finset.singleton_subset_iff, List.mem_toFinset]
  repeat' apply And.intro
  all_goals exact List.mem_map_of_mem (by decide)

/-- The buffers the four short stretches before call 3 write. -/
abbrev entry3_W : List (Ref sig .tc) := [main_call6_v0, main_v261, main_c_75, main_call7_v0, main_v262, main_v263, main_v264]
theorem hostOps3_1_writes : (hostOps3_1 : List (HloOp τ sig (Elt F))).Forall fun op => op.writes ⊆ (entry3_W.map (Proc.devRef (τ := τ) .tc)).toFinset := by
  simp only [hostOps3_1, List.Forall, nullary_writes, unary_writes, binary_writes, ternary_writes, quaternary_writes, reshape_writes, binaryIndexed_writes, Finset.singleton_subset_iff, List.mem_toFinset]
  repeat' apply And.intro
  all_goals exact List.mem_map_of_mem (by decide)
theorem hostOps3_2_writes : (hostOps3_2 : List (HloOp τ sig (Elt F))).Forall fun op => op.writes ⊆ (entry3_W.map (Proc.devRef (τ := τ) .tc)).toFinset := by
  simp only [hostOps3_2, List.Forall, nullary_writes, unary_writes, binary_writes, ternary_writes, quaternary_writes, reshape_writes, binaryIndexed_writes, Finset.singleton_subset_iff, List.mem_toFinset]
  repeat' apply And.intro
  all_goals exact List.mem_map_of_mem (by decide)
theorem hostOps3_3_writes : (hostOps3_3 : List (HloOp τ sig (Elt F))).Forall fun op => op.writes ⊆ (entry3_W.map (Proc.devRef (τ := τ) .tc)).toFinset := by
  simp only [hostOps3_3, List.Forall, nullary_writes, unary_writes, binary_writes, ternary_writes, quaternary_writes, reshape_writes, binaryIndexed_writes, Finset.singleton_subset_iff, List.mem_toFinset]
  repeat' apply And.intro
  all_goals exact List.mem_map_of_mem (by decide)
theorem hostOps3_4_writes : (hostOps3_4 : List (HloOp τ sig (Elt F))).Forall fun op => op.writes ⊆ (entry3_W.map (Proc.devRef (τ := τ) .tc)).toFinset := by
  simp only [hostOps3_4, List.Forall, nullary_writes, unary_writes, binary_writes, ternary_writes, quaternary_writes, reshape_writes, binaryIndexed_writes, Finset.singleton_subset_iff, List.mem_toFinset]
  repeat' apply And.intro
  all_goals exact List.mem_map_of_mem (by decide)

/-! ## One boundary to the next, at a buffer the step does not write -/

/-- Through the long stretch `hostOps0`. -/
theorem U1_keep (r : Ref sig .tc) (h : r ∉ hostOps0_W) :
    U1 m ρ c (Proc.devRef .tc r) = U0 m ρ c (Proc.devRef .tc r) := by
  unfold U1
  exact StableHlo.after_of_writes_sub hostOps0 _ hostOps0_writes h
/-- Through the two pads and the two reshapes before call 0. -/
theorem U5_keep (r : Ref sig .tc) (h : r ∉ entry0_W) :
    U5 m ρ c (Proc.devRef .tc r) = U1 m ρ c (Proc.devRef .tc r) := by
  unfold U5
  rw [StableHlo.after_of_writes_sub hostOps0_4 _ hostOps0_4_writes h,
    StableHlo.after_of_writes_sub hostOps0_3 _ hostOps0_3_writes h,
    StableHlo.after_of_writes_sub hostOps0_2 _ hostOps0_2_writes h,
    StableHlo.after_of_writes_sub hostOps0_1 _ hostOps0_1_writes h]
/-- Through call 0, at a buffer that is none of its arrays. -/
theorem U6_keep (r : Ref sig .tc) (h : ∀ w, Pipeline.arrRef spec0 w ≠ r) :
    U6 m ρ c (Proc.devRef .tc r) = U5 m ρ c (Proc.devRef .tc r) := by
  unfold U6
  rw [U5_eq]
  exact W6_of_ne m ρ c r h
/-- Through the long stretch `hostOps1`. -/
theorem U7_keep (r : Ref sig .tc) (h : r ∉ hostOps1_W) :
    U7 m ρ c (Proc.devRef .tc r) = U6 m ρ c (Proc.devRef .tc r) := by
  unfold U7
  exact StableHlo.after_of_writes_sub hostOps1 _ hostOps1_writes h
/-- Through the two pads and the two reshapes before call 1. -/
theorem U11_keep (r : Ref sig .tc) (h : r ∉ entry1_W) :
    U11 m ρ c (Proc.devRef .tc r) = U7 m ρ c (Proc.devRef .tc r) := by
  unfold U11
  rw [StableHlo.after_of_writes_sub hostOps1_4 _ hostOps1_4_writes h,
    StableHlo.after_of_writes_sub hostOps1_3 _ hostOps1_3_writes h,
    StableHlo.after_of_writes_sub hostOps1_2 _ hostOps1_2_writes h,
    StableHlo.after_of_writes_sub hostOps1_1 _ hostOps1_1_writes h]
/-- Through call 1, at a buffer that is none of its arrays. -/
theorem U12_keep (r : Ref sig .tc) (h : ∀ w, Pipeline.arrRef spec1 w ≠ r) :
    U12 m ρ c (Proc.devRef .tc r) = U11 m ρ c (Proc.devRef .tc r) := by
  unfold U12
  rw [U11_eq]
  exact W12_of_ne m ρ c r h
/-- Through the long stretch `hostOps2`. -/
theorem U13_keep (r : Ref sig .tc) (h : r ∉ hostOps2_W) :
    U13 m ρ c (Proc.devRef .tc r) = U12 m ρ c (Proc.devRef .tc r) := by
  unfold U13
  exact StableHlo.after_of_writes_sub hostOps2 _ hostOps2_writes h
/-- Through the two pads and the two reshapes before call 2. -/
theorem U17_keep (r : Ref sig .tc) (h : r ∉ entry2_W) :
    U17 m ρ c (Proc.devRef .tc r) = U13 m ρ c (Proc.devRef .tc r) := by
  unfold U17
  rw [StableHlo.after_of_writes_sub hostOps2_4 _ hostOps2_4_writes h,
    StableHlo.after_of_writes_sub hostOps2_3 _ hostOps2_3_writes h,
    StableHlo.after_of_writes_sub hostOps2_2 _ hostOps2_2_writes h,
    StableHlo.after_of_writes_sub hostOps2_1 _ hostOps2_1_writes h]
/-- Through call 2, at a buffer that is none of its arrays. -/
theorem U18_keep (r : Ref sig .tc) (h : ∀ w, Pipeline.arrRef spec2 w ≠ r) :
    U18 m ρ c (Proc.devRef .tc r) = U17 m ρ c (Proc.devRef .tc r) := by
  unfold U18
  rw [U17_eq]
  exact W18_of_ne m ρ c r h
/-- Through the long stretch `hostOps3`. -/
theorem U19_keep (r : Ref sig .tc) (h : r ∉ hostOps3_W) :
    U19 m ρ c (Proc.devRef .tc r) = U18 m ρ c (Proc.devRef .tc r) := by
  unfold U19
  exact StableHlo.after_of_writes_sub hostOps3 _ hostOps3_writes h
/-- Through the two pads and the two reshapes before call 3. -/
theorem U23_keep (r : Ref sig .tc) (h : r ∉ entry3_W) :
    U23 m ρ c (Proc.devRef .tc r) = U19 m ρ c (Proc.devRef .tc r) := by
  unfold U23
  rw [StableHlo.after_of_writes_sub hostOps3_4 _ hostOps3_4_writes h,
    StableHlo.after_of_writes_sub hostOps3_3 _ hostOps3_3_writes h,
    StableHlo.after_of_writes_sub hostOps3_2 _ hostOps3_2_writes h,
    StableHlo.after_of_writes_sub hostOps3_1 _ hostOps3_1_writes h]
/-- Through call 3, at a buffer that is none of its arrays. -/
theorem U24_keep (r : Ref sig .tc) (h : ∀ w, Pipeline.arrRef spec3 w ≠ r) :
    U24 m ρ c (Proc.devRef .tc r) = U23 m ρ c (Proc.devRef .tc r) := by
  unfold U24
  rw [U23_eq]
  exact W24_of_ne m ρ c r h

/-! ## The keep facts -/

/-- The second weight argument where the stretch after the first call reads it. -/
theorem keep6_arg4 : U6 m ρ c (Proc.devRef .tc main_arg4) = U0 m ρ c (Proc.devRef .tc main_arg4) :=
  ((U6_keep m ρ c main_arg4 (by decide)).trans ((U5_keep m ρ c main_arg4 (by decide)).trans (U1_keep m ρ c main_arg4 (by decide))))
/-- The first weight argument and the two edge arguments where the second propagation reads them. -/
theorem keep12_arg3 : U12 m ρ c (Proc.devRef .tc main_arg3) = U0 m ρ c (Proc.devRef .tc main_arg3) :=
  ((U12_keep m ρ c main_arg3 (by decide)).trans ((U11_keep m ρ c main_arg3 (by decide)).trans ((U7_keep m ρ c main_arg3 (by decide)).trans ((U6_keep m ρ c main_arg3 (by decide)).trans ((U5_keep m ρ c main_arg3 (by decide)).trans (U1_keep m ρ c main_arg3 (by decide)))))))
theorem keep12_arg5 : U12 m ρ c (Proc.devRef .tc main_arg5) = U0 m ρ c (Proc.devRef .tc main_arg5) :=
  ((U12_keep m ρ c main_arg5 (by decide)).trans ((U11_keep m ρ c main_arg5 (by decide)).trans ((U7_keep m ρ c main_arg5 (by decide)).trans ((U6_keep m ρ c main_arg5 (by decide)).trans ((U5_keep m ρ c main_arg5 (by decide)).trans (U1_keep m ρ c main_arg5 (by decide)))))))
theorem keep12_arg6 : U12 m ρ c (Proc.devRef .tc main_arg6) = U0 m ρ c (Proc.devRef .tc main_arg6) :=
  ((U12_keep m ρ c main_arg6 (by decide)).trans ((U11_keep m ρ c main_arg6 (by decide)).trans ((U7_keep m ρ c main_arg6 (by decide)).trans ((U6_keep m ρ c main_arg6 (by decide)).trans ((U5_keep m ρ c main_arg6 (by decide)).trans (U1_keep m ρ c main_arg6 (by decide)))))))
/-- The second weight argument where the stretch after the third call reads it. -/
theorem keep18_arg4 : U18 m ρ c (Proc.devRef .tc main_arg4) = U0 m ρ c (Proc.devRef .tc main_arg4) :=
  ((U18_keep m ρ c main_arg4 (by decide)).trans ((U17_keep m ρ c main_arg4 (by decide)).trans ((U13_keep m ρ c main_arg4 (by decide)).trans ((U12_keep m ρ c main_arg4 (by decide)).trans ((U11_keep m ρ c main_arg4 (by decide)).trans ((U7_keep m ρ c main_arg4 (by decide)).trans ((U6_keep m ρ c main_arg4 (by decide)).trans ((U5_keep m ρ c main_arg4 (by decide)).trans (U1_keep m ρ c main_arg4 (by decide))))))))))
/-- The sample argument and the two edge arguments where the last stretch reads them. -/
theorem keep24_arg0 : U24 m ρ c (Proc.devRef .tc main_arg0) = U0 m ρ c (Proc.devRef .tc main_arg0) :=
  ((U24_keep m ρ c main_arg0 (by decide)).trans ((U23_keep m ρ c main_arg0 (by decide)).trans ((U19_keep m ρ c main_arg0 (by decide)).trans ((U18_keep m ρ c main_arg0 (by decide)).trans ((U17_keep m ρ c main_arg0 (by decide)).trans ((U13_keep m ρ c main_arg0 (by decide)).trans ((U12_keep m ρ c main_arg0 (by decide)).trans ((U11_keep m ρ c main_arg0 (by decide)).trans ((U7_keep m ρ c main_arg0 (by decide)).trans ((U6_keep m ρ c main_arg0 (by decide)).trans ((U5_keep m ρ c main_arg0 (by decide)).trans (U1_keep m ρ c main_arg0 (by decide)))))))))))))
theorem keep24_arg5 : U24 m ρ c (Proc.devRef .tc main_arg5) = U0 m ρ c (Proc.devRef .tc main_arg5) :=
  ((U24_keep m ρ c main_arg5 (by decide)).trans ((U23_keep m ρ c main_arg5 (by decide)).trans ((U19_keep m ρ c main_arg5 (by decide)).trans ((U18_keep m ρ c main_arg5 (by decide)).trans ((U17_keep m ρ c main_arg5 (by decide)).trans ((U13_keep m ρ c main_arg5 (by decide)).trans ((U12_keep m ρ c main_arg5 (by decide)).trans ((U11_keep m ρ c main_arg5 (by decide)).trans ((U7_keep m ρ c main_arg5 (by decide)).trans ((U6_keep m ρ c main_arg5 (by decide)).trans ((U5_keep m ρ c main_arg5 (by decide)).trans (U1_keep m ρ c main_arg5 (by decide)))))))))))))
theorem keep24_arg6 : U24 m ρ c (Proc.devRef .tc main_arg6) = U0 m ρ c (Proc.devRef .tc main_arg6) :=
  ((U24_keep m ρ c main_arg6 (by decide)).trans ((U23_keep m ρ c main_arg6 (by decide)).trans ((U19_keep m ρ c main_arg6 (by decide)).trans ((U18_keep m ρ c main_arg6 (by decide)).trans ((U17_keep m ρ c main_arg6 (by decide)).trans ((U13_keep m ρ c main_arg6 (by decide)).trans ((U12_keep m ρ c main_arg6 (by decide)).trans ((U11_keep m ρ c main_arg6 (by decide)).trans ((U7_keep m ρ c main_arg6 (by decide)).trans ((U6_keep m ρ c main_arg6 (by decide)).trans ((U5_keep m ρ c main_arg6 (by decide)).trans (U1_keep m ρ c main_arg6 (by decide)))))))))))))
/-- The first call's kept product rows where the second propagation reads them. -/
theorem keep12_v112 : U12 m ρ c (Proc.devRef .tc main_v112) = U7 m ρ c (Proc.devRef .tc main_v112) :=
  ((U12_keep m ρ c main_v112 (by decide)).trans (U11_keep m ρ c main_v112 (by decide)))
/-- The third call's kept product rows and kept sum rows where the last stretch reads them. -/
theorem keep24_v246 : U24 m ρ c (Proc.devRef .tc main_v246) = U19 m ρ c (Proc.devRef .tc main_v246) :=
  ((U24_keep m ρ c main_v246 (by decide)).trans (U23_keep m ρ c main_v246 (by decide)))
theorem keep24_v248 : U24 m ρ c (Proc.devRef .tc main_v248) = U19 m ρ c (Proc.devRef .tc main_v248) :=
  ((U24_keep m ρ c main_v248 (by decide)).trans (U23_keep m ρ c main_v248 (by decide)))

end Cert.KernelIdeal.KB

end
-- ==== Proof.MixDefs.lean ====
/-
  Two definitions shared by the modules that read the merged-row product.

  A (M, 64) array is padded to an even number of rows and its consecutive row pairs are laid side by side, giving
  rows of 128 lanes; the 64 x 64 weight is laid twice on the diagonal of a 128 x 128 matrix whose other two blocks
  are zero. `blockDiag` is that matrix and `rowMM` the product of a 128-lane array with a 128 x 128 matrix, both as
  plain functions of an index over the extended reals.
-/
import Idealize.ShloMosaic.PureOps.Ideal
import Idealize.ShloMosaic.Lib.ValueIdx

noncomputable section

open scoped BigOperators

namespace Cert.Mix

open Idealize.ShloMosaic Idealize.ShloMosaic.ValueIdx

/-- The 128 x 128 matrix with `wt` on its two diagonal 64 x 64 blocks and zero elsewhere: entry (k, c) is
    `wt (k mod 64, c mod 64)` when k and c lie in the same half, else 0. -/
def blockDiag (wt : (⟨2, ![64, 64]⟩ : Shape).Idx → EReal) : (⟨2, ![128, 128]⟩ : Shape).Idx → EReal :=
  fun i => if (i 0).val / 64 = (i 1).val / 64
    then wt (ix2 (⟨(i 0).val % 64, Nat.mod_lt _ (by decide)⟩ : Fin 64) (⟨(i 1).val % 64, Nat.mod_lt _ (by decide)⟩ : Fin 64))
    else 0

/-- Rows of 128 lanes times a 128 x 128 matrix: entry (r, j) is the sum over k of X (r, k) * Wm (k, j). -/
def rowMM {n : Nat} (X : (⟨2, ![n, 128]⟩ : Shape).Idx → EReal) (Wm : (⟨2, ![128, 128]⟩ : Shape).Idx → EReal) :
    (⟨2, ![n, 128]⟩ : Shape).Idx → EReal :=
  fun i => ∑ k : Fin 128, X (ix2 (n0 := n) (n1 := 128) (i 0) k) * Wm (ix2 (n0 := 128) (n1 := 128) k (i 1))

end Cert.Mix

end
-- ==== Proof.Region0.lean ====
/-
  What the first fused call (user side, 25 grid points of 4096 merged rows) leaves in its two output arrays, as whole-array
  functions of its three input arrays as the call finds them: the product array is the 128-lane row product of the merged
  input with the 128 x 128 weight, the sum array the lane-wise sum of the merged running sum and the merged input.

  The road: the two payloads at an entry (the sum payload is the lane-wise sum of the two loaded blocks; the product
  payload at (p, q) is the sum over the 128 lanes k of block entry (p, k) times weight entry (k, q), format changes
  being the identity on extended reals); each loaded block as rows of its array (block t of a row-blocked array is rows
  4096 t … 4096 t + 4095, the weight's one block is the weight); so what point t writes back is block t of the
  whole-array function; row r lies in the block of point r / 4096, so the blocks cover the arrays.
-/
import proofs.«403624_j12223476924780_3_alg».proof.Proof.KernelIdealFrameP
import proofs.«403624_j12223476924780_3_alg».proof.Proof.MixDefs
import Idealize.ShloMosaic.Lib.Pipeline.Value
import Idealize.ShloMosaic.PureOps.Ideal.Laws

noncomputable section

namespace Cert.KernelIdeal.Region0

open Idealize.ShloMosaic Idealize.ShloMosaic.TcCoe Idealize.ShloMosaic.ValueIdx
open Cert.KernelIdeal Cert.KernelIdeal.Gen Cert.KernelIdeal.GenP Cert.Mix
open scoped BigOperators

theorem hz : (![0, 0] : Fin 2 → Nat) = fun _ => 0 := funext fun a => by fin_cases a <;> rfl

/-- The sum payload adds the running-sum block and the input block. -/
theorem pay_sum (x0 x2 : FVec Ideal S4096x128 .f32) : k0_pay2 (F := Ideal) x0 x2 = addf x2 x0 := by
  unfold k0_pay2 k0_pay1
  simp only [shapeCast_self]

theorem lhs_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem lhs_1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
theorem rhs_0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
theorem rhs_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- The product payload at row p, lane q: the sum over the 128 lanes of the input block's row against the weight's column. -/
theorem pay_mix_apply (x0 : FVec Ideal S4096x128 .f32) (x1 : FVec Ideal S128x128 .f32) (p : Fin 4096) (q : Fin 128) :
    k0_pay3 (F := Ideal) x0 x1 (ix2 p q) = ∑ k : Fin 128, x0 (ix2 p k) * x1 (ix2 k q) := by
  unfold k0_pay3 k0_pay1
  refine (Ideal.matmul_constant_zero_apply dot_S4096x128_S128x128_S4096x128_1_0_0_1_n_n none _ _ (ix2 p q)).trans ?_
  rw [← Equiv.sum_comp (contrEquiv1 dot_S4096x128_S128x128_S4096x128_1_0_0_1_n_n 128 rfl rfl).symm]
  refine Finset.sum_congr rfl fun k _ => ?_
  have hk := contrEquiv1_symm_val dot_S4096x128_S128x128_S4096x128_1_0_0_1_n_n 128 rfl rfl k
  have el : dot_S4096x128_S128x128_S4096x128_1_0_0_1_n_n.lhsIdx (ix2 p q) ((contrEquiv1 dot_S4096x128_S128x128_S4096x128_1_0_0_1_n_n 128 rfl rfl).symm k) = ix2 p k := funext fun a => Fin.ext (by
    match a with
    | ⟨0, _⟩ => exact lhs_0 _ _
    | ⟨1, _⟩ => exact (lhs_1 _ _).trans hk)
  have er : dot_S4096x128_S128x128_S4096x128_1_0_0_1_n_n.rhsIdx (ix2 p q) ((contrEquiv1 dot_S4096x128_S128x128_S4096x128_1_0_0_1_n_n 128 rfl rfl).symm k) = ix2 k q := funext fun a => Fin.ext (by
    match a with
    | ⟨0, _⟩ => exact (rhs_0 _ _).trans hk
    | ⟨1, _⟩ => exact rhs_1 _ _)
  rw [el, er]
  simp only [truncf_apply, shapeCast_self]

variable (V : (c : Dev nD) → (b : Ref sig .tc) → Buf (Elt Ideal) ((c : Thread nD τ).loc b))

/-- The merged input, the weight and the merged running sum as the call finds them, at their literal types. -/
abbrev xarr (c : Dev nD) : FVec Ideal S102400x128 .f32 := V c main_v108
abbrev warr (c : Dev nD) : FVec Ideal S128x128 .f32 := V c main_v105
abbrev sarr (c : Dev nD) : FVec Ideal S102400x128 .f32 := V c main_v109

/-- The block index maps over the grid: the four row-blocked windows sit at block (t, 0), the weight at (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The input block at point t is rows 4096 t … 4096 t + 4095 of the merged input. -/
theorem xblk_apply (c : Dev nD) (t : Fin cfg0.N) (y : S4096x128.Idx) (i : S102400x128.Idx)
    (h0 : (i 0).val = t.val * 4096 + (y 0).val) (h1 : (i 1).val = (y 1).val) :
    (iblk0 V c 0 t : FVec Ideal S4096x128 .f32) y = xarr V c i := by
  obtain ⟨e0, e1, -⟩ := idx_facts t
  unfold iblk0
  rw [View.read_apply]
  show V c main_v108 _ = V c main_v108 _
  congr 1
  funext a
  apply Fin.ext
  match a with
  | ⟨0, _⟩ => show win0_0.index t (0 : Fin 2) * 4096 + 1 * (y 0).val = (i 0).val; omega
  | ⟨1, _⟩ => show win0_0.index t (1 : Fin 2) * 128 + 1 * (y 1).val = (i 1).val; omega

/-- The weight block at every point is the whole weight. -/
theorem wblk_apply (c : Dev nD) (t : Fin cfg0.N) (y : S128x128.Idx) (i : S128x128.Idx)
    (h0 : (i 0).val = (y 0).val) (h1 : (i 1).val = (y 1).val) :
    (iblk0 V c 1 t : FVec Ideal S128x128 .f32) y = warr V c i := by
  obtain ⟨-, -, e0, e1, -⟩ := idx_facts t
  unfold iblk0
  rw [View.read_apply]
  show V c main_v105 _ = V c main_v105 _
  congr 1
  funext a
  apply Fin.ext
  match a with
  | ⟨0, _⟩ => show win0_1.index t (0 : Fin 2) * 128 + 1 * (y 0).val = (i 0).val; omega
  | ⟨1, _⟩ => show win0_1.index t (1 : Fin 2) * 128 + 1 * (y 1).val = (i 1).val; omega

/-- The running-sum block at point t is rows 4096 t … 4096 t + 4095 of the merged running sum. -/
theorem sblk_apply (c : Dev nD) (t : Fin cfg0.N) (y : S4096x128.Idx) (i : S102400x128.Idx)
    (h0 : (i 0).val = t.val * 4096 + (y 0).val) (h1 : (i 1).val = (y 1).val) :
    (iblk0 V c 2 t : FVec Ideal S4096x128 .f32) y = sarr V c i := by
  obtain ⟨-, -, -, -, e0, e1, -⟩ := idx_facts t
  unfold iblk0
  rw [View.read_apply]
  show V c main_v109 _ = V c main_v109 _
  congr 1
  funext a
  apply Fin.ext
  match a with
  | ⟨0, _⟩ => show win0_2.index t (0 : Fin 2) * 4096 + 1 * (y 0).val = (i 0).val; omega
  | ⟨1, _⟩ => show win0_2.index t (1 : Fin 2) * 128 + 1 * (y 1).val = (i 1).val; omega

/-- One entry of the product block against one entry of the row product of two arrays, when the block's row is a row
    of the first array and the weight block is the second array. -/
theorem mix_point (X : FVec Ideal S102400x128 .f32) (Wm : FVec Ideal S128x128 .f32)
    (x0 : FVec Ideal S4096x128 .f32) (x1 : FVec Ideal S128x128 .f32) (j : S4096x128.Idx) (i : S102400x128.Idx)
    (hx : ∀ k : Fin 128, x0 (ix2 (n0 := 4096) (n1 := 128) (j 0) k) = X (ix2 (n0 := 102400) (n1 := 128) (i 0) k))
    (hw : ∀ k : Fin 128, x1 (ix2 (n0 := 128) (n1 := 128) k (j 1)) = Wm (ix2 (n0 := 128) (n1 := 128) k (i 1))) :
    k0_pay3 (F := Ideal) x0 x1 j = rowMM X Wm i := by
  obtain ⟨p, q, rfl⟩ : ∃ (p : Fin 4096) (q : Fin 128), j = ix2 p q := ⟨j 0, j 1, eq_ix2 j⟩
  rw [pay_mix_apply]
  unfold rowMM
  exact Finset.sum_congr rfl fun k _ => by rw [← hx k, ← hw k]

/-- One entry of the sum block against one entry of the lane-wise sum of two arrays. -/
theorem sum_point (Sm X : FVec Ideal S102400x128 .f32) (x0 x2 : FVec Ideal S4096x128 .f32) (j : S4096x128.Idx)
    (i : S102400x128.Idx) (hx : x0 j = X i) (hs : x2 j = Sm i) : k0_pay2 (F := Ideal) x0 x2 j = addf Sm X i := by
  rw [pay_sum]
  show x2 j + x0 j = Sm i + X i
  rw [hx, hs]

/-- What point t writes back to the product array is block t of the row product of the merged input with the weight. -/
theorem flushed_mix (c : Dev nD) (t : Fin cfg0.N) :
    (dat0 (F := Ideal) V c).flushed 3 t = ((cfg0.win 3).blk t).view.read (Elt Ideal) (rowMM (xarr V c) (warr V c)) := by
  show (cfg0.win 3).cut (grid0.coords t) ((dat0 V c).after 3 t) = _
  rw [after0_3]
  unfold out0_3
  rw [View.canon_unit_zero hz]
  simp only [View.ld_unit_zero (S := S4096x128) hz, View.ld_unit_zero (S := S128x128) hz]
  obtain ⟨-, -, -, -, -, -, e0, e1, -⟩ := idx_facts t
  funext j
  show k0_pay3 (F := Ideal) (iblk0 V c 0 t) (iblk0 V c 1 t) j = rowMM (xarr V c) (warr V c) (((cfg0.win 3).blk t).view.emb j)
  refine mix_point (xarr V c) (warr V c) (iblk0 V c 0 t) (iblk0 V c 1 t) j (((cfg0.win 3).blk t).view.emb j) (fun k => ?_) (fun k => ?_)
  · refine xblk_apply V c t _ _ ?_ rfl
    show win0_3.index t (0 : Fin 2) * 4096 + 1 * (j 0).val = t.val * 4096 + (j 0).val
    omega
  · refine wblk_apply V c t _ _ rfl ?_
    show win0_3.index t (1 : Fin 2) * 128 + 1 * (j 1).val = (j 1).val
    omega

/-- What point t writes back to the sum array is block t of the merged running sum plus the merged input. -/
theorem flushed_sum (c : Dev nD) (t : Fin cfg0.N) :
    (dat0 (F := Ideal) V c).flushed 4 t = ((cfg0.win 4).blk t).view.read (Elt Ideal) (addf (sarr V c) (xarr V c)) := by
  show (cfg0.win 4).cut (grid0.coords t) ((dat0 V c).after 4 t) = _
  rw [after0_4]
  unfold out0_4
  rw [View.canon_unit_zero hz]
  simp only [View.ld_unit_zero (S := S4096x128) hz]
  obtain ⟨-, -, -, -, -, -, -, -, e0, e1⟩ := idx_facts t
  funext j
  show k0_pay2 (F := Ideal) (iblk0 V c 0 t) (iblk0 V c 2 t) j = addf (sarr V c) (xarr V c) (((cfg0.win 4).blk t).view.emb j)
  refine sum_point (sarr V c) (xarr V c) (iblk0 V c 0 t) (iblk0 V c 2 t) j (((cfg0.win 4).blk t).view.emb j) ?_ ?_
  · refine xblk_apply V c t _ _ ?_ ?_
    · show win0_4.index t (0 : Fin 2) * 4096 + 1 * (j 0).val = t.val * 4096 + (j 0).val
      omega
    · show win0_4.index t (1 : Fin 2) * 128 + 1 * (j 1).val = (j 1).val
      omega
  · refine sblk_apply V c t _ _ ?_ ?_
    · show win0_4.index t (0 : Fin 2) * 4096 + 1 * (j 0).val = t.val * 4096 + (j 0).val
      omega
    · show win0_4.index t (1 : Fin 2) * 128 + 1 * (j 1).val = (j 1).val
      omega

/-- An index of the product array is in point t's block iff each coordinate is in the block's range on its axis. -/
theorem mem_blk_mix (t : Fin cfg0.N) (i : S102400x128.Idx) :
    i ∈ ((cfg0.win 3).blk t).view.set ↔ ∀ a : Fin 2, win0_3.index t a * S4096x128.size a ≤ (i a).val ∧ (i a).val < win0_3.index t a * S4096x128.size a + S4096x128.size a := by
  show i ∈ ((View.whole main_v110_0).slice (win0_3.rect t)).set ↔ _
  rw [View.set_slice_whole, Rect.mem_set_unit]
  exact Iff.rfl

/-- The same for the sum array. -/
theorem mem_blk_sum (t : Fin cfg0.N) (i : S102400x128.Idx) :
    i ∈ ((cfg0.win 4).blk t).view.set ↔ ∀ a : Fin 2, win0_4.index t a * S4096x128.size a ≤ (i a).val ∧ (i a).val < win0_4.index t a * S4096x128.size a + S4096x128.size a := by
  show i ∈ ((View.whole main_v110_1).slice (win0_4.rect t)).set ↔ _
  rw [View.set_slice_whole, Rect.mem_set_unit]
  exact Iff.rfl

/-- Row r lies in the block of point r / 4096, which is a point of the grid. -/
theorem point_lt (i : S102400x128.Idx) : (i 0).val / 4096 < cfg0.N := by
  have h : (i 0).val < 102400 := (i 0).isLt
  rw [show cfg0.N = 25 from N_0]
  omega

/-- Every index of the product array is in some point's block. -/
theorem cover_mix (i : S102400x128.Idx) : ∃ t : Fin cfg0.N, (cfg0.win 3).flush t = true ∧ i ∈ ((cfg0.win 3).blk t).view.set := by
  refine ⟨⟨(i 0).val / 4096, point_lt i⟩, flush0_3 _, ?_⟩
  obtain ⟨-, -, -, -, -, -, e0, e1, -⟩ := idx_facts ⟨(i 0).val / 4096, point_lt i⟩
  have e0' : win0_3.index ⟨(i 0).val / 4096, point_lt i⟩ (0 : Fin 2) = (i 0).val / 4096 := e0
  have h1 : (i 1).val < 128 := (i 1).isLt
  rw [mem_blk_mix]
  intro a
  match a with
  | ⟨0, _⟩ => show win0_3.index ⟨(i 0).val / 4096, point_lt i⟩ (0 : Fin 2) * 4096 ≤ (i 0).val ∧ (i 0).val < win0_3.index ⟨(i 0).val / 4096, point_lt i⟩ (0 : Fin 2) * 4096 + 4096; omega
  | ⟨1, _⟩ => show win0_3.index ⟨(i 0).val / 4096, point_lt i⟩ (1 : Fin 2) * 128 ≤ (i 1).val ∧ (i 1).val < win0_3.index ⟨(i 0).val / 4096, point_lt i⟩ (1 : Fin 2) * 128 + 128; omega

/-- Every index of the sum array is in some point's block. -/
theorem cover_sum (i : S102400x128.Idx) : ∃ t : Fin cfg0.N, (cfg0.win 4).flush t = true ∧ i ∈ ((cfg0.win 4).blk t).view.set := by
  refine ⟨⟨(i 0).val / 4096, point_lt i⟩, flush0_4 _, ?_⟩
  obtain ⟨-, -, -, -, -, -, -, -, e0, e1⟩ := idx_facts ⟨(i 0).val / 4096, point_lt i⟩
  have e0' : win0_4.index ⟨(i 0).val / 4096, point_lt i⟩ (0 : Fin 2) = (i 0).val / 4096 := e0
  have h1 : (i 1).val < 128 := (i 1).isLt
  rw [mem_blk_sum]
  intro a
  match a with
  | ⟨0, _⟩ => show win0_4.index ⟨(i 0).val / 4096, point_lt i⟩ (0 : Fin 2) * 4096 ≤ (i 0).val ∧ (i 0).val < win0_4.index ⟨(i 0).val / 4096, point_lt i⟩ (0 : Fin 2) * 4096 + 4096; omega
  | ⟨1, _⟩ => show win0_4.index ⟨(i 0).val / 4096, point_lt i⟩ (1 : Fin 2) * 128 ≤ (i 1).val ∧ (i 1).val < win0_4.index ⟨(i 0).val / 4096, point_lt i⟩ (1 : Fin 2) * 128 + 128; omega

/-- After the 25 points the product array is the row product of the merged input with the weight. -/
theorem arr_mixed (c : Dev nD) :
    ((dat0 (F := Ideal) V c).arrAt 3 cfg0.N : FVec Ideal S102400x128 .f32) = rowMM (xarr V c) (warr V c) :=
  (dat0 (F := Ideal) V c).arrAt_eq_of_cover 3 (rowMM (xarr V c) (warr V c)) (fun t _ => flushed_mix V c t) cover_mix

/-- After the 25 points the sum array is the merged running sum plus the merged input. -/
theorem arr_sum (c : Dev nD) :
    ((dat0 (F := Ideal) V c).arrAt 4 cfg0.N : FVec Ideal S102400x128 .f32) = addf (sarr V c) (xarr V c) :=
  (dat0 (F := Ideal) V c).arrAt_eq_of_cover 4 (addf (sarr V c) (xarr V c)) (fun t _ => flushed_sum V c t) cover_sum

end Cert.KernelIdeal.Region0

end
-- ==== Proof.Region1.lean ====
/-
  What the second fused call (item side, 13 grid points of 4096 merged rows) leaves in its two output arrays, as whole-array
  functions of its three input arrays as the call finds them: the product array is the 128-lane row product of the merged
  input with the 128 x 128 weight, the sum array the lane-wise sum of the merged running sum and the merged input.

  The road: the two payloads at an entry (the sum payload is the lane-wise sum of the two loaded blocks; the product
  payload at (p, q) is the sum over the 128 lanes k of block entry (p, k) times weight entry (k, q), format changes
  being the identity on extended reals); each loaded block as rows of its array (block t of a row-blocked array is rows
  4096 t … 4096 t + 4095, the weight's one block is the weight); so what point t writes back is block t of the
  whole-array function; row r lies in the block of point r / 4096, so the blocks cover the arrays.
-/
import proofs.«403624_j12223476924780_3_alg».proof.Proof.KernelIdealFrameP
import proofs.«403624_j12223476924780_3_alg».proof.Proof.MixDefs
import Idealize.ShloMosaic.Lib.Pipeline.Value
import Idealize.ShloMosaic.PureOps.Ideal.Laws

noncomputable section

namespace Cert.KernelIdeal.Region1

open Idealize.ShloMosaic Idealize.ShloMosaic.TcCoe Idealize.ShloMosaic.ValueIdx
open Cert.KernelIdeal Cert.KernelIdeal.Gen Cert.KernelIdeal.GenP Cert.Mix
open scoped BigOperators

theorem hz : (![0, 0] : Fin 2 → Nat) = fun _ => 0 := funext fun a => by fin_cases a <;> rfl

/-- The sum payload adds the running-sum block and the input block. -/
theorem pay_sum (x0 x2 : FVec Ideal S4096x128 .f32) : k1_pay2 (F := Ideal) x0 x2 = addf x2 x0 := by
  unfold k1_pay2 k1_pay1
  simp only [shapeCast_self]

theorem lhs_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem lhs_1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
theorem rhs_0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
theorem rhs_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- The product payload at row p, lane q: the sum over the 128 lanes of the input block's row against the weight's column. -/
theorem pay_mix_apply (x0 : FVec Ideal S4096x128 .f32) (x1 : FVec Ideal S128x128 .f32) (p : Fin 4096) (q : Fin 128) :
    k1_pay3 (F := Ideal) x0 x1 (ix2 p q) = ∑ k : Fin 128, x0 (ix2 p k) * x1 (ix2 k q) := by
  unfold k1_pay3 k1_pay1
  refine (Ideal.matmul_constant_zero_apply dot_S4096x128_S128x128_S4096x128_1_0_0_1_n_n none _ _ (ix2 p q)).trans ?_
  rw [← Equiv.sum_comp (contrEquiv1 dot_S4096x128_S128x128_S4096x128_1_0_0_1_n_n 128 rfl rfl).symm]
  refine Finset.sum_congr rfl fun k _ => ?_
  have hk := contrEquiv1_symm_val dot_S4096x128_S128x128_S4096x128_1_0_0_1_n_n 128 rfl rfl k
  have el : dot_S4096x128_S128x128_S4096x128_1_0_0_1_n_n.lhsIdx (ix2 p q) ((contrEquiv1 dot_S4096x128_S128x128_S4096x128_1_0_0_1_n_n 128 rfl rfl).symm k) = ix2 p k := funext fun a => Fin.ext (by
    match a with
    | ⟨0, _⟩ => exact lhs_0 _ _
    | ⟨1, _⟩ => exact (lhs_1 _ _).trans hk)
  have er : dot_S4096x128_S128x128_S4096x128_1_0_0_1_n_n.rhsIdx (ix2 p q) ((contrEquiv1 dot_S4096x128_S128x128_S4096x128_1_0_0_1_n_n 128 rfl rfl).symm k) = ix2 k q := funext fun a => Fin.ext (by
    match a with
    | ⟨0, _⟩ => exact (rhs_0 _ _).trans hk
    | ⟨1, _⟩ => exact rhs_1 _ _)
  rw [el, er]
  simp only [truncf_apply, shapeCast_self]

variable (V : (c : Dev nD) → (b : Ref sig .tc) → Buf (Elt Ideal) ((c : Thread nD τ).loc b))

/-- The merged input, the weight and the merged running sum as the call finds them, at their literal types. -/
abbrev xarr (c : Dev nD) : FVec Ideal S53248x128 .f32 := V c main_v129
abbrev warr (c : Dev nD) : FVec Ideal S128x128 .f32 := V c main_v126
abbrev sarr (c : Dev nD) : FVec Ideal S53248x128 .f32 := V c main_v130

/-- The block index maps over the grid: the four row-blocked windows sit at block (t, 0), the weight at (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- The input block at point t is rows 4096 t … 4096 t + 4095 of the merged input. -/
theorem xblk_apply (c : Dev nD) (t : Fin cfg1.N) (y : S4096x128.Idx) (i : S53248x128.Idx)
    (h0 : (i 0).val = t.val * 4096 + (y 0).val) (h1 : (i 1).val = (y 1).val) :
    (iblk1 V c 0 t : FVec Ideal S4096x128 .f32) y = xarr V c i := by
  obtain ⟨e0, e1, -⟩ := idx_facts t
  unfold iblk1
  rw [View.read_apply]
  show V c main_v129 _ = V c main_v129 _
  congr 1
  funext a
  apply Fin.ext
  match a with
  | ⟨0, _⟩ => show win1_0.index t (0 : Fin 2) * 4096 + 1 * (y 0).val = (i 0).val; omega
  | ⟨1, _⟩ => show win1_0.index t (1 : Fin 2) * 128 + 1 * (y 1).val = (i 1).val; omega

/-- The weight block at every point is the whole weight. -/
theorem wblk_apply (c : Dev nD) (t : Fin cfg1.N) (y : S128x128.Idx) (i : S128x128.Idx)
    (h0 : (i 0).val = (y 0).val) (h1 : (i 1).val = (y 1).val) :
    (iblk1 V c 1 t : FVec Ideal S128x128 .f32) y = warr V c i := by
  obtain ⟨-, -, e0, e1, -⟩ := idx_facts t
  unfold iblk1
  rw [View.read_apply]
  show V c main_v126 _ = V c main_v126 _
  congr 1
  funext a
  apply Fin.ext
  match a with
  | ⟨0, _⟩ => show win1_1.index t (0 : Fin 2) * 128 + 1 * (y 0).val = (i 0).val; omega
  | ⟨1, _⟩ => show win1_1.index t (1 : Fin 2) * 128 + 1 * (y 1).val = (i 1).val; omega

/-- The running-sum block at point t is rows 4096 t … 4096 t + 4095 of the merged running sum. -/
theorem sblk_apply (c : Dev nD) (t : Fin cfg1.N) (y : S4096x128.Idx) (i : S53248x128.Idx)
    (h0 : (i 0).val = t.val * 4096 + (y 0).val) (h1 : (i 1).val = (y 1).val) :
    (iblk1 V c 2 t : FVec Ideal S4096x128 .f32) y = sarr V c i := by
  obtain ⟨-, -, -, -, e0, e1, -⟩ := idx_facts t
  unfold iblk1
  rw [View.read_apply]
  show V c main_v130 _ = V c main_v130 _
  congr 1
  funext a
  apply Fin.ext
  match a with
  | ⟨0, _⟩ => show win1_2.index t (0 : Fin 2) * 4096 + 1 * (y 0).val = (i 0).val; omega
  | ⟨1, _⟩ => show win1_2.index t (1 : Fin 2) * 128 + 1 * (y 1).val = (i 1).val; omega

/-- One entry of the product block against one entry of the row product of two arrays, when the block's row is a row
    of the first array and the weight block is the second array. -/
theorem mix_point (X : FVec Ideal S53248x128 .f32) (Wm : FVec Ideal S128x128 .f32)
    (x0 : FVec Ideal S4096x128 .f32) (x1 : FVec Ideal S128x128 .f32) (j : S4096x128.Idx) (i : S53248x128.Idx)
    (hx : ∀ k : Fin 128, x0 (ix2 (n0 := 4096) (n1 := 128) (j 0) k) = X (ix2 (n0 := 53248) (n1 := 128) (i 0) k))
    (hw : ∀ k : Fin 128, x1 (ix2 (n0 := 128) (n1 := 128) k (j 1)) = Wm (ix2 (n0 := 128) (n1 := 128) k (i 1))) :
    k1_pay3 (F := Ideal) x0 x1 j = rowMM X Wm i := by
  obtain ⟨p, q, rfl⟩ : ∃ (p : Fin 4096) (q : Fin 128), j = ix2 p q := ⟨j 0, j 1, eq_ix2 j⟩
  rw [pay_mix_apply]
  unfold rowMM
  exact Finset.sum_congr rfl fun k _ => by rw [← hx k, ← hw k]

/-- One entry of the sum block against one entry of the lane-wise sum of two arrays. -/
theorem sum_point (Sm X : FVec Ideal S53248x128 .f32) (x0 x2 : FVec Ideal S4096x128 .f32) (j : S4096x128.Idx)
    (i : S53248x128.Idx) (hx : x0 j = X i) (hs : x2 j = Sm i) : k1_pay2 (F := Ideal) x0 x2 j = addf Sm X i := by
  rw [pay_sum]
  show x2 j + x0 j = Sm i + X i
  rw [hx, hs]

/-- What point t writes back to the product array is block t of the row product of the merged input with the weight. -/
theorem flushed_mix (c : Dev nD) (t : Fin cfg1.N) :
    (dat1 (F := Ideal) V c).flushed 3 t = ((cfg1.win 3).blk t).view.read (Elt Ideal) (rowMM (xarr V c) (warr V c)) := by
  show (cfg1.win 3).cut (grid1.coords t) ((dat1 V c).after 3 t) = _
  rw [after1_3]
  unfold out1_3
  rw [View.canon_unit_zero hz]
  simp only [View.ld_unit_zero (S := S4096x128) hz, View.ld_unit_zero (S := S128x128) hz]
  obtain ⟨-, -, -, -, -, -, e0, e1, -⟩ := idx_facts t
  funext j
  show k1_pay3 (F := Ideal) (iblk1 V c 0 t) (iblk1 V c 1 t) j = rowMM (xarr V c) (warr V c) (((cfg1.win 3).blk t).view.emb j)
  refine mix_point (xarr V c) (warr V c) (iblk1 V c 0 t) (iblk1 V c 1 t) j (((cfg1.win 3).blk t).view.emb j) (fun k => ?_) (fun k => ?_)
  · refine xblk_apply V c t _ _ ?_ rfl
    show win1_3.index t (0 : Fin 2) * 4096 + 1 * (j 0).val = t.val * 4096 + (j 0).val
    omega
  · refine wblk_apply V c t _ _ rfl ?_
    show win1_3.index t (1 : Fin 2) * 128 + 1 * (j 1).val = (j 1).val
    omega

/-- What point t writes back to the sum array is block t of the merged running sum plus the merged input. -/
theorem flushed_sum (c : Dev nD) (t : Fin cfg1.N) :
    (dat1 (F := Ideal) V c).flushed 4 t = ((cfg1.win 4).blk t).view.read (Elt Ideal) (addf (sarr V c) (xarr V c)) := by
  show (cfg1.win 4).cut (grid1.coords t) ((dat1 V c).after 4 t) = _
  rw [after1_4]
  unfold out1_4
  rw [View.canon_unit_zero hz]
  simp only [View.ld_unit_zero (S := S4096x128) hz]
  obtain ⟨-, -, -, -, -, -, -, -, e0, e1⟩ := idx_facts t
  funext j
  show k1_pay2 (F := Ideal) (iblk1 V c 0 t) (iblk1 V c 2 t) j = addf (sarr V c) (xarr V c) (((cfg1.win 4).blk t).view.emb j)
  refine sum_point (sarr V c) (xarr V c) (iblk1 V c 0 t) (iblk1 V c 2 t) j (((cfg1.win 4).blk t).view.emb j) ?_ ?_
  · refine xblk_apply V c t _ _ ?_ ?_
    · show win1_4.index t (0 : Fin 2) * 4096 + 1 * (j 0).val = t.val * 4096 + (j 0).val
      omega
    · show win1_4.index t (1 : Fin 2) * 128 + 1 * (j 1).val = (j 1).val
      omega
  · refine sblk_apply V c t _ _ ?_ ?_
    · show win1_4.index t (0 : Fin 2) * 4096 + 1 * (j 0).val = t.val * 4096 + (j 0).val
      omega
    · show win1_4.index t (1 : Fin 2) * 128 + 1 * (j 1).val = (j 1).val
      omega

/-- An index of the product array is in point t's block iff each coordinate is in the block's range on its axis. -/
theorem mem_blk_mix (t : Fin cfg1.N) (i : S53248x128.Idx) :
    i ∈ ((cfg1.win 3).blk t).view.set ↔ ∀ a : Fin 2, win1_3.index t a * S4096x128.size a ≤ (i a).val ∧ (i a).val < win1_3.index t a * S4096x128.size a + S4096x128.size a := by
  show i ∈ ((View.whole main_v131_0).slice (win1_3.rect t)).set ↔ _
  rw [View.set_slice_whole, Rect.mem_set_unit]
  exact Iff.rfl

/-- The same for the sum array. -/
theorem mem_blk_sum (t : Fin cfg1.N) (i : S53248x128.Idx) :
    i ∈ ((cfg1.win 4).blk t).view.set ↔ ∀ a : Fin 2, win1_4.index t a * S4096x128.size a ≤ (i a).val ∧ (i a).val < win1_4.index t a * S4096x128.size a + S4096x128.size a := by
  show i ∈ ((View.whole main_v131_1).slice (win1_4.rect t)).set ↔ _
  rw [View.set_slice_whole, Rect.mem_set_unit]
  exact Iff.rfl

/-- Row r lies in the block of point r / 4096, which is a point of the grid. -/
theorem point_lt (i : S53248x128.Idx) : (i 0).val / 4096 < cfg1.N := by
  have h : (i 0).val < 53248 := (i 0).isLt
  rw [show cfg1.N = 13 from N_1]
  omega

/-- Every index of the product array is in some point's block. -/
theorem cover_mix (i : S53248x128.Idx) : ∃ t : Fin cfg1.N, (cfg1.win 3).flush t = true ∧ i ∈ ((cfg1.win 3).blk t).view.set := by
  refine ⟨⟨(i 0).val / 4096, point_lt i⟩, flush1_3 _, ?_⟩
  obtain ⟨-, -, -, -, -, -, e0, e1, -⟩ := idx_facts ⟨(i 0).val / 4096, point_lt i⟩
  have e0' : win1_3.index ⟨(i 0).val / 4096, point_lt i⟩ (0 : Fin 2) = (i 0).val / 4096 := e0
  have h1 : (i 1).val < 128 := (i 1).isLt
  rw [mem_blk_mix]
  intro a
  match a with
  | ⟨0, _⟩ => show win1_3.index ⟨(i 0).val / 4096, point_lt i⟩ (0 : Fin 2) * 4096 ≤ (i 0).val ∧ (i 0).val < win1_3.index ⟨(i 0).val / 4096, point_lt i⟩ (0 : Fin 2) * 4096 + 4096; omega
  | ⟨1, _⟩ => show win1_3.index ⟨(i 0).val / 4096, point_lt i⟩ (1 : Fin 2) * 128 ≤ (i 1).val ∧ (i 1).val < win1_3.index ⟨(i 0).val / 4096, point_lt i⟩ (1 : Fin 2) * 128 + 128; omega

/-- Every index of the sum array is in some point's block. -/
theorem cover_sum (i : S53248x128.Idx) : ∃ t : Fin cfg1.N, (cfg1.win 4).flush t = true ∧ i ∈ ((cfg1.win 4).blk t).view.set := by
  refine ⟨⟨(i 0).val / 4096, point_lt i⟩, flush1_4 _, ?_⟩
  obtain ⟨-, -, -, -, -, -, -, -, e0, e1⟩ := idx_facts ⟨(i 0).val / 4096, point_lt i⟩
  have e0' : win1_4.index ⟨(i 0).val / 4096, point_lt i⟩ (0 : Fin 2) = (i 0).val / 4096 := e0
  have h1 : (i 1).val < 128 := (i 1).isLt
  rw [mem_blk_sum]
  intro a
  match a with
  | ⟨0, _⟩ => show win1_4.index ⟨(i 0).val / 4096, point_lt i⟩ (0 : Fin 2) * 4096 ≤ (i 0).val ∧ (i 0).val < win1_4.index ⟨(i 0).val / 4096, point_lt i⟩ (0 : Fin 2) * 4096 + 4096; omega
  | ⟨1, _⟩ => show win1_4.index ⟨(i 0).val / 4096, point_lt i⟩ (1 : Fin 2) * 128 ≤ (i 1).val ∧ (i 1).val < win1_4.index ⟨(i 0).val / 4096, point_lt i⟩ (1 : Fin 2) * 128 + 128; omega

/-- After the 13 points the product array is the row product of the merged input with the weight. -/
theorem arr_mixed (c : Dev nD) :
    ((dat1 (F := Ideal) V c).arrAt 3 cfg1.N : FVec Ideal S53248x128 .f32) = rowMM (xarr V c) (warr V c) :=
  (dat1 (F := Ideal) V c).arrAt_eq_of_cover 3 (rowMM (xarr V c) (warr V c)) (fun t _ => flushed_mix V c t) cover_mix

/-- After the 13 points the sum array is the merged running sum plus the merged input. -/
theorem arr_sum (c : Dev nD) :
    ((dat1 (F := Ideal) V c).arrAt 4 cfg1.N : FVec Ideal S53248x128 .f32) = addf (sarr V c) (xarr V c) :=
  (dat1 (F := Ideal) V c).arrAt_eq_of_cover 4 (addf (sarr V c) (xarr V c)) (fun t _ => flushed_sum V c t) cover_sum

end Cert.KernelIdeal.Region1

end
-- ==== Proof.Region2.lean ====
/-
  What the third fused call (user side, 25 grid points of 4096 merged rows) leaves in its two output arrays, as whole-array
  functions of its three input arrays as the call finds them: the product array is the 128-lane row product of the merged
  input with the 128 x 128 weight, the sum array the lane-wise sum of the merged running sum and the merged input.

  The road: the two payloads at an entry (the sum payload is the lane-wise sum of the two loaded blocks; the product
  payload at (p, q) is the sum over the 128 lanes k of block entry (p, k) times weight entry (k, q), format changes
  being the identity on extended reals); each loaded block as rows of its array (block t of a row-blocked array is rows
  4096 t … 4096 t + 4095, the weight's one block is the weight); so what point t writes back is block t of the
  whole-array function; row r lies in the block of point r / 4096, so the blocks cover the arrays.
-/
import proofs.«403624_j12223476924780_3_alg».proof.Proof.KernelIdealFrameP
import proofs.«403624_j12223476924780_3_alg».proof.Proof.MixDefs
import Idealize.ShloMosaic.Lib.Pipeline.Value
import Idealize.ShloMosaic.PureOps.Ideal.Laws

noncomputable section

namespace Cert.KernelIdeal.Region2

open Idealize.ShloMosaic Idealize.ShloMosaic.TcCoe Idealize.ShloMosaic.ValueIdx
open Cert.KernelIdeal Cert.KernelIdeal.Gen Cert.KernelIdeal.GenP Cert.Mix
open scoped BigOperators

theorem hz : (![0, 0] : Fin 2 → Nat) = fun _ => 0 := funext fun a => by fin_cases a <;> rfl

/-- The sum payload adds the running-sum block and the input block. -/
theorem pay_sum (x0 x2 : FVec Ideal S4096x128 .f32) : k2_pay2 (F := Ideal) x0 x2 = addf x2 x0 := by
  unfold k2_pay2 k2_pay1
  simp only [shapeCast_self]

theorem lhs_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem lhs_1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
theorem rhs_0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
theorem rhs_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- The product payload at row p, lane q: the sum over the 128 lanes of the input block's row against the weight's column. -/
theorem pay_mix_apply (x0 : FVec Ideal S4096x128 .f32) (x1 : FVec Ideal S128x128 .f32) (p : Fin 4096) (q : Fin 128) :
    k2_pay3 (F := Ideal) x0 x1 (ix2 p q) = ∑ k : Fin 128, x0 (ix2 p k) * x1 (ix2 k q) := by
  unfold k2_pay3 k2_pay1
  refine (Ideal.matmul_constant_zero_apply dot_S4096x128_S128x128_S4096x128_1_0_0_1_n_n none _ _ (ix2 p q)).trans ?_
  rw [← Equiv.sum_comp (contrEquiv1 dot_S4096x128_S128x128_S4096x128_1_0_0_1_n_n 128 rfl rfl).symm]
  refine Finset.sum_congr rfl fun k _ => ?_
  have hk := contrEquiv1_symm_val dot_S4096x128_S128x128_S4096x128_1_0_0_1_n_n 128 rfl rfl k
  have el : dot_S4096x128_S128x128_S4096x128_1_0_0_1_n_n.lhsIdx (ix2 p q) ((contrEquiv1 dot_S4096x128_S128x128_S4096x128_1_0_0_1_n_n 128 rfl rfl).symm k) = ix2 p k := funext fun a => Fin.ext (by
    match a with
    | ⟨0, _⟩ => exact lhs_0 _ _
    | ⟨1, _⟩ => exact (lhs_1 _ _).trans hk)
  have er : dot_S4096x128_S128x128_S4096x128_1_0_0_1_n_n.rhsIdx (ix2 p q) ((contrEquiv1 dot_S4096x128_S128x128_S4096x128_1_0_0_1_n_n 128 rfl rfl).symm k) = ix2 k q := funext fun a => Fin.ext (by
    match a with
    | ⟨0, _⟩ => exact (rhs_0 _ _).trans hk
    | ⟨1, _⟩ => exact rhs_1 _ _)
  rw [el, er]
  simp only [truncf_apply, shapeCast_self]

variable (V : (c : Dev nD) → (b : Ref sig .tc) → Buf (Elt Ideal) ((c : Thread nD τ).loc b))

/-- The merged input, the weight and the merged running sum as the call finds them, at their literal types. -/
abbrev xarr (c : Dev nD) : FVec Ideal S102400x128 .f32 := V c main_v242
abbrev warr (c : Dev nD) : FVec Ideal S128x128 .f32 := V c main_v239
abbrev sarr (c : Dev nD) : FVec Ideal S102400x128 .f32 := V c main_v243

/-- The block index maps over the grid: the four row-blocked windows sit at block (t, 0), the weight at (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- The input block at point t is rows 4096 t … 4096 t + 4095 of the merged input. -/
theorem xblk_apply (c : Dev nD) (t : Fin cfg2.N) (y : S4096x128.Idx) (i : S102400x128.Idx)
    (h0 : (i 0).val = t.val * 4096 + (y 0).val) (h1 : (i 1).val = (y 1).val) :
    (iblk2 V c 0 t : FVec Ideal S4096x128 .f32) y = xarr V c i := by
  obtain ⟨e0, e1, -⟩ := idx_facts t
  unfold iblk2
  rw [View.read_apply]
  show V c main_v242 _ = V c main_v242 _
  congr 1
  funext a
  apply Fin.ext
  match a with
  | ⟨0, _⟩ => show win2_0.index t (0 : Fin 2) * 4096 + 1 * (y 0).val = (i 0).val; omega
  | ⟨1, _⟩ => show win2_0.index t (1 : Fin 2) * 128 + 1 * (y 1).val = (i 1).val; omega

/-- The weight block at every point is the whole weight. -/
theorem wblk_apply (c : Dev nD) (t : Fin cfg2.N) (y : S128x128.Idx) (i : S128x128.Idx)
    (h0 : (i 0).val = (y 0).val) (h1 : (i 1).val = (y 1).val) :
    (iblk2 V c 1 t : FVec Ideal S128x128 .f32) y = warr V c i := by
  obtain ⟨-, -, e0, e1, -⟩ := idx_facts t
  unfold iblk2
  rw [View.read_apply]
  show V c main_v239 _ = V c main_v239 _
  congr 1
  funext a
  apply Fin.ext
  match a with
  | ⟨0, _⟩ => show win2_1.index t (0 : Fin 2) * 128 + 1 * (y 0).val = (i 0).val; omega
  | ⟨1, _⟩ => show win2_1.index t (1 : Fin 2) * 128 + 1 * (y 1).val = (i 1).val; omega

/-- The running-sum block at point t is rows 4096 t … 4096 t + 4095 of the merged running sum. -/
theorem sblk_apply (c : Dev nD) (t : Fin cfg2.N) (y : S4096x128.Idx) (i : S102400x128.Idx)
    (h0 : (i 0).val = t.val * 4096 + (y 0).val) (h1 : (i 1).val = (y 1).val) :
    (iblk2 V c 2 t : FVec Ideal S4096x128 .f32) y = sarr V c i := by
  obtain ⟨-, -, -, -, e0, e1, -⟩ := idx_facts t
  unfold iblk2
  rw [View.read_apply]
  show V c main_v243 _ = V c main_v243 _
  congr 1
  funext a
  apply Fin.ext
  match a with
  | ⟨0, _⟩ => show win2_2.index t (0 : Fin 2) * 4096 + 1 * (y 0).val = (i 0).val; omega
  | ⟨1, _⟩ => show win2_2.index t (1 : Fin 2) * 128 + 1 * (y 1).val = (i 1).val; omega

/-- One entry of the product block against one entry of the row product of two arrays, when the block's row is a row
    of the first array and the weight block is the second array. -/
theorem mix_point (X : FVec Ideal S102400x128 .f32) (Wm : FVec Ideal S128x128 .f32)
    (x0 : FVec Ideal S4096x128 .f32) (x1 : FVec Ideal S128x128 .f32) (j : S4096x128.Idx) (i : S102400x128.Idx)
    (hx : ∀ k : Fin 128, x0 (ix2 (n0 := 4096) (n1 := 128) (j 0) k) = X (ix2 (n0 := 102400) (n1 := 128) (i 0) k))
    (hw : ∀ k : Fin 128, x1 (ix2 (n0 := 128) (n1 := 128) k (j 1)) = Wm (ix2 (n0 := 128) (n1 := 128) k (i 1))) :
    k2_pay3 (F := Ideal) x0 x1 j = rowMM X Wm i := by
  obtain ⟨p, q, rfl⟩ : ∃ (p : Fin 4096) (q : Fin 128), j = ix2 p q := ⟨j 0, j 1, eq_ix2 j⟩
  rw [pay_mix_apply]
  unfold rowMM
  exact Finset.sum_congr rfl fun k _ => by rw [← hx k, ← hw k]

/-- One entry of the sum block against one entry of the lane-wise sum of two arrays. -/
theorem sum_point (Sm X : FVec Ideal S102400x128 .f32) (x0 x2 : FVec Ideal S4096x128 .f32) (j : S4096x128.Idx)
    (i : S102400x128.Idx) (hx : x0 j = X i) (hs : x2 j = Sm i) : k2_pay2 (F := Ideal) x0 x2 j = addf Sm X i := by
  rw [pay_sum]
  show x2 j + x0 j = Sm i + X i
  rw [hx, hs]

/-- What point t writes back to the product array is block t of the row product of the merged input with the weight. -/
theorem flushed_mix (c : Dev nD) (t : Fin cfg2.N) :
    (dat2 (F := Ideal) V c).flushed 3 t = ((cfg2.win 3).blk t).view.read (Elt Ideal) (rowMM (xarr V c) (warr V c)) := by
  show (cfg2.win 3).cut (grid2.coords t) ((dat2 V c).after 3 t) = _
  rw [after2_3]
  unfold out2_3
  rw [View.canon_unit_zero hz]
  simp only [View.ld_unit_zero (S := S4096x128) hz, View.ld_unit_zero (S := S128x128) hz]
  obtain ⟨-, -, -, -, -, -, e0, e1, -⟩ := idx_facts t
  funext j
  show k2_pay3 (F := Ideal) (iblk2 V c 0 t) (iblk2 V c 1 t) j = rowMM (xarr V c) (warr V c) (((cfg2.win 3).blk t).view.emb j)
  refine mix_point (xarr V c) (warr V c) (iblk2 V c 0 t) (iblk2 V c 1 t) j (((cfg2.win 3).blk t).view.emb j) (fun k => ?_) (fun k => ?_)
  · refine xblk_apply V c t _ _ ?_ rfl
    show win2_3.index t (0 : Fin 2) * 4096 + 1 * (j 0).val = t.val * 4096 + (j 0).val
    omega
  · refine wblk_apply V c t _ _ rfl ?_
    show win2_3.index t (1 : Fin 2) * 128 + 1 * (j 1).val = (j 1).val
    omega

/-- What point t writes back to the sum array is block t of the merged running sum plus the merged input. -/
theorem flushed_sum (c : Dev nD) (t : Fin cfg2.N) :
    (dat2 (F := Ideal) V c).flushed 4 t = ((cfg2.win 4).blk t).view.read (Elt Ideal) (addf (sarr V c) (xarr V c)) := by
  show (cfg2.win 4).cut (grid2.coords t) ((dat2 V c).after 4 t) = _
  rw [after2_4]
  unfold out2_4
  rw [View.canon_unit_zero hz]
  simp only [View.ld_unit_zero (S := S4096x128) hz]
  obtain ⟨-, -, -, -, -, -, -, -, e0, e1⟩ := idx_facts t
  funext j
  show k2_pay2 (F := Ideal) (iblk2 V c 0 t) (iblk2 V c 2 t) j = addf (sarr V c) (xarr V c) (((cfg2.win 4).blk t).view.emb j)
  refine sum_point (sarr V c) (xarr V c) (iblk2 V c 0 t) (iblk2 V c 2 t) j (((cfg2.win 4).blk t).view.emb j) ?_ ?_
  · refine xblk_apply V c t _ _ ?_ ?_
    · show win2_4.index t (0 : Fin 2) * 4096 + 1 * (j 0).val = t.val * 4096 + (j 0).val
      omega
    · show win2_4.index t (1 : Fin 2) * 128 + 1 * (j 1).val = (j 1).val
      omega
  · refine sblk_apply V c t _ _ ?_ ?_
    · show win2_4.index t (0 : Fin 2) * 4096 + 1 * (j 0).val = t.val * 4096 + (j 0).val
      omega
    · show win2_4.index t (1 : Fin 2) * 128 + 1 * (j 1).val = (j 1).val
      omega

/-- An index of the product array is in point t's block iff each coordinate is in the block's range on its axis. -/
theorem mem_blk_mix (t : Fin cfg2.N) (i : S102400x128.Idx) :
    i ∈ ((cfg2.win 3).blk t).view.set ↔ ∀ a : Fin 2, win2_3.index t a * S4096x128.size a ≤ (i a).val ∧ (i a).val < win2_3.index t a * S4096x128.size a + S4096x128.size a := by
  show i ∈ ((View.whole main_v244_0).slice (win2_3.rect t)).set ↔ _
  rw [View.set_slice_whole, Rect.mem_set_unit]
  exact Iff.rfl

/-- The same for the sum array. -/
theorem mem_blk_sum (t : Fin cfg2.N) (i : S102400x128.Idx) :
    i ∈ ((cfg2.win 4).blk t).view.set ↔ ∀ a : Fin 2, win2_4.index t a * S4096x128.size a ≤ (i a).val ∧ (i a).val < win2_4.index t a * S4096x128.size a + S4096x128.size a := by
  show i ∈ ((View.whole main_v244_1).slice (win2_4.rect t)).set ↔ _
  rw [View.set_slice_whole, Rect.mem_set_unit]
  exact Iff.rfl

/-- Row r lies in the block of point r / 4096, which is a point of the grid. -/
theorem point_lt (i : S102400x128.Idx) : (i 0).val / 4096 < cfg2.N := by
  have h : (i 0).val < 102400 := (i 0).isLt
  rw [show cfg2.N = 25 from N_2]
  omega

/-- Every index of the product array is in some point's block. -/
theorem cover_mix (i : S102400x128.Idx) : ∃ t : Fin cfg2.N, (cfg2.win 3).flush t = true ∧ i ∈ ((cfg2.win 3).blk t).view.set := by
  refine ⟨⟨(i 0).val / 4096, point_lt i⟩, flush2_3 _, ?_⟩
  obtain ⟨-, -, -, -, -, -, e0, e1, -⟩ := idx_facts ⟨(i 0).val / 4096, point_lt i⟩
  have e0' : win2_3.index ⟨(i 0).val / 4096, point_lt i⟩ (0 : Fin 2) = (i 0).val / 4096 := e0
  have h1 : (i 1).val < 128 := (i 1).isLt
  rw [mem_blk_mix]
  intro a
  match a with
  | ⟨0, _⟩ => show win2_3.index ⟨(i 0).val / 4096, point_lt i⟩ (0 : Fin 2) * 4096 ≤ (i 0).val ∧ (i 0).val < win2_3.index ⟨(i 0).val / 4096, point_lt i⟩ (0 : Fin 2) * 4096 + 4096; omega
  | ⟨1, _⟩ => show win2_3.index ⟨(i 0).val / 4096, point_lt i⟩ (1 : Fin 2) * 128 ≤ (i 1).val ∧ (i 1).val < win2_3.index ⟨(i 0).val / 4096, point_lt i⟩ (1 : Fin 2) * 128 + 128; omega

/-- Every index of the sum array is in some point's block. -/
theorem cover_sum (i : S102400x128.Idx) : ∃ t : Fin cfg2.N, (cfg2.win 4).flush t = true ∧ i ∈ ((cfg2.win 4).blk t).view.set := by
  refine ⟨⟨(i 0).val / 4096, point_lt i⟩, flush2_4 _, ?_⟩
  obtain ⟨-, -, -, -, -, -, -, -, e0, e1⟩ := idx_facts ⟨(i 0).val / 4096, point_lt i⟩
  have e0' : win2_4.index ⟨(i 0).val / 4096, point_lt i⟩ (0 : Fin 2) = (i 0).val / 4096 := e0
  have h1 : (i 1).val < 128 := (i 1).isLt
  rw [mem_blk_sum]
  intro a
  match a with
  | ⟨0, _⟩ => show win2_4.index ⟨(i 0).val / 4096, point_lt i⟩ (0 : Fin 2) * 4096 ≤ (i 0).val ∧ (i 0).val < win2_4.index ⟨(i 0).val / 4096, point_lt i⟩ (0 : Fin 2) * 4096 + 4096; omega
  | ⟨1, _⟩ => show win2_4.index ⟨(i 0).val / 4096, point_lt i⟩ (1 : Fin 2) * 128 ≤ (i 1).val ∧ (i 1).val < win2_4.index ⟨(i 0).val / 4096, point_lt i⟩ (1 : Fin 2) * 128 + 128; omega

/-- After the 25 points the product array is the row product of the merged input with the weight. -/
theorem arr_mixed (c : Dev nD) :
    ((dat2 (F := Ideal) V c).arrAt 3 cfg2.N : FVec Ideal S102400x128 .f32) = rowMM (xarr V c) (warr V c) :=
  (dat2 (F := Ideal) V c).arrAt_eq_of_cover 3 (rowMM (xarr V c) (warr V c)) (fun t _ => flushed_mix V c t) cover_mix

/-- After the 25 points the sum array is the merged running sum plus the merged input. -/
theorem arr_sum (c : Dev nD) :
    ((dat2 (F := Ideal) V c).arrAt 4 cfg2.N : FVec Ideal S102400x128 .f32) = addf (sarr V c) (xarr V c) :=
  (dat2 (F := Ideal) V c).arrAt_eq_of_cover 4 (addf (sarr V c) (xarr V c)) (fun t _ => flushed_sum V c t) cover_sum

end Cert.KernelIdeal.Region2

end
-- ==== Proof.Region3.lean ====
/-
  What the fourth fused call (item side, 13 grid points of 4096 merged rows) leaves in its two output arrays, as whole-array
  functions of its three input arrays as the call finds them: the product array is the 128-lane row product of the merged
  input with the 128 x 128 weight, the sum array the lane-wise sum of the merged running sum and the merged input.

  The road: the two payloads at an entry (the sum payload is the lane-wise sum of the two loaded blocks; the product
  payload at (p, q) is the sum over the 128 lanes k of block entry (p, k) times weight entry (k, q), format changes
  being the identity on extended reals); each loaded block as rows of its array (block t of a row-blocked array is rows
  4096 t … 4096 t + 4095, the weight's one block is the weight); so what point t writes back is block t of the
  whole-array function; row r lies in the block of point r / 4096, so the blocks cover the arrays.
-/
import proofs.«403624_j12223476924780_3_alg».proof.Proof.KernelIdealFrameP
import proofs.«403624_j12223476924780_3_alg».proof.Proof.MixDefs
import Idealize.ShloMosaic.Lib.Pipeline.Value
import Idealize.ShloMosaic.PureOps.Ideal.Laws

noncomputable section

namespace Cert.KernelIdeal.Region3

open Idealize.ShloMosaic Idealize.ShloMosaic.TcCoe Idealize.ShloMosaic.ValueIdx
open Cert.KernelIdeal Cert.KernelIdeal.Gen Cert.KernelIdeal.GenP Cert.Mix
open scoped BigOperators

theorem hz : (![0, 0] : Fin 2 → Nat) = fun _ => 0 := funext fun a => by fin_cases a <;> rfl

/-- The sum payload adds the running-sum block and the input block. -/
theorem pay_sum (x0 x2 : FVec Ideal S4096x128 .f32) : k3_pay2 (F := Ideal) x0 x2 = addf x2 x0 := by
  unfold k3_pay2 k3_pay1
  simp only [shapeCast_self]

theorem lhs_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem lhs_1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
theorem rhs_0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
theorem rhs_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- The product payload at row p, lane q: the sum over the 128 lanes of the input block's row against the weight's column. -/
theorem pay_mix_apply (x0 : FVec Ideal S4096x128 .f32) (x1 : FVec Ideal S128x128 .f32) (p : Fin 4096) (q : Fin 128) :
    k3_pay3 (F := Ideal) x0 x1 (ix2 p q) = ∑ k : Fin 128, x0 (ix2 p k) * x1 (ix2 k q) := by
  unfold k3_pay3 k3_pay1
  refine (Ideal.matmul_constant_zero_apply dot_S4096x128_S128x128_S4096x128_1_0_0_1_n_n none _ _ (ix2 p q)).trans ?_
  rw [← Equiv.sum_comp (contrEquiv1 dot_S4096x128_S128x128_S4096x128_1_0_0_1_n_n 128 rfl rfl).symm]
  refine Finset.sum_congr rfl fun k _ => ?_
  have hk := contrEquiv1_symm_val dot_S4096x128_S128x128_S4096x128_1_0_0_1_n_n 128 rfl rfl k
  have el : dot_S4096x128_S128x128_S4096x128_1_0_0_1_n_n.lhsIdx (ix2 p q) ((contrEquiv1 dot_S4096x128_S128x128_S4096x128_1_0_0_1_n_n 128 rfl rfl).symm k) = ix2 p k := funext fun a => Fin.ext (by
    match a with
    | ⟨0, _⟩ => exact lhs_0 _ _
    | ⟨1, _⟩ => exact (lhs_1 _ _).trans hk)
  have er : dot_S4096x128_S128x128_S4096x128_1_0_0_1_n_n.rhsIdx (ix2 p q) ((contrEquiv1 dot_S4096x128_S128x128_S4096x128_1_0_0_1_n_n 128 rfl rfl).symm k) = ix2 k q := funext fun a => Fin.ext (by
    match a with
    | ⟨0, _⟩ => exact (rhs_0 _ _).trans hk
    | ⟨1, _⟩ => exact rhs_1 _ _)
  rw [el, er]
  simp only [truncf_apply, shapeCast_self]

variable (V : (c : Dev nD) → (b : Ref sig .tc) → Buf (Elt Ideal) ((c : Thread nD τ).loc b))

/-- The merged input, the weight and the merged running sum as the call finds them, at their literal types. -/
abbrev xarr (c : Dev nD) : FVec Ideal S53248x128 .f32 := V c main_v263
abbrev warr (c : Dev nD) : FVec Ideal S128x128 .f32 := V c main_v260
abbrev sarr (c : Dev nD) : FVec Ideal S53248x128 .f32 := V c main_v264

/-- The block index maps over the grid: the four row-blocked windows sit at block (t, 0), the weight at (0, 0). -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-- The input block at point t is rows 4096 t … 4096 t + 4095 of the merged input. -/
theorem xblk_apply (c : Dev nD) (t : Fin cfg3.N) (y : S4096x128.Idx) (i : S53248x128.Idx)
    (h0 : (i 0).val = t.val * 4096 + (y 0).val) (h1 : (i 1).val = (y 1).val) :
    (iblk3 V c 0 t : FVec Ideal S4096x128 .f32) y = xarr V c i := by
  obtain ⟨e0, e1, -⟩ := idx_facts t
  unfold iblk3
  rw [View.read_apply]
  show V c main_v263 _ = V c main_v263 _
  congr 1
  funext a
  apply Fin.ext
  match a with
  | ⟨0, _⟩ => show win3_0.index t (0 : Fin 2) * 4096 + 1 * (y 0).val = (i 0).val; omega
  | ⟨1, _⟩ => show win3_0.index t (1 : Fin 2) * 128 + 1 * (y 1).val = (i 1).val; omega

/-- The weight block at every point is the whole weight. -/
theorem wblk_apply (c : Dev nD) (t : Fin cfg3.N) (y : S128x128.Idx) (i : S128x128.Idx)
    (h0 : (i 0).val = (y 0).val) (h1 : (i 1).val = (y 1).val) :
    (iblk3 V c 1 t : FVec Ideal S128x128 .f32) y = warr V c i := by
  obtain ⟨-, -, e0, e1, -⟩ := idx_facts t
  unfold iblk3
  rw [View.read_apply]
  show V c main_v260 _ = V c main_v260 _
  congr 1
  funext a
  apply Fin.ext
  match a with
  | ⟨0, _⟩ => show win3_1.index t (0 : Fin 2) * 128 + 1 * (y 0).val = (i 0).val; omega
  | ⟨1, _⟩ => show win3_1.index t (1 : Fin 2) * 128 + 1 * (y 1).val = (i 1).val; omega

/-- The running-sum block at point t is rows 4096 t … 4096 t + 4095 of the merged running sum. -/
theorem sblk_apply (c : Dev nD) (t : Fin cfg3.N) (y : S4096x128.Idx) (i : S53248x128.Idx)
    (h0 : (i 0).val = t.val * 4096 + (y 0).val) (h1 : (i 1).val = (y 1).val) :
    (iblk3 V c 2 t : FVec Ideal S4096x128 .f32) y = sarr V c i := by
  obtain ⟨-, -, -, -, e0, e1, -⟩ := idx_facts t
  unfold iblk3
  rw [View.read_apply]
  show V c main_v264 _ = V c main_v264 _
  congr 1
  funext a
  apply Fin.ext
  match a with
  | ⟨0, _⟩ => show win3_2.index t (0 : Fin 2) * 4096 + 1 * (y 0).val = (i 0).val; omega
  | ⟨1, _⟩ => show win3_2.index t (1 : Fin 2) * 128 + 1 * (y 1).val = (i 1).val; omega

/-- One entry of the product block against one entry of the row product of two arrays, when the block's row is a row
    of the first array and the weight block is the second array. -/
theorem mix_point (X : FVec Ideal S53248x128 .f32) (Wm : FVec Ideal S128x128 .f32)
    (x0 : FVec Ideal S4096x128 .f32) (x1 : FVec Ideal S128x128 .f32) (j : S4096x128.Idx) (i : S53248x128.Idx)
    (hx : ∀ k : Fin 128, x0 (ix2 (n0 := 4096) (n1 := 128) (j 0) k) = X (ix2 (n0 := 53248) (n1 := 128) (i 0) k))
    (hw : ∀ k : Fin 128, x1 (ix2 (n0 := 128) (n1 := 128) k (j 1)) = Wm (ix2 (n0 := 128) (n1 := 128) k (i 1))) :
    k3_pay3 (F := Ideal) x0 x1 j = rowMM X Wm i := by
  obtain ⟨p, q, rfl⟩ : ∃ (p : Fin 4096) (q : Fin 128), j = ix2 p q := ⟨j 0, j 1, eq_ix2 j⟩
  rw [pay_mix_apply]
  unfold rowMM
  exact Finset.sum_congr rfl fun k _ => by rw [← hx k, ← hw k]

/-- One entry of the sum block against one entry of the lane-wise sum of two arrays. -/
theorem sum_point (Sm X : FVec Ideal S53248x128 .f32) (x0 x2 : FVec Ideal S4096x128 .f32) (j : S4096x128.Idx)
    (i : S53248x128.Idx) (hx : x0 j = X i) (hs : x2 j = Sm i) : k3_pay2 (F := Ideal) x0 x2 j = addf Sm X i := by
  rw [pay_sum]
  show x2 j + x0 j = Sm i + X i
  rw [hx, hs]

/-- What point t writes back to the product array is block t of the row product of the merged input with the weight. -/
theorem flushed_mix (c : Dev nD) (t : Fin cfg3.N) :
    (dat3 (F := Ideal) V c).flushed 3 t = ((cfg3.win 3).blk t).view.read (Elt Ideal) (rowMM (xarr V c) (warr V c)) := by
  show (cfg3.win 3).cut (grid3.coords t) ((dat3 V c).after 3 t) = _
  rw [after3_3]
  unfold out3_3
  rw [View.canon_unit_zero hz]
  simp only [View.ld_unit_zero (S := S4096x128) hz, View.ld_unit_zero (S := S128x128) hz]
  obtain ⟨-, -, -, -, -, -, e0, e1, -⟩ := idx_facts t
  funext j
  show k3_pay3 (F := Ideal) (iblk3 V c 0 t) (iblk3 V c 1 t) j = rowMM (xarr V c) (warr V c) (((cfg3.win 3).blk t).view.emb j)
  refine mix_point (xarr V c) (warr V c) (iblk3 V c 0 t) (iblk3 V c 1 t) j (((cfg3.win 3).blk t).view.emb j) (fun k => ?_) (fun k => ?_)
  · refine xblk_apply V c t _ _ ?_ rfl
    show win3_3.index t (0 : Fin 2) * 4096 + 1 * (j 0).val = t.val * 4096 + (j 0).val
    omega
  · refine wblk_apply V c t _ _ rfl ?_
    show win3_3.index t (1 : Fin 2) * 128 + 1 * (j 1).val = (j 1).val
    omega

/-- What point t writes back to the sum array is block t of the merged running sum plus the merged input. -/
theorem flushed_sum (c : Dev nD) (t : Fin cfg3.N) :
    (dat3 (F := Ideal) V c).flushed 4 t = ((cfg3.win 4).blk t).view.read (Elt Ideal) (addf (sarr V c) (xarr V c)) := by
  show (cfg3.win 4).cut (grid3.coords t) ((dat3 V c).after 4 t) = _
  rw [after3_4]
  unfold out3_4
  rw [View.canon_unit_zero hz]
  simp only [View.ld_unit_zero (S := S4096x128) hz]
  obtain ⟨-, -, -, -, -, -, -, -, e0, e1⟩ := idx_facts t
  funext j
  show k3_pay2 (F := Ideal) (iblk3 V c 0 t) (iblk3 V c 2 t) j = addf (sarr V c) (xarr V c) (((cfg3.win 4).blk t).view.emb j)
  refine sum_point (sarr V c) (xarr V c) (iblk3 V c 0 t) (iblk3 V c 2 t) j (((cfg3.win 4).blk t).view.emb j) ?_ ?_
  · refine xblk_apply V c t _ _ ?_ ?_
    · show win3_4.index t (0 : Fin 2) * 4096 + 1 * (j 0).val = t.val * 4096 + (j 0).val
      omega
    · show win3_4.index t (1 : Fin 2) * 128 + 1 * (j 1).val = (j 1).val
      omega
  · refine sblk_apply V c t _ _ ?_ ?_
    · show win3_4.index t (0 : Fin 2) * 4096 + 1 * (j 0).val = t.val * 4096 + (j 0).val
      omega
    · show win3_4.index t (1 : Fin 2) * 128 + 1 * (j 1).val = (j 1).val
      omega

/-- An index of the product array is in point t's block iff each coordinate is in the block's range on its axis. -/
theorem mem_blk_mix (t : Fin cfg3.N) (i : S53248x128.Idx) :
    i ∈ ((cfg3.win 3).blk t).view.set ↔ ∀ a : Fin 2, win3_3.index t a * S4096x128.size a ≤ (i a).val ∧ (i a).val < win3_3.index t a * S4096x128.size a + S4096x128.size a := by
  show i ∈ ((View.whole main_v265_0).slice (win3_3.rect t)).set ↔ _
  rw [View.set_slice_whole, Rect.mem_set_unit]
  exact Iff.rfl

/-- The same for the sum array. -/
theorem mem_blk_sum (t : Fin cfg3.N) (i : S53248x128.Idx) :
    i ∈ ((cfg3.win 4).blk t).view.set ↔ ∀ a : Fin 2, win3_4.index t a * S4096x128.size a ≤ (i a).val ∧ (i a).val < win3_4.index t a * S4096x128.size a + S4096x128.size a := by
  show i ∈ ((View.whole main_v265_1).slice (win3_4.rect t)).set ↔ _
  rw [View.set_slice_whole, Rect.mem_set_unit]
  exact Iff.rfl

/-- Row r lies in the block of point r / 4096, which is a point of the grid. -/
theorem point_lt (i : S53248x128.Idx) : (i 0).val / 4096 < cfg3.N := by
  have h : (i 0).val < 53248 := (i 0).isLt
  rw [show cfg3.N = 13 from N_3]
  omega

/-- Every index of the product array is in some point's block. -/
theorem cover_mix (i : S53248x128.Idx) : ∃ t : Fin cfg3.N, (cfg3.win 3).flush t = true ∧ i ∈ ((cfg3.win 3).blk t).view.set := by
  refine ⟨⟨(i 0).val / 4096, point_lt i⟩, flush3_3 _, ?_⟩
  obtain ⟨-, -, -, -, -, -, e0, e1, -⟩ := idx_facts ⟨(i 0).val / 4096, point_lt i⟩
  have e0' : win3_3.index ⟨(i 0).val / 4096, point_lt i⟩ (0 : Fin 2) = (i 0).val / 4096 := e0
  have h1 : (i 1).val < 128 := (i 1).isLt
  rw [mem_blk_mix]
  intro a
  match a with
  | ⟨0, _⟩ => show win3_3.index ⟨(i 0).val / 4096, point_lt i⟩ (0 : Fin 2) * 4096 ≤ (i 0).val ∧ (i 0).val < win3_3.index ⟨(i 0).val / 4096, point_lt i⟩ (0 : Fin 2) * 4096 + 4096; omega
  | ⟨1, _⟩ => show win3_3.index ⟨(i 0).val / 4096, point_lt i⟩ (1 : Fin 2) * 128 ≤ (i 1).val ∧ (i 1).val < win3_3.index ⟨(i 0).val / 4096, point_lt i⟩ (1 : Fin 2) * 128 + 128; omega

/-- Every index of the sum array is in some point's block. -/
theorem cover_sum (i : S53248x128.Idx) : ∃ t : Fin cfg3.N, (cfg3.win 4).flush t = true ∧ i ∈ ((cfg3.win 4).blk t).view.set := by
  refine ⟨⟨(i 0).val / 4096, point_lt i⟩, flush3_4 _, ?_⟩
  obtain ⟨-, -, -, -, -, -, -, -, e0, e1⟩ := idx_facts ⟨(i 0).val / 4096, point_lt i⟩
  have e0' : win3_4.index ⟨(i 0).val / 4096, point_lt i⟩ (0 : Fin 2) = (i 0).val / 4096 := e0
  have h1 : (i 1).val < 128 := (i 1).isLt
  rw [mem_blk_sum]
  intro a
  match a with
  | ⟨0, _⟩ => show win3_4.index ⟨(i 0).val / 4096, point_lt i⟩ (0 : Fin 2) * 4096 ≤ (i 0).val ∧ (i 0).val < win3_4.index ⟨(i 0).val / 4096, point_lt i⟩ (0 : Fin 2) * 4096 + 4096; omega
  | ⟨1, _⟩ => show win3_4.index ⟨(i 0).val / 4096, point_lt i⟩ (1 : Fin 2) * 128 ≤ (i 1).val ∧ (i 1).val < win3_4.index ⟨(i 0).val / 4096, point_lt i⟩ (1 : Fin 2) * 128 + 128; omega

/-- After the 13 points the product array is the row product of the merged input with the weight. -/
theorem arr_mixed (c : Dev nD) :
    ((dat3 (F := Ideal) V c).arrAt 3 cfg3.N : FVec Ideal S53248x128 .f32) = rowMM (xarr V c) (warr V c) :=
  (dat3 (F := Ideal) V c).arrAt_eq_of_cover 3 (rowMM (xarr V c) (warr V c)) (fun t _ => flushed_mix V c t) cover_mix

/-- After the 13 points the sum array is the merged running sum plus the merged input. -/
theorem arr_sum (c : Dev nD) :
    ((dat3 (F := Ideal) V c).arrAt 4 cfg3.N : FVec Ideal S53248x128 .f32) = addf (sarr V c) (xarr V c) :=
  (dat3 (F := Ideal) V c).arrAt_eq_of_cover 4 (addf (sarr V c) (xarr V c)) (fun t _ => flushed_sum V c t) cover_sum

end Cert.KernelIdeal.Region3

end
-- ==== Proof.MixU.lean ====
/-
  The user-side layout algebra of one fused call: 200001 rows of 64 are padded to 204800, row pairs are laid side by
  side as 102400 rows of 128, multiplied by the block-diagonal 128 x 128 weight (and, for the running sum, added to the
  sum laid out the same way), the result is cut back into rows of 64 and its first 200001 rows are kept. The kept rows
  are the plain product of the 64-wide rows with the 64 x 64 weight, and the plain sum.

  Read at (r, j) with r < 200001 and j < 64: the kept row r is row r of the cut-back array, which is lane
  (r % 2) * 64 + j of row r / 2 of the 128-lane array; lane (r % 2) * 64 + k of that row of the merged padded rows is
  entry (r, k) of the rows themselves, a row that is not padding. The 128-lane sum splits into its two halves of 64;
  the half other than r % 2 meets the zero block of the weight, the half r % 2 meets the 64 x 64 weight.
-/
import proofs.«403624_j12223476924780_3_alg».proof.KernelIdeal
import proofs.«403624_j12223476924780_3_alg».proof.ReferenceIdeal
import proofs.«403624_j12223476924780_3_alg».proof.Proof.MixDefs
import Idealize.ShloMosaic.Lib.KernelVsHost

noncomputable section

namespace Cert.Mix.U

open Idealize.ShloMosaic Idealize.ShloMosaic.ValueIdx Cert.KernelIdeal Cert.KernelIdeal.Facts₀ Cert.KernelIdeal.Facts

variable [Cert.KernelIdeal.Facts] [Cert.ReferenceIdeal.Facts]

/-- The kept rows read the cut-back array at the same coordinates. -/
theorem slice_read {α : Type} (Y : S204800x64.Idx → α) (r : Fin 200001) (j : Fin 64) :
    extractStridedSlice S200001x64 ![0, 0] Y slices_S204800x64_S200001x64_0_0 (ix2 r j)
      = Y (ix2 (n0 := 204800) (n1 := 64) ⟨r.val, by omega⟩ j) := by
  refine extractStridedSlice_apply _ Y _ (ix2 r j) (ix2 (n0 := 204800) (n1 := 64) ⟨r.val, by omega⟩ j) fun a => ?_
  match a with
  | ⟨0, _⟩ => exact (Nat.zero_add _).symm
  | ⟨1, _⟩ => exact (Nat.zero_add _).symm

/-- Row r of the cut-back array is half r % 2 of row r / 2 of the 128-lane array. -/
theorem split_read {α : Type} (X : S102400x128.Idx → α) (r : Fin 204800) (j : Fin 64) :
    shapeCast S204800x64 X shapeCasts_S102400x128_S204800x64 (ix2 r j)
      = X (ix2 (n0 := 102400) (n1 := 128) ⟨r.val / 2, by omega⟩ ⟨r.val % 2 * 64 + j.val, by omega⟩) := by
  refine shapeCast_apply X _ (ix2 r j) _ ?_
  rw [Shape.rowMajor_val_two, Shape.rowMajor_val_two]
  show r.val / 2 * 128 + (r.val % 2 * 64 + j.val) = r.val * 64 + j.val
  omega

/-- Half h of row r / 2 of the 128-lane array built from the padded rows is row r of the rows themselves, for a row r
    that is not padding: the pad value is not read. -/
theorem merged_pad_read (x : FVec Ideal S200001x64 .f32) (z : FVec Ideal S_ .f32) (r : Fin 200001) (k : Fin 64) :
    shapeCast S102400x128 (pad S204800x64 ![0, 0] ![4799, 0] ![0, 0] x z pads_S200001x64_S204800x64_047990_000 h_S_)
        shapeCasts_S204800x64_S102400x128
        (ix2 (n0 := 102400) (n1 := 128) ⟨r.val / 2, by omega⟩ ⟨r.val % 2 * 64 + k.val, by omega⟩)
      = x (ix2 r k) := by
  refine (shapeCast_apply _ _ _ (ix2 (n0 := 204800) (n1 := 64) ⟨r.val, by omega⟩ k) ?_).trans ?_
  · rw [Shape.rowMajor_val_two, Shape.rowMajor_val_two]
    show r.val * 64 + k.val = r.val / 2 * 128 + (r.val % 2 * 64 + k.val)
    omega
  · refine pad_apply_of_inside _ _ _ x z _ _ _ (ix2 r k) fun a => ?_
    match a with
    | ⟨0, _⟩ => show r.val = 0 + r.val * (0 + 1); omega
    | ⟨1, _⟩ => show k.val = 0 + k.val * (0 + 1); omega

/-- The weight's diagonal block h, read at (h * 64 + k, h * 64 + j), is the 64 x 64 weight at (k, j). -/
theorem blockDiag_same (wt : S64x64.Idx → EReal) (h : Nat) (hh : h < 2) (k j : Fin 64) :
    blockDiag wt (ix2 (n0 := 128) (n1 := 128) ⟨h * 64 + k.val, by omega⟩ ⟨h * 64 + j.val, by omega⟩) = wt (ix2 k j) := by
  unfold blockDiag
  rw [if_pos (by show (h * 64 + k.val) / 64 = (h * 64 + j.val) / 64; omega)]
  refine congrArg wt (Shape.idx_ext₂ ?_ ?_)
  · show (h * 64 + k.val) % 64 = k.val
    omega
  · show (h * 64 + j.val) % 64 = j.val
    omega

/-- Off the diagonal blocks the weight is zero. -/
theorem blockDiag_other (wt : S64x64.Idx → EReal) (a b : Fin 128) (hab : a.val / 64 ≠ b.val / 64) :
    blockDiag wt (ix2 a b) = 0 := by
  unfold blockDiag
  exact if_neg hab

/-- The 128-lane sum against the block-diagonal weight, at a lane of half h, is the 64-lane sum over half h against the
    64 x 64 weight: each lane of the other half meets a zero of the weight, and a product with zero is zero whatever the
    other factor. -/
theorem rowMM_blockDiag {n : Nat} (X : (⟨2, ![n, 128]⟩ : Shape).Idx → EReal) (wt : S64x64.Idx → EReal) (q : Fin n)
    (h : Nat) (hh : h < 2) (j : Fin 64) :
    rowMM X (blockDiag wt) (ix2 (n0 := n) (n1 := 128) q ⟨h * 64 + j.val, by omega⟩)
      = ∑ k : Fin 64, X (ix2 (n0 := n) (n1 := 128) q ⟨h * 64 + k.val, by omega⟩) * wt (ix2 k j) := by
  show (∑ k : Fin 128, X (ix2 (n0 := n) (n1 := 128) q k)
      * blockDiag wt (ix2 (n0 := 128) (n1 := 128) k ⟨h * 64 + j.val, by omega⟩)) = _
  rw [Fin.sum_univ_add (a := 64) (b := 64)]
  obtain rfl | rfl : h = 0 ∨ h = 1 := by omega
  · have hz : (∑ k : Fin 64, X (ix2 (n0 := n) (n1 := 128) q (Fin.natAdd 64 k))
        * blockDiag wt (ix2 (n0 := 128) (n1 := 128) (Fin.natAdd 64 k) ⟨0 * 64 + j.val, by omega⟩)) = 0 :=
      Finset.sum_eq_zero fun k _ => by
        rw [blockDiag_other wt _ _ (by show (64 + k.val) / 64 ≠ (0 * 64 + j.val) / 64; omega), mul_zero]
    rw [hz, add_zero]
    refine Finset.sum_congr rfl fun k _ => ?_
    rw [show (Fin.castAdd 64 k : Fin 128) = ⟨0 * 64 + k.val, by omega⟩ from Fin.ext (by show k.val = 0 * 64 + k.val; omega),
      blockDiag_same wt 0 (by omega) k j]
  · have hz : (∑ k : Fin 64, X (ix2 (n0 := n) (n1 := 128) q (Fin.castAdd 64 k))
        * blockDiag wt (ix2 (n0 := 128) (n1 := 128) (Fin.castAdd 64 k) ⟨1 * 64 + j.val, by omega⟩)) = 0 :=
      Finset.sum_eq_zero fun k _ => by
        rw [blockDiag_other wt _ _ (by show k.val / 64 ≠ (1 * 64 + j.val) / 64; omega), mul_zero]
    rw [hz, zero_add]
    refine Finset.sum_congr rfl fun k _ => ?_
    rw [show (Fin.natAdd 64 k : Fin 128) = ⟨1 * 64 + k.val, by omega⟩ from Fin.ext (by show 64 + k.val = 1 * 64 + k.val; omega),
      blockDiag_same wt 1 (by omega) k j]

/-- The reference product's operand indices, coordinate by coordinate: the left operand is read at (row, contraction
    position), the right one at (contraction position, column). -/
theorem lhs_dot_0 (i : S200001x64.Idx) (k : Cert.ReferenceIdeal.dot_S200001x64_S64x64_S200001x64_1_0_0_1_n_n.contr.Idx) :
    (Cert.ReferenceIdeal.dot_S200001x64_S64x64_S200001x64_1_0_0_1_n_n.lhsIdx i k 0 : ℕ) = i 0 := by
  simp [DotDims.lhsIdx, Cert.ReferenceIdeal.dot_S200001x64_S64x64_S200001x64_1_0_0_1_n_n]; rfl
theorem lhs_dot_1 (i : S200001x64.Idx) (k : Cert.ReferenceIdeal.dot_S200001x64_S64x64_S200001x64_1_0_0_1_n_n.contr.Idx) :
    (Cert.ReferenceIdeal.dot_S200001x64_S64x64_S200001x64_1_0_0_1_n_n.lhsIdx i k 1 : ℕ) = k ⟨0, Nat.one_pos⟩ := by
  simp [DotDims.lhsIdx, Cert.ReferenceIdeal.dot_S200001x64_S64x64_S200001x64_1_0_0_1_n_n]; rfl
theorem rhs_dot_0 (i : S200001x64.Idx) (k : Cert.ReferenceIdeal.dot_S200001x64_S64x64_S200001x64_1_0_0_1_n_n.contr.Idx) :
    (Cert.ReferenceIdeal.dot_S200001x64_S64x64_S200001x64_1_0_0_1_n_n.rhsIdx i k 0 : ℕ) = k ⟨0, Nat.one_pos⟩ := by
  simp [DotDims.rhsIdx, Cert.ReferenceIdeal.dot_S200001x64_S64x64_S200001x64_1_0_0_1_n_n]; rfl
theorem rhs_dot_1 (i : S200001x64.Idx) (k : Cert.ReferenceIdeal.dot_S200001x64_S64x64_S200001x64_1_0_0_1_n_n.contr.Idx) :
    (Cert.ReferenceIdeal.dot_S200001x64_S64x64_S200001x64_1_0_0_1_n_n.rhsIdx i k 1 : ℕ) = i 1 := by
  simp [DotDims.rhsIdx, Cert.ReferenceIdeal.dot_S200001x64_S64x64_S200001x64_1_0_0_1_n_n]; rfl

/-- The reference product at (r, j) is the sum over the 64 contraction positions of x (r, k) * wt (k, j). -/
theorem dot_read (x : FVec Ideal S200001x64 .f32) (wt : FVec Ideal S64x64 .f32) (r : Fin 200001) (j : Fin 64) :
    Host.dotGeneral Cert.ReferenceIdeal.dot_S200001x64_S64x64_S200001x64_1_0_0_1_n_n none x wt (ix2 r j)
      = ∑ k : Fin 64, x (ix2 r k) * wt (ix2 k j) := by
  simp only [Host.dotGeneral]
  rw [Ideal.dotGeneral_apply,
    ← Equiv.sum_comp (contrEquiv1 Cert.ReferenceIdeal.dot_S200001x64_S64x64_S200001x64_1_0_0_1_n_n 64 rfl rfl).symm]
  refine Finset.sum_congr rfl fun k _ => ?_
  congr 2
  · apply Shape.idx_ext₂
    · exact lhs_dot_0 _ _
    · exact (lhs_dot_1 _ _).trans (contrEquiv1_symm_val _ 64 rfl rfl k)
  · apply Shape.idx_ext₂
    · exact (rhs_dot_0 _ _).trans (contrEquiv1_symm_val _ 64 rfl rfl k)
    · exact rhs_dot_1 _ _

/-- Rows r < 200001 of the merged product are the rows of `x` times `wt`: in the 128-lane sum the 64 lanes of the
    other half of the pair meet a zero block of the weight, and an extended real times zero is zero. -/
theorem mixed_eq (x : FVec Ideal S200001x64 .f32) (wt : FVec Ideal S64x64 .f32) (z : FVec Ideal S_ .f32) :
    extractStridedSlice S200001x64 ![0, 0]
      (shapeCast S204800x64
        (rowMM (shapeCast S102400x128 (pad S204800x64 ![0, 0] ![4799, 0] ![0, 0] x z pads_S200001x64_S204800x64_047990_000 h_S_) shapeCasts_S204800x64_S102400x128)
          (blockDiag wt))
        shapeCasts_S102400x128_S204800x64)
      slices_S204800x64_S200001x64_0_0
    = Host.dotGeneral Cert.ReferenceIdeal.dot_S200001x64_S64x64_S200001x64_1_0_0_1_n_n none x wt := by
  funext i
  obtain ⟨r, j, rfl⟩ : ∃ (r : Fin 200001) (j : Fin 64), i = ix2 r j := ⟨i 0, i 1, eq_ix2 i⟩
  rw [slice_read, split_read, dot_read]
  refine (rowMM_blockDiag _ wt _ (r.val % 2) (by omega) j).trans ?_
  exact Finset.sum_congr rfl fun k _ => congrArg (· * wt (ix2 k j)) (merged_pad_read x z r k)

/-- Rows r < 200001 of the merged sum are the sum of the rows. -/
theorem sum_eq (x s : FVec Ideal S200001x64 .f32) (z z' : FVec Ideal S_ .f32) :
    extractStridedSlice S200001x64 ![0, 0]
      (shapeCast S204800x64
        (addf
          (shapeCast S102400x128 (pad S204800x64 ![0, 0] ![4799, 0] ![0, 0] s z' pads_S200001x64_S204800x64_047990_000 h_S_) shapeCasts_S204800x64_S102400x128)
          (shapeCast S102400x128 (pad S204800x64 ![0, 0] ![4799, 0] ![0, 0] x z pads_S200001x64_S204800x64_047990_000 h_S_) shapeCasts_S204800x64_S102400x128))
        shapeCasts_S102400x128_S204800x64)
      slices_S204800x64_S200001x64_0_0
    = addf s x := by
  funext i
  obtain ⟨r, j, rfl⟩ : ∃ (r : Fin 200001) (j : Fin 64), i = ix2 r j := ⟨i 0, i 1, eq_ix2 i⟩
  rw [slice_read, split_read, addf_apply, addf_apply]
  exact congrArg₂ (· + ·) (merged_pad_read s z' r j) (merged_pad_read x z r j)

end Cert.Mix.U

end
-- ==== Proof.MixI.lean ====
/-
  The item-side layout algebra of one fused call: 100001 rows of 64 are padded to 106496, row pairs are laid side by
  side as 53248 rows of 128, multiplied by the block-diagonal 128 x 128 weight (and, for the running sum, added to the
  sum laid out the same way), the result is cut back into rows of 64 and its first 100001 rows are kept. The kept rows
  are the plain product of the 64-wide rows with the 64 x 64 weight, and the plain sum.

  Read at (r, j) with r < 100001 and j < 64: the kept row r is row r of the cut-back array, which is lane
  (r % 2) * 64 + j of row r / 2 of the 128-lane array; lane (r % 2) * 64 + k of that row of the merged padded rows is
  entry (r, k) of the rows themselves, a row that is not padding. The 128-lane sum splits into its two halves of 64;
  the half other than r % 2 meets the zero block of the weight, the half r % 2 meets the 64 x 64 weight.
-/
import proofs.«403624_j12223476924780_3_alg».proof.KernelIdeal
import proofs.«403624_j12223476924780_3_alg».proof.ReferenceIdeal
import proofs.«403624_j12223476924780_3_alg».proof.Proof.MixDefs
import Idealize.ShloMosaic.Lib.KernelVsHost

noncomputable section

namespace Cert.Mix.I

open Idealize.ShloMosaic Idealize.ShloMosaic.ValueIdx Cert.KernelIdeal Cert.KernelIdeal.Facts₀ Cert.KernelIdeal.Facts

variable [Cert.KernelIdeal.Facts] [Cert.ReferenceIdeal.Facts]

/-- The kept rows read the cut-back array at the same coordinates. -/
theorem slice_read {α : Type} (Y : S106496x64.Idx → α) (r : Fin 100001) (j : Fin 64) :
    extractStridedSlice S100001x64 ![0, 0] Y slices_S106496x64_S100001x64_0_0 (ix2 r j)
      = Y (ix2 (n0 := 106496) (n1 := 64) ⟨r.val, by omega⟩ j) := by
  refine extractStridedSlice_apply _ Y _ (ix2 r j) (ix2 (n0 := 106496) (n1 := 64) ⟨r.val, by omega⟩ j) fun a => ?_
  match a with
  | ⟨0, _⟩ => exact (Nat.zero_add _).symm
  | ⟨1, _⟩ => exact (Nat.zero_add _).symm

/-- Row r of the cut-back array is half r % 2 of row r / 2 of the 128-lane array. -/
theorem split_read {α : Type} (X : S53248x128.Idx → α) (r : Fin 106496) (j : Fin 64) :
    shapeCast S106496x64 X shapeCasts_S53248x128_S106496x64 (ix2 r j)
      = X (ix2 (n0 := 53248) (n1 := 128) ⟨r.val / 2, by omega⟩ ⟨r.val % 2 * 64 + j.val, by omega⟩) := by
  refine shapeCast_apply X _ (ix2 r j) _ ?_
  rw [Shape.rowMajor_val_two, Shape.rowMajor_val_two]
  show r.val / 2 * 128 + (r.val % 2 * 64 + j.val) = r.val * 64 + j.val
  omega

/-- Half h of row r / 2 of the 128-lane array built from the padded rows is row r of the rows themselves, for a row r
    that is not padding: the pad value is not read. -/
theorem merged_pad_read (x : FVec Ideal S100001x64 .f32) (z : FVec Ideal S_ .f32) (r : Fin 100001) (k : Fin 64) :
    shapeCast S53248x128 (pad S106496x64 ![0, 0] ![6495, 0] ![0, 0] x z pads_S100001x64_S106496x64_064950_000 h_S_)
        shapeCasts_S106496x64_S53248x128
        (ix2 (n0 := 53248) (n1 := 128) ⟨r.val / 2, by omega⟩ ⟨r.val % 2 * 64 + k.val, by omega⟩)
      = x (ix2 r k) := by
  refine (shapeCast_apply _ _ _ (ix2 (n0 := 106496) (n1 := 64) ⟨r.val, by omega⟩ k) ?_).trans ?_
  · rw [Shape.rowMajor_val_two, Shape.rowMajor_val_two]
    show r.val * 64 + k.val = r.val / 2 * 128 + (r.val % 2 * 64 + k.val)
    omega
  · refine pad_apply_of_inside _ _ _ x z _ _ _ (ix2 r k) fun a => ?_
    match a with
    | ⟨0, _⟩ => show r.val = 0 + r.val * (0 + 1); omega
    | ⟨1, _⟩ => show k.val = 0 + k.val * (0 + 1); omega

/-- The weight's diagonal block h, read at (h * 64 + k, h * 64 + j), is the 64 x 64 weight at (k, j). -/
theorem blockDiag_same (wt : S64x64.Idx → EReal) (h : Nat) (hh : h < 2) (k j : Fin 64) :
    blockDiag wt (ix2 (n0 := 128) (n1 := 128) ⟨h * 64 + k.val, by omega⟩ ⟨h * 64 + j.val, by omega⟩) = wt (ix2 k j) := by
  unfold blockDiag
  rw [if_pos (by show (h * 64 + k.val) / 64 = (h * 64 + j.val) / 64; omega)]
  refine congrArg wt (Shape.idx_ext₂ ?_ ?_)
  · show (h * 64 + k.val) % 64 = k.val
    omega
  · show (h * 64 + j.val) % 64 = j.val
    omega

/-- Off the diagonal blocks the weight is zero. -/
theorem blockDiag_other (wt : S64x64.Idx → EReal) (a b : Fin 128) (hab : a.val / 64 ≠ b.val / 64) :
    blockDiag wt (ix2 a b) = 0 := by
  unfold blockDiag
  exact if_neg hab

/-- The 128-lane sum against the block-diagonal weight, at a lane of half h, is the 64-lane sum over half h against the
    64 x 64 weight: each lane of the other half meets a zero of the weight, and a product with zero is zero whatever the
    other factor. -/
theorem rowMM_blockDiag {n : Nat} (X : (⟨2, ![n, 128]⟩ : Shape).Idx → EReal) (wt : S64x64.Idx → EReal) (q : Fin n)
    (h : Nat) (hh : h < 2) (j : Fin 64) :
    rowMM X (blockDiag wt) (ix2 (n0 := n) (n1 := 128) q ⟨h * 64 + j.val, by omega⟩)
      = ∑ k : Fin 64, X (ix2 (n0 := n) (n1 := 128) q ⟨h * 64 + k.val, by omega⟩) * wt (ix2 k j) := by
  show (∑ k : Fin 128, X (ix2 (n0 := n) (n1 := 128) q k)
      * blockDiag wt (ix2 (n0 := 128) (n1 := 128) k ⟨h * 64 + j.val, by omega⟩)) = _
  rw [Fin.sum_univ_add (a := 64) (b := 64)]
  obtain rfl | rfl : h = 0 ∨ h = 1 := by omega
  · have hz : (∑ k : Fin 64, X (ix2 (n0 := n) (n1 := 128) q (Fin.natAdd 64 k))
        * blockDiag wt (ix2 (n0 := 128) (n1 := 128) (Fin.natAdd 64 k) ⟨0 * 64 + j.val, by omega⟩)) = 0 :=
      Finset.sum_eq_zero fun k _ => by
        rw [blockDiag_other wt _ _ (by show (64 + k.val) / 64 ≠ (0 * 64 + j.val) / 64; omega), mul_zero]
    rw [hz, add_zero]
    refine Finset.sum_congr rfl fun k _ => ?_
    rw [show (Fin.castAdd 64 k : Fin 128) = ⟨0 * 64 + k.val, by omega⟩ from Fin.ext (by show k.val = 0 * 64 + k.val; omega),
      blockDiag_same wt 0 (by omega) k j]
  · have hz : (∑ k : Fin 64, X (ix2 (n0 := n) (n1 := 128) q (Fin.castAdd 64 k))
        * blockDiag wt (ix2 (n0 := 128) (n1 := 128) (Fin.castAdd 64 k) ⟨1 * 64 + j.val, by omega⟩)) = 0 :=
      Finset.sum_eq_zero fun k _ => by
        rw [blockDiag_other wt _ _ (by show k.val / 64 ≠ (1 * 64 + j.val) / 64; omega), mul_zero]
    rw [hz, zero_add]
    refine Finset.sum_congr rfl fun k _ => ?_
    rw [show (Fin.natAdd 64 k : Fin 128) = ⟨1 * 64 + k.val, by omega⟩ from Fin.ext (by show 64 + k.val = 1 * 64 + k.val; omega),
      blockDiag_same wt 1 (by omega) k j]

/-- The reference product's operand indices, coordinate by coordinate: the left operand is read at (row, contraction
    position), the right one at (contraction position, column). -/
theorem lhs_dot_0 (i : S100001x64.Idx) (k : Cert.ReferenceIdeal.dot_S100001x64_S64x64_S100001x64_1_0_0_1_n_n.contr.Idx) :
    (Cert.ReferenceIdeal.dot_S100001x64_S64x64_S100001x64_1_0_0_1_n_n.lhsIdx i k 0 : ℕ) = i 0 := by
  simp [DotDims.lhsIdx, Cert.ReferenceIdeal.dot_S100001x64_S64x64_S100001x64_1_0_0_1_n_n]; rfl
theorem lhs_dot_1 (i : S100001x64.Idx) (k : Cert.ReferenceIdeal.dot_S100001x64_S64x64_S100001x64_1_0_0_1_n_n.contr.Idx) :
    (Cert.ReferenceIdeal.dot_S100001x64_S64x64_S100001x64_1_0_0_1_n_n.lhsIdx i k 1 : ℕ) = k ⟨0, Nat.one_pos⟩ := by
  simp [DotDims.lhsIdx, Cert.ReferenceIdeal.dot_S100001x64_S64x64_S100001x64_1_0_0_1_n_n]; rfl
theorem rhs_dot_0 (i : S100001x64.Idx) (k : Cert.ReferenceIdeal.dot_S100001x64_S64x64_S100001x64_1_0_0_1_n_n.contr.Idx) :
    (Cert.ReferenceIdeal.dot_S100001x64_S64x64_S100001x64_1_0_0_1_n_n.rhsIdx i k 0 : ℕ) = k ⟨0, Nat.one_pos⟩ := by
  simp [DotDims.rhsIdx, Cert.ReferenceIdeal.dot_S100001x64_S64x64_S100001x64_1_0_0_1_n_n]; rfl
theorem rhs_dot_1 (i : S100001x64.Idx) (k : Cert.ReferenceIdeal.dot_S100001x64_S64x64_S100001x64_1_0_0_1_n_n.contr.Idx) :
    (Cert.ReferenceIdeal.dot_S100001x64_S64x64_S100001x64_1_0_0_1_n_n.rhsIdx i k 1 : ℕ) = i 1 := by
  simp [DotDims.rhsIdx, Cert.ReferenceIdeal.dot_S100001x64_S64x64_S100001x64_1_0_0_1_n_n]; rfl

/-- The reference product at (r, j) is the sum over the 64 contraction positions of x (r, k) * wt (k, j). -/
theorem dot_read (x : FVec Ideal S100001x64 .f32) (wt : FVec Ideal S64x64 .f32) (r : Fin 100001) (j : Fin 64) :
    Host.dotGeneral Cert.ReferenceIdeal.dot_S100001x64_S64x64_S100001x64_1_0_0_1_n_n none x wt (ix2 r j)
      = ∑ k : Fin 64, x (ix2 r k) * wt (ix2 k j) := by
  simp only [Host.dotGeneral]
  rw [Ideal.dotGeneral_apply,
    ← Equiv.sum_comp (contrEquiv1 Cert.ReferenceIdeal.dot_S100001x64_S64x64_S100001x64_1_0_0_1_n_n 64 rfl rfl).symm]
  refine Finset.sum_congr rfl fun k _ => ?_
  congr 2
  · apply Shape.idx_ext₂
    · exact lhs_dot_0 _ _
    · exact (lhs_dot_1 _ _).trans (contrEquiv1_symm_val _ 64 rfl rfl k)
  · apply Shape.idx_ext₂
    · exact (rhs_dot_0 _ _).trans (contrEquiv1_symm_val _ 64 rfl rfl k)
    · exact rhs_dot_1 _ _

/-- Rows r < 100001 of the merged product are the rows of `x` times `wt`: in the 128-lane sum the 64 lanes of the
    other half of the pair meet a zero block of the weight, and an extended real times zero is zero. -/
theorem mixed_eq (x : FVec Ideal S100001x64 .f32) (wt : FVec Ideal S64x64 .f32) (z : FVec Ideal S_ .f32) :
    extractStridedSlice S100001x64 ![0, 0]
      (shapeCast S106496x64
        (rowMM (shapeCast S53248x128 (pad S106496x64 ![0, 0] ![6495, 0] ![0, 0] x z pads_S100001x64_S106496x64_064950_000 h_S_) shapeCasts_S106496x64_S53248x128)
          (blockDiag wt))
        shapeCasts_S53248x128_S106496x64)
      slices_S106496x64_S100001x64_0_0
    = Host.dotGeneral Cert.ReferenceIdeal.dot_S100001x64_S64x64_S100001x64_1_0_0_1_n_n none x wt := by
  funext i
  obtain ⟨r, j, rfl⟩ : ∃ (r : Fin 100001) (j : Fin 64), i = ix2 r j := ⟨i 0, i 1, eq_ix2 i⟩
  rw [slice_read, split_read, dot_read]
  refine (rowMM_blockDiag _ wt _ (r.val % 2) (by omega) j).trans ?_
  exact Finset.sum_congr rfl fun k _ => congrArg (· * wt (ix2 k j)) (merged_pad_read x z r k)

/-- Rows r < 100001 of the merged sum are the sum of the rows. -/
theorem sum_eq (x s : FVec Ideal S100001x64 .f32) (z z' : FVec Ideal S_ .f32) :
    extractStridedSlice S100001x64 ![0, 0]
      (shapeCast S106496x64
        (addf
          (shapeCast S53248x128 (pad S106496x64 ![0, 0] ![6495, 0] ![0, 0] s z' pads_S100001x64_S106496x64_064950_000 h_S_) shapeCasts_S106496x64_S53248x128)
          (shapeCast S53248x128 (pad S106496x64 ![0, 0] ![6495, 0] ![0, 0] x z pads_S100001x64_S106496x64_064950_000 h_S_) shapeCasts_S106496x64_S53248x128))
        shapeCasts_S53248x128_S106496x64)
      slices_S106496x64_S100001x64_0_0
    = addf s x := by
  funext i
  obtain ⟨r, j, rfl⟩ : ∃ (r : Fin 100001) (j : Fin 64), i = ix2 r j := ⟨i 0, i 1, eq_ix2 i⟩
  rw [slice_read, split_read, addf_apply, addf_apply]
  exact congrArg₂ (· + ·) (merged_pad_read s z' r j) (merged_pad_read x z r j)

end Cert.Mix.I

end
-- ==== Proof.LibScatterSet.lean ====
/-
  A host scatter whose body returns the update (a window SET) read at an index.

  `Host.scatter d (fun _ b => b) x idx upd` folds, over the update indices in row-major order, the step "replace the
  result's element at the update's result index by the update's element". When distinct update indices land on
  distinct result indices the fold's value at an index i is the update's element at the one update index that lands
  on i, and the operand's element at i when none does.
-/
import Idealize.ShloMosaic.PureOps.Ideal
import Idealize.ShloMosaic.Lib.ValueIdx

noncomputable section

namespace Idealize.ShloMosaic

open Idealize.ShloMosaic.ValueIdx

/-- A left fold of point updates, read at one index `i`. Each list element `n` either lands on an index (`g n`) or
    on none; a step leaves the value at `i` alone when its element does not land on `i` and makes it `v n` when it
    does. If every element that lands on `i` carries the same value `c`, and either the start value at `i` is
    already `c` or some element does land on `i`, then the fold's value at `i` is `c`. (No element landing on `i`:
    take `c` the start value. Exactly one element landing on `i`: take `c` its value.) -/
theorem List.foldl_apply_eq_of_landing {ι κ α : Type} (step : (ι → α) → κ → (ι → α)) (g : κ → Option ι) (v : κ → α)
    (i : ι) (c : α)
    (hhit : ∀ r n, g n = some i → step r n i = v n)
    (hmiss : ∀ r n, g n ≠ some i → step r n i = r i)
    (l : List κ) (x : ι → α)
    (hval : ∀ m ∈ l, g m = some i → v m = c)
    (hsome : x i = c ∨ ∃ m ∈ l, g m = some i) :
    l.foldl step x i = c := by
  induction l generalizing x with
  | nil =>
    rcases hsome with h | ⟨m, hm, _⟩
    · exact h
    · cases hm
  | cons a l ih =>
    rw [List.foldl_cons]
    refine ih (step x a) (fun m hm => hval m (List.mem_cons_of_mem a hm)) ?_
    by_cases ha : g a = some i
    · left; rw [hhit x a ha]; exact hval a List.mem_cons_self ha
    · rw [hmiss x a ha]
      rcases hsome with h | ⟨m, hm, hg⟩
      · left; exact h
      · rcases List.mem_cons.1 hm with rfl | hm'
        · exact absurd hg ha
        · right; exact ⟨m, hm', hg⟩

/-- A scatter whose body returns the update, read at one index `i`: if every update index whose result index is `i`
    carries the same element `c`, and either the operand's element at `i` is `c` or some update index does land on
    `i`, the result's element at `i` is `c`. -/
theorem Host.scatter_set_apply {α : Type} {s si u : Shape} {w : Nat} (d : ScatterDims s si u)
    (x : s.Idx → α) (idx : IVec si w) (upd : u.Idx → α) (i : s.Idx) (c : α)
    (hval : ∀ j : u.Idx, d.resultIdx? j idx = some i → upd j = c)
    (hsome : x i = c ∨ ∃ j : u.Idx, d.resultIdx? j idx = some i) :
    Host.scatter d (fun _ b => b) x idx upd i = c := by
  unfold Host.scatter
  refine List.foldl_apply_eq_of_landing _ (fun n => d.resultIdx? (u.rowMajor.symm n) idx) (fun n => upd (u.rowMajor.symm n)) i c
    ?_ ?_ _ x (fun m _ h => hval _ h) ?_
  · intro r n h
    simp only [h, if_true]
  · intro r n h
    cases hg : d.resultIdx? (u.rowMajor.symm n) idx with
    | none => simp only [hg]
    | some i' =>
      have hne : i ≠ i' := fun e => h (by rw [hg, e])
      simp only [hg, if_neg hne]
  · rcases hsome with h | ⟨j, hj⟩
    · left; exact h
    · right
      refine ⟨u.rowMajor j, List.mem_finRange _, ?_⟩
      simp only [Equiv.symm_apply_apply]
      exact hj

/-- The result index of a rank-2 window scatter whose start is a two-entry index vector: with both update axes window
    axes going to the operand's two axes in order, no inserted axis and the index vector on axis 0, the update index
    (j0, j1) lands on (c0 + j0, c1 + j1), where (c0, c1) is the index vector read signed; a window that fits
    (c + m ≤ n on both axes) is never dropped. -/
theorem ScatterDims.resultIdx?_window2 {n0 n1 m0 m1 w : Nat}
    (d : ScatterDims (⟨2, ![n0, n1]⟩ : Shape) (⟨1, ![2]⟩ : Shape) (⟨2, ![m0, m1]⟩ : Shape))
    (huw : d.updateWindowDims = [0, 1]) (hiw : d.insertedWindowDims = []) (hsd : d.scatterDimsToOperandDims = [0, 1])
    (hiv : d.indexVectorDim = 0)
    (idx : IVec (⟨1, ![2]⟩ : Shape) w)
    (c0 c1 : Nat) (h0 : (idx (ix1 (0 : Fin 2))).toInt = (c0 : Int)) (h1 : (idx (ix1 (1 : Fin 2))).toInt = (c1 : Int))
    (hc0 : c0 + m0 ≤ n0) (hc1 : c1 + m1 ≤ n1) (j0 : Fin m0) (j1 : Fin m1) :
    d.resultIdx? (ix2 j0 j1) idx = some (ix2 (⟨c0 + j0.val, by omega⟩ : Fin n0) (⟨c1 + j1.val, by omega⟩ : Fin n1)) := by
  obtain ⟨uw, iw, sd, iv, wf⟩ := d
  simp only at huw hiw hsd hiv
  subst huw hiw hsd hiv
  have hs0 : ∀ h : 0 < 2, ScatterDims.start (⟨[0, 1], [], [0, 1], 0, wf⟩ : ScatterDims (⟨2, ![n0, n1]⟩ : Shape) (⟨1, ![2]⟩ : Shape) (⟨2, ![m0, m1]⟩ : Shape)) (ix2 j0 j1) idx ⟨0, h⟩ = (c0 : Int) := by
    intro h
    rw [← h0]
    unfold ScatterDims.start
    have hm : (⟨0, h⟩ : Fin 2) ∈ ([0, 1] : List (Fin 2)) := List.mem_cons_self
    rw [dif_pos hm]
    refine congrArg (fun k => (idx k).toInt) ?_
    funext b
    match b with
    | ⟨0, _⟩ => rfl
  have hs1 : ∀ h : 1 < 2, ScatterDims.start (⟨[0, 1], [], [0, 1], 0, wf⟩ : ScatterDims (⟨2, ![n0, n1]⟩ : Shape) (⟨1, ![2]⟩ : Shape) (⟨2, ![m0, m1]⟩ : Shape)) (ix2 j0 j1) idx ⟨1, h⟩ = (c1 : Int) := by
    intro h
    rw [← h1]
    unfold ScatterDims.start
    have hm : (⟨1, h⟩ : Fin 2) ∈ ([0, 1] : List (Fin 2)) := List.mem_cons_of_mem _ List.mem_cons_self
    rw [dif_pos hm]
    refine congrArg (fun k => (idx k).toInt) ?_
    funext b
    match b with
    | ⟨0, _⟩ => rfl
  have hw0 : ∀ h : 0 < 2, ScatterDims.window (⟨[0, 1], [], [0, 1], 0, wf⟩ : ScatterDims (⟨2, ![n0, n1]⟩ : Shape) (⟨1, ![2]⟩ : Shape) (⟨2, ![m0, m1]⟩ : Shape)) (ix2 j0 j1) ⟨0, h⟩ = j0.val := fun _ => rfl
  have hw1 : ∀ h : 1 < 2, ScatterDims.window (⟨[0, 1], [], [0, 1], 0, wf⟩ : ScatterDims (⟨2, ![n0, n1]⟩ : Shape) (⟨1, ![2]⟩ : Shape) (⟨2, ![m0, m1]⟩ : Shape)) (ix2 j0 j1) ⟨1, h⟩ = j1.val := fun _ => rfl
  have hall : ∀ a : Fin 2, 0 ≤ ScatterDims.start (⟨[0, 1], [], [0, 1], 0, wf⟩ : ScatterDims (⟨2, ![n0, n1]⟩ : Shape) (⟨1, ![2]⟩ : Shape) (⟨2, ![m0, m1]⟩ : Shape)) (ix2 j0 j1) idx a
        + (ScatterDims.window (⟨[0, 1], [], [0, 1], 0, wf⟩ : ScatterDims (⟨2, ![n0, n1]⟩ : Shape) (⟨1, ![2]⟩ : Shape) (⟨2, ![m0, m1]⟩ : Shape)) (ix2 j0 j1) a : Nat)
      ∧ ScatterDims.start (⟨[0, 1], [], [0, 1], 0, wf⟩ : ScatterDims (⟨2, ![n0, n1]⟩ : Shape) (⟨1, ![2]⟩ : Shape) (⟨2, ![m0, m1]⟩ : Shape)) (ix2 j0 j1) idx a
        + (ScatterDims.window (⟨[0, 1], [], [0, 1], 0, wf⟩ : ScatterDims (⟨2, ![n0, n1]⟩ : Shape) (⟨1, ![2]⟩ : Shape) (⟨2, ![m0, m1]⟩ : Shape)) (ix2 j0 j1) a : Nat)
        < (((⟨2, ![n0, n1]⟩ : Shape).size a : Nat) : Int) := by
    intro a
    match a with
    | ⟨0, h⟩ =>
      rw [hs0 h, hw0 h]
      show 0 ≤ (c0 : Int) + (j0.val : Nat) ∧ (c0 : Int) + (j0.val : Nat) < ((n0 : Nat) : Int)
      omega
    | ⟨1, h⟩ =>
      rw [hs1 h, hw1 h]
      show 0 ≤ (c1 : Int) + (j1.val : Nat) ∧ (c1 : Int) + (j1.val : Nat) < ((n1 : Nat) : Int)
      omega
  unfold ScatterDims.resultIdx?
  rw [dif_pos hall]
  refine congrArg some ?_
  funext a
  match a with
  | ⟨0, h⟩ =>
    refine Fin.ext ?_
    show (_ + _ : Int).toNat = c0 + j0.val
    rw [hs0 h, hw0 h]; omega
  | ⟨1, h⟩ =>
    refine Fin.ext ?_
    show (_ + _ : Int).toNat = c1 + j1.val
    rw [hs1 h, hw1 h]; omega

/-- A rank-2 window set of a 64 x 64 update into a 128 x 128 operand at the start (c0, c1) read off a two-entry
    index vector: inside the window the update, outside it the operand. -/
theorem Host.scatter_set_window_apply {α : Type}
    (d : ScatterDims (⟨2, ![128, 128]⟩ : Shape) (⟨1, ![2]⟩ : Shape) (⟨2, ![64, 64]⟩ : Shape))
    (huw : d.updateWindowDims = [0, 1]) (hiw : d.insertedWindowDims = []) (hsd : d.scatterDimsToOperandDims = [0, 1])
    (hiv : d.indexVectorDim = 0)
    (x : (⟨2, ![128, 128]⟩ : Shape).Idx → α) (idx : IVec (⟨1, ![2]⟩ : Shape) 32) (upd : (⟨2, ![64, 64]⟩ : Shape).Idx → α)
    (c0 c1 : Nat) (h0 : (idx (ix1 (0 : Fin 2))).toInt = (c0 : Int)) (h1 : (idx (ix1 (1 : Fin 2))).toInt = (c1 : Int))
    (hc0 : c0 + 64 ≤ 128) (hc1 : c1 + 64 ≤ 128) (i : (⟨2, ![128, 128]⟩ : Shape).Idx) :
    Host.scatter d (fun _ b => b) x idx upd i
      = if h : c0 ≤ (i 0).val ∧ (i 0).val < c0 + 64 ∧ c1 ≤ (i 1).val ∧ (i 1).val < c1 + 64
        then upd (ix2 (⟨(i 0).val - c0, by omega⟩ : Fin 64) (⟨(i 1).val - c1, by omega⟩ : Fin 64))
        else x i := by
  refine Host.scatter_set_apply d x idx upd i _ ?_ ?_
  · intro j hj
    obtain ⟨j0, j1, rfl⟩ : ∃ (j0 : Fin 64) (j1 : Fin 64), j = ix2 j0 j1 := ⟨j 0, j 1, eq_ix2 j⟩
    rw [ScatterDims.resultIdx?_window2 d huw hiw hsd hiv idx c0 c1 h0 h1 hc0 hc1 j0 j1] at hj
    have hij := Option.some.inj hj
    have e0 : c0 + j0.val = (i 0).val :=
      congrArg (fun k : (⟨2, ![128, 128]⟩ : Shape).Idx => (k 0).val) hij
    have e1 : c1 + j1.val = (i 1).val :=
      congrArg (fun k : (⟨2, ![128, 128]⟩ : Shape).Idx => (k 1).val) hij
    have hin : c0 ≤ (i 0).val ∧ (i 0).val < c0 + 64 ∧ c1 ≤ (i 1).val ∧ (i 1).val < c1 + 64 := by
      have := j0.isLt; have := j1.isLt; omega
    rw [dif_pos hin]
    have a0 : j0 = (⟨(i 0).val - c0, by omega⟩ : Fin 64) := Fin.ext (by show j0.val = (i 0).val - c0; omega)
    have a1 : j1 = (⟨(i 1).val - c1, by omega⟩ : Fin 64) := Fin.ext (by show j1.val = (i 1).val - c1; omega)
    exact congrArg₂ (fun a b => upd (ix2 a b)) a0 a1
  · by_cases hin : c0 ≤ (i 0).val ∧ (i 0).val < c0 + 64 ∧ c1 ≤ (i 1).val ∧ (i 1).val < c1 + 64
    · right
      refine ⟨ix2 (⟨(i 0).val - c0, by omega⟩ : Fin 64) (⟨(i 1).val - c1, by omega⟩ : Fin 64), ?_⟩
      rw [ScatterDims.resultIdx?_window2 d huw hiw hsd hiv idx c0 c1 h0 h1 hc0 hc1]
      refine congrArg some ?_
      funext a
      match a with
      | ⟨0, _⟩ => exact Fin.ext (by show c0 + ((i 0).val - c0) = (i 0).val; omega)
      | ⟨1, _⟩ => exact Fin.ext (by show c1 + ((i 1).val - c1) = (i 1).val; omega)
    · left
      rw [dif_neg hin]

end Idealize.ShloMosaic

end
-- ==== Proof.BlockDiag.lean ====
/-
  The kernel's 128 x 128 weight: zeros, then the transposed 64 x 64 weight set at (0, 0), then set again at (64, 64).
  Read at an index it is `Cert.Mix.blockDiag` of that weight.
-/
import proofs.«403624_j12223476924780_3_alg».proof.KernelIdeal
import proofs.«403624_j12223476924780_3_alg».proof.Proof.MixDefs
import proofs.«403624_j12223476924780_3_alg».proof.Proof.LibScatterSet
import Idealize.ShloMosaic.PureOps.Ideal.Laws

noncomputable section

namespace Cert.Mix

open Idealize.ShloMosaic Idealize.ShloMosaic.ValueIdx Cert.KernelIdeal Cert.KernelIdeal.Facts₀ Cert.KernelIdeal.Facts

variable [Cert.KernelIdeal.Facts]

/-- The two-entry index vector whose entries are both the constant `c`: each entry reads `c`. -/
theorem idxPair_apply (c : BitVec 32) (k : Fin 2) :
    concatenate S2 0 [⟨S1, broadcastInDim S1 ![] bcast_S_S1 (constantI S_ 32 c)⟩, ⟨S1, broadcastInDim S1 ![] bcast_S_S1 (constantI S_ 32 c)⟩] concatenates_S1_S1_S2_d0 (ix1 k) = c := by
  match k with
  | ⟨0, _⟩ => rfl
  | ⟨1, _⟩ => rfl

/-- The zero matrix: every entry of the splat of the f32 zero pattern is the extended real 0. -/
theorem zeros_apply (i : S128x128.Idx) :
    broadcastInDim S128x128 ![] bcast_S_S128x128 (constant (F := Ideal) S_ .f32 0x00000000#32) i = (0 : EReal) := by
  show FloatOps.ofBits (F := Ideal) .f32 0x00000000#32 = (0 : EReal)
  rw [Ideal.ofBits_def, Ideal.ofBits_zero_f32]

/-- The two window sets over a zero matrix, as the kernel's program spells them, are the block-diagonal matrix. -/
theorem blockDiag_of_scatters (wt : FVec Ideal S64x64 .f32) :
    Host.scatter scatter_S128x128_S2_S64x64_01_n_01_0 (fun _ b => b)
      (Host.scatter scatter_S128x128_S2_S64x64_01_n_01_0 (fun _ b => b)
        (broadcastInDim S128x128 ![] bcast_S_S128x128 (constant (F := Ideal) S_ .f32 0x00000000#32))
        (concatenate S2 0 [⟨S1, broadcastInDim S1 ![] bcast_S_S1 (constantI S_ 32 0#32)⟩, ⟨S1, broadcastInDim S1 ![] bcast_S_S1 (constantI S_ 32 0#32)⟩] concatenates_S1_S1_S2_d0)
        wt)
      (concatenate S2 0 [⟨S1, broadcastInDim S1 ![] bcast_S_S1 (constantI S_ 32 64#32)⟩, ⟨S1, broadcastInDim S1 ![] bcast_S_S1 (constantI S_ 32 64#32)⟩] concatenates_S1_S1_S2_d0)
      wt
    = blockDiag wt := by
  funext i
  have hi0 : (i 0).val < 128 := idx2_lt0 i
  have hi1 : (i 1).val < 128 := idx2_lt1 i
  have e64 : ∀ k : Fin 2, ((concatenate S2 0 [⟨S1, broadcastInDim S1 ![] bcast_S_S1 (constantI S_ 32 64#32)⟩, ⟨S1, broadcastInDim S1 ![] bcast_S_S1 (constantI S_ 32 64#32)⟩] concatenates_S1_S1_S2_d0 : IVec S2 32) (ix1 k)).toInt = ((64 : Nat) : Int) := by
    intro k; rw [idxPair_apply]; rfl
  have e0 : ∀ k : Fin 2, ((concatenate S2 0 [⟨S1, broadcastInDim S1 ![] bcast_S_S1 (constantI S_ 32 0#32)⟩, ⟨S1, broadcastInDim S1 ![] bcast_S_S1 (constantI S_ 32 0#32)⟩] concatenates_S1_S1_S2_d0 : IVec S2 32) (ix1 k)).toInt = ((0 : Nat) : Int) := by
    intro k; rw [idxPair_apply]; rfl
  rw [Host.scatter_set_window_apply scatter_S128x128_S2_S64x64_01_n_01_0 rfl rfl rfl rfl _ _ wt 64 64 (e64 0) (e64 1)
    (by omega) (by omega) i]
  unfold blockDiag
  by_cases hA : 64 ≤ (i 0).val ∧ (i 0).val < 64 + 64 ∧ 64 ≤ (i 1).val ∧ (i 1).val < 64 + 64
  · rw [dif_pos hA, if_pos (by omega)]
    exact congrArg₂ (fun (a b : Fin 64) => wt (ix2 a b))
      (Fin.ext (by show (i 0).val - 64 = (i 0).val % 64; omega))
      (Fin.ext (by show (i 1).val - 64 = (i 1).val % 64; omega))
  · rw [dif_neg hA]
    rw [Host.scatter_set_window_apply scatter_S128x128_S2_S64x64_01_n_01_0 rfl rfl rfl rfl _ _ wt 0 0 (e0 0) (e0 1)
      (by omega) (by omega) i]
    by_cases hB : 0 ≤ (i 0).val ∧ (i 0).val < 0 + 64 ∧ 0 ≤ (i 1).val ∧ (i 1).val < 0 + 64
    · rw [dif_pos hB, if_pos (by omega)]
      exact congrArg₂ (fun (a b : Fin 64) => wt (ix2 a b))
        (Fin.ext (by show (i 0).val - 0 = (i 0).val % 64; omega))
        (Fin.ext (by show (i 1).val - 0 = (i 1).val % 64; omega))
    · rw [dif_neg hB, if_neg (by omega)]
      exact zeros_apply i

end Cert.Mix

end
-- ==== Proof.KMixU.lean ====
/-
  The two user-side fused calls read through the host operations around them: the rows the program keeps of a call's product output are the 64-wide rows entering the call times the transposed 64 x 64 weight, and the rows it keeps of the sum output are the running sum plus those rows. Stated between the program's own buffers at the boundaries where each is computed.
-/
import proofs.«403624_j12223476924780_3_alg».proof.Proof.KBounds
import proofs.«403624_j12223476924780_3_alg».proof.ReferenceIdeal
import proofs.«403624_j12223476924780_3_alg».proof.Proof.Gen.ReferenceIdeal
import proofs.«403624_j12223476924780_3_alg».proof.Proof.Region0
import proofs.«403624_j12223476924780_3_alg».proof.Proof.Region1
import proofs.«403624_j12223476924780_3_alg».proof.Proof.Region2
import proofs.«403624_j12223476924780_3_alg».proof.Proof.Region3
import proofs.«403624_j12223476924780_3_alg».proof.Proof.MixU
import proofs.«403624_j12223476924780_3_alg».proof.Proof.MixI
import proofs.«403624_j12223476924780_3_alg».proof.Proof.BlockDiag

noncomputable section

namespace Cert.KernelIdeal.KMixU

open Idealize.ShloMosaic Idealize.ShloMosaic.TcCoe Idealize.SL.Sem Idealize.ShloMosaic.StableHlo
open Cert.KernelIdeal Cert.KernelIdeal.Gen Cert.KernelIdeal.GenP Cert.KernelIdeal.KB

variable (m : (ℓ : Loc nD τ sig) → Buf (Elt Ideal) ℓ) (ρ : Dev nD → PrngReg) (c : Dev nD)

open Cert.Mix

/-! ## The layout operations around a user-side call, named -/

/-- The 128-lane rows cut back into rows of 64, the first 200001 kept. -/
abbrev keepRows (X : FVec Ideal S102400x128 .f32) : FVec Ideal S200001x64 .f32 :=
  extractStridedSlice S200001x64 ![0, 0] (shapeCast S204800x64 X shapeCasts_S102400x128_S204800x64) slices_S204800x64_S200001x64_0_0

/-- The 64-wide rows padded with `z` to 204800 rows and laid in pairs as 128-lane rows. -/
abbrev mergeRows (x : FVec Ideal S200001x64 .f32) (z : FVec Ideal S_ .f32) : FVec Ideal S102400x128 .f32 :=
  shapeCast S102400x128 (pad S204800x64 ![0, 0] ![4799, 0] ![0, 0] x z pads_S200001x64_S204800x64_047990_000 h_S_) shapeCasts_S204800x64_S102400x128

/-- The 64 x 64 weight set into a zero 128 x 128 matrix at (0, 0) and again at (64, 64). -/
abbrev setTwice (wt : FVec Ideal S64x64 .f32) : FVec Ideal S128x128 .f32 :=
  Host.scatter scatter_S128x128_S2_S64x64_01_n_01_0 (fun _ b => b)
    (Host.scatter scatter_S128x128_S2_S64x64_01_n_01_0 (fun _ b => b)
      (broadcastInDim S128x128 ![] bcast_S_S128x128 (constant (F := Ideal) S_ .f32 0x00000000#32))
      (concatenate S2 0 [⟨S1, broadcastInDim S1 ![] bcast_S_S1 (constantI S_ 32 0#32)⟩, ⟨S1, broadcastInDim S1 ![] bcast_S_S1 (constantI S_ 32 0#32)⟩] concatenates_S1_S1_S2_d0)
      wt)
    (concatenate S2 0 [⟨S1, broadcastInDim S1 ![] bcast_S_S1 (constantI S_ 32 64#32)⟩, ⟨S1, broadcastInDim S1 ![] bcast_S_S1 (constantI S_ 32 64#32)⟩] concatenates_S1_S1_S2_d0)
    wt

/-- The two window sets give the block-diagonal matrix. -/
theorem setTwice_eq (wt : FVec Ideal S64x64 .f32) : setTwice wt = blockDiag wt := blockDiag_of_scatters wt

/-- The kept rows of the merged product are the rows times the weight. -/
theorem keep_mixed (x : FVec Ideal S200001x64 .f32) (wt : FVec Ideal S64x64 .f32) (z : FVec Ideal S_ .f32) :
    keepRows (rowMM (mergeRows x z) (blockDiag wt))
      = Host.dotGeneral Cert.ReferenceIdeal.dot_S200001x64_S64x64_S200001x64_1_0_0_1_n_n none x wt :=
  Cert.Mix.U.mixed_eq x wt z

/-- The kept rows of the merged sum are the sum of the rows. -/
theorem keep_sum (x s : FVec Ideal S200001x64 .f32) (z z' : FVec Ideal S_ .f32) :
    keepRows (addf (mergeRows s z') (mergeRows x z)) = addf s x :=
  Cert.Mix.U.sum_eq x s z z'

/-! ## The stretches of host operations, read over any contents `V` they start from -/

section Stretches
variable (V : Valuation τ sig (Elt Ideal))

set_option maxHeartbeats 4000000 in
set_option maxRecDepth 16384 in
/-- After the first call: the kept product rows. -/
theorem after1_mixed :
    (StableHlo.after hostOps1 V (Proc.devRef .tc main_v112) : FVec Ideal S200001x64 .f32)
      = keepRows (V (Proc.devRef .tc main_v110_0)) := by
  simp only [hostOps1]
  after_results_simp
  rfl

set_option maxHeartbeats 4000000 in
set_option maxRecDepth 16384 in
/-- After the first call: the kept sum rows. -/
theorem after1_sum :
    (StableHlo.after hostOps1 V (Proc.devRef .tc main_v114) : FVec Ideal S200001x64 .f32)
      = keepRows (V (Proc.devRef .tc main_v110_1)) := by
  simp only [hostOps1]
  after_results_simp
  rfl

set_option maxHeartbeats 4000000 in
set_option maxRecDepth 16384 in
/-- Before the first call: the merged input. -/
theorem entry0_x :
    (StableHlo.after hostOps0_4 (StableHlo.after hostOps0_3 (StableHlo.after hostOps0_2 (StableHlo.after hostOps0_1 V))) (Proc.devRef .tc main_v108) : FVec Ideal S102400x128 .f32)
      = mergeRows (V (Proc.devRef .tc main_v91)) (sitofp (F := Ideal) .f32 (V (Proc.devRef .tc main_c_29) : IVec S_ 32)) := by
  simp only [hostOps0_4, hostOps0_3, hostOps0_2, hostOps0_1]
  after_results_simp
  rfl

set_option maxHeartbeats 4000000 in
set_option maxRecDepth 16384 in
/-- Before the first call: the merged running sum. -/
theorem entry0_s :
    (StableHlo.after hostOps0_4 (StableHlo.after hostOps0_3 (StableHlo.after hostOps0_2 (StableHlo.after hostOps0_1 V))) (Proc.devRef .tc main_v109) : FVec Ideal S102400x128 .f32)
      = mergeRows (V (Proc.devRef .tc main_v0)) (sitofp (F := Ideal) .f32 (constantI S_ 32 0#32)) := by
  simp only [hostOps0_4, hostOps0_3, hostOps0_2, hostOps0_1]
  after_results_simp
  rfl

set_option maxHeartbeats 4000000 in
set_option maxRecDepth 16384 in
/-- Before the first call: the weight is untouched. -/
theorem entry0_w :
    (StableHlo.after hostOps0_4 (StableHlo.after hostOps0_3 (StableHlo.after hostOps0_2 (StableHlo.after hostOps0_1 V))) (Proc.devRef .tc main_v105) : FVec Ideal S128x128 .f32)
      = V (Proc.devRef .tc main_v105) := by
  simp only [hostOps0_4, hostOps0_3, hostOps0_2, hostOps0_1]
  after_results_simp

end Stretches

section Stretches2
variable (V : Valuation τ sig (Elt Ideal))

set_option maxHeartbeats 4000000 in
set_option maxRecDepth 16384 in
/-- The first stretch builds the first call's weight from the first transposed user weight by the two window sets. -/
theorem after0_w :
    (StableHlo.after hostOps0 V (Proc.devRef .tc main_v105) : FVec Ideal S128x128 .f32)
      = setTwice (StableHlo.after hostOps0 V (Proc.devRef .tc main_v96)) := by
  simp only [hostOps0]
  after_results_simp
  rfl

end Stretches2

section Stretches3
variable (V : Valuation τ sig (Elt Ideal))

set_option maxHeartbeats 4000000 in
set_option maxRecDepth 16384 in
/-- After the third call: the kept product rows. -/
theorem after3_mixed :
    (StableHlo.after hostOps3 V (Proc.devRef .tc main_v246) : FVec Ideal S200001x64 .f32)
      = keepRows (V (Proc.devRef .tc main_v244_0)) := by
  simp only [hostOps3]
  after_results_simp
  rfl

set_option maxHeartbeats 4000000 in
set_option maxRecDepth 16384 in
/-- After the third call: the kept sum rows. -/
theorem after3_sum :
    (StableHlo.after hostOps3 V (Proc.devRef .tc main_v248) : FVec Ideal S200001x64 .f32)
      = keepRows (V (Proc.devRef .tc main_v244_1)) := by
  simp only [hostOps3]
  after_results_simp
  rfl

set_option maxHeartbeats 4000000 in
set_option maxRecDepth 16384 in
/-- Before the third call: the merged input. -/
theorem entry2_x :
    (StableHlo.after hostOps2_4 (StableHlo.after hostOps2_3 (StableHlo.after hostOps2_2 (StableHlo.after hostOps2_1 V))) (Proc.devRef .tc main_v242) : FVec Ideal S102400x128 .f32)
      = mergeRows (V (Proc.devRef .tc main_v225)) (sitofp (F := Ideal) .f32 (V (Proc.devRef .tc main_c_67) : IVec S_ 32)) := by
  simp only [hostOps2_4, hostOps2_3, hostOps2_2, hostOps2_1]
  after_results_simp
  rfl

set_option maxHeartbeats 4000000 in
set_option maxRecDepth 16384 in
/-- Before the third call: the merged running sum. -/
theorem entry2_s :
    (StableHlo.after hostOps2_4 (StableHlo.after hostOps2_3 (StableHlo.after hostOps2_2 (StableHlo.after hostOps2_1 V))) (Proc.devRef .tc main_v243) : FVec Ideal S102400x128 .f32)
      = mergeRows (V (Proc.devRef .tc main_v114)) (sitofp (F := Ideal) .f32 (constantI S_ 32 0#32)) := by
  simp only [hostOps2_4, hostOps2_3, hostOps2_2, hostOps2_1]
  after_results_simp
  rfl

set_option maxHeartbeats 4000000 in
set_option maxRecDepth 16384 in
/-- Before the third call: the weight is untouched. -/
theorem entry2_w :
    (StableHlo.after hostOps2_4 (StableHlo.after hostOps2_3 (StableHlo.after hostOps2_2 (StableHlo.after hostOps2_1 V))) (Proc.devRef .tc main_v239) : FVec Ideal S128x128 .f32)
      = V (Proc.devRef .tc main_v239) := by
  simp only [hostOps2_4, hostOps2_3, hostOps2_2, hostOps2_1]
  after_results_simp

set_option maxHeartbeats 4000000 in
set_option maxRecDepth 16384 in
/-- The second propagation's stretch builds the third call's weight from the second transposed user weight. -/
theorem after2_w :
    (StableHlo.after hostOps2 V (Proc.devRef .tc main_v239) : FVec Ideal S128x128 .f32)
      = setTwice (StableHlo.after hostOps2 V (Proc.devRef .tc main_v230)) := by
  simp only [hostOps2]
  after_results_simp
  rfl

set_option maxHeartbeats 4000000 in
set_option maxRecDepth 16384 in
/-- The second propagation's stretch does not write the first call's kept sum rows. -/
theorem after2_keep :
    (StableHlo.after hostOps2 V (Proc.devRef .tc main_v114) : FVec Ideal S200001x64 .f32) = V (Proc.devRef .tc main_v114) := by
  simp only [hostOps2]
  after_results_simp

set_option maxHeartbeats 4000000 in
set_option maxRecDepth 16384 in
/-- Nor do the operations before the second call. -/
theorem entry1_keep :
    (StableHlo.after hostOps1_4 (StableHlo.after hostOps1_3 (StableHlo.after hostOps1_2 (StableHlo.after hostOps1_1 V))) (Proc.devRef .tc main_v114) : FVec Ideal S200001x64 .f32)
      = V (Proc.devRef .tc main_v114) := by
  simp only [hostOps1_4, hostOps1_3, hostOps1_2, hostOps1_1]
  after_results_simp

end Stretches3

/-! ## The first call (users), boundary by boundary -/

/-- The kept product rows after the first call, over the call's exit contents. -/
theorem exit0_mixed : (U7 m ρ c (Proc.devRef .tc main_v112) : FVec Ideal S200001x64 .f32) = keepRows (U6 m ρ c (Proc.devRef .tc main_v110_0)) := by
  unfold U7
  exact after1_mixed _

/-- The kept sum rows after the first call, over the call's exit contents. -/
theorem exit0_sum : (U7 m ρ c (Proc.devRef .tc main_v114) : FVec Ideal S200001x64 .f32) = keepRows (U6 m ρ c (Proc.devRef .tc main_v110_1)) := by
  unfold U7
  exact after1_sum _

/-- The first call's product array over its entry contents. -/
theorem call0_mixed : (U6 m ρ c (Proc.devRef .tc main_v110_0) : FVec Ideal S102400x128 .f32)
    = rowMM (U5 m ρ c (Proc.devRef .tc main_v108)) (U5 m ρ c (Proc.devRef .tc main_v105)) := by
  unfold U6
  rw [U5_eq]
  exact (W6_arr m ρ c 3).trans (Cert.KernelIdeal.Region0.arr_mixed (V5 m ρ) c)

/-- The first call's sum array over its entry contents. -/
theorem call0_sum : (U6 m ρ c (Proc.devRef .tc main_v110_1) : FVec Ideal S102400x128 .f32)
    = addf (F := Ideal) (φ := .f32) (U5 m ρ c (Proc.devRef .tc main_v109)) (U5 m ρ c (Proc.devRef .tc main_v108)) := by
  unfold U6
  rw [U5_eq]
  exact (W6_arr m ρ c 4).trans (Cert.KernelIdeal.Region0.arr_sum (V5 m ρ) c)

/-- The first call's merged input over the first stretch's contents. -/
theorem in0_x : (U5 m ρ c (Proc.devRef .tc main_v108) : FVec Ideal S102400x128 .f32)
    = mergeRows (U1 m ρ c (Proc.devRef .tc main_v91)) (sitofp (F := Ideal) .f32 (U1 m ρ c (Proc.devRef .tc main_c_29) : IVec S_ 32)) := by
  unfold U5
  exact entry0_x _

/-- The first call's merged running sum over the first stretch's contents. -/
theorem in0_s : (U5 m ρ c (Proc.devRef .tc main_v109) : FVec Ideal S102400x128 .f32)
    = mergeRows (U1 m ρ c (Proc.devRef .tc main_v0)) (sitofp (F := Ideal) .f32 (constantI S_ 32 0#32)) := by
  unfold U5
  exact entry0_s _

/-- The first call's weight is the block-diagonal matrix of the first transposed user weight. -/
theorem in0_w : (U5 m ρ c (Proc.devRef .tc main_v105) : FVec Ideal S128x128 .f32)
    = blockDiag (U1 m ρ c (Proc.devRef .tc main_v96)) := by
  unfold U5
  rw [entry0_w]
  unfold U1
  rw [after0_w, setTwice_eq]

/-! ## The third call (users), boundary by boundary -/

/-- The kept product rows after the third call, over the call's exit contents. -/
theorem exit2_mixed : (U19 m ρ c (Proc.devRef .tc main_v246) : FVec Ideal S200001x64 .f32) = keepRows (U18 m ρ c (Proc.devRef .tc main_v244_0)) := by
  unfold U19
  exact after3_mixed _

/-- The kept sum rows after the third call, over the call's exit contents. -/
theorem exit2_sum : (U19 m ρ c (Proc.devRef .tc main_v248) : FVec Ideal S200001x64 .f32) = keepRows (U18 m ρ c (Proc.devRef .tc main_v244_1)) := by
  unfold U19
  exact after3_sum _

/-- The third call's product array over its entry contents. -/
theorem call2_mixed : (U18 m ρ c (Proc.devRef .tc main_v244_0) : FVec Ideal S102400x128 .f32)
    = rowMM (U17 m ρ c (Proc.devRef .tc main_v242)) (U17 m ρ c (Proc.devRef .tc main_v239)) := by
  unfold U18
  rw [U17_eq]
  exact (W18_arr m ρ c 3).trans (Cert.KernelIdeal.Region2.arr_mixed (V17 m ρ) c)

/-- The third call's sum array over its entry contents. -/
theorem call2_sum : (U18 m ρ c (Proc.devRef .tc main_v244_1) : FVec Ideal S102400x128 .f32)
    = addf (F := Ideal) (φ := .f32) (U17 m ρ c (Proc.devRef .tc main_v243)) (U17 m ρ c (Proc.devRef .tc main_v242)) := by
  unfold U18
  rw [U17_eq]
  exact (W18_arr m ρ c 4).trans (Cert.KernelIdeal.Region2.arr_sum (V17 m ρ) c)

/-- The third call's merged input over the second propagation's contents. -/
theorem in2_x : (U17 m ρ c (Proc.devRef .tc main_v242) : FVec Ideal S102400x128 .f32)
    = mergeRows (U13 m ρ c (Proc.devRef .tc main_v225)) (sitofp (F := Ideal) .f32 (U13 m ρ c (Proc.devRef .tc main_c_67) : IVec S_ 32)) := by
  unfold U17
  exact entry2_x _

/-- The third call's merged running sum over the second propagation's contents. -/
theorem in2_s : (U17 m ρ c (Proc.devRef .tc main_v243) : FVec Ideal S102400x128 .f32)
    = mergeRows (U13 m ρ c (Proc.devRef .tc main_v114)) (sitofp (F := Ideal) .f32 (constantI S_ 32 0#32)) := by
  unfold U17
  exact entry2_s _

/-- The third call's weight is the block-diagonal matrix of the second transposed user weight. -/
theorem in2_w : (U17 m ρ c (Proc.devRef .tc main_v239) : FVec Ideal S128x128 .f32)
    = blockDiag (U13 m ρ c (Proc.devRef .tc main_v230)) := by
  unfold U17
  rw [entry2_w]
  unfold U13
  rw [after2_w, setTwice_eq]

/-- The first call's kept sum rows are still in place when the third call's running sum is laid out: the second call
    and the host operations between do not write them. -/
theorem carry_sum : (U13 m ρ c (Proc.devRef .tc main_v114) : FVec Ideal S200001x64 .f32) = U7 m ρ c (Proc.devRef .tc main_v114) := by
  unfold U13
  rw [after2_keep]
  unfold U12
  rw [W12_of_ne m ρ c main_v114 (by decide), ← U11_eq]
  unfold U11
  exact entry1_keep _

/-- First call (users): the kept product rows are the first propagation's user rows times the first transposed user weight. -/
theorem mix0_mixed :
    (U7 m ρ c (Proc.devRef .tc main_v112) : FVec Ideal S200001x64 .f32)
      = Host.dotGeneral (F := Ideal) (φ₁ := .f32) (φ₂ := .f32) Cert.ReferenceIdeal.dot_S200001x64_S64x64_S200001x64_1_0_0_1_n_n none (U1 m ρ c (Proc.devRef .tc main_v91)) (U1 m ρ c (Proc.devRef .tc main_v96)) := by
  rw [exit0_mixed, call0_mixed, in0_x, in0_w]
  exact keep_mixed _ _ _

/-- First call (users): the kept sum rows are the zero running sum plus the first propagation's user rows. -/
theorem mix0_sum :
    (U7 m ρ c (Proc.devRef .tc main_v114) : FVec Ideal S200001x64 .f32)
      = addf (F := Ideal) (φ := .f32) (U1 m ρ c (Proc.devRef .tc main_v0)) (U1 m ρ c (Proc.devRef .tc main_v91)) := by
  rw [exit0_sum, call0_sum, in0_x, in0_s]
  exact keep_sum _ _ _ _

/-- Third call (users): the kept product rows are the second propagation's user rows times the second transposed user weight. -/
theorem mix2_mixed :
    (U19 m ρ c (Proc.devRef .tc main_v246) : FVec Ideal S200001x64 .f32)
      = Host.dotGeneral (F := Ideal) (φ₁ := .f32) (φ₂ := .f32) Cert.ReferenceIdeal.dot_S200001x64_S64x64_S200001x64_1_0_0_1_n_n none (U13 m ρ c (Proc.devRef .tc main_v225)) (U13 m ρ c (Proc.devRef .tc main_v230)) := by
  rw [exit2_mixed, call2_mixed, in2_x, in2_w]
  exact keep_mixed _ _ _

/-- Third call (users): the kept sum rows are the running sum the first call left plus the second propagation's user rows. -/
theorem mix2_sum :
    (U19 m ρ c (Proc.devRef .tc main_v248) : FVec Ideal S200001x64 .f32)
      = addf (F := Ideal) (φ := .f32) (U7 m ρ c (Proc.devRef .tc main_v114)) (U13 m ρ c (Proc.devRef .tc main_v225)) := by
  rw [exit2_sum, call2_sum, in2_x, in2_s, carry_sum]
  exact keep_sum _ _ _ _

end Cert.KernelIdeal.KMixU

end
-- ==== Proof.KMixI.lean ====
/-
  The two item-side fused calls read through the host operations around them: the rows the program keeps of a call's product output are the 64-wide rows entering the call times the transposed 64 x 64 weight, and the rows it keeps of the sum output are the running sum plus those rows. Stated between the program's own buffers at the boundaries where each is computed.
-/
import proofs.«403624_j12223476924780_3_alg».proof.Proof.KBounds
import proofs.«403624_j12223476924780_3_alg».proof.ReferenceIdeal
import proofs.«403624_j12223476924780_3_alg».proof.Proof.Gen.ReferenceIdeal
import proofs.«403624_j12223476924780_3_alg».proof.Proof.Region0
import proofs.«403624_j12223476924780_3_alg».proof.Proof.Region1
import proofs.«403624_j12223476924780_3_alg».proof.Proof.Region2
import proofs.«403624_j12223476924780_3_alg».proof.Proof.Region3
import proofs.«403624_j12223476924780_3_alg».proof.Proof.MixU
import proofs.«403624_j12223476924780_3_alg».proof.Proof.MixI
import proofs.«403624_j12223476924780_3_alg».proof.Proof.BlockDiag

noncomputable section

namespace Cert.KernelIdeal.KMixI

open Idealize.ShloMosaic Idealize.ShloMosaic.TcCoe Idealize.SL.Sem Idealize.ShloMosaic.StableHlo
open Cert.KernelIdeal Cert.KernelIdeal.Gen Cert.KernelIdeal.GenP Cert.KernelIdeal.KB

variable (m : (ℓ : Loc nD τ sig) → Buf (Elt Ideal) ℓ) (ρ : Dev nD → PrngReg) (c : Dev nD)

/-! ### The second call (items) -/

set_option maxHeartbeats 4000000 in
set_option maxRecDepth 16384 in
/-- The kept product rows are the first 100001 rows of the product array the call left, cut back into rows of 64. -/
theorem U13_v133 :
    (U13 m ρ c (Proc.devRef .tc main_v133) : FVec Ideal S100001x64 .f32)
      = extractStridedSlice S100001x64 ![0, 0]
          (shapeCast S106496x64 (U12 m ρ c (Proc.devRef .tc main_v131_0) : FVec Ideal S53248x128 .f32) shapeCasts_S53248x128_S106496x64)
          slices_S106496x64_S100001x64_0_0 := by
  unfold U13
  simp only [hostOps2]
  after_results_simp
  all_goals rfl

set_option maxHeartbeats 4000000 in
set_option maxRecDepth 16384 in
/-- The kept sum rows are the first 100001 rows of the sum array the call left, cut back into rows of 64. -/
theorem U13_v135 :
    (U13 m ρ c (Proc.devRef .tc main_v135) : FVec Ideal S100001x64 .f32)
      = extractStridedSlice S100001x64 ![0, 0]
          (shapeCast S106496x64 (U12 m ρ c (Proc.devRef .tc main_v131_1) : FVec Ideal S53248x128 .f32) shapeCasts_S53248x128_S106496x64)
          slices_S106496x64_S100001x64_0_0 := by
  unfold U13
  simp only [hostOps2]
  after_results_simp
  all_goals rfl

/-- The product array the call leaves is the row product of the merged input with the weight, both as the call finds them. -/
theorem U12_v131_0 :
    (U12 m ρ c (Proc.devRef .tc main_v131_0) : FVec Ideal S53248x128 .f32)
      = Cert.Mix.rowMM (U11 m ρ c (Proc.devRef .tc main_v129) : FVec Ideal S53248x128 .f32)
          (U11 m ρ c (Proc.devRef .tc main_v126) : FVec Ideal S128x128 .f32) := by
  unfold U12
  rw [U11_eq]
  exact (W12_arr m ρ c 3).trans (Cert.KernelIdeal.Region1.arr_mixed (V11 m ρ) c)

/-- The sum array the call leaves is the merged running sum plus the merged input, both as the call finds them. -/
theorem U12_v131_1 :
    (U12 m ρ c (Proc.devRef .tc main_v131_1) : FVec Ideal S53248x128 .f32)
      = addf (F := Ideal) (φ := .f32) (U11 m ρ c (Proc.devRef .tc main_v130) : FVec Ideal S53248x128 .f32)
          (U11 m ρ c (Proc.devRef .tc main_v129) : FVec Ideal S53248x128 .f32) := by
  unfold U12
  rw [U11_eq]
  exact (W12_arr m ρ c 4).trans (Cert.KernelIdeal.Region1.arr_sum (V11 m ρ) c)

set_option maxHeartbeats 4000000 in
set_option maxRecDepth 16384 in
/-- At the call's entry the merged input is the row-pair layout of the padded rows, whatever the pad value. -/
theorem U11_v129 : ∃ z : FVec Ideal S_ .f32,
    (U11 m ρ c (Proc.devRef .tc main_v129) : FVec Ideal S53248x128 .f32)
      = shapeCast S53248x128
          (pad S106496x64 ![0, 0] ![6495, 0] ![0, 0] (U7 m ρ c (Proc.devRef .tc main_v93) : FVec Ideal S100001x64 .f32) z
            pads_S100001x64_S106496x64_064950_000 h_S_)
          shapeCasts_S106496x64_S53248x128 := by
  refine ⟨sitofp .f32 (U7 m ρ c (Proc.devRef .tc main_c_36) : IVec S_ 32), ?_⟩
  unfold U11
  simp only [hostOps1_4, hostOps1_3, hostOps1_2, hostOps1_1]
  after_results_simp
  all_goals rfl

set_option maxHeartbeats 4000000 in
set_option maxRecDepth 16384 in
/-- At the call's entry the merged running sum is the row-pair layout of the padded running sum, whatever the pad value. -/
theorem U11_v130 : ∃ z : FVec Ideal S_ .f32,
    (U11 m ρ c (Proc.devRef .tc main_v130) : FVec Ideal S53248x128 .f32)
      = shapeCast S53248x128
          (pad S106496x64 ![0, 0] ![6495, 0] ![0, 0] (U7 m ρ c (Proc.devRef .tc main_v1) : FVec Ideal S100001x64 .f32) z
            pads_S100001x64_S106496x64_064950_000 h_S_)
          shapeCasts_S106496x64_S53248x128 := by
  refine ⟨sitofp .f32 (constantI S_ 32 0#32), ?_⟩
  unfold U11
  simp only [hostOps1_4, hostOps1_3, hostOps1_2, hostOps1_1]
  after_results_simp
  all_goals rfl

set_option maxHeartbeats 4000000 in
set_option maxRecDepth 16384 in
/-- The four short stretches before the call do not write the weight. -/
theorem U11_v126 :
    U11 m ρ c (Proc.devRef .tc main_v126) = U7 m ρ c (Proc.devRef .tc main_v126) := by
  unfold U11
  simp only [hostOps1_4, hostOps1_3, hostOps1_2, hostOps1_1]
  after_results_simp

set_option maxHeartbeats 4000000 in
set_option maxRecDepth 16384 in
/-- The weight the call finds is the block-diagonal matrix of the transposed 64 x 64 weight. -/
theorem U7_v126 :
    (U7 m ρ c (Proc.devRef .tc main_v126) : FVec Ideal S128x128 .f32)
      = Cert.Mix.blockDiag (U7 m ρ c (Proc.devRef .tc main_v117) : FVec Ideal S64x64 .f32) := by
  refine Eq.trans ?_ (Cert.Mix.blockDiag_of_scatters _)
  unfold U7
  simp only [hostOps1]
  after_results_simp
  all_goals rfl

set_option maxHeartbeats 4000000 in
set_option maxRecDepth 16384 in
/-- The rows entering the call are not written between the stretch that computes them and the call's entry: not by the four short stretches
    before the previous call, not by that call, not by the stretch after it. -/
theorem U7_v93 :
    U7 m ρ c (Proc.devRef .tc main_v93) = U1 m ρ c (Proc.devRef .tc main_v93) := by
  have h1 : U7 m ρ c (Proc.devRef .tc main_v93) = U6 m ρ c (Proc.devRef .tc main_v93) := by
    unfold U7
    simp only [hostOps1]
    after_results_simp
  have h2 : U6 m ρ c (Proc.devRef .tc main_v93) = U5 m ρ c (Proc.devRef .tc main_v93) := by
    unfold U6
    rw [U5_eq]
    exact W6_of_ne m ρ c main_v93 (by decide)
  have h3 : U5 m ρ c (Proc.devRef .tc main_v93) = U1 m ρ c (Proc.devRef .tc main_v93) := by
    unfold U5
    simp only [hostOps0_4, hostOps0_3, hostOps0_2, hostOps0_1]
    after_results_simp
  exact h1.trans (h2.trans h3)

set_option maxHeartbeats 4000000 in
set_option maxRecDepth 16384 in
/-- The running sum entering the call are not written between the stretch that computes them and the call's entry: not by the four short stretches
    before the previous call, not by that call, not by the stretch after it. -/
theorem U7_v1 :
    U7 m ρ c (Proc.devRef .tc main_v1) = U1 m ρ c (Proc.devRef .tc main_v1) := by
  have h1 : U7 m ρ c (Proc.devRef .tc main_v1) = U6 m ρ c (Proc.devRef .tc main_v1) := by
    unfold U7
    simp only [hostOps1]
    after_results_simp
  have h2 : U6 m ρ c (Proc.devRef .tc main_v1) = U5 m ρ c (Proc.devRef .tc main_v1) := by
    unfold U6
    rw [U5_eq]
    exact W6_of_ne m ρ c main_v1 (by decide)
  have h3 : U5 m ρ c (Proc.devRef .tc main_v1) = U1 m ρ c (Proc.devRef .tc main_v1) := by
    unfold U5
    simp only [hostOps0_4, hostOps0_3, hostOps0_2, hostOps0_1]
    after_results_simp
  exact h1.trans (h2.trans h3)

/-! ### The fourth call (items) -/

set_option maxHeartbeats 4000000 in
set_option maxRecDepth 16384 in
/-- The kept product rows are the first 100001 rows of the product array the call left, cut back into rows of 64. -/
theorem U25_v267 :
    (U25 m ρ c (Proc.devRef .tc main_v267) : FVec Ideal S100001x64 .f32)
      = extractStridedSlice S100001x64 ![0, 0]
          (shapeCast S106496x64 (U24 m ρ c (Proc.devRef .tc main_v265_0) : FVec Ideal S53248x128 .f32) shapeCasts_S53248x128_S106496x64)
          slices_S106496x64_S100001x64_0_0 := by
  unfold U25
  simp only [hostOps4]
  after_results_simp
  all_goals rfl

set_option maxHeartbeats 4000000 in
set_option maxRecDepth 16384 in
/-- The kept sum rows are the first 100001 rows of the sum array the call left, cut back into rows of 64. -/
theorem U25_v269 :
    (U25 m ρ c (Proc.devRef .tc main_v269) : FVec Ideal S100001x64 .f32)
      = extractStridedSlice S100001x64 ![0, 0]
          (shapeCast S106496x64 (U24 m ρ c (Proc.devRef .tc main_v265_1) : FVec Ideal S53248x128 .f32) shapeCasts_S53248x128_S106496x64)
          slices_S106496x64_S100001x64_0_0 := by
  unfold U25
  simp only [hostOps4]
  after_results_simp
  all_goals rfl

/-- The product array the call leaves is the row product of the merged input with the weight, both as the call finds them. -/
theorem U24_v265_0 :
    (U24 m ρ c (Proc.devRef .tc main_v265_0) : FVec Ideal S53248x128 .f32)
      = Cert.Mix.rowMM (U23 m ρ c (Proc.devRef .tc main_v263) : FVec Ideal S53248x128 .f32)
          (U23 m ρ c (Proc.devRef .tc main_v260) : FVec Ideal S128x128 .f32) := by
  unfold U24
  rw [U23_eq]
  exact (W24_arr m ρ c 3).trans (Cert.KernelIdeal.Region3.arr_mixed (V23 m ρ) c)

/-- The sum array the call leaves is the merged running sum plus the merged input, both as the call finds them. -/
theorem U24_v265_1 :
    (U24 m ρ c (Proc.devRef .tc main_v265_1) : FVec Ideal S53248x128 .f32)
      = addf (F := Ideal) (φ := .f32) (U23 m ρ c (Proc.devRef .tc main_v264) : FVec Ideal S53248x128 .f32)
          (U23 m ρ c (Proc.devRef .tc main_v263) : FVec Ideal S53248x128 .f32) := by
  unfold U24
  rw [U23_eq]
  exact (W24_arr m ρ c 4).trans (Cert.KernelIdeal.Region3.arr_sum (V23 m ρ) c)

set_option maxHeartbeats 4000000 in
set_option maxRecDepth 16384 in
/-- At the call's entry the merged input is the row-pair layout of the padded rows, whatever the pad value. -/
theorem U23_v263 : ∃ z : FVec Ideal S_ .f32,
    (U23 m ρ c (Proc.devRef .tc main_v263) : FVec Ideal S53248x128 .f32)
      = shapeCast S53248x128
          (pad S106496x64 ![0, 0] ![6495, 0] ![0, 0] (U19 m ρ c (Proc.devRef .tc main_v227) : FVec Ideal S100001x64 .f32) z
            pads_S100001x64_S106496x64_064950_000 h_S_)
          shapeCasts_S106496x64_S53248x128 := by
  refine ⟨sitofp .f32 (U19 m ρ c (Proc.devRef .tc main_c_74) : IVec S_ 32), ?_⟩
  unfold U23
  simp only [hostOps3_4, hostOps3_3, hostOps3_2, hostOps3_1]
  after_results_simp
  all_goals rfl

set_option maxHeartbeats 4000000 in
set_option maxRecDepth 16384 in
/-- At the call's entry the merged running sum is the row-pair layout of the padded running sum, whatever the pad value. -/
theorem U23_v264 : ∃ z : FVec Ideal S_ .f32,
    (U23 m ρ c (Proc.devRef .tc main_v264) : FVec Ideal S53248x128 .f32)
      = shapeCast S53248x128
          (pad S106496x64 ![0, 0] ![6495, 0] ![0, 0] (U19 m ρ c (Proc.devRef .tc main_v135) : FVec Ideal S100001x64 .f32) z
            pads_S100001x64_S106496x64_064950_000 h_S_)
          shapeCasts_S106496x64_S53248x128 := by
  refine ⟨sitofp .f32 (constantI S_ 32 0#32), ?_⟩
  unfold U23
  simp only [hostOps3_4, hostOps3_3, hostOps3_2, hostOps3_1]
  after_results_simp
  all_goals rfl

set_option maxHeartbeats 4000000 in
set_option maxRecDepth 16384 in
/-- The four short stretches before the call do not write the weight. -/
theorem U23_v260 :
    U23 m ρ c (Proc.devRef .tc main_v260) = U19 m ρ c (Proc.devRef .tc main_v260) := by
  unfold U23
  simp only [hostOps3_4, hostOps3_3, hostOps3_2, hostOps3_1]
  after_results_simp

set_option maxHeartbeats 4000000 in
set_option maxRecDepth 16384 in
/-- The weight the call finds is the block-diagonal matrix of the transposed 64 x 64 weight. -/
theorem U19_v260 :
    (U19 m ρ c (Proc.devRef .tc main_v260) : FVec Ideal S128x128 .f32)
      = Cert.Mix.blockDiag (U19 m ρ c (Proc.devRef .tc main_v251) : FVec Ideal S64x64 .f32) := by
  refine Eq.trans ?_ (Cert.Mix.blockDiag_of_scatters _)
  unfold U19
  simp only [hostOps3]
  after_results_simp
  all_goals rfl

set_option maxHeartbeats 4000000 in
set_option maxRecDepth 16384 in
/-- The rows entering the call are not written between the stretch that computes them and the call's entry: not by the four short stretches
    before the previous call, not by that call, not by the stretch after it. -/
theorem U19_v227 :
    U19 m ρ c (Proc.devRef .tc main_v227) = U13 m ρ c (Proc.devRef .tc main_v227) := by
  have h1 : U19 m ρ c (Proc.devRef .tc main_v227) = U18 m ρ c (Proc.devRef .tc main_v227) := by
    unfold U19
    simp only [hostOps3]
    after_results_simp
  have h2 : U18 m ρ c (Proc.devRef .tc main_v227) = U17 m ρ c (Proc.devRef .tc main_v227) := by
    unfold U18
    rw [U17_eq]
    exact W18_of_ne m ρ c main_v227 (by decide)
  have h3 : U17 m ρ c (Proc.devRef .tc main_v227) = U13 m ρ c (Proc.devRef .tc main_v227) := by
    unfold U17
    simp only [hostOps2_4, hostOps2_3, hostOps2_2, hostOps2_1]
    after_results_simp
  exact h1.trans (h2.trans h3)

set_option maxHeartbeats 4000000 in
set_option maxRecDepth 16384 in
/-- The running sum entering the call are not written between the stretch that computes them and the call's entry: not by the four short stretches
    before the previous call, not by that call, not by the stretch after it. -/
theorem U19_v135 :
    U19 m ρ c (Proc.devRef .tc main_v135) = U13 m ρ c (Proc.devRef .tc main_v135) := by
  have h1 : U19 m ρ c (Proc.devRef .tc main_v135) = U18 m ρ c (Proc.devRef .tc main_v135) := by
    unfold U19
    simp only [hostOps3]
    after_results_simp
  have h2 : U18 m ρ c (Proc.devRef .tc main_v135) = U17 m ρ c (Proc.devRef .tc main_v135) := by
    unfold U18
    rw [U17_eq]
    exact W18_of_ne m ρ c main_v135 (by decide)
  have h3 : U17 m ρ c (Proc.devRef .tc main_v135) = U13 m ρ c (Proc.devRef .tc main_v135) := by
    unfold U17
    simp only [hostOps2_4, hostOps2_3, hostOps2_2, hostOps2_1]
    after_results_simp
  exact h1.trans (h2.trans h3)

/-! ### The four statements -/

/-- Second call (items): the kept product rows are the first propagation's item rows times the first transposed item weight. -/
theorem mix1_mixed :
    (U13 m ρ c (Proc.devRef .tc main_v133) : FVec Ideal S100001x64 .f32)
      = Host.dotGeneral (F := Ideal) (φ₁ := .f32) (φ₂ := .f32) Cert.ReferenceIdeal.dot_S100001x64_S64x64_S100001x64_1_0_0_1_n_n none (U1 m ρ c (Proc.devRef .tc main_v93)) (U7 m ρ c (Proc.devRef .tc main_v117)) := by
  obtain ⟨z, hx⟩ := U11_v129 m ρ c
  rw [U13_v133, U12_v131_0, hx, U11_v126, U7_v126, U7_v93]
  exact Cert.Mix.I.mixed_eq _ _ z

/-- Second call (items): the kept sum rows are the zero running sum plus the first propagation's item rows. -/
theorem mix1_sum :
    (U13 m ρ c (Proc.devRef .tc main_v135) : FVec Ideal S100001x64 .f32)
      = addf (F := Ideal) (φ := .f32) (U1 m ρ c (Proc.devRef .tc main_v1)) (U1 m ρ c (Proc.devRef .tc main_v93)) := by
  obtain ⟨z, hx⟩ := U11_v129 m ρ c
  obtain ⟨z', hs⟩ := U11_v130 m ρ c
  rw [U13_v135, U12_v131_1, hs, hx, U7_v93, U7_v1]
  exact Cert.Mix.I.sum_eq _ _ z z'

/-- Fourth call (items): the kept product rows are the second propagation's item rows times the second transposed item weight. -/
theorem mix3_mixed :
    (U25 m ρ c (Proc.devRef .tc main_v267) : FVec Ideal S100001x64 .f32)
      = Host.dotGeneral (F := Ideal) (φ₁ := .f32) (φ₂ := .f32) Cert.ReferenceIdeal.dot_S100001x64_S64x64_S100001x64_1_0_0_1_n_n none (U13 m ρ c (Proc.devRef .tc main_v227)) (U19 m ρ c (Proc.devRef .tc main_v251)) := by
  obtain ⟨z, hx⟩ := U23_v263 m ρ c
  rw [U25_v267, U24_v265_0, hx, U23_v260, U19_v260, U19_v227]
  exact Cert.Mix.I.mixed_eq _ _ z

/-- Fourth call (items): the kept sum rows are the running sum the second call left plus the second propagation's item rows. -/
theorem mix3_sum :
    (U25 m ρ c (Proc.devRef .tc main_v269) : FVec Ideal S100001x64 .f32)
      = addf (F := Ideal) (φ := .f32) (U13 m ρ c (Proc.devRef .tc main_v135)) (U13 m ρ c (Proc.devRef .tc main_v227)) := by
  obtain ⟨z, hx⟩ := U23_v263 m ρ c
  obtain ⟨z', hs⟩ := U23_v264 m ρ c
  rw [U25_v269, U24_v265_1, hs, hx, U19_v227, U19_v135]
  exact Cert.Mix.I.sum_eq _ _ z z'

end Cert.KernelIdeal.KMixI

end
-- ==== Proof.Bridge1.lean ====
/-
  The rows the first two fused calls leave, and the second propagation from them. On the reference's side the kept rows are the two plain products stored users over items; on the kernel's side they are what the calls' outputs are cut back to, which the layout algebra shows to be the same products. The propagation itself is then the first one's argument again: the reference's slices pushed through its sums, its quotient and its concatenations.
-/
import proofs.«403624_j12223476924780_3_alg».proof.Proof.Bridge0
import proofs.«403624_j12223476924780_3_alg».proof.Proof.KKeep
import proofs.«403624_j12223476924780_3_alg».proof.Proof.KMixU
import proofs.«403624_j12223476924780_3_alg».proof.Proof.KMixI

set_option maxRecDepth 16384

noncomputable section

namespace Cert.Bridge

open Idealize.ShloMosaic Idealize.ShloMosaic.TcCoe Idealize.SL.Sem Idealize.ShloMosaic.StableHlo
open Cert.KernelIdeal.KB

variable {m : (ℓ : Loc Cert.KernelIdeal.nD Cert.KernelIdeal.τ Cert.KernelIdeal.sig) → Buf (Elt Ideal) ℓ}
  {ρ : Dev Cert.KernelIdeal.nD → PrngReg} {c : Dev Cert.KernelIdeal.nD}
variable {V' : Valuation Cert.ReferenceIdeal.τ Cert.ReferenceIdeal.sig (Elt Ideal)}

set_option maxHeartbeats 4000000 in
/-- The kernel's transposed first item weight is the reference's. -/
theorem b1_wtI (hA : Agree m ρ c V') :
    (U7 m ρ c (Proc.devRef .tc Cert.KernelIdeal.main_v117) : FVec Ideal Cert.ReferenceIdeal.S64x64 .f32) = rWtI0 V' := by
  unfold U7
  simp only [Cert.KernelIdeal.Gen.hostOps1]
  after_results_simp
  rw [keep6_arg4 m ρ c]
  simp only [rWtI0, hA.a4]
  rfl

/-- First call: the kept product rows are the reference's first user product. -/
theorem m0_mixed (hA : Agree m ρ c V') :
    (U7 m ρ c (Proc.devRef .tc Cert.KernelIdeal.main_v112) : FVec Ideal Cert.ReferenceIdeal.S200001x64 .f32) = Host.dotGeneral (F := Ideal) (φ₁ := .f32) (φ₂ := .f32) Cert.ReferenceIdeal.dot_S200001x64_S64x64_S200001x64_1_0_0_1_n_n none (Cert.ReferenceIdeal.Value.res_main_v97 V') (rWtU0 V') := by
  rw [Cert.KernelIdeal.KMixU.mix0_mixed m ρ c, b0_u hA, b0_wtU hA]

/-- First call: the kept sum rows are the reference's first user running sum. -/
theorem m0_sum (hA : Agree m ρ c V') :
    (U7 m ρ c (Proc.devRef .tc Cert.KernelIdeal.main_v114) : FVec Ideal Cert.ReferenceIdeal.S200001x64 .f32) = addf (F := Ideal) (φ := .f32) rZeroU (Cert.ReferenceIdeal.Value.res_main_v97 V') := by
  rw [Cert.KernelIdeal.KMixU.mix0_sum m ρ c, b0_zU, b0_u hA]

/-- Second call: the kept product rows are the reference's first item product. -/
theorem m1_mixed (hA : Agree m ρ c V') :
    (U13 m ρ c (Proc.devRef .tc Cert.KernelIdeal.main_v133) : FVec Ideal Cert.ReferenceIdeal.S100001x64 .f32) = Host.dotGeneral (F := Ideal) (φ₁ := .f32) (φ₂ := .f32) Cert.ReferenceIdeal.dot_S100001x64_S64x64_S100001x64_1_0_0_1_n_n none (Cert.ReferenceIdeal.Value.res_main_v98 V') (rWtI0 V') := by
  rw [Cert.KernelIdeal.KMixI.mix1_mixed m ρ c, b0_i hA, b1_wtI hA]

/-- Second call: the kept sum rows are the reference's first item running sum. -/
theorem m1_sum (hA : Agree m ρ c V') :
    (U13 m ρ c (Proc.devRef .tc Cert.KernelIdeal.main_v135) : FVec Ideal Cert.ReferenceIdeal.S100001x64 .f32) = addf (F := Ideal) (φ := .f32) rZeroI (Cert.ReferenceIdeal.Value.res_main_v98 V') := by
  rw [Cert.KernelIdeal.KMixI.mix1_sum m ρ c, b0_zI, b0_i hA]

set_option maxHeartbeats 16000000 in
/-- The user half of the second propagation. -/
theorem b1_u (hA : Agree m ρ c V') :
    (U13 m ρ c (Proc.devRef .tc Cert.KernelIdeal.main_v225) : FVec Ideal Cert.ReferenceIdeal.S200001x64 .f32) = Cert.ReferenceIdeal.Value.res_main_v204 V' := by
  have T := m1_mixed hA
  unfold U13 at T ⊢
  simp only [Cert.KernelIdeal.Gen.hostOps2] at T ⊢
  after_results_simp_at T
  after_results_simp
  simp only [T]
  rw [keep12_v112 m ρ c, m0_mixed hA, keep12_arg5 m ρ c, keep12_arg6 m ρ c]
  simp only [Cert.ReferenceIdeal.Value.res_main_v204, Cert.ReferenceIdeal.Value.res_main_v203, Cert.ReferenceIdeal.Value.res_main_v170,
    Cert.ReferenceIdeal.Value.res_main_v141, Cert.ReferenceIdeal.Value.res_main_v113, Cert.ReferenceIdeal.Value.res_main_v111,
    Cert.ReferenceIdeal.Value.res_main_v109]
  simp only [extractStridedSlice_hostDivf, extractStridedSlice_addf, sliceU_cat, sliceI_cat]
  first | rw [sliceU_bcast] | rw [sliceI_bcast]
  simp only [hA.a5, hA.a6, rWtU0, rWtI0]
  simp only [scatter_S200001_S1000000x1_S1000000_n_0_0_1_eq, scatter_S100001_S1000000x1_S1000000_n_0_0_1_eq,
    gather_S200001_S1000000x1_S1000000_n_0_n_n_0_1_1_eq, gather_S100001_S1000000x1_S1000000_n_0_n_n_0_1_1_eq,
    gather_S100001x64_S1000000x1_S1000000x64_1_0_n_n_0_1_164_eq, scatter_S200001x64_S1000000x1_S1000000x64_1_0_0_1_eq,
    gather_S200001x64_S1000000x1_S1000000x64_1_0_n_n_0_1_164_eq, scatter_S100001x64_S1000000x1_S1000000x64_1_0_0_1_eq]
  rfl

set_option maxHeartbeats 16000000 in
/-- The item half of the second propagation. -/
theorem b1_i (hA : Agree m ρ c V') :
    (U13 m ρ c (Proc.devRef .tc Cert.KernelIdeal.main_v227) : FVec Ideal Cert.ReferenceIdeal.S100001x64 .f32) = Cert.ReferenceIdeal.Value.res_main_v205 V' := by
  have T := m1_mixed hA
  unfold U13 at T ⊢
  simp only [Cert.KernelIdeal.Gen.hostOps2] at T ⊢
  after_results_simp_at T
  after_results_simp
  simp only [T]
  rw [keep12_v112 m ρ c, m0_mixed hA, keep12_arg5 m ρ c, keep12_arg6 m ρ c]
  simp only [Cert.ReferenceIdeal.Value.res_main_v205, Cert.ReferenceIdeal.Value.res_main_v203, Cert.ReferenceIdeal.Value.res_main_v170,
    Cert.ReferenceIdeal.Value.res_main_v141, Cert.ReferenceIdeal.Value.res_main_v113, Cert.ReferenceIdeal.Value.res_main_v111,
    Cert.ReferenceIdeal.Value.res_main_v109]
  simp only [extractStridedSlice_hostDivf, extractStridedSlice_addf, sliceU_cat, sliceI_cat]
  first | rw [sliceU_bcast] | rw [sliceI_bcast]
  simp only [hA.a5, hA.a6, rWtU0, rWtI0]
  simp only [scatter_S200001_S1000000x1_S1000000_n_0_0_1_eq, scatter_S100001_S1000000x1_S1000000_n_0_0_1_eq,
    gather_S200001_S1000000x1_S1000000_n_0_n_n_0_1_1_eq, gather_S100001_S1000000x1_S1000000_n_0_n_n_0_1_1_eq,
    gather_S100001x64_S1000000x1_S1000000x64_1_0_n_n_0_1_164_eq, scatter_S200001x64_S1000000x1_S1000000x64_1_0_0_1_eq,
    gather_S200001x64_S1000000x1_S1000000x64_1_0_n_n_0_1_164_eq, scatter_S100001x64_S1000000x1_S1000000x64_1_0_0_1_eq]
  rfl

set_option maxHeartbeats 4000000 in
/-- The kernel's transposed second user weight is the reference's. -/
theorem b1_wtU (hA : Agree m ρ c V') :
    (U13 m ρ c (Proc.devRef .tc Cert.KernelIdeal.main_v230) : FVec Ideal Cert.ReferenceIdeal.S64x64 .f32) = rWtU1 V' := by
  unfold U13
  simp only [Cert.KernelIdeal.Gen.hostOps2]
  after_results_simp
  rw [keep12_arg3 m ρ c]
  simp only [rWtU1, hA.a3]
  rfl

end Cert.Bridge

end
-- ==== Proof.Bridge2.lean ====
/-
  The rows the last two fused calls leave: the reference's second products and its running sums after two behaviours.
-/
import proofs.«403624_j12223476924780_3_alg».proof.Proof.Bridge1

set_option maxRecDepth 16384

noncomputable section

namespace Cert.Bridge

open Idealize.ShloMosaic Idealize.ShloMosaic.TcCoe Idealize.SL.Sem Idealize.ShloMosaic.StableHlo
open Cert.KernelIdeal.KB

variable {m : (ℓ : Loc Cert.KernelIdeal.nD Cert.KernelIdeal.τ Cert.KernelIdeal.sig) → Buf (Elt Ideal) ℓ}
  {ρ : Dev Cert.KernelIdeal.nD → PrngReg} {c : Dev Cert.KernelIdeal.nD}
variable {V' : Valuation Cert.ReferenceIdeal.τ Cert.ReferenceIdeal.sig (Elt Ideal)}

set_option maxHeartbeats 4000000 in
/-- The kernel's transposed second item weight is the reference's. -/
theorem b2_wtI (hA : Agree m ρ c V') :
    (U19 m ρ c (Proc.devRef .tc Cert.KernelIdeal.main_v251) : FVec Ideal Cert.ReferenceIdeal.S64x64 .f32) = rWtI1 V' := by
  unfold U19
  simp only [Cert.KernelIdeal.Gen.hostOps3]
  after_results_simp
  rw [Cert.KernelIdeal.KB.keep18_arg4 m ρ c]
  simp only [rWtI1, hA.a4]
  rfl

/-- Third call: the kept product rows are the reference's second user product. -/
theorem m2_mixed (hA : Agree m ρ c V') :
    (U19 m ρ c (Proc.devRef .tc Cert.KernelIdeal.main_v246) : FVec Ideal Cert.ReferenceIdeal.S200001x64 .f32) = Host.dotGeneral (F := Ideal) (φ₁ := .f32) (φ₂ := .f32) Cert.ReferenceIdeal.dot_S200001x64_S64x64_S200001x64_1_0_0_1_n_n none (Cert.ReferenceIdeal.Value.res_main_v204 V') (rWtU1 V') := by
  rw [Cert.KernelIdeal.KMixU.mix2_mixed m ρ c, b1_u hA, b1_wtU hA]

/-- Third call: the kept sum rows are the reference's user running sum after two behaviours. -/
theorem m2_sum (hA : Agree m ρ c V') :
    (U19 m ρ c (Proc.devRef .tc Cert.KernelIdeal.main_v248) : FVec Ideal Cert.ReferenceIdeal.S200001x64 .f32) = addf (F := Ideal) (φ := .f32) (addf (F := Ideal) (φ := .f32) rZeroU (Cert.ReferenceIdeal.Value.res_main_v97 V')) (Cert.ReferenceIdeal.Value.res_main_v204 V') := by
  rw [Cert.KernelIdeal.KMixU.mix2_sum m ρ c, m0_sum hA, b1_u hA]

/-- Fourth call: the kept product rows are the reference's second item product. -/
theorem m3_mixed (hA : Agree m ρ c V') :
    (U25 m ρ c (Proc.devRef .tc Cert.KernelIdeal.main_v267) : FVec Ideal Cert.ReferenceIdeal.S100001x64 .f32) = Host.dotGeneral (F := Ideal) (φ₁ := .f32) (φ₂ := .f32) Cert.ReferenceIdeal.dot_S100001x64_S64x64_S100001x64_1_0_0_1_n_n none (Cert.ReferenceIdeal.Value.res_main_v205 V') (rWtI1 V') := by
  rw [Cert.KernelIdeal.KMixI.mix3_mixed m ρ c, b1_i hA, b2_wtI hA]

/-- Fourth call: the kept sum rows are the reference's item running sum after two behaviours. -/
theorem m3_sum (hA : Agree m ρ c V') :
    (U25 m ρ c (Proc.devRef .tc Cert.KernelIdeal.main_v269) : FVec Ideal Cert.ReferenceIdeal.S100001x64 .f32) = addf (F := Ideal) (φ := .f32) (addf (F := Ideal) (φ := .f32) rZeroI (Cert.ReferenceIdeal.Value.res_main_v98 V')) (Cert.ReferenceIdeal.Value.res_main_v205 V') := by
  rw [Cert.KernelIdeal.KMixI.mix3_sum m ρ c, m1_sum hA, b1_i hA]

end Cert.Bridge

end
-- ==== Proof.BridgeLoss.lean ====
/-
  The third propagation, the two running sums after three behaviours, and the loss read from them: the same gathers, products, row sums and the same logistic loss on both sides, over running sums that are the reference's.
-/
import proofs.«403624_j12223476924780_3_alg».proof.Proof.Bridge2

set_option maxRecDepth 16384

noncomputable section

namespace Cert.Bridge

open Idealize.ShloMosaic Idealize.ShloMosaic.TcCoe Idealize.SL.Sem Idealize.ShloMosaic.StableHlo
open Cert.KernelIdeal.KB

variable {m : (ℓ : Loc Cert.KernelIdeal.nD Cert.KernelIdeal.τ Cert.KernelIdeal.sig) → Buf (Elt Ideal) ℓ}
  {ρ : Dev Cert.KernelIdeal.nD → PrngReg} {c : Dev Cert.KernelIdeal.nD}
variable {V' : Valuation Cert.ReferenceIdeal.τ Cert.ReferenceIdeal.sig (Elt Ideal)}

set_option maxHeartbeats 16000000 in
/-- The user running sum after the third propagation. -/
theorem b2_u (hA : Agree m ρ c V') :
    (U25 m ρ c (Proc.devRef .tc Cert.KernelIdeal.main_v362) : FVec Ideal Cert.ReferenceIdeal.S200001x64 .f32) = Cert.ReferenceIdeal.Value.res_main_v313 V' := by
  have T := m3_mixed hA
  unfold U25 at T
  simp only [Cert.KernelIdeal.Gen.hostOps4] at T
  after_results_simp_at T
  unfold U25
  simp only [Cert.KernelIdeal.Gen.hostOps4]
  after_results_simp
  simp only [T]
  simp only [keep24_v246 m ρ c, keep24_v248 m ρ c, keep24_arg5 m ρ c, keep24_arg6 m ρ c, m2_mixed hA, m2_sum hA]
  simp only [Cert.ReferenceIdeal.Value.res_main_v313, Cert.ReferenceIdeal.Value.res_main_v310, Cert.ReferenceIdeal.Value.res_main_v277, Cert.ReferenceIdeal.Value.res_main_v248,
    Cert.ReferenceIdeal.Value.res_main_v220, Cert.ReferenceIdeal.Value.res_main_v218, Cert.ReferenceIdeal.Value.res_main_v216, rWtU1, rWtI1, rZeroU, rZeroI]
  simp only [extractStridedSlice_hostDivf, extractStridedSlice_addf, sliceU_cat, sliceI_cat]
  first | rw [sliceU_bcast] | rw [sliceI_bcast]
  simp only [hA.a3, hA.a4, hA.a5, hA.a6]
  simp only [scatter_S200001_S1000000x1_S1000000_n_0_0_1_eq, scatter_S100001_S1000000x1_S1000000_n_0_0_1_eq,
    gather_S200001_S1000000x1_S1000000_n_0_n_n_0_1_1_eq, gather_S100001_S1000000x1_S1000000_n_0_n_n_0_1_1_eq,
    gather_S100001x64_S1000000x1_S1000000x64_1_0_n_n_0_1_164_eq, scatter_S200001x64_S1000000x1_S1000000x64_1_0_0_1_eq,
    gather_S200001x64_S1000000x1_S1000000x64_1_0_n_n_0_1_164_eq, scatter_S100001x64_S1000000x1_S1000000x64_1_0_0_1_eq]
  rfl

set_option maxHeartbeats 16000000 in
/-- The item running sum after the third propagation. -/
theorem b2_i (hA : Agree m ρ c V') :
    (U25 m ρ c (Proc.devRef .tc Cert.KernelIdeal.main_v363) : FVec Ideal Cert.ReferenceIdeal.S100001x64 .f32) = Cert.ReferenceIdeal.Value.res_main_v314 V' := by
  have T := m3_mixed hA
  unfold U25 at T
  simp only [Cert.KernelIdeal.Gen.hostOps4] at T
  after_results_simp_at T
  have T2 := m3_sum hA
  unfold U25 at T2
  simp only [Cert.KernelIdeal.Gen.hostOps4] at T2
  after_results_simp_at T2
  unfold U25
  simp only [Cert.KernelIdeal.Gen.hostOps4]
  after_results_simp
  simp only [T, T2]
  simp only [keep24_v246 m ρ c, keep24_v248 m ρ c, keep24_arg5 m ρ c, keep24_arg6 m ρ c, m2_mixed hA, m2_sum hA]
  simp only [Cert.ReferenceIdeal.Value.res_main_v314, Cert.ReferenceIdeal.Value.res_main_v310, Cert.ReferenceIdeal.Value.res_main_v277, Cert.ReferenceIdeal.Value.res_main_v248,
    Cert.ReferenceIdeal.Value.res_main_v220, Cert.ReferenceIdeal.Value.res_main_v218, Cert.ReferenceIdeal.Value.res_main_v216, rWtU1, rWtI1, rZeroU, rZeroI]
  simp only [extractStridedSlice_hostDivf, extractStridedSlice_addf, sliceU_cat, sliceI_cat]
  first | rw [sliceU_bcast] | rw [sliceI_bcast]
  simp only [hA.a3, hA.a4, hA.a5, hA.a6]
  simp only [scatter_S200001_S1000000x1_S1000000_n_0_0_1_eq, scatter_S100001_S1000000x1_S1000000_n_0_0_1_eq,
    gather_S200001_S1000000x1_S1000000_n_0_n_n_0_1_1_eq, gather_S100001_S1000000x1_S1000000_n_0_n_n_0_1_1_eq,
    gather_S100001x64_S1000000x1_S1000000x64_1_0_n_n_0_1_164_eq, scatter_S200001x64_S1000000x1_S1000000x64_1_0_0_1_eq,
    gather_S200001x64_S1000000x1_S1000000x64_1_0_n_n_0_1_164_eq, scatter_S100001x64_S1000000x1_S1000000x64_1_0_0_1_eq]
  rfl

set_option maxHeartbeats 32000000 in
/-- The kernel's result is the reference's: the reference's last window at its result buffer. -/
theorem final_val (hA : Agree m ρ c V') :
    U25 m ρ c (Proc.devRef .tc Cert.KernelIdeal.main_v423) = Cert.ReferenceIdeal.Value.val8 V' (Proc.devRef .tc Cert.ReferenceIdeal.main_v374) := by
  have Tu := b2_u hA
  unfold U25 at Tu
  simp only [Cert.KernelIdeal.Gen.hostOps4] at Tu
  after_results_simp_at Tu
  have Ti := b2_i hA
  unfold U25 at Ti
  simp only [Cert.KernelIdeal.Gen.hostOps4] at Ti
  after_results_simp_at Ti
  unfold U25
  simp only [Cert.KernelIdeal.Gen.hostOps4]
  after_results_simp
  simp only [Tu, Ti]
  simp only [keep24_arg0 m ρ c]
  first | rw [Cert.ReferenceIdeal.Value.val8_main_v374] | simp only [Cert.ReferenceIdeal.Value.val8_main_v374]
  simp only [Cert.ReferenceIdeal.Value.res_main_v320, Cert.ReferenceIdeal.Value.res_main_v322, Cert.ReferenceIdeal.Value.res_main_v324, Cert.ReferenceIdeal.Value.res_main_v326,
    Cert.ReferenceIdeal.Value.res_main_v316, Cert.ReferenceIdeal.Value.res_main_v318, hA.a0]
  simp only [gather_S200001x64_S8192x1_S8192x64_1_0_n_n_0_1_164_eq, gather_S100001x64_S8192x1_S8192x64_1_0_n_n_0_1_164_eq,
    gather_S200001x64_S32768x1_S32768x64_1_0_n_n_0_1_164_eq, gather_S100001x64_S32768x1_S32768x64_1_0_n_n_0_1_164_eq]
  rfl

end Cert.Bridge

end
-- ==== Proof.BridgeFinal.lean ====
/-
  The last step: from memories that agree on the seven arguments, the reference's result term is the kernel's last
  boundary contents at its result buffer.
-/
import proofs.«403624_j12223476924780_3_alg».proof.Proof.BridgeLoss

noncomputable section

namespace Cert.Bridge

open Idealize.ShloMosaic Idealize.ShloMosaic.TcCoe Idealize.SL.Sem Idealize.ShloMosaic.StableHlo
open Cert.KernelIdeal.KB

/-- Memories that agree on the arguments give launch contents that agree on them. -/
theorem agree_of (m : (ℓ : Loc Cert.KernelIdeal.nD Cert.KernelIdeal.τ Cert.KernelIdeal.sig) → Buf (Elt Ideal) ℓ) (ρ : Dev Cert.KernelIdeal.nD → PrngReg) (c : Dev Cert.KernelIdeal.nD)
    (m' : (ℓ : Loc Cert.ReferenceIdeal.nD Cert.ReferenceIdeal.τ Cert.ReferenceIdeal.sig) → Buf (Elt Ideal) ℓ)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Agree m ρ c (launchContents m' c) :=
  ⟨h.1, h.2.1, h.2.2.1, h.2.2.2.1, h.2.2.2.2.1, h.2.2.2.2.2.1, h.2.2.2.2.2.2⟩

/-- Whatever term the reference's last window has at its result buffer is the kernel's last boundary contents at its
    result buffer. -/
theorem final_eq (m : (ℓ : Loc Cert.KernelIdeal.nD Cert.KernelIdeal.τ Cert.KernelIdeal.sig) → Buf (Elt Ideal) ℓ) (ρ : Dev Cert.KernelIdeal.nD → PrngReg) (c : Dev Cert.KernelIdeal.nD)
    (m' : (ℓ : Loc Cert.ReferenceIdeal.nD Cert.ReferenceIdeal.τ Cert.ReferenceIdeal.sig) → Buf (Elt Ideal) ℓ)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    {X : (Proc.devRef .tc Cert.ReferenceIdeal.main_v374 : DevRef Cert.ReferenceIdeal.τ Cert.ReferenceIdeal.sig).ty.Contents (Elt Ideal)}
    (hX : Cert.ReferenceIdeal.Value.val8 (launchContents m' c) (Proc.devRef .tc Cert.ReferenceIdeal.main_v374) = X) :
    X = Cert.KernelIdeal.GenP.W25 m ρ c (Proc.devRef .tc Cert.KernelIdeal.main_v423) :=
  hX.symm.trans ((final_val (agree_of m ρ c m' h)).symm.trans (congrFun (U25_eq m ρ c) _))

end Cert.Bridge

end
-- ==== Proof.lean ====
/-
  The kernel threads the user rows and the item rows of a LightGCN propagation as two arrays, and performs the two
  per-behaviour linear mixings (with the running-sum update) inside fused calls that merge consecutive row pairs into
  128-lane rows and multiply by a block-diagonal 128 x 128 weight; the reference keeps users over items in one array,
  takes it apart with slices, and mixes with plain 64 x 64 products. Over the extended reals the two agree: a change of
  float format is the identity, the zero blocks of the weight contribute `x * 0 = 0` for every extended real x, and a
  slice of a concatenation is the piece it cuts out. The frames are the (repaired copies of the) generated ones for the
  two kernel programs and the generated run for the reference; nothing was rewritten by the ideal pass, so the
  idealization claim is trivial; the equivalence is `Cert.Bridge.final_eq` between the two final buffers.
-/
import proofs.«403624_j12223476924780_3_alg».proof.Defs
import proofs.«403624_j12223476924780_3_alg».proof.Proof.Gen.Kernel
import proofs.«403624_j12223476924780_3_alg».proof.Proof.KernelFrameP
import proofs.«403624_j12223476924780_3_alg».proof.Proof.Gen.KernelIdeal
import proofs.«403624_j12223476924780_3_alg».proof.Proof.KernelIdealFrameP
import proofs.«403624_j12223476924780_3_alg».proof.Proof.KernelIdealRun
import proofs.«403624_j12223476924780_3_alg».proof.Proof.Gen.ReferenceIdeal
import proofs.«403624_j12223476924780_3_alg».proof.Proof.Gen.ReferenceIdeal.Run
import proofs.«403624_j12223476924780_3_alg».proof.Proof.Gen.Pre_finite_inputs
import proofs.«403624_j12223476924780_3_alg».proof.Proof.BridgeFinal
import Idealize.ShloMosaic.Adequacy
import Idealize.ShloMosaic.Init

noncomputable section

namespace Cert.Proof

open Idealize.ShloMosaic Idealize.SL.Sem

theorem frame_k : Cert.frame_Kernel := fun m ρ _ => Cert.Kernel.GenP.frame m ρ
theorem frame_ki : Cert.frame_KernelIdeal := fun m ρ _ => Cert.KernelIdeal.GenP.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs run; the kernel's result buffer ends at the last boundary's contents, the reference's at its composed
    term of the arguments, and the two are the same extended real when the memories agree on the arguments. -/
theorem algebraic : Cert.algebraic_KernelIdeal_ReferenceIdeal := by
  intro m ρ m' ρ' _ hagree
  refine ⟨fun c => Cert.KernelIdeal.GenP.W25 m ρ c (Proc.devRef .tc Cert.KernelIdeal.main_v423),
    Cert.KernelIdeal.GenP.run_main (F := Ideal) m ρ, ?_⟩
  refine (θ_run Cert.ReferenceIdeal.defs _ _).mono (fun _ h c => ⟨(h c).1.trans ?_, (h c).2⟩)
    (Cert.ReferenceIdeal.Value.run (F := Ideal) m' ρ')
  exact Cert.Bridge.final_eq m ρ c m' (hagree c) (Cert.ReferenceIdeal.Value.val8_main_v374 _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
